-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.truncf_extf.Statement Cert.KernelIdeal.S512x8 .f32 .bf16
  ∧ IdealRules.truncf_extf.Statement Cert.KernelIdeal.S512x8 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v65_0)) (v1 : (c : Dev Cert.KernelIdeal.nD) → Buf (Elt Ideal) ((c.tc : Thread Cert.KernelIdeal.nD Cert.KernelIdeal.τ).loc Cert.KernelIdeal.main_v65_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65_0) = v0 c
          ∧ r.2.mem ((c.tc : Thread Cert.KernelIdeal.nD Cert.KernelIdeal.τ).loc Cert.KernelIdeal.main_v65_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512 : Shape := ⟨2, ![32, 512]⟩
abbrev S512x512 : Shape := ⟨2, ![512, 512]⟩
abbrev S2x32x32768 : Shape := ⟨3, ![2, 32, 32768]⟩
abbrev S195x128 : Shape := ⟨2, ![195, 128]⟩
abbrev S128 : Shape := ⟨1, ![128]⟩
abbrev S195x64 : Shape := ⟨2, ![195, 64]⟩
abbrev S64 : Shape := ⟨1, ![64]⟩
abbrev S384x128 : Shape := ⟨2, ![384, 128]⟩
abbrev S384x64 : Shape := ⟨2, ![384, 64]⟩
abbrev S64x1 : Shape := ⟨2, ![64, 1]⟩
abbrev S1 : Shape := ⟨1, ![1]⟩
abbrev S_ : Shape := ⟨0, ![]⟩

class Facts : Prop where
  bcast_S_S32x512 : S_.BroadcastsInDim S32x512 (![] : Fin 0 → Fin S32x512.rank)
  reducesTo_S32x512_S_d0_1 : S32x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S2x32x32768 : S_.BroadcastsInDim S2x32x32768 (![] : Fin 0 → Fin S2x32x32768.rank)
  reducesTo_S2x32x32768_S_d0_1_2 : S2x32x32768.ReducesTo [0, 1, 2] S_
  bcast_S_S195x128 : S_.BroadcastsInDim S195x128 (![] : Fin 0 → Fin S195x128.rank)
  reducesTo_S195x128_S_d0_1 : S195x128.ReducesTo [0, 1] S_
  bcast_S_S128 : S_.BroadcastsInDim S128 (![] : Fin 0 → Fin S128.rank)
  reducesTo_S128_S_d0 : S128.ReducesTo [0] S_
  bcast_S_S195x64 : S_.BroadcastsInDim S195x64 (![] : Fin 0 → Fin S195x64.rank)
  reducesTo_S195x64_S_d0_1 : S195x64.ReducesTo [0, 1] S_
  bcast_S_S64 : S_.BroadcastsInDim S64 (![] : Fin 0 → Fin S64.rank)
  reducesTo_S64_S_d0 : S64.ReducesTo [0] S_
  bcast_S_S384x128 : S_.BroadcastsInDim S384x128 (![] : Fin 0 → Fin S384x128.rank)
  reducesTo_S384x128_S_d0_1 : S384x128.ReducesTo [0, 1] S_
  bcast_S_S384x64 : S_.BroadcastsInDim S384x64 (![] : Fin 0 → Fin S384x64.rank)
  reducesTo_S384x64_S_d0_1 : S384x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S64x1 .f32) (main_arg12 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg11
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S384x128 .f32) (main_arg8 : FVec F S128 .f32) (main_arg9 : FVec F S384x64 .f32) (main_arg10 : FVec F S64 .f32) (main_arg11 : FVec F S64x1 .f32) (main_arg12 : FVec F S1 .f32) (main_v33 : IVec S_ 1) : IVec S_ 1 :=
  let main_v34 : FVec F S384x128 .f32 := Host.absf main_arg7
  let main_cst_12 : FVec F S_ .f32 := constant S_ .f32 0x7F800000#32
  let main_v35 : FVec F S384x128 .f32 := broadcastInDim S384x128 ![] bcast_S_S384x128 main_cst_12
  let main_v36 : IVec S384x128 1 := cmpf .olt main_v34 main_v35
  let main_c_13 : IVec S_ 1 := constantI S_ 1 1#1
  let main_v37 : IVec S_ 1 := (fun x v => Host.reduce IntOp.andi x v reducesTo_S384x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S384x64 .f32 := Host.absf main_arg9
  let main_cst_16 : FVec F S_ .f32 := constant S_ .f32 0x7F800000#32
  let main_v45 : FVec F S384x64 .f32 := broadcastInDim S384x64 ![] bcast_S_S384x64 main_cst_16
  let main_v46 : IVec S384x64 1 := cmpf .olt main_v44 main_v45
  let main_c_17 : IVec S_ 1 := constantI S_ 1 1#1
  let main_v47 : IVec S_ 1 := (fun x v => Host.reduce IntOp.andi x v reducesTo_S384x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_v48 main_v49 main_v50

def fn_part1 {F : FTy → Type} [FloatOps F] (main_arg4 : FVec F S128 .f32) (main_arg5 : FVec F S195x64 .f32) (main_arg6 : FVec F S64 .f32) (main_arg7 : FVec F S384x128 .f32) (main_arg8 : FVec F S128 .f32) (main_arg9 : FVec F S384x64 .f32) (main_arg10 : FVec F S64 .f32) (main_arg11 : FVec F S64x1 .f32) (main_arg12 : FVec F S1 .f32) (main_v13 : IVec S_ 1) (main_v16 : IVec S195x128 1) : IVec S_ 1 :=
  let main_c_5 : IVec S_ 1 := constantI S_ 1 1#1
  let main_v17 : IVec S_ 1 := (fun x v => Host.reduce IntOp.andi x v reducesTo_S195x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S195x64 .f32 := Host.absf main_arg5
  let main_cst_8 : FVec F S_ .f32 := constant S_ .f32 0x7F800000#32
  let main_v25 : FVec F S195x64 .f32 := broadcastInDim S195x64 ![] bcast_S_S195x64 main_cst_8
  let main_v26 : IVec S195x64 1 := cmpf .olt main_v24 main_v25
  let main_c_9 : IVec S_ 1 := constantI S_ 1 1#1
  let main_v27 : IVec S_ 1 := (fun x v => Host.reduce IntOp.andi x v reducesTo_S195x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S32x512 .f32) (main_arg1 : FVec F S512x512 .f32) (main_arg2 : FVec F S2x32x32768 .f32) (main_arg3 : FVec F S195x128 .f32) (main_arg4 : FVec F S128 .f32) (main_arg5 : FVec F S195x64 .f32) (main_arg6 : FVec F S64 .f32) (main_arg7 : FVec F S384x128 .f32) (main_arg8 : FVec F S128 .f32) (main_arg9 : FVec F S384x64 .f32) (main_arg10 : FVec F S64 .f32) (main_arg11 : FVec F S64x1 .f32) (main_arg12 : FVec F S1 .f32) : IVec S_ 1 :=
  let main_v0 : FVec F S32x512 .f32 := Host.absf main_arg0
  let main_cst : FVec F S_ .f32 := constant S_ .f32 0x7F800000#32
  let main_v1 : FVec F S32x512 .f32 := broadcastInDim S32x512 ![] bcast_S_S32x512 main_cst
  let main_v2 : IVec S32x512 1 := cmpf .olt main_v0 main_v1
  let main_c : IVec S_ 1 := constantI S_ 1 1#1
  let main_v3 : IVec S_ 1 := (fun x v => Host.reduce IntOp.andi x v reducesTo_S32x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S2x32x32768 .f32 := Host.absf main_arg2
  let main_cst_2 : FVec F S_ .f32 := constant S_ .f32 0x7F800000#32
  let main_v10 : FVec F S2x32x32768 .f32 := broadcastInDim S2x32x32768 ![] bcast_S_S2x32x32768 main_cst_2
  let main_v11 : IVec S2x32x32768 1 := cmpf .olt main_v9 main_v10
  let main_c_3 : IVec S_ 1 := constantI S_ 1 1#1
  let main_v12 : IVec S_ 1 := (fun x v => Host.reduce IntOp.andi x v reducesTo_S2x32x32768_S_d0_1_2 h_S_) main_v11 main_c_3
  let main_v13 : IVec S_ 1 := andi main_v8 main_v12
  let main_v14 : FVec F S195x128 .f32 := Host.absf main_arg3
  let main_cst_4 : FVec F S_ .f32 := constant S_ .f32 0x7F800000#32
  let main_v15 : FVec F S195x128 .f32 := broadcastInDim S195x128 ![] bcast_S_S195x128 main_cst_4
  let main_v16 : IVec S195x128 1 := cmpf .olt main_v14 main_v15
  fn_part1 (F := F) main_arg4 main_arg5 main_arg6 main_arg7 main_arg8 main_arg9 main_arg10 main_arg11 main_arg12 main_v13 main_v16
-- ==== Kernel.lean ====
abbrev S32x512 : Shape := ⟨2, ![32, 512]⟩
abbrev S512x512 : Shape := ⟨2, ![512, 512]⟩
abbrev S2x32x32768 : Shape := ⟨3, ![2, 32, 32768]⟩
abbrev S195x128 : Shape := ⟨2, ![195, 128]⟩
abbrev S128 : Shape := ⟨1, ![128]⟩
abbrev S195x64 : Shape := ⟨2, ![195, 64]⟩
abbrev S64 : Shape := ⟨1, ![64]⟩
abbrev S384x128 : Shape := ⟨2, ![384, 128]⟩
abbrev S384x64 : Shape := ⟨2, ![384, 64]⟩
abbrev S64x1 : Shape := ⟨2, ![64, 1]⟩
abbrev S1 : Shape := ⟨1, ![1]⟩
abbrev S65x3x128 : Shape := ⟨3, ![65, 3, 128]⟩
abbrev S1x3x128 : Shape := ⟨3, ![1, 3, 128]⟩
abbrev S3x1x128 : Shape := ⟨3, ![3, 1, 128]⟩
abbrev S64x3x128 : Shape := ⟨3, ![64, 3, 128]⟩
abbrev S3x64x128 : Shape := ⟨3, ![3, 64, 128]⟩
abbrev S65x3x64 : Shape := ⟨3, ![65, 3, 64]⟩
abbrev S1x3x64 : Shape := ⟨3, ![1, 3, 64]⟩
abbrev S3x1x64 : Shape := ⟨3, ![3, 1, 64]⟩
abbrev S64x3x64 : Shape := ⟨3, ![64, 3, 64]⟩
abbrev S3x64x64 : Shape := ⟨3, ![3, 64, 64]⟩
abbrev S128x3x128 : Shape := ⟨3, ![128, 3, 128]⟩
abbrev S128x3x64 : Shape := ⟨3, ![128, 3, 64]⟩
abbrev S1x64x128 : Shape := ⟨3, ![1, 64, 128]⟩
abbrev S64x128 : Shape := ⟨2, ![64, 128]⟩
abbrev S192x128 : Shape := ⟨2, ![192, 128]⟩
abbrev S1x64x64 : Shape := ⟨3, ![1, 64, 64]⟩
abbrev S64x64 : Shape := ⟨2, ![64, 64]⟩
abbrev S192x64 : Shape := ⟨2, ![192, 64]⟩
abbrev S1x64 : Shape := ⟨2, ![1, 64]⟩
abbrev S8x512 : Shape := ⟨2, ![8, 512]⟩
abbrev S2x8x32768 : Shape := ⟨3, ![2, 8, 32768]⟩
abbrev S1x8x32768 : Shape := ⟨3, ![1, 8, 32768]⟩
abbrev S8x32768 : Shape := ⟨2, ![8, 32768]⟩
abbrev S8x512x64 : Shape := ⟨3, ![8, 512, 64]⟩
abbrev S512x8x64 : Shape := ⟨3, ![512, 8, 64]⟩
abbrev S4096x64 : Shape := ⟨2, ![4096, 64]⟩
abbrev S512x8 : Shape := ⟨2, ![512, 8]⟩
abbrev S512x8x1 : Shape := ⟨3, ![512, 8, 1]⟩
abbrev S512x8x192 : Shape := ⟨3, ![512, 8, 192]⟩
abbrev S4096x192 : Shape := ⟨2, ![4096, 192]⟩
abbrev S4096x128 : Shape := ⟨2, ![4096, 128]⟩
abbrev S512x8x128 : Shape := ⟨3, ![512, 8, 128]⟩
abbrev S1x1x128 : Shape := ⟨3, ![1, 1, 128]⟩
abbrev S1x1x64 : Shape := ⟨3, ![1, 1, 64]⟩
abbrev S512x8x384 : Shape := ⟨3, ![512, 8, 384]⟩
abbrev S4096x384 : Shape := ⟨2, ![4096, 384]⟩
abbrev S1x128 : Shape := ⟨2, ![1, 128]⟩

abbrev nBuf : Space → Nat
  | .hbm => 80
  | .vmem => 21
  | .smem => 0
  | _ => 0

abbrev bufTy : (tb : Table) → Fin (tcTables nBuf tb) → BufTy
  | .hbm, ⟨0, _⟩ => ⟨S32x512, .f32⟩
  | .hbm, ⟨1, _⟩ => ⟨S512x512, .f32⟩
  | .hbm, ⟨2, _⟩ => ⟨S2x32x32768, .f32⟩
  | .hbm, ⟨3, _⟩ => ⟨S195x128, .f32⟩
  | .hbm, ⟨4, _⟩ => ⟨S128, .f32⟩
  | .hbm, ⟨5, _⟩ => ⟨S195x64, .f32⟩
  | .hbm, ⟨6, _⟩ => ⟨S64, .f32⟩
  | .hbm, ⟨7, _⟩ => ⟨S384x128, .f32⟩
  | .hbm, ⟨8, _⟩ => ⟨S128, .f32⟩
  | .hbm, ⟨9, _⟩ => ⟨S384x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S65x3x128, .f32⟩
  | .hbm, ⟨14, _⟩ => ⟨S65x3x128, .bf16⟩
  | .hbm, ⟨15, _⟩ => ⟨S1x3x128, .bf16⟩
  | .hbm, ⟨16, _⟩ => ⟨S3x1x128, .bf16⟩
  | .hbm, ⟨17, _⟩ => ⟨S64x3x128, .bf16⟩
  | .hbm, ⟨18, _⟩ => ⟨S3x64x128, .bf16⟩
  | .hbm, ⟨19, _⟩ => ⟨S65x3x64, .f32⟩
  | .hbm, ⟨20, _⟩ => ⟨S65x3x64, .bf16⟩
  | .hbm, ⟨21, _⟩ => ⟨S1x3x64, .bf16⟩
  | .hbm, ⟨22, _⟩ => ⟨S3x1x64, .bf16⟩
  | .hbm, ⟨23, _⟩ => ⟨S64x3x64, .bf16⟩
  | .hbm, ⟨24, _⟩ => ⟨S3x64x64, .bf16⟩
  | .hbm, ⟨25, _⟩ => ⟨S128x3x128, .f32⟩
  | .hbm, ⟨26, _⟩ => ⟨S128x3x128, .bf16⟩
  | .hbm, ⟨27, _⟩ => ⟨S64x3x128, .bf16⟩
  | .hbm, ⟨28, _⟩ => ⟨S3x64x128, .bf16⟩
  | .hbm, ⟨29, _⟩ => ⟨S64x3x128, .bf16⟩
  | .hbm, ⟨30, _⟩ => ⟨S3x64x128, .bf16⟩
  | .hbm, ⟨31, _⟩ => ⟨S128x3x64, .f32⟩
  | .hbm, ⟨32, _⟩ => ⟨S128x3x64, .bf16⟩
  | .hbm, ⟨33, _⟩ => ⟨S64x3x64, .bf16⟩
  | .hbm, ⟨34, _⟩ => ⟨S3x64x64, .bf16⟩
  | .hbm, ⟨35, _⟩ => ⟨S64x3x64, .bf16⟩
  | .hbm, ⟨36, _⟩ => ⟨S3x64x64, .bf16⟩
  | .hbm, ⟨37, _⟩ => ⟨S1x64x128, .bf16⟩
  | .hbm, ⟨38, _⟩ => ⟨S64x128, .bf16⟩
  | .hbm, ⟨39, _⟩ => ⟨S1x64x128, .bf16⟩
  | .hbm, ⟨40, _⟩ => ⟨S64x128, .bf16⟩
  | .hbm, ⟨41, _⟩ => ⟨S1x64x128, .bf16⟩
  | .hbm, ⟨42, _⟩ => ⟨S64x128, .bf16⟩
  | .hbm, ⟨43, _⟩ => ⟨S192x128, .bf16⟩
  | .hbm, ⟨44, _⟩ => ⟨S1x64x64, .bf16⟩
  | .hbm, ⟨45, _⟩ => ⟨S64x64, .bf16⟩
  | .hbm, ⟨46, _⟩ => ⟨S1x64x64, .bf16⟩
  | .hbm, ⟨47, _⟩ => ⟨S64x64, .bf16⟩
  | .hbm, ⟨48, _⟩ => ⟨S1x64x64, .bf16⟩
  | .hbm, ⟨49, _⟩ => ⟨S64x64, .bf16⟩
  | .hbm, ⟨50, _⟩ => ⟨S192x64, .bf16⟩
  | .hbm, ⟨51, _⟩ => ⟨S1x64x128, .bf16⟩
  | .hbm, ⟨52, _⟩ => ⟨S64x128, .bf16⟩
  | .hbm, ⟨53, _⟩ => ⟨S1x64x128, .bf16⟩
  | .hbm, ⟨54, _⟩ => ⟨S64x128, .bf16⟩
  | .hbm, ⟨55, _⟩ => ⟨S1x64x128, .bf16⟩
  | .hbm, ⟨56, _⟩ => ⟨S64x128, .bf16⟩
  | .hbm, ⟨57, _⟩ => ⟨S1x64x128, .bf16⟩
  | .hbm, ⟨58, _⟩ => ⟨S64x128, .bf16⟩
  | .hbm, ⟨59, _⟩ => ⟨S1x64x128, .bf16⟩
  | .hbm, ⟨60, _⟩ => ⟨S64x128, .bf16⟩
  | .hbm, ⟨61, _⟩ => ⟨S1x64x128, .bf16⟩
  | .hbm, ⟨62, _⟩ => ⟨S64x128, .bf16⟩
  | .hbm, ⟨63, _⟩ => ⟨S384x128, .bf16⟩
  | .hbm, ⟨64, _⟩ => ⟨S1x64x64, .bf16⟩
  | .hbm, ⟨65, _⟩ => ⟨S64x64, .bf16⟩
  | .hbm, ⟨66, _⟩ => ⟨S1x64x64, .bf16⟩
  | .hbm, ⟨67, _⟩ => ⟨S64x64, .bf16⟩
  | .hbm, ⟨68, _⟩ => ⟨S1x64x64, .bf16⟩
  | .hbm, ⟨69, _⟩ => ⟨S64x64, .bf16⟩
  | .hbm, ⟨70, _⟩ => ⟨S1x64x64, .bf16⟩
  | .hbm, ⟨71, _⟩ => ⟨S64x64, .bf16⟩
  | .hbm, ⟨72, _⟩ => ⟨S1x64x64, .bf16⟩
  | .hbm, ⟨73, _⟩ => ⟨S64x64, .bf16⟩
  | .hbm, ⟨74, _⟩ => ⟨S1x64x64, .bf16⟩
  | .hbm, ⟨75, _⟩ => ⟨S64x64, .bf16⟩
  | .hbm, ⟨76, _⟩ => ⟨S384x64, .bf16⟩
  | .hbm, ⟨77, _⟩ => ⟨S1x64, .f32⟩
  | .hbm, ⟨78, _⟩ => ⟨S32x512, .f32⟩
  | .hbm, ⟨79, _⟩ => ⟨S2x32x32768, .f32⟩
  | .local _ .vmem, ⟨0, _⟩ => ⟨S8x512, .f32⟩
  | .local _ .vmem, ⟨1, _⟩ => ⟨S8x512, .f32⟩
  | .local _ .vmem, ⟨2, _⟩ => ⟨S512x512, .f32⟩
  | .local _ .vmem, ⟨3, _⟩ => ⟨S2x8x32768, .f32⟩
  | .local _ .vmem, ⟨4, _⟩ => ⟨S2x8x32768, .f32⟩
  | .local _ .vmem, ⟨5, _⟩ => ⟨S3x1x128, .bf16⟩
  | .local _ .vmem, ⟨6, _⟩ => ⟨S192x128, .bf16⟩
  | .local _ .vmem, ⟨7, _⟩ => ⟨S3x1x64, .bf16⟩
  | .local _ .vmem, ⟨8, _⟩ => ⟨S192x64, .bf16⟩
  | .local _ .vmem, ⟨9, _⟩ => ⟨S128, .f32⟩
  | .local _ .vmem, ⟨10, _⟩ => ⟨S64, .f32⟩
  | .local _ .vmem, ⟨11, _⟩ => ⟨S384x128, .bf16⟩
  | .local _ .vmem, ⟨12, _⟩ => ⟨S384x64, .bf16⟩
  | .local _ .vmem, ⟨13, _⟩ => ⟨S128, .f32⟩
  | .local _ .vmem, ⟨14, _⟩ => ⟨S64, .f32⟩
  | .local _ .vmem, ⟨15, _⟩ => ⟨S1x64, .f32⟩
  | .local _ .vmem, ⟨16, _⟩ => ⟨S1, .f32⟩
  | .local _ .vmem, ⟨17, _⟩ => ⟨S8x512, .f32⟩
  | .local _ .vmem, ⟨18, _⟩ => ⟨S8x512, .f32⟩
  | .local _ .vmem, ⟨19, _⟩ => ⟨S2x8x32768, .f32⟩
  | .local _ .vmem, ⟨20, _⟩ => ⟨S2x8x32768, .f32⟩
  | _, _ => ⟨S32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65_0 : Ref sig .tc := ⟨.hbm, 78, rfl⟩
abbrev main_v65_1 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18
abbrev cc0_sem16_0 : DmaSem sig := 19
abbrev cc0_sem16_1 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x8x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x1x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S192x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S192x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S384x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S384x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S8x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x8x32768 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  shapeCasts_S195x128_S65x3x128 : S195x128.ShapeCasts S65x3x128
  bitsLt_bf16_f32 : FTy.bits .bf16 < FTy.bits .f32
  slices_S65x3x128_S1x3x128_0_0_0 : S65x3x128.Slices ![0, 0, 0] S1x3x128
  transposes_S1x3x128_S3x1x128_1_0_2 : S1x3x128.Transposes [1, 0, 2] S3x1x128
  slices_S65x3x128_S64x3x128_1_0_0 : S65x3x128.Slices ![1, 0, 0] S64x3x128
  transposes_S64x3x128_S3x64x128_1_0_2 : S64x3x128.Transposes [1, 0, 2] S3x64x128
  shapeCasts_S195x64_S65x3x64 : S195x64.ShapeCasts S65x3x64
  slices_S65x3x64_S1x3x64_0_0_0 : S65x3x64.Slices ![0, 0, 0] S1x3x64
  transposes_S1x3x64_S3x1x64_1_0_2 : S1x3x64.Transposes [1, 0, 2] S3x1x64
  slices_S65x3x64_S64x3x64_1_0_0 : S65x3x64.Slices ![1, 0, 0] S64x3x64
  transposes_S64x3x64_S3x64x64_1_0_2 : S64x3x64.Transposes [1, 0, 2] S3x64x64
  shapeCasts_S384x128_S128x3x128 : S384x128.ShapeCasts S128x3x128
  slices_S128x3x128_S64x3x128_0_0_0 : S128x3x128.Slices ![0, 0, 0] S64x3x128
  slices_S128x3x128_S64x3x128_64_0_0 : S128x3x128.Slices ![64, 0, 0] S64x3x128
  shapeCasts_S384x64_S128x3x64 : S384x64.ShapeCasts S128x3x64
  slices_S128x3x64_S64x3x64_0_0_0 : S128x3x64.Slices ![0, 0, 0] S64x3x64
  slices_S128x3x64_S64x3x64_64_0_0 : S128x3x64.Slices ![64, 0, 0] S64x3x64
  slices_S3x64x128_S1x64x128_0_0_0 : S3x64x128.Slices ![0, 0, 0] S1x64x128
  shapeCasts_S1x64x128_S64x128 : S1x64x128.ShapeCasts S64x128
  slices_S3x64x128_S1x64x128_1_0_0 : S3x64x128.Slices ![1, 0, 0] S1x64x128
  slices_S3x64x128_S1x64x128_2_0_0 : S3x64x128.Slices ![2, 0, 0] S1x64x128
  concatenates_S64x128_S64x128_S64x128_S192x128_d0 : Shape.Concatenates [S64x128, S64x128, S64x128] S192x128 0
  slices_S3x64x64_S1x64x64_0_0_0 : S3x64x64.Slices ![0, 0, 0] S1x64x64
  shapeCasts_S1x64x64_S64x64 : S1x64x64.ShapeCasts S64x64
  slices_S3x64x64_S1x64x64_1_0_0 : S3x64x64.Slices ![1, 0, 0] S1x64x64
  slices_S3x64x64_S1x64x64_2_0_0 : S3x64x64.Slices ![2, 0, 0] S1x64x64
  concatenates_S64x64_S64x64_S64x64_S192x64_d0 : Shape.Concatenates [S64x64, S64x64, S64x64] S192x64 0
  concatenates_S64x128_S64x128_S64x128_S64x128_S64x128_S64x128_S384x128_d0 : Shape.Concatenates [S64x128, S64x128, S64x128, S64x128, S64x128, S64x128] S384x128 0
  concatenates_S64x64_S64x64_S64x64_S64x64_S64x64_S64x64_S384x64_d0 : Shape.Concatenates [S64x64, S64x64, S64x64, S64x64, S64x64, S64x64] S384x64 0
  transposes_S64x1_S1x64_1_0 : S64x1.Transposes [1, 0] S1x64
  inb_S512x512_S512x512_0_0 : ∀ a, (![0, 0] : Fin 2 → Nat) a + S512x512.size a ≤ S512x512.size a
  h_S512x512 : 0 < S512x512.numel
  inb_S2x8x32768_S1x8x32768_0_0_0 : ∀ a, (![0, 0, 0] : Fin 3 → Nat) a + S1x8x32768.size a ≤ S2x8x32768.size a
  h_S1x8x32768 : 0 < S1x8x32768.numel
  shapeCasts_S1x8x32768_S8x32768 : S1x8x32768.ShapeCasts S8x32768
  shapeCasts_S8x32768_S8x512x64 : S8x32768.ShapeCasts S8x512x64
  transposes_S8x512x64_p1_0_2_S512x8x64 : S8x512x64.Transposes [1, 0, 2] S512x8x64
  shapeCasts_S512x8x64_S4096x64 : S512x8x64.ShapeCasts S4096x64
  inb_S8x512_S8x512_0_0 : ∀ a, (![0, 0] : Fin 2 → Nat) a + S8x512.size a ≤ S8x512.size a
  h_S8x512 : 0 < S8x512.numel
  transposes_S8x512_p1_0_S512x8 : S8x512.Transposes [1, 0] S512x8
  shapeCasts_S512x8_S512x8x1 : S512x8.ShapeCasts S512x8x1
  inb_S3x1x128_S3x1x128_0_0_0 : ∀ a, (![0, 0, 0] : Fin 3 → Nat) a + S3x1x128.size a ≤ S3x1x128.size a
  h_S3x1x128 : 0 < S3x1x128.numel
  shapeCasts_S3x1x128_S3x1x128 : S3x1x128.ShapeCasts S3x1x128
  inb_S192x128_S192x128_0_0 : ∀ a, (![0, 0] : Fin 2 → Nat) a + S192x128.size a ≤ S192x128.size a
  h_S192x128 : 0 < S192x128.numel
  shapeCasts_S192x128_S192x128 : S192x128.ShapeCasts S192x128
  inb_S128_S128_0 : ∀ a, (![0] : Fin 1 → Nat) a + S128.size a ≤ S128.size a
  h_S128 : 0 < S128.numel
  shapeCasts_S4096x64_S512x8x64 : S4096x64.ShapeCasts S512x8x64
  shapeCasts_S512x8x64_S512x512 : S512x8x64.ShapeCasts S512x512
  shapeCasts_S512x512_S512x8x64 : S512x512.ShapeCasts S512x8x64
  concatenates_S512x8x64_S512x8x64_S512x8x64_S512x8x192_d2 : Shape.Concatenates [S512x8x64, S512x8x64, S512x8x64] S512x8x192 2
  shapeCasts_S512x8x192_S4096x192 : S512x8x192.ShapeCasts S4096x192
  shapeCasts_S4096x128_S512x8x128 : S4096x128.ShapeCasts S512x8x128
  shapeCasts_S128_S1x1x128 : S128.ShapeCasts S1x1x128
  broadcasts_S1x1x128_S512x8x128 : S1x1x128.Broadcasts S512x8x128
  slices_S3x1x128_o0_0_0_S1x1x128 : S3x1x128.Slices ![0, 0, 0] S1x1x128
  shapeCasts_S1x1x128_S128 : S1x1x128.ShapeCasts S128
  broadcasts_S512x8x1_S512x8x128 : S512x8x1.Broadcasts S512x8x128
  slices_S3x1x128_o1_0_0_S1x1x128 : S3x1x128.Slices ![1, 0, 0] S1x1x128
  slices_S3x1x128_o2_0_0_S1x1x128 : S3x1x128.Slices ![2, 0, 0] S1x1x128
  shapeCasts_S512x8x128_S4096x128 : S512x8x128.ShapeCasts S4096x128
  slices_S4096x128_o0_0_S4096x64 : S4096x128.Slices ![0, 0] S4096x64
  slices_S4096x128_o0_64_S4096x64 : S4096x128.Slices ![0, 64] S4096x64
  inb_S3x1x64_S3x1x64_0_0_0 : ∀ a, (![0, 0, 0] : Fin 3 → Nat) a + S3x1x64.size a ≤ S3x1x64.size a
  h_S3x1x64 : 0 < S3x1x64.numel
  shapeCasts_S3x1x64_S3x1x64 : S3x1x64.ShapeCasts S3x1x64
  inb_S192x64_S192x64_0_0 : ∀ a, (![0, 0] : Fin 2 → Nat) a + S192x64.size a ≤ S192x64.size a
  h_S192x64 : 0 < S192x64.numel
  shapeCasts_S192x64_S192x64 : S192x64.ShapeCasts S192x64
  inb_S64_S64_0 : ∀ a, (![0] : Fin 1 → Nat) a + S64.size a ≤ S64.size a
  h_S64 : 0 < S64.numel
  shapeCasts_S64_S1x1x64 : S64.ShapeCasts S1x1x64
  broadcasts_S1x1x64_S512x8x64 : S1x1x64.Broadcasts S512x8x64
  slices_S3x1x64_o0_0_0_S1x1x64 : S3x1x64.Slices ![0, 0, 0] S1x1x64
  shapeCasts_S1x1x64_S64 : S1x1x64.ShapeCasts S64
  broadcasts_S512x8x1_S512x8x64 : S512x8x1.Broadcasts S512x8x64
  slices_S3x1x64_o1_0_0_S1x1x64 : S3x1x64.Slices ![1, 0, 0] S1x1x64
  slices_S3x1x64_o2_0_0_S1x1x64 : S3x1x64.Slices ![2, 0, 0] S1x1x64
  inb_S2x8x32768_S1x8x32768_1_0_0 : ∀ a, (![1, 0, 0] : Fin 3 → Nat) a + S1x8x32768.size a ≤ S2x8x32768.size a
  inb_S384x128_S384x128_0_0 : ∀ a, (![0, 0] : Fin 2 → Nat) a + S384x128.size a ≤ S384x128.size a
  h_S384x128 : 0 < S384x128.numel
  shapeCasts_S384x128_S384x128 : S384x128.ShapeCasts S384x128
  concatenates_S512x8x64_S512x8x64_S512x8x64_S512x8x64_S512x8x64_S512x8x64_S512x8x384_d2 : Shape.Concatenates [S512x8x64, S512x8x64, S512x8x64, S512x8x64, S512x8x64, S512x8x64] S512x8x384 2
  shapeCasts_S512x8x384_S4096x384 : S512x8x384.ShapeCasts S4096x384
  shapeCasts_S128_S1x128 : S128.ShapeCasts S1x128
  broadcasts_S1x128_S4096x128 : S1x128.Broadcasts S4096x128
  inb_S384x64_S384x64_0_0 : ∀ a, (![0, 0] : Fin 2 → Nat) a + S384x64.size a ≤ S384x64.size a
  h_S384x64 : 0 < S384x64.numel
  shapeCasts_S384x64_S384x64 : S384x64.ShapeCasts S384x64
  shapeCasts_S64_S1x64 : S64.ShapeCasts S1x64
  broadcasts_S1x64_S4096x64 : S1x64.Broadcasts S4096x64
  transposes_S512x8x64_p1_0_2_S8x512x64 : S512x8x64.Transposes [1, 0, 2] S8x512x64
  shapeCasts_S8x512x64_S8x32768 : S8x512x64.ShapeCasts S8x32768
  shapeCasts_S8x32768_S1x8x32768 : S8x32768.ShapeCasts S1x8x32768
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x64_S1x1x64 : S1x64.ShapeCasts S1x1x64
  reduces_S512x8x64_S512x8 : S512x8x64.Reduces [2] S512x8
  inb_S1_S1_0 : ∀ a, (![0] : Fin 1 → Nat) a + S1.size a ≤ S1.size a
  h_S1 : 0 < S1.numel
  inpos_S1_p0 : ∀ a, (![0] : Fin 1 → Nat) a < S1.size a
  transposes_S512x8_p1_0_S8x512 : S512x8.Transposes [1, 0] S8x512
  dot_S512x512_S512x8_S512x8_1_0_0_1_n_n_wf : DotDims.WF S512x512 S512x8 S512x8 [1] [0] [0] [1] [] []
  dot_S512x512_S512x512_S512x512_1_0_0_1_n_n_wf : DotDims.WF S512x512 S512x512 S512x512 [1] [0] [0] [1] [] []
  dot_S4096x192_S192x128_S4096x128_1_0_0_1_n_n_wf : DotDims.WF S4096x192 S192x128 S4096x128 [1] [0] [0] [1] [] []
  dot_S4096x192_S192x64_S4096x64_1_0_0_1_n_n_wf : DotDims.WF S4096x192 S192x64 S4096x64 [1] [0] [0] [1] [] []
  dot_S4096x384_S384x128_S4096x128_1_0_0_1_n_n_wf : DotDims.WF S4096x384 S384x128 S4096x128 [1] [0] [0] [1] [] []
  dot_S4096x384_S384x64_S4096x64_1_0_0_1_n_n_wf : DotDims.WF S4096x384 S384x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512.size a ≤ S32x512.size a
  hwx0_0 : ∀ i : grid0.Coords, EltTy.bits .f32 = 32 ∨ (Rect.block (s := S32x512) S8x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x8x32768.size a ≤ S2x32x32768.size a
  hwx0_2 : ∀ i : grid0.Coords, EltTy.bits .f32 = 32 ∨ (Rect.block (s := S2x32x32768) S2x8x32768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x1x128.size a ≤ S3x1x128.size a
  hwx0_3 : ∀ i : grid0.Coords, EltTy.bits .bf16 = 32 ∨ (Rect.block (s := S3x1x128) S3x1x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S192x128.size a ≤ S192x128.size a
  hwx0_4 : ∀ i : grid0.Coords, EltTy.bits .bf16 = 32 ∨ (Rect.block (s := S192x128) S192x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x1x64.size a ≤ S3x1x64.size a
  hwx0_5 : ∀ i : grid0.Coords, EltTy.bits .bf16 = 32 ∨ (Rect.block (s := S3x1x64) S3x1x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S192x64.size a ≤ S192x64.size a
  hwx0_6 : ∀ i : grid0.Coords, EltTy.bits .bf16 = 32 ∨ (Rect.block (s := S192x64) S192x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S384x128.size a ≤ S384x128.size a
  hwx0_9 : ∀ i : grid0.Coords, EltTy.bits .bf16 = 32 ∨ (Rect.block (s := S384x128) S384x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S384x64.size a ≤ S384x64.size a
  hwx0_10 : ∀ i : grid0.Coords, EltTy.bits .bf16 = 32 ∨ (Rect.block (s := S384x64) S384x64.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64.size a ≤ S64.size a
  hwx0_12 : ∀ i : grid0.Coords, EltTy.bits .f32 = 32 ∨ (Rect.block (s := S64) S64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1.size a ≤ S1.size a
  hwx0_14 : ∀ i : grid0.Coords, EltTy.bits .f32 = 32 ∨ (Rect.block (s := S1) S1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S8x512.size a ≤ S32x512.size a
  hwx0_15 : ∀ i : grid0.Coords, EltTy.bits .f32 = 32 ∨ (Rect.block (s := S32x512) S8x512.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S2x8x32768.size a ≤ S2x32x32768.size a
  hwx0_16 : ∀ i : grid0.Coords, EltTy.bits .f32 = 32 ∨ (Rect.block (s := S2x32x32768) S2x8x32768.size (cc0_transform_16 i) (hinb0_16 i)).WholeWords (EltTy.packing .f32)

variable [Facts₀]

def dot_S512x512_S512x8_S512x8_1_0_0_1_n_n : DotDims S512x512 S512x8 S512x8 where
  lhsContracting := [1]
  rhsContracting := [0]
  lhsNonContracting := [0]
  rhsNonContracting := [1]
  lhsBatch := []
  rhsBatch := []
  wf := dot_S512x512_S512x8_S512x8_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S4096x192_S192x128_S4096x128_1_0_0_1_n_n : DotDims S4096x192 S192x128 S4096x128 where
  lhsContracting := [1]
  rhsContracting := [0]
  lhsNonContracting := [0]
  rhsNonContracting := [1]
  lhsBatch := []
  rhsBatch := []
  wf := dot_S4096x192_S192x128_S4096x128_1_0_0_1_n_n_wf
def dot_S4096x192_S192x64_S4096x64_1_0_0_1_n_n : DotDims S4096x192 S192x64 S4096x64 where
  lhsContracting := [1]
  rhsContracting := [0]
  lhsNonContracting := [0]
  rhsNonContracting := [1]
  lhsBatch := []
  rhsBatch := []
  wf := dot_S4096x192_S192x64_S4096x64_1_0_0_1_n_n_wf
def dot_S4096x384_S384x128_S4096x128_1_0_0_1_n_n : DotDims S4096x384 S384x128 S4096x128 where
  lhsContracting := [1]
  rhsContracting := [0]
  lhsNonContracting := [0]
  rhsNonContracting := [1]
  lhsBatch := []
  rhsBatch := []
  wf := dot_S4096x384_S384x128_S4096x128_1_0_0_1_n_n_wf
def dot_S4096x384_S384x64_S4096x64_1_0_0_1_n_n : DotDims S4096x384 S384x64 S4096x64 where
  lhsContracting := [1]
  rhsContracting := [0]
  lhsNonContracting := [0]
  rhsNonContracting := [1]
  lhsBatch := []
  rhsBatch := []
  wf := dot_S4096x384_S384x64_S4096x64_1_0_0_1_n_n_wf

abbrev win0_0 : Pipeline.Window sig grid0 :=
  Pipeline.Window.ofSpec (Memref.whole main_arg0) S8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x8x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S3x1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S192x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S3x1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v37) S192x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v50) S384x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v63) S384x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg8) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg10) S64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v64) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg12) S1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v65_0) S8x512.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v65_1) S2x8x32768.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S32x512 : Shape := ⟨2, ![32, 512]⟩
abbrev S512x512 : Shape := ⟨2, ![512, 512]⟩
abbrev S2x32x32768 : Shape := ⟨3, ![2, 32, 32768]⟩
abbrev S195x128 : Shape := ⟨2, ![195, 128]⟩
abbrev S128 : Shape := ⟨1, ![128]⟩
abbrev S195x64 : Shape := ⟨2, ![195, 64]⟩
abbrev S64 : Shape := ⟨1, ![64]⟩
abbrev S384x128 : Shape := ⟨2, ![384, 128]⟩
abbrev S384x64 : Shape := ⟨2, ![384, 64]⟩
abbrev S64x1 : Shape := ⟨2, ![64, 1]⟩
abbrev S1 : Shape := ⟨1, ![1]⟩
abbrev S1x32x32768 : Shape := ⟨3, ![1, 32, 32768]⟩
abbrev S32x32768 : Shape := ⟨2, ![32, 32768]⟩
abbrev S32x512x1 : Shape := ⟨3, ![32, 512, 1]⟩
abbrev S32x512x64 : Shape := ⟨3, ![32, 512, 64]⟩
abbrev S32x512x65 : Shape := ⟨3, ![32, 512, 65]⟩
abbrev S512x65x32 : Shape := ⟨3, ![512, 65, 32]⟩
abbrev S512x2080 : Shape := ⟨2, ![512, 2080]⟩
abbrev S_ : Shape := ⟨0, ![]⟩
abbrev S1x512x2080 : Shape := ⟨3, ![1, 512, 2080]⟩
abbrev S3x512x2080 : Shape := ⟨3, ![3, 512, 2080]⟩
abbrev S3x512x65x32 : Shape := ⟨4, ![3, 512, 65, 32]⟩
abbrev S32x512x65x3 : Shape := ⟨4, ![32, 512, 65, 3]⟩
abbrev S16384x195 : Shape := ⟨2, ![16384, 195]⟩
abbrev S16384x128 : Shape := ⟨2, ![16384, 128]⟩
abbrev S1x128 : Shape := ⟨2, ![1, 128]⟩
abbrev S32x65536 : Shape := ⟨2, ![32, 65536]⟩
abbrev S32x512x128 : Shape := ⟨3, ![32, 512, 128]⟩
abbrev S16384x64 : Shape := ⟨2, ![16384, 64]⟩
abbrev S1x64 : Shape := ⟨2, ![1, 64]⟩
abbrev S512x128x32 : Shape := ⟨3, ![512, 128, 32]⟩
abbrev S512x4096 : Shape := ⟨2, ![512, 4096]⟩
abbrev S1x512x4096 : Shape := ⟨3, ![1, 512, 4096]⟩
abbrev S3x512x4096 : Shape := ⟨3, ![3, 512, 4096]⟩
abbrev S3x512x128x32 : Shape := ⟨4, ![3, 512, 128, 32]⟩
abbrev S32x512x128x3 : Shape := ⟨4, ![32, 512, 128, 3]⟩
abbrev S16384x384 : Shape := ⟨2, ![16384, 384]⟩
abbrev S16384x1 : Shape := ⟨2, ![16384, 1]⟩
abbrev S1x1 : Shape := ⟨2, ![1, 1]⟩

abbrev nBuf : Space → Nat
  | .hbm => 160
  | .vmem => 0
  | .smem => 0
  | _ => 0

abbrev hbmTy0_0 (i : Nat) : BufTy := match i % 128 with
  | 0 => ⟨S32x512, .f32⟩
  | 1 => ⟨S512x512, .f32⟩
  | 2 => ⟨S2x32x32768, .f32⟩
  | 3 => ⟨S195x128, .f32⟩
  | 4 => ⟨S128, .f32⟩
  | 5 => ⟨S195x64, .f32⟩
  | 6 => ⟨S64, .f32⟩
  | 7 => ⟨S384x128, .f32⟩
  | 8 => ⟨S128, .f32⟩
  | 9 => ⟨S384x64, .f32⟩
  | 10 => ⟨S64, .f32⟩
  | 11 => ⟨S64x1, .f32⟩
  | 12 => ⟨S1, .f32⟩
  | 13 => ⟨S1x32x32768, .f32⟩
  | 14 => ⟨S32x32768, .f32⟩
  | 15 => ⟨S32x512x1, .f32⟩
  | 16 => ⟨S32x512x64, .f32⟩
  | 17 => ⟨S32x512x65, .f32⟩
  | 18 => ⟨S512x65x32, .f32⟩
  | 19 => ⟨S512x2080, .f32⟩
  | 20 => ⟨S512x2080, .f32⟩
  | 21 => ⟨S512x2080, .f32⟩
  | 22 => ⟨S_, .f32⟩
  | 23 => ⟨S512x2080, .f32⟩
  | 24 => ⟨S512x2080, .f32⟩
  | 25 => ⟨S512x2080, .f32⟩
  | 26 => ⟨S1x512x2080, .f32⟩
  | 27 => ⟨S1x512x2080, .f32⟩
  | 28 => ⟨S1x512x2080, .f32⟩
  | 29 => ⟨S3x512x2080, .f32⟩
  | 30 => ⟨S3x512x65x32, .f32⟩
  | 31 => ⟨S32x512x65x3, .f32⟩
  | 32 => ⟨S16384x195, .f32⟩
  | 33 => ⟨S16384x128, .f32⟩
  | 34 => ⟨S1x128, .f32⟩
  | 35 => ⟨S16384x128, .f32⟩
  | 36 => ⟨S16384x128, .f32⟩
  | 37 => ⟨S32x65536, .f32⟩
  | 38 => ⟨S32x65536, .f32⟩
  | 39 => ⟨S32x65536, .f32⟩
  | 40 => ⟨S_, .f32⟩
  | 41 => ⟨S32x65536, .f32⟩
  | 42 => ⟨S32x65536, .f32⟩
  | 43 => ⟨S_, .f32⟩
  | 44 => ⟨S32x65536, .f32⟩
  | 45 => ⟨S32x65536, .f32⟩
  | 46 => ⟨S32x512x128, .f32⟩
  | 47 => ⟨S32x512x64, .f32⟩
  | 48 => ⟨S32x512x64, .f32⟩
  | 49 => ⟨S32x32768, .f32⟩
  | 50 => ⟨S32x32768, .f32⟩
  | 51 => ⟨S32x32768, .f32⟩
  | 52 => ⟨S32x512x1, .f32⟩
  | 53 => ⟨S32x512x64, .f32⟩
  | 54 => ⟨S32x512x65, .f32⟩
  | 55 => ⟨S512x65x32, .f32⟩
  | 56 => ⟨S512x2080, .f32⟩
  | 57 => ⟨S512x2080, .f32⟩
  | 58 => ⟨S512x2080, .f32⟩
  | 59 => ⟨S_, .f32⟩
  | 60 => ⟨S512x2080, .f32⟩
  | 61 => ⟨S512x2080, .f32⟩
  | 62 => ⟨S512x2080, .f32⟩
  | 63 => ⟨S1x512x2080, .f32⟩
  | 64 => ⟨S1x512x2080, .f32⟩
  | 65 => ⟨S1x512x2080, .f32⟩
  | 66 => ⟨S3x512x2080, .f32⟩
  | 67 => ⟨S3x512x65x32, .f32⟩
  | 68 => ⟨S32x512x65x3, .f32⟩
  | 69 => ⟨S16384x195, .f32⟩
  | 70 => ⟨S16384x64, .f32⟩
  | 71 => ⟨S1x64, .f32⟩
  | 72 => ⟨S16384x64, .f32⟩
  | 73 => ⟨S16384x64, .f32⟩
  | 74 => ⟨S32x32768, .f32⟩
  | 75 => ⟨S32x32768, .f32⟩
  | 76 => ⟨S32x32768, .f32⟩
  | 77 => ⟨S_, .f32⟩
  | 78 => ⟨S32x32768, .f32⟩
  | 79 => ⟨S32x32768, .f32⟩
  | 80 => ⟨S32x32768, .f32⟩
  | 81 => ⟨S32x32768, .f32⟩
  | 82 => ⟨S1x32x32768, .f32⟩
  | 83 => ⟨S32x32768, .f32⟩
  | 84 => ⟨S32x512x64, .f32⟩
  | 85 => ⟨S32x512x64, .f32⟩
  | 86 => ⟨S32x512x128, .f32⟩
  | 87 => ⟨S512x128x32, .f32⟩
  | 88 => ⟨S512x4096, .f32⟩
  | 89 => ⟨S512x4096, .f32⟩
  | 90 => ⟨S512x4096, .f32⟩
  | 91 => ⟨S_, .f32⟩
  | 92 => ⟨S512x4096, .f32⟩
  | 93 => ⟨S512x4096, .f32⟩
  | 94 => ⟨S512x4096, .f32⟩
  | 95 => ⟨S1x512x4096, .f32⟩
  | 96 => ⟨S1x512x4096, .f32⟩
  | 97 => ⟨S1x512x4096, .f32⟩
  | 98 => ⟨S3x512x4096, .f32⟩
  | 99 => ⟨S3x512x128x32, .f32⟩
  | 100 => ⟨S32x512x128x3, .f32⟩
  | 101 => ⟨S16384x384, .f32⟩
  | 102 => ⟨S16384x128, .f32⟩
  | 103 => ⟨S1x128, .f32⟩
  | 104 => ⟨S16384x128, .f32⟩
  | 105 => ⟨S16384x128, .f32⟩
  | 106 => ⟨S32x65536, .f32⟩
  | 107 => ⟨S32x65536, .f32⟩
  | 108 => ⟨S32x65536, .f32⟩
  | 109 => ⟨S_, .f32⟩
  | 110 => ⟨S32x65536, .f32⟩
  | 111 => ⟨S32x65536, .f32⟩
  | 112 => ⟨S_, .f32⟩
  | 113 => ⟨S32x65536, .f32⟩
  | 114 => ⟨S32x65536, .f32⟩
  | 115 => ⟨S32x512x128, .f32⟩
  | 116 => ⟨S32x512x64, .f32⟩
  | 117 => ⟨S32x512x64, .f32⟩
  | 118 => ⟨S32x32768, .f32⟩
  | 119 => ⟨S32x32768, .f32⟩
  | 120 => ⟨S32x32768, .f32⟩
  | 121 => ⟨S32x512x64, .f32⟩
  | 122 => ⟨S32x512x64, .f32⟩
  | 123 => ⟨S32x512x128, .f32⟩
  | 124 => ⟨S512x128x32, .f32⟩
  | 125 => ⟨S512x4096, .f32⟩
  | 126 => ⟨S512x4096, .f32⟩
  | 127 => ⟨S512x4096, .f32⟩
  | _ => ⟨S32x512, .f32⟩

abbrev hbmTy0_1 (i : Nat) : BufTy := match i % 128 with
  | 0 => ⟨S_, .f32⟩
  | 1 => ⟨S512x4096, .f32⟩
  | 2 => ⟨S512x4096, .f32⟩
  | 3 => ⟨S512x4096, .f32⟩
  | 4 => ⟨S1x512x4096, .f32⟩
  | 5 => ⟨S1x512x4096, .f32⟩
  | 6 => ⟨S1x512x4096, .f32⟩
  | 7 => ⟨S3x512x4096, .f32⟩
  | 8 => ⟨S3x512x128x32, .f32⟩
  | 9 => ⟨S32x512x128x3, .f32⟩
  | 10 => ⟨S16384x384, .f32⟩
  | 11 => ⟨S16384x64, .f32⟩
  | 12 => ⟨S1x64, .f32⟩
  | 13 => ⟨S16384x64, .f32⟩
  | 14 => ⟨S16384x64, .f32⟩
  | 15 => ⟨S32x32768, .f32⟩
  | 16 => ⟨S32x32768, .f32⟩
  | 17 => ⟨S32x32768, .f32⟩
  | 18 => ⟨S_, .f32⟩
  | 19 => ⟨S32x32768, .f32⟩
  | 20 => ⟨S32x32768, .f32⟩
  | 21 => ⟨S32x32768, .f32⟩
  | 22 => ⟨S32x32768, .f32⟩
  | 23 => ⟨S16384x64, .f32⟩
  | 24 => ⟨S16384x1, .f32⟩
  | 25 => ⟨S1x1, .f32⟩
  | 26 => ⟨S16384x1, .f32⟩
  | 27 => ⟨S16384x1, .f32⟩
  | 28 => ⟨S32x512, .f32⟩
  | 29 => ⟨S1x32x32768, .f32⟩
  | 30 => ⟨S1x32x32768, .f32⟩
  | 31 => ⟨S2x32x32768, .f32⟩
  | _ => ⟨S32x512, .f32⟩

abbrev hbmTy (i : Nat) : BufTy := match i / 128 with
  | 0 => hbmTy0_0 i
  | 1 => hbmTy0_1 i
  | _ => ⟨S32x512, .f32⟩

abbrev bufTy : (tb : Table) → Fin (tcTables nBuf tb) → BufTy
  | .hbm, ⟨i, _⟩ => hbmTy i
  | _, _ => ⟨S32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_0 : Ref sig .tc := ⟨.hbm, 40, rfl⟩
abbrev main_v26 : Ref sig .tc := ⟨.hbm, 41, rfl⟩
abbrev main_v27 : Ref sig .tc := ⟨.hbm, 42, rfl⟩
abbrev main_cst_1 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_2 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_3 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_4 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_cst_5 : Ref sig .tc := ⟨.hbm, 109, rfl⟩
abbrev main_v90 : Ref sig .tc := ⟨.hbm, 110, rfl⟩
abbrev main_v91 : Ref sig .tc := ⟨.hbm, 111, rfl⟩
abbrev main_cst_6 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_cst_7 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_cst_8 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩

abbrev nD : Nat := 1
abbrev τ : Topo := Topo.v7x

variable {F : FTy → Type} [FloatOps F]

class Facts₀ : Prop where
  slices_S2x32x32768_S1x32x32768_0_0_0 : S2x32x32768.Slices ![0, 0, 0] S1x32x32768
  shapeCasts_S1x32x32768_S32x32768 : S1x32x32768.ShapeCasts S32x32768
  shapeCasts_S32x512_S32x512x1 : S32x512.ShapeCasts S32x512x1
  shapeCasts_S32x32768_S32x512x64 : S32x32768.ShapeCasts S32x512x64
  concatenates_S32x512x1_S32x512x64_S32x512x65_d2 : Shape.Concatenates [S32x512x1, S32x512x64] S32x512x65 2
  transposes_S32x512x65_S512x65x32_1_2_0 : S32x512x65.Transposes [1, 2, 0] S512x65x32
  shapeCasts_S512x65x32_S512x2080 : S512x65x32.ShapeCasts S512x2080
  bcast_S_S512x2080 : S_.BroadcastsInDim S512x2080 (![] : Fin 0 → Fin S512x2080.rank)
  bcast_S512x2080_S1x512x2080_1_2 : S512x2080.BroadcastsInDim S1x512x2080 (![1, 2] : Fin 2 → Fin S1x512x2080.rank)
  concatenates_S1x512x2080_S1x512x2080_S1x512x2080_S3x512x2080_d0 : Shape.Concatenates [S1x512x2080, S1x512x2080, S1x512x2080] S3x512x2080 0
  shapeCasts_S3x512x2080_S3x512x65x32 : S3x512x2080.ShapeCasts S3x512x65x32
  transposes_S3x512x65x32_S32x512x65x3_3_1_2_0 : S3x512x65x32.Transposes [3, 1, 2, 0] S32x512x65x3
  shapeCasts_S32x512x65x3_S16384x195 : S32x512x65x3.ShapeCasts S16384x195
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  shapeCasts_S16384x128_S32x65536 : S16384x128.ShapeCasts S32x65536
  bcast_S_S32x65536 : S_.BroadcastsInDim S32x65536 (![] : Fin 0 → Fin S32x65536.rank)
  shapeCasts_S32x65536_S32x512x128 : S32x65536.ShapeCasts S32x512x128
  slices_S32x512x128_S32x512x64_0_0_0 : S32x512x128.Slices ![0, 0, 0] S32x512x64
  slices_S32x512x128_S32x512x64_0_0_64 : S32x512x128.Slices ![0, 0, 64] S32x512x64
  shapeCasts_S32x512x64_S32x32768 : S32x512x64.ShapeCasts S32x32768
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  shapeCasts_S16384x64_S32x32768 : S16384x64.ShapeCasts S32x32768
  bcast_S_S32x32768 : S_.BroadcastsInDim S32x32768 (![] : Fin 0 → Fin S32x32768.rank)
  slices_S2x32x32768_S1x32x32768_1_0_0 : S2x32x32768.Slices ![1, 0, 0] S1x32x32768
  concatenates_S32x512x64_S32x512x64_S32x512x128_d2 : Shape.Concatenates [S32x512x64, S32x512x64] S32x512x128 2
  transposes_S32x512x128_S512x128x32_1_2_0 : S32x512x128.Transposes [1, 2, 0] S512x128x32
  shapeCasts_S512x128x32_S512x4096 : S512x128x32.ShapeCasts S512x4096
  bcast_S_S512x4096 : S_.BroadcastsInDim S512x4096 (![] : Fin 0 → Fin S512x4096.rank)
  bcast_S512x4096_S1x512x4096_1_2 : S512x4096.BroadcastsInDim S1x512x4096 (![1, 2] : Fin 2 → Fin S1x512x4096.rank)
  concatenates_S1x512x4096_S1x512x4096_S1x512x4096_S3x512x4096_d0 : Shape.Concatenates [S1x512x4096, S1x512x4096, S1x512x4096] S3x512x4096 0
  shapeCasts_S3x512x4096_S3x512x128x32 : S3x512x4096.ShapeCasts S3x512x128x32
  transposes_S3x512x128x32_S32x512x128x3_3_1_2_0 : S3x512x128x32.Transposes [3, 1, 2, 0] S32x512x128x3
  shapeCasts_S32x512x128x3_S16384x384 : S32x512x128x3.ShapeCasts S16384x384
  shapeCasts_S32x32768_S16384x64 : S32x32768.ShapeCasts S16384x64
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  shapeCasts_S16384x1_S32x512 : S16384x1.ShapeCasts S32x512
  bcast_S32x32768_S1x32x32768_1_2 : S32x32768.BroadcastsInDim S1x32x32768 (![1, 2] : Fin 2 → Fin S1x32x32768.rank)
  concatenates_S1x32x32768_S1x32x32768_S2x32x32768_d0 : Shape.Concatenates [S1x32x32768, S1x32x32768] S2x32x32768 0
  dot_S512x512_S512x2080_S512x2080_1_0_0_1_n_n_wf : DotDims.WF S512x512 S512x2080 S512x2080 [1] [0] [0] [1] [] []
  dot_S16384x195_S195x128_S16384x128_1_0_0_1_n_n_wf : DotDims.WF S16384x195 S195x128 S16384x128 [1] [0] [0] [1] [] []
  dot_S16384x195_S195x64_S16384x64_1_0_0_1_n_n_wf : DotDims.WF S16384x195 S195x64 S16384x64 [1] [0] [0] [1] [] []
  dot_S512x512_S512x4096_S512x4096_1_0_0_1_n_n_wf : DotDims.WF S512x512 S512x4096 S512x4096 [1] [0] [0] [1] [] []
  dot_S16384x384_S384x128_S16384x128_1_0_0_1_n_n_wf : DotDims.WF S16384x384 S384x128 S16384x128 [1] [0] [0] [1] [] []
  dot_S16384x384_S384x64_S16384x64_1_0_0_1_n_n_wf : DotDims.WF S16384x384 S384x64 S16384x64 [1] [0] [0] [1] [] []
  dot_S16384x64_S64x1_S16384x1_1_0_0_1_n_n_wf : DotDims.WF S16384x64 S64x1 S16384x1 [1] [0] [0] [1] [] []

variable [Facts₀]

def dot_S512x512_S512x2080_S512x2080_1_0_0_1_n_n : DotDims S512x512 S512x2080 S512x2080 where
  lhsContracting := [1]
  rhsContracting := [0]
  lhsNonContracting := [0]
  rhsNonContracting := [1]
  lhsBatch := []
  rhsBatch := []
  wf := dot_S512x512_S512x2080_S512x2080_1_0_0_1_n_n_wf
def dot_S16384x195_S195x128_S16384x128_1_0_0_1_n_n : DotDims S16384x195 S195x128 S16384x128 where
  lhsContracting := [1]
  rhsContracting := [0]
  lhsNonContracting := [0]
  rhsNonContracting := [1]
  lhsBatch := []
  rhsBatch := []
  wf := dot_S16384x195_S195x128_S16384x128_1_0_0_1_n_n_wf
def dot_S16384x195_S195x64_S16384x64_1_0_0_1_n_n : DotDims S16384x195 S195x64 S16384x64 where
  lhsContracting := [1]
  rhsContracting := [0]
  lhsNonContracting := [0]
  rhsNonContracting := [1]
  lhsBatch := []
  rhsBatch := []
  wf := dot_S16384x195_S195x64_S16384x64_1_0_0_1_n_n_wf
def dot_S512x512_S512x4096_S512x4096_1_0_0_1_n_n : DotDims S512x512 S512x4096 S512x4096 where
  lhsContracting := [1]
  rhsContracting := [0]
  lhsNonContracting := [0]
  rhsNonContracting := [1]
  lhsBatch := []
  rhsBatch := []
  wf := dot_S512x512_S512x4096_S512x4096_1_0_0_1_n_n_wf
def dot_S16384x384_S384x128_S16384x128_1_0_0_1_n_n : DotDims S16384x384 S384x128 S16384x128 where
  lhsContracting := [1]
  rhsContracting := [0]
  lhsNonContracting := [0]
  rhsNonContracting := [1]
  lhsBatch := []
  rhsBatch := []
  wf := dot_S16384x384_S384x128_S16384x128_1_0_0_1_n_n_wf
def dot_S16384x384_S384x64_S16384x64_1_0_0_1_n_n : DotDims S16384x384 S384x64 S16384x64 where
  lhsContracting := [1]
  rhsContracting := [0]
  lhsNonContracting := [0]
  rhsNonContracting := [1]
  lhsBatch := []
  rhsBatch := []
  wf := dot_S16384x384_S384x64_S16384x64_1_0_0_1_n_n_wf
def dot_S16384x64_S64x1_S16384x1_1_0_0_1_n_n : DotDims S16384x64 S64x1 S16384x1 where
  lhsContracting := [1]
  rhsContracting := [0]
  lhsNonContracting := [0]
  rhsNonContracting := [1]
  lhsBatch := []
  rhsBatch := []
  wf := dot_S16384x64_S64x1_S16384x1_1_0_0_1_n_n_wf

class Facts : Prop extends Facts₀ where

variable [Facts]
-- ==== Proof.FrameK.lean ====
/-
  The frame of the word-level kernel program, written against the pipeline library's frame theorem.

  The program is a prefix of host operations (reshapes, roundings, slices, transposes and four
  concatenations that lay the weights out), then one pipelined region of four grid points over
  seventeen windows. The frame says: every weakly fair run terminates without a fault and leaves the
  thirteen argument arrays as they were launched. The argument has four steps.

  * The host prefix writes only intermediate buffers, so at the region's entry every argument array
    still holds its launch contents (`V_main_argK`).
  * At a grid point the body loads whole rectangles of its fifteen input staging buffers, computes,
    and stores into the two output staging buffers: the projection block whole, and the
    hidden-state block as its two rows, which together tile it. So after the body an output buffer
    is a function of the input blocks alone (`out0_15`, `out0_16`), and an input buffer is unchanged.
  * That is the body obligation of the pipeline's proof data (`dats`), at every point.
  * The library's frame theorem then gives the run, and the run's post read at the argument arrays
    is the claim: a staged input array is never written back, an unstaged one is not touched.
-/
import proofs.«145957_g44504451121623_cont_8to1_c_180_24_alg».proof.Proof.Gen.Kernel.Launch
import proofs.«145957_g44504451121623_cont_8to1_c_180_24_alg».proof.Proof.Gen.Kernel.Skeleton
import proofs.«145957_g44504451121623_cont_8to1_c_180_24_alg».proof.Proof.Gen.Kernel.Points
import Idealize.ShloMosaic.Lib.Pipeline.FrameBody
import Idealize.ShloMosaic.Lib.Ring
import Idealize.ShloMosaic.Lib.Tactic

-- membership of an index in a rectangle with an axis of 32768 coordinates recurses once per coordinate
set_option maxRecDepth 16384

noncomputable section

namespace Cert.Kernel.GenH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch memory after the host prefix. -/
abbrev V (c : Dev nD) (b : Ref sig .tc) : Buf (Elt F) ((c : Thread nD τ).loc b) :=
  StableHlo.after hostOps0 (fun b => m (c, b)) b

/-- No host operation of the prefix allocates a buffer. -/
theorem hostOps0_fresh : (hostOps0 : List (HloOp τ sig (Elt F))).Forall fun op => op.fresh = ∅ := by
  simp only [List.Forall]; repeat' constructor

/-- The program is the host prefix followed by the region, so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that no operation of the prefix writes is found as launched: each operation writes one
    buffer, its result, and the result is an intermediate buffer, never `b`. -/
local macro "prefix_keeps" : tactic => `(tactic|
  exact StableHlo.after_of_forall_not_mem _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      StableHlo.nary_writes, Finset.mem_singleton]
    repeat' apply And.intro
    all_goals exact StableHlo.devRef_ne_of_ne (by decide))))

theorem V_main_arg0 (c : Dev nD) : V m c main_arg0 = m ((c : Thread nD τ).loc main_arg0) := by
  show StableHlo.after hostOps0 (fun b => m (c, b)) (Proc.devRef .tc main_arg0) = _
  prefix_keeps
theorem V_main_arg1 (c : Dev nD) : V m c main_arg1 = m ((c : Thread nD τ).loc main_arg1) := by
  show StableHlo.after hostOps0 (fun b => m (c, b)) (Proc.devRef .tc main_arg1) = _
  prefix_keeps
theorem V_main_arg2 (c : Dev nD) : V m c main_arg2 = m ((c : Thread nD τ).loc main_arg2) := by
  show StableHlo.after hostOps0 (fun b => m (c, b)) (Proc.devRef .tc main_arg2) = _
  prefix_keeps
theorem V_main_arg3 (c : Dev nD) : V m c main_arg3 = m ((c : Thread nD τ).loc main_arg3) := by
  show StableHlo.after hostOps0 (fun b => m (c, b)) (Proc.devRef .tc main_arg3) = _
  prefix_keeps
theorem V_main_arg4 (c : Dev nD) : V m c main_arg4 = m ((c : Thread nD τ).loc main_arg4) := by
  show StableHlo.after hostOps0 (fun b => m (c, b)) (Proc.devRef .tc main_arg4) = _
  prefix_keeps
theorem V_main_arg5 (c : Dev nD) : V m c main_arg5 = m ((c : Thread nD τ).loc main_arg5) := by
  show StableHlo.after hostOps0 (fun b => m (c, b)) (Proc.devRef .tc main_arg5) = _
  prefix_keeps
theorem V_main_arg6 (c : Dev nD) : V m c main_arg6 = m ((c : Thread nD τ).loc main_arg6) := by
  show StableHlo.after hostOps0 (fun b => m (c, b)) (Proc.devRef .tc main_arg6) = _
  prefix_keeps
theorem V_main_arg7 (c : Dev nD) : V m c main_arg7 = m ((c : Thread nD τ).loc main_arg7) := by
  show StableHlo.after hostOps0 (fun b => m (c, b)) (Proc.devRef .tc main_arg7) = _
  prefix_keeps
theorem V_main_arg8 (c : Dev nD) : V m c main_arg8 = m ((c : Thread nD τ).loc main_arg8) := by
  show StableHlo.after hostOps0 (fun b => m (c, b)) (Proc.devRef .tc main_arg8) = _
  prefix_keeps
theorem V_main_arg9 (c : Dev nD) : V m c main_arg9 = m ((c : Thread nD τ).loc main_arg9) := by
  show StableHlo.after hostOps0 (fun b => m (c, b)) (Proc.devRef .tc main_arg9) = _
  prefix_keeps
theorem V_main_arg10 (c : Dev nD) : V m c main_arg10 = m ((c : Thread nD τ).loc main_arg10) := by
  show StableHlo.after hostOps0 (fun b => m (c, b)) (Proc.devRef .tc main_arg10) = _
  prefix_keeps
theorem V_main_arg11 (c : Dev nD) : V m c main_arg11 = m ((c : Thread nD τ).loc main_arg11) := by
  show StableHlo.after hostOps0 (fun b => m (c, b)) (Proc.devRef .tc main_arg11) = _
  prefix_keeps
theorem V_main_arg12 (c : Dev nD) : V m c main_arg12 = m ((c : Thread nD τ).loc main_arg12) := by
  show StableHlo.after hostOps0 (fun b => m (c, b)) (Proc.devRef .tc main_arg12) = _
  prefix_keeps

/-! ## The body's value as a composition of its payloads

The body computes stage by stage; each definition below is one value that a later stretch reads, as a
payload of the values before it, over the sixteen vectors the body loads. The last three are what the
body stores: the two new hidden states, flat per batch row, and the projection. -/

namespace Comp

/-- The vectors the body loads from its input windows' staging buffers. -/
structure Loads (F : FTy → Type) [FloatOps F] where
  v0 : Vec F S512x512 .f32
  v5 : Vec F S1x8x32768 .f32
  v10 : Vec F S8x512 .f32
  v25 : Vec F S3x1x128 .bf16
  v27 : Vec F S192x128 .bf16
  v29 : Vec F S128 .f32
  v79 : Vec F S3x1x64 .bf16
  v81 : Vec F S192x64 .bf16
  v83 : Vec F S64 .f32
  v134 : Vec F S1x8x32768 .f32
  v153 : Vec F S384x128 .bf16
  v155 : Vec F S128 .f32
  v179 : Vec F S384x64 .bf16
  v181 : Vec F S64 .f32
  v219 : Vec F S1x64 .f32
  v225 : Vec F S1 .f32

variable (L : Loads F)

def w1 : FVec F S512x512 .bf16 := k0_pay1 L.v0
def w4 : FVec F S512x512 .bf16 := k0_pay2 L.v0
def w9 : FVec F S4096x64 .f32 := k0_pay3 L.v5
def w19 : FVec F S512x8x1 .f32 := k0_pay6 L.v10
def w21 : FVec F S512x8x1 .f32 := k0_pay7 L.v0 L.v10
def w23 : FVec F S512x8x1 .f32 := k0_pay8 L.v0 L.v10
def w26 : FVec F S3x1x128 .bf16 := k0_pay10 L.v25
def w28 : FVec F S192x128 .bf16 := k0_pay11 L.v27
def w35 : FVec F S512x512 .bf16 := k0_pay13 L.v0 L.v5
def w38 : FVec F S512x512 .bf16 := k0_pay14 L.v0 L.v5
def w39 : FVec F S512x8x64 .bf16 := k0_pay15 L.v5

def w76 : FVec F S4096x64 .f32 := k0_pay17 (w19 L) (w21 L) (w23 L) (w26 L) (w28 L) L.v29 (w35 L) (w38 L) (w39 L)
def w78 : FVec F S4096x64 .bf16 := k0_pay18 (w9 L) (w19 L) (w21 L) (w23 L) (w26 L) (w28 L) L.v29 (w35 L) (w38 L) (w39 L)
def w80 : FVec F S3x1x64 .bf16 := k0_pay19 L.v79
def w82 : FVec F S192x64 .bf16 := k0_pay20 L.v81
def w87 : FVec F S512x512 .bf16 := k0_pay21 (w9 L) (w19 L) (w21 L) (w23 L) (w26 L) (w28 L) L.v29 (w35 L) (w38 L) (w39 L)
def w89 : FVec F S512x512 .bf16 := k0_pay22 (w1 L) (w9 L) (w19 L) (w21 L) (w23 L) (w26 L) (w28 L) L.v29 (w35 L) (w38 L) (w39 L)
def wcst26 : FVec F S512x512 .f32 := constant S512x512 .f32 0x00000000#32

def w133 : FVec F S4096x64 .f32 := k0_pay23 (w4 L) (w9 L) (w19 L) (w21 L) (w23 L) (w76 L) (w78 L) (w80 L) (w82 L) L.v83 (w87 L) (w89 L) wcst26
def w138 : FVec F S4096x64 .f32 := k0_pay24 L.v134
def w139 : FVec F S4096x64 .bf16 := k0_pay25 (w4 L) (w9 L) (w19 L) (w21 L) (w23 L) (w76 L) (w78 L) (w80 L) (w82 L) L.v83 (w87 L) (w89 L) wcst26
def w143 : FVec F S512x512 .bf16 := k0_pay26 (w4 L) (w9 L) (w19 L) (w21 L) (w23 L) (w76 L) (w78 L) (w80 L) (w82 L) L.v83 (w87 L) (w89 L) wcst26

def w149 : FVec F S512x8x64 .bf16 := k0_pay28 (w139 L)
def w150 : FVec F S512x8x64 .bf16 := k0_pay29 (w1 L) (w143 L)
def w151 : FVec F S512x8x64 .bf16 := k0_pay30 (w1 L) (w4 L) (w143 L)
def w176 : FVec F S4096x64 .f32 := k0_pay32 (w1 L) (w4 L) (w138 L) (w139 L) (w143 L) L.v153 L.v155
def w178 : FVec F S4096x64 .bf16 := k0_pay33 (w1 L) (w4 L) (w138 L) (w139 L) (w143 L) L.v153 L.v155
def w180 : FVec F S384x64 .bf16 := k0_pay34 L.v179
def w185 : FVec F S512x512 .bf16 := k0_pay35 (w1 L) (w4 L) (w138 L) (w139 L) (w143 L) L.v153 L.v155
def w187 : FVec F S512x512 .bf16 := k0_pay36 (w1 L) (w4 L) (w138 L) (w139 L) (w143 L) L.v153 L.v155
def w188 : FVec F S512x512 .f32 := k0_pay37 (w1 L) (w4 L) (w138 L) (w139 L) (w143 L) L.v153 L.v155

/-- What the body stores at row 0 of the hidden-state output block: layer 0's new state. -/
def hs0 : FVec F S1x8x32768 .f32 := k0_pay39 (w133 L)
/-- What it stores at row 1: layer 1's new state. -/
def hs1 : FVec F S1x8x32768 .f32 := k0_pay40 (w138 L) (w149 L) (w150 L) (w151 L) (w176 L) (w178 L) (w180 L) L.v181 (w185 L) (w187 L) (w188 L)
/-- What it stores into the projection output block. -/
def out : FVec F S8x512 .f32 := k0_pay41 (w138 L) (w149 L) (w150 L) (w151 L) (w176 L) (w178 L) (w180 L) L.v181 (w185 L) (w187 L) (w188 L) L.v219 L.v225

end Comp

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The rectangles the body reads and writes

Every load is of a whole staging buffer, except the two of the hidden-state input block, which read
its row 0 and its row 1 (one layer each). The stores are of the whole projection block and of the two
rows of the hidden-state output block. -/

abbrev r0 : Rect S8x512 := Rect.unit (s := S8x512) ![0, 0] S8x512.size inb_S8x512_S8x512_0_0
abbrev r1 : Rect S512x512 := Rect.unit (s := S512x512) ![0, 0] S512x512.size inb_S512x512_S512x512_0_0
abbrev r2_0 : Rect S2x8x32768 := Rect.unit (s := S2x8x32768) ![0, 0, 0] S1x8x32768.size inb_S2x8x32768_S1x8x32768_0_0_0
abbrev r2_1 : Rect S2x8x32768 := Rect.unit (s := S2x8x32768) ![1, 0, 0] S1x8x32768.size inb_S2x8x32768_S1x8x32768_1_0_0
abbrev r3 : Rect S3x1x128 := Rect.unit (s := S3x1x128) ![0, 0, 0] S3x1x128.size inb_S3x1x128_S3x1x128_0_0_0
abbrev r4 : Rect S192x128 := Rect.unit (s := S192x128) ![0, 0] S192x128.size inb_S192x128_S192x128_0_0
abbrev r5 : Rect S3x1x64 := Rect.unit (s := S3x1x64) ![0, 0, 0] S3x1x64.size inb_S3x1x64_S3x1x64_0_0_0
abbrev r6 : Rect S192x64 := Rect.unit (s := S192x64) ![0, 0] S192x64.size inb_S192x64_S192x64_0_0
abbrev r7 : Rect S128 := Rect.unit (s := S128) ![0] S128.size inb_S128_S128_0
abbrev r8 : Rect S64 := Rect.unit (s := S64) ![0] S64.size inb_S64_S64_0
abbrev r9 : Rect S384x128 := Rect.unit (s := S384x128) ![0, 0] S384x128.size inb_S384x128_S384x128_0_0
abbrev r10 : Rect S384x64 := Rect.unit (s := S384x64) ![0, 0] S384x64.size inb_S384x64_S384x64_0_0
abbrev r13 : Rect S1x64 := Rect.unit (s := S1x64) ![0, 0] S1x64.size inb_S1x64_S1x64_0_0
abbrev r14 : Rect S1 := Rect.unit (s := S1) ![0] S1.size inb_S1_S1_0
/-- The projection output block, whole. -/
abbrev r15 : Rect S8x512 := r0
/-- Row 0 and row 1 of the hidden-state output block. -/
abbrev r16_0 : Rect S2x8x32768 := r2_0
abbrev r16_1 : Rect S2x8x32768 := r2_1

/-! ## What the body leaves in each output window's buffer -/

/-- The sixteen vectors the body loads, from the contents `xW` of the fifteen input windows' staging
    buffers: the input block, the adjacency, the two rows of the hidden-state block, and the weights
    and biases of the two layers and of the projection. -/
def loads (x0 : Vec F S8x512 .f32) (x1 : Vec F S512x512 .f32) (x2 : Vec F S2x8x32768 .f32) (x3 : Vec F S3x1x128 .bf16) (x4 : Vec F S192x128 .bf16) (x5 : Vec F S3x1x64 .bf16) (x6 : Vec F S192x64 .bf16) (x7 : Vec F S128 .f32) (x8 : Vec F S64 .f32) (x9 : Vec F S384x128 .bf16) (x10 : Vec F S384x64 .bf16) (x11 : Vec F S128 .f32) (x12 : Vec F S64 .f32) (x13 : Vec F S1x64 .f32) (x14 : Vec F S1 .f32) : Comp.Loads F where
  v0 := View.ld x1 r1
  v5 := View.ld x2 r2_0
  v10 := View.ld x0 r0
  v25 := View.ld x3 r3
  v27 := View.ld x4 r4
  v29 := View.ld x7 r7
  v79 := View.ld x5 r5
  v81 := View.ld x6 r6
  v83 := View.ld x8 r8
  v134 := View.ld x2 r2_1
  v153 := View.ld x9 r9
  v155 := View.ld x11 r7
  v179 := View.ld x10 r10
  v181 := View.ld x12 r8
  v219 := View.ld x13 r13
  v225 := View.ld x14 r14

/-- The projection output buffer after the body: its one store, of the whole block. -/
def out0_15 (x0 : Vec F S8x512 .f32) (x1 : Vec F S512x512 .f32) (x2 : Vec F S2x8x32768 .f32) (x3 : Vec F S3x1x128 .bf16) (x4 : Vec F S192x128 .bf16) (x5 : Vec F S3x1x64 .bf16) (x6 : Vec F S192x64 .bf16) (x7 : Vec F S128 .f32) (x8 : Vec F S64 .f32) (x9 : Vec F S384x128 .bf16) (x10 : Vec F S384x64 .bf16) (x11 : Vec F S128 .f32) (x12 : Vec F S64 .f32) (x13 : Vec F S1x64 .f32) (x14 : Vec F S1 .f32) : Vec F S8x512 .f32 :=
  View.canon [⟨r15, Comp.out (loads x0 x1 x2 x3 x4 x5 x6 x7 x8 x9 x10 x11 x12 x13 x14)⟩]

/-- The hidden-state output buffer after the body: its two stores, the later one first — row 1 holds
    layer 1's new state, row 0 layer 0's. -/
def out0_16 (x0 : Vec F S8x512 .f32) (x1 : Vec F S512x512 .f32) (x2 : Vec F S2x8x32768 .f32) (x3 : Vec F S3x1x128 .bf16) (x4 : Vec F S192x128 .bf16) (x5 : Vec F S3x1x64 .bf16) (x6 : Vec F S192x64 .bf16) (x7 : Vec F S128 .f32) (x8 : Vec F S64 .f32) (x9 : Vec F S384x128 .bf16) (x10 : Vec F S384x64 .bf16) (x11 : Vec F S128 .f32) (x12 : Vec F S64 .f32) (x13 : Vec F S1x64 .f32) (x14 : Vec F S1 .f32) : Vec F S2x8x32768 .f32 :=
  View.canon [⟨r16_1, Comp.hs1 (loads x0 x1 x2 x3 x4 x5 x6 x7 x8 x9 x10 x11 x12 x13 x14)⟩, ⟨r16_0, Comp.hs0 (loads x0 x1 x2 x3 x4 x5 x6 x7 x8 x9 x10 x11 x12 x13 x14)⟩]

/-- The one store of the projection block covers it. -/
theorem cover0_15 (p0 : Vec F S8x512 .f32) (y : S8x512.Idx) :
    ∃ pc ∈ ([⟨r15, p0⟩] : List (View.Piece (Elt F) S8x512 .f32)), y ∈ pc.1.set :=
  View.cover_of_tiled [⟨r15, p0⟩] S8x512.size (by rfl) y

/-- The two rows tile the hidden-state block, so the two stores cover it. -/
theorem cover0_16 (p0 p1 : Vec F S1x8x32768 .f32) (y : S2x8x32768.Idx) :
    ∃ pc ∈ ([⟨r16_1, p0⟩, ⟨r16_0, p1⟩] : List (View.Piece (Elt F) S2x8x32768 .f32)), y ∈ pc.1.set :=
  View.cover_of_tiled [⟨r16_1, p0⟩, ⟨r16_0, p1⟩] S1x8x32768.size (by rfl) y

/-! ## The body's triple -/

set_option maxHeartbeats 4000000 in
/-- The body on whole staging buffers, the inputs' at contents `xW` and the outputs' at anything, runs to
    a state with the inputs' as they were and each output's at `out0_W` of the inputs'. Its loads read
    rectangles of buffers held at known contents (the two of the output buffers read values nothing
    uses); each output buffer ends as the list of the stores into it, which cover it. -/
theorem sound_kernel (c : Dev nD) (E : Set ℕ) (i : grid0.Coords) (arg1 : Memref sig .tc .vmem S8x512 .f32) (harg1 : arg1.IsWhole) (arg2 : Memref sig .tc .vmem S512x512 .f32) (harg2 : arg2.IsWhole) (arg3 : Memref sig .tc .vmem S2x8x32768 .f32) (harg3 : arg3.IsWhole) (arg4 : Memref sig .tc .vmem S3x1x128 .bf16) (harg4 : arg4.IsWhole) (arg5 : Memref sig .tc .vmem S192x128 .bf16) (harg5 : arg5.IsWhole) (arg6 : Memref sig .tc .vmem S3x1x64 .bf16) (harg6 : arg6.IsWhole) (arg7 : Memref sig .tc .vmem S192x64 .bf16) (harg7 : arg7.IsWhole) (arg8 : Memref sig .tc .vmem S128 .f32) (harg8 : arg8.IsWhole) (arg9 : Memref sig .tc .vmem S64 .f32) (harg9 : arg9.IsWhole) (arg10 : Memref sig .tc .vmem S384x128 .bf16) (harg10 : arg10.IsWhole) (arg11 : Memref sig .tc .vmem S384x64 .bf16) (harg11 : arg11.IsWhole) (arg12 : Memref sig .tc .vmem S128 .f32) (harg12 : arg12.IsWhole) (arg13 : Memref sig .tc .vmem S64 .f32) (harg13 : arg13.IsWhole) (arg14 : Memref sig .tc .vmem S1x64 .f32) (harg14 : arg14.IsWhole) (arg15 : Memref sig .tc .vmem S1 .f32) (harg15 : arg15.IsWhole) (arg16 : Memref sig .tc .vmem S8x512 .f32) (harg16 : arg16.IsWhole) (arg17 : Memref sig .tc .vmem S2x8x32768 .f32) (harg17 : arg17.IsWhole)
    (x0 : Vec F S8x512 .f32) (x1 : Vec F S512x512 .f32) (x2 : Vec F S2x8x32768 .f32) (x3 : Vec F S3x1x128 .bf16) (x4 : Vec F S192x128 .bf16) (x5 : Vec F S3x1x64 .bf16) (x6 : Vec F S192x64 .bf16) (x7 : Vec F S128 .f32) (x8 : Vec F S64 .f32) (x9 : Vec F S384x128 .bf16) (x10 : Vec F S384x64 .bf16) (x11 : Vec F S128 .f32) (x12 : Vec F S64 .f32) (x13 : Vec F S1x64 .f32) (x14 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out0_15 x0 x1 x2 x3 x4 x5 x6 x7 x8 x9 x10 x11 x12 x13 x14) ∗ owns (c : Thread nD τ) arg17 fullShare (out0_16 x0 x1 x2 x3 x4 x5 x6 x7 x8 x9 x10 x11 x12 x13 x14)) -∗ K ⟨⟩))
      ⊢ wp frame (wpE (defs₀ (F := F)) Variants.none c none) E (cc0__dcgru_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__dcgru_body_eq_skeleton]; unfold cc0__dcgru_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    -- the one store covers the block; what was stored is the composition's projection, name by name
    refine (View.read_writes_eq_canon _ _ _ (cover0_15 _)).trans ?_
    sl_unfold_run_names
    dsimp only [out0_15, Comp.w1, Comp.w4, Comp.w9, Comp.w19, Comp.w21, Comp.w23, Comp.w26, Comp.w28, Comp.w35, Comp.w38, Comp.w39, Comp.w76, Comp.w78, Comp.w80, Comp.w82, Comp.w87, Comp.w89, Comp.wcst26, Comp.w133, Comp.w138, Comp.w139, Comp.w143, Comp.w149, Comp.w150, Comp.w151, Comp.w176, Comp.w178, Comp.w180, Comp.w185, Comp.w187, Comp.w188, Comp.hs0, Comp.hs1, Comp.out, loads, View.readAt_eq_ld]
    first | done | with_reducible rfl | fail "the run's payload is not the composition's"
  iexists _; isplitr
  swap; · iexact H16
  ipureintro
  -- the two stores cover the block; what was stored are the composition's two new hidden states
  refine (View.read_writes_eq_canon _ _ _ (cover0_16 _ _)).trans ?_
  sl_unfold_run_names
  dsimp only [out0_16, Comp.w1, Comp.w4, Comp.w9, Comp.w19, Comp.w21, Comp.w23, Comp.w26, Comp.w28, Comp.w35, Comp.w38, Comp.w39, Comp.w76, Comp.w78, Comp.w80, Comp.w82, Comp.w87, Comp.w89, Comp.wcst26, Comp.w133, Comp.w138, Comp.w139, Comp.w143, Comp.w149, Comp.w150, Comp.w151, Comp.w176, Comp.w178, Comp.w180, Comp.w185, Comp.w187, Comp.w188, Comp.hs0, Comp.hs1, Comp.out, loads, View.readAt_eq_ld]
  first | done | with_reducible rfl | fail "the run's payload is not the composition's"

/-! ## The pipeline's proof data -/

/-- The proof data of the pipeline on core `c`: the arrays as the region finds them; after the body at
    point `t` each input's staging buffer still at its block and each output's at `out0_W` of the input
    blocks; the invariant that of a body touching nothing but its windows; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨_ + 17, h⟩ => absurd h (Nat.not_lt.2 (Nat.le_add_left _ _))
  Φ _ := Pipeline.ΦA spec0 c
  q _ := fullShare
  owed _ := 0

/-- The proof data's arrays are the region-entry contents (a projection: the fold `V` stays folded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]

/-- An input window's current staging buffer holds its block at every point, fetched there or not: where
    it is not fetched its block index has not moved and the body left the block in place. No input
    window is clipped or idle. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
      (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
      (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
      (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl)
      (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl)
      (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl)
      (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl)
      (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl)
      (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl)
      (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl)
      (fun t => by rw [after0_13]; unfold Dat.blockOf iblk; rw [A_eq]; try rfl) t d).trans
    (by unfold Dat.fetched Dat.blockOf iblk; rw [A_eq]; try rfl)
theorem before0_14 (c : Dev nD) (t : Fin cfg0.N) (d) : (dats m 0 c).before 14 t d = iblk m c 14 t :=
  ((dats m 0 c).before_in_eq_fetched 14 rfl (fun _ => rfl) (fun _ _ _ => rfl)
      (fun t => by rw [after0_14]; unfold Dat.blockOf iblk; rw [A_eq]; try rfl) t d).trans
    (by unfold Dat.fetched Dat.blockOf iblk; rw [A_eq]; try rfl)

/-! ## The body obligation -/

/-- What the body is called with at point `t`: the invariant, the core's debts, and every window's current
    staging buffer at what the pipeline left in it. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

/-- What it returns: the same, every buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t))

set_option maxHeartbeats 2000000 in
/-- The body at any point: the inputs' buffers hold their blocks, so the body's triple applies; the
    invariant and the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel c Set.univ (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the frame theorem's implicit arguments are determined by its conclusion only up to unfolding definitions in types
set_option backward.isDefEq.respectTransparency.types false in
/-- From any memory with zero counters, every weakly fair execution of the program terminates, every
    array of the pipeline ends at what the proof data computes and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-! ## The run's post read at the program's arrays

After the run an array a window stages holds what the proof data computes for it: for an input window
its contents at the region's entry, which for an argument array are the launch contents; an unscoped
buffer that no window stages holds what the region found. -/

/-- Input window 0 stages `main_arg0` and never writes it back. -/
theorem kept_main_arg0 (r : PUnit × MemSt nD τ sig (Elt F)) (h : Pipeline.FramePost cfgs (dats m) 0 (V m) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))
/-- Input window 1 stages `main_arg1` and never writes it back. -/
theorem kept_main_arg1 (r : PUnit × MemSt nD τ sig (Elt F)) (h : Pipeline.FramePost cfgs (dats m) 0 (V m) r) (c : Dev nD) :
    r.2.mem ((c.tc : Thread nD τ).loc main_arg1) = m ((c.tc : Thread nD τ).loc main_arg1) :=
  ((h c).1 1).trans (((dats m 0 c).arrAt_in 1 rfl _).trans ((A_eq m c 1).trans (V_main_arg1 m c)))
/-- Input window 2 stages `main_arg2` and never writes it back. -/
theorem kept_main_arg2 (r : PUnit × MemSt nD τ sig (Elt F)) (h : Pipeline.FramePost cfgs (dats m) 0 (V m) r) (c : Dev nD) :
    r.2.mem ((c.tc : Thread nD τ).loc main_arg2) = m ((c.tc : Thread nD τ).loc main_arg2) :=
  ((h c).1 2).trans (((dats m 0 c).arrAt_in 2 rfl _).trans ((A_eq m c 2).trans (V_main_arg2 m c)))
/-- No window stages `main_arg3` (the host prefix alone reads it): the region does not touch it. -/
theorem kept_main_arg3 (r : PUnit × MemSt nD τ sig (Elt F)) (h : Pipeline.FramePost cfgs (dats m) 0 (V m) r) (c : Dev nD) :
    r.2.mem ((c.tc : Thread nD τ).loc main_arg3) = m ((c.tc : Thread nD τ).loc main_arg3) :=
  ((h c).2 main_arg3 (Pipeline.mem_restRefs_of main_arg3 (by decide) (by decide))).trans (V_main_arg3 m c)
/-- Input window 7 stages `main_arg4` and never writes it back. -/
theorem kept_main_arg4 (r : PUnit × MemSt nD τ sig (Elt F)) (h : Pipeline.FramePost cfgs (dats m) 0 (V m) r) (c : Dev nD) :
    r.2.mem ((c.tc : Thread nD τ).loc main_arg4) = m ((c.tc : Thread nD τ).loc main_arg4) :=
  ((h c).1 7).trans (((dats m 0 c).arrAt_in 7 rfl _).trans ((A_eq m c 7).trans (V_main_arg4 m c)))
/-- No window stages `main_arg5` (the host prefix alone reads it): the region does not touch it. -/
theorem kept_main_arg5 (r : PUnit × MemSt nD τ sig (Elt F)) (h : Pipeline.FramePost cfgs (dats m) 0 (V m) r) (c : Dev nD) :
    r.2.mem ((c.tc : Thread nD τ).loc main_arg5) = m ((c.tc : Thread nD τ).loc main_arg5) :=
  ((h c).2 main_arg5 (Pipeline.mem_restRefs_of main_arg5 (by decide) (by decide))).trans (V_main_arg5 m c)
/-- Input window 8 stages `main_arg6` and never writes it back. -/
theorem kept_main_arg6 (r : PUnit × MemSt nD τ sig (Elt F)) (h : Pipeline.FramePost cfgs (dats m) 0 (V m) r) (c : Dev nD) :
    r.2.mem ((c.tc : Thread nD τ).loc main_arg6) = m ((c.tc : Thread nD τ).loc main_arg6) :=
  ((h c).1 8).trans (((dats m 0 c).arrAt_in 8 rfl _).trans ((A_eq m c 8).trans (V_main_arg6 m c)))
/-- No window stages `main_arg7` (the host prefix alone reads it): the region does not touch it. -/
theorem kept_main_arg7 (r : PUnit × MemSt nD τ sig (Elt F)) (h : Pipeline.FramePost cfgs (dats m) 0 (V m) r) (c : Dev nD) :
    r.2.mem ((c.tc : Thread nD τ).loc main_arg7) = m ((c.tc : Thread nD τ).loc main_arg7) :=
  ((h c).2 main_arg7 (Pipeline.mem_restRefs_of main_arg7 (by decide) (by decide))).trans (V_main_arg7 m c)
/-- Input window 11 stages `main_arg8` and never writes it back. -/
theorem kept_main_arg8 (r : PUnit × MemSt nD τ sig (Elt F)) (h : Pipeline.FramePost cfgs (dats m) 0 (V m) r) (c : Dev nD) :
    r.2.mem ((c.tc : Thread nD τ).loc main_arg8) = m ((c.tc : Thread nD τ).loc main_arg8) :=
  ((h c).1 11).trans (((dats m 0 c).arrAt_in 11 rfl _).trans ((A_eq m c 11).trans (V_main_arg8 m c)))
/-- No window stages `main_arg9` (the host prefix alone reads it): the region does not touch it. -/
theorem kept_main_arg9 (r : PUnit × MemSt nD τ sig (Elt F)) (h : Pipeline.FramePost cfgs (dats m) 0 (V m) r) (c : Dev nD) :
    r.2.mem ((c.tc : Thread nD τ).loc main_arg9) = m ((c.tc : Thread nD τ).loc main_arg9) :=
  ((h c).2 main_arg9 (Pipeline.mem_restRefs_of main_arg9 (by decide) (by decide))).trans (V_main_arg9 m c)
/-- Input window 12 stages `main_arg10` and never writes it back. -/
theorem kept_main_arg10 (r : PUnit × MemSt nD τ sig (Elt F)) (h : Pipeline.FramePost cfgs (dats m) 0 (V m) r) (c : Dev nD) :
    r.2.mem ((c.tc : Thread nD τ).loc main_arg10) = m ((c.tc : Thread nD τ).loc main_arg10) :=
  ((h c).1 12).trans (((dats m 0 c).arrAt_in 12 rfl _).trans ((A_eq m c 12).trans (V_main_arg10 m c)))
/-- No window stages `main_arg11` (the host prefix alone reads it): the region does not touch it. -/
theorem kept_main_arg11 (r : PUnit × MemSt nD τ sig (Elt F)) (h : Pipeline.FramePost cfgs (dats m) 0 (V m) r) (c : Dev nD) :
    r.2.mem ((c.tc : Thread nD τ).loc main_arg11) = m ((c.tc : Thread nD τ).loc main_arg11) :=
  ((h c).2 main_arg11 (Pipeline.mem_restRefs_of main_arg11 (by decide) (by decide))).trans (V_main_arg11 m c)
/-- Input window 14 stages `main_arg12` and never writes it back. -/
theorem kept_main_arg12 (r : PUnit × MemSt nD τ sig (Elt F)) (h : Pipeline.FramePost cfgs (dats m) 0 (V m) r) (c : Dev nD) :
    r.2.mem ((c.tc : Thread nD τ).loc main_arg12) = m ((c.tc : Thread nD τ).loc main_arg12) :=
  ((h c).1 14).trans (((dats m 0 c).arrAt_in 14 rfl _).trans ((A_eq m c 14).trans (V_main_arg12 m c)))

/-- THE FRAME: every weakly fair execution of the program terminates without a fault, and the thirteen
    argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c⟩) (run_main m ρ)

end Cert.Kernel.GenH

end
-- ==== Proof.KComp.lean ====
/-
  The kernel body's value as a composition of its payloads, stage by stage, over the sixteen
  vectors it loads from its input windows: the adjacency, the two layers' hidden-state blocks, the
  input block, and the weights and biases. Each definition is one value of the body that a later
  stretch reads; the last three are what the body stores: the two new hidden states, flat per batch
  row, and the projection.
-/
import proofs.«145957_g44504451121623_cont_8to1_c_180_24_alg».proof.Proof.Gen.KernelIdeal.Skeleton

noncomputable section

namespace Cert.KernelIdeal.Comp

open Idealize.ShloMosaic Cert.KernelIdeal Cert.KernelIdeal.Gen

variable {F : FTy → Type} [FloatOps F]

/-- The vectors the body loads from its input windows' staging buffers. -/
structure Loads (F : FTy → Type) [FloatOps F] where
  v0 : Vec F S512x512 .f32
  v5 : Vec F S1x8x32768 .f32
  v10 : Vec F S8x512 .f32
  v25 : Vec F S3x1x128 .bf16
  v27 : Vec F S192x128 .bf16
  v29 : Vec F S128 .f32
  v79 : Vec F S3x1x64 .bf16
  v81 : Vec F S192x64 .bf16
  v83 : Vec F S64 .f32
  v134 : Vec F S1x8x32768 .f32
  v153 : Vec F S384x128 .bf16
  v155 : Vec F S128 .f32
  v179 : Vec F S384x64 .bf16
  v181 : Vec F S64 .f32
  v219 : Vec F S1x64 .f32
  v225 : Vec F S1 .f32

variable (L : Loads F)

def w1 : FVec F S512x512 .bf16 := k0_pay1 L.v0
def w4 : FVec F S512x512 .bf16 := k0_pay2 L.v0
def w9 : FVec F S4096x64 .f32 := k0_pay3 L.v5
def w19 : FVec F S512x8x1 .f32 := k0_pay7 L.v10
def w21 : FVec F S512x8x1 .f32 := k0_pay8 L.v0 L.v10
def w23 : FVec F S512x8x1 .f32 := k0_pay9 L.v0 L.v10
def w26 : FVec F S3x1x128 .bf16 := k0_pay11 L.v25
def w28 : FVec F S192x128 .bf16 := k0_pay12 L.v27
def w35 : FVec F S512x512 .bf16 := k0_pay14 L.v0 L.v5
def w38 : FVec F S512x512 .bf16 := k0_pay15 L.v0 L.v5
def w39 : FVec F S512x8x64 .bf16 := k0_pay16 L.v5

def w76 : FVec F S4096x64 .f32 := k0_pay18 (w19 L) (w21 L) (w23 L) (w26 L) (w28 L) L.v29 (w35 L) (w38 L) (w39 L)
def w78 : FVec F S4096x64 .bf16 := k0_pay19 (w9 L) (w19 L) (w21 L) (w23 L) (w26 L) (w28 L) L.v29 (w35 L) (w38 L) (w39 L)
def w80 : FVec F S3x1x64 .bf16 := k0_pay20 L.v79
def w82 : FVec F S192x64 .bf16 := k0_pay21 L.v81
def w87 : FVec F S512x512 .bf16 := k0_pay22 (w9 L) (w19 L) (w21 L) (w23 L) (w26 L) (w28 L) L.v29 (w35 L) (w38 L) (w39 L)
def w89 : FVec F S512x512 .bf16 := k0_pay23 (w1 L) (w9 L) (w19 L) (w21 L) (w23 L) (w26 L) (w28 L) L.v29 (w35 L) (w38 L) (w39 L)
def wcst26 : FVec F S512x512 .f32 := constant S512x512 .f32 0x00000000#32

def w133 : FVec F S4096x64 .f32 :=
  k0_pay24 (w4 L) (w9 L) (w19 L) (w21 L) (w23 L) (w76 L) (w78 L) (w80 L) (w82 L) L.v83 (w87 L) (w89 L) wcst26
def w138 : FVec F S4096x64 .f32 := k0_pay25 L.v134
def w139 : FVec F S4096x64 .bf16 :=
  k0_pay26 (w4 L) (w9 L) (w19 L) (w21 L) (w23 L) (w76 L) (w78 L) (w80 L) (w82 L) L.v83 (w87 L) (w89 L) wcst26
def w143 : FVec F S512x512 .bf16 :=
  k0_pay27 (w4 L) (w9 L) (w19 L) (w21 L) (w23 L) (w76 L) (w78 L) (w80 L) (w82 L) L.v83 (w87 L) (w89 L) wcst26

def w149 : FVec F S512x8x64 .bf16 := k0_pay29 (w139 L)
def w150 : FVec F S512x8x64 .bf16 := k0_pay30 (w1 L) (w143 L)
def w151 : FVec F S512x8x64 .bf16 := k0_pay31 (w1 L) (w4 L) (w143 L)
def w176 : FVec F S4096x64 .f32 := k0_pay33 (w1 L) (w4 L) (w138 L) (w139 L) (w143 L) L.v153 L.v155
def w178 : FVec F S4096x64 .bf16 := k0_pay34 (w1 L) (w4 L) (w138 L) (w139 L) (w143 L) L.v153 L.v155
def w180 : FVec F S384x64 .bf16 := k0_pay35 L.v179
def w185 : FVec F S512x512 .bf16 := k0_pay36 (w1 L) (w4 L) (w138 L) (w139 L) (w143 L) L.v153 L.v155
def w187 : FVec F S512x512 .bf16 := k0_pay37 (w1 L) (w4 L) (w138 L) (w139 L) (w143 L) L.v153 L.v155
def w188 : FVec F S512x512 .f32 := k0_pay38 (w1 L) (w4 L) (w138 L) (w139 L) (w143 L) L.v153 L.v155

/-- What the body stores at row 0 of the hidden-state output block: layer 0's new state. -/
def hs0 : FVec F S1x8x32768 .f32 := k0_pay40 (w133 L)
/-- What it stores at row 1: layer 1's new state. -/
def hs1 : FVec F S1x8x32768 .f32 :=
  k0_pay41 (w138 L) (w149 L) (w150 L) (w151 L) (w176 L) (w178 L) (w180 L) L.v181 (w185 L) (w187 L) (w188 L)
/-- What it stores into the projection output block. -/
def out : FVec F S8x512 .f32 :=
  k0_pay42 (w138 L) (w149 L) (w150 L) (w151 L) (w176 L) (w178 L) (w180 L) L.v181 (w185 L) (w187 L) (w188 L) L.v219 L.v225

end Cert.KernelIdeal.Comp

end
-- ==== Proof.FrameKI.lean ====
/-
  The frame of the idealized kernel program, written against the pipeline library's frame theorem.

  The program is a prefix of host operations (reshapes, roundings, slices, transposes and four
  concatenations that lay the weights out), then one pipelined region of four grid points over
  seventeen windows. The frame says: every weakly fair run terminates without a fault and leaves the
  thirteen argument arrays as they were launched. The argument has four steps.

  * The host prefix writes only intermediate buffers, so at the region's entry every argument array
    still holds its launch contents (`V_main_argK`).
  * At a grid point the body loads whole rectangles of its fifteen input staging buffers, computes,
    and stores into the two output staging buffers: the projection block whole, and the
    hidden-state block as its two rows, which together tile it. So after the body an output buffer
    is a function of the input blocks alone (`out0_15`, `out0_16`), and an input buffer is unchanged.
  * That is the body obligation of the pipeline's proof data (`dats`), at every point.
  * The library's frame theorem then gives the run, and the run's post read at the argument arrays
    is the claim: a staged input array is never written back, an unstaged one is not touched.
-/
import proofs.«145957_g44504451121623_cont_8to1_c_180_24_alg».proof.Proof.Gen.KernelIdeal.Launch
import proofs.«145957_g44504451121623_cont_8to1_c_180_24_alg».proof.Proof.Gen.KernelIdeal.Skeleton
import proofs.«145957_g44504451121623_cont_8to1_c_180_24_alg».proof.Proof.Gen.KernelIdeal.Points
import proofs.«145957_g44504451121623_cont_8to1_c_180_24_alg».proof.Proof.KComp
import Idealize.ShloMosaic.Lib.Pipeline.FrameBody
import Idealize.ShloMosaic.Lib.Ring
import Idealize.ShloMosaic.Lib.Tactic

-- membership of an index in a rectangle with an axis of 32768 coordinates recurses once per coordinate
set_option maxRecDepth 16384

noncomputable section

namespace Cert.KernelIdeal.GenH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch memory after the host prefix. -/
abbrev V (c : Dev nD) (b : Ref sig .tc) : Buf (Elt F) ((c : Thread nD τ).loc b) :=
  StableHlo.after hostOps0 (fun b => m (c, b)) b

/-- No host operation of the prefix allocates a buffer. -/
theorem hostOps0_fresh : (hostOps0 : List (HloOp τ sig (Elt F))).Forall fun op => op.fresh = ∅ := by
  simp only [List.Forall]; repeat' constructor

/-- The program is the host prefix followed by the region, so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that no operation of the prefix writes is found as launched: each operation writes one
    buffer, its result, and the result is an intermediate buffer, never `b`. -/
local macro "prefix_keeps" : tactic => `(tactic|
  exact StableHlo.after_of_forall_not_mem _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      StableHlo.nary_writes, Finset.mem_singleton]
    repeat' apply And.intro
    all_goals exact StableHlo.devRef_ne_of_ne (by decide))))

theorem V_main_arg0 (c : Dev nD) : V m c main_arg0 = m ((c : Thread nD τ).loc main_arg0) := by
  show StableHlo.after hostOps0 (fun b => m (c, b)) (Proc.devRef .tc main_arg0) = _
  prefix_keeps
theorem V_main_arg1 (c : Dev nD) : V m c main_arg1 = m ((c : Thread nD τ).loc main_arg1) := by
  show StableHlo.after hostOps0 (fun b => m (c, b)) (Proc.devRef .tc main_arg1) = _
  prefix_keeps
theorem V_main_arg2 (c : Dev nD) : V m c main_arg2 = m ((c : Thread nD τ).loc main_arg2) := by
  show StableHlo.after hostOps0 (fun b => m (c, b)) (Proc.devRef .tc main_arg2) = _
  prefix_keeps
theorem V_main_arg3 (c : Dev nD) : V m c main_arg3 = m ((c : Thread nD τ).loc main_arg3) := by
  show StableHlo.after hostOps0 (fun b => m (c, b)) (Proc.devRef .tc main_arg3) = _
  prefix_keeps
theorem V_main_arg4 (c : Dev nD) : V m c main_arg4 = m ((c : Thread nD τ).loc main_arg4) := by
  show StableHlo.after hostOps0 (fun b => m (c, b)) (Proc.devRef .tc main_arg4) = _
  prefix_keeps
theorem V_main_arg5 (c : Dev nD) : V m c main_arg5 = m ((c : Thread nD τ).loc main_arg5) := by
  show StableHlo.after hostOps0 (fun b => m (c, b)) (Proc.devRef .tc main_arg5) = _
  prefix_keeps
theorem V_main_arg6 (c : Dev nD) : V m c main_arg6 = m ((c : Thread nD τ).loc main_arg6) := by
  show StableHlo.after hostOps0 (fun b => m (c, b)) (Proc.devRef .tc main_arg6) = _
  prefix_keeps
theorem V_main_arg7 (c : Dev nD) : V m c main_arg7 = m ((c : Thread nD τ).loc main_arg7) := by
  show StableHlo.after hostOps0 (fun b => m (c, b)) (Proc.devRef .tc main_arg7) = _
  prefix_keeps
theorem V_main_arg8 (c : Dev nD) : V m c main_arg8 = m ((c : Thread nD τ).loc main_arg8) := by
  show StableHlo.after hostOps0 (fun b => m (c, b)) (Proc.devRef .tc main_arg8) = _
  prefix_keeps
theorem V_main_arg9 (c : Dev nD) : V m c main_arg9 = m ((c : Thread nD τ).loc main_arg9) := by
  show StableHlo.after hostOps0 (fun b => m (c, b)) (Proc.devRef .tc main_arg9) = _
  prefix_keeps
theorem V_main_arg10 (c : Dev nD) : V m c main_arg10 = m ((c : Thread nD τ).loc main_arg10) := by
  show StableHlo.after hostOps0 (fun b => m (c, b)) (Proc.devRef .tc main_arg10) = _
  prefix_keeps
theorem V_main_arg11 (c : Dev nD) : V m c main_arg11 = m ((c : Thread nD τ).loc main_arg11) := by
  show StableHlo.after hostOps0 (fun b => m (c, b)) (Proc.devRef .tc main_arg11) = _
  prefix_keeps
theorem V_main_arg12 (c : Dev nD) : V m c main_arg12 = m ((c : Thread nD τ).loc main_arg12) := by
  show StableHlo.after hostOps0 (fun b => m (c, b)) (Proc.devRef .tc main_arg12) = _
  prefix_keeps

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The rectangles the body reads and writes

Every load is of a whole staging buffer, except the two of the hidden-state input block, which read
its row 0 and its row 1 (one layer each). The stores are of the whole projection block and of the two
rows of the hidden-state output block. -/

abbrev r0 : Rect S8x512 := Rect.unit (s := S8x512) ![0, 0] S8x512.size inb_S8x512_S8x512_0_0
abbrev r1 : Rect S512x512 := Rect.unit (s := S512x512) ![0, 0] S512x512.size inb_S512x512_S512x512_0_0
abbrev r2_0 : Rect S2x8x32768 := Rect.unit (s := S2x8x32768) ![0, 0, 0] S1x8x32768.size inb_S2x8x32768_S1x8x32768_0_0_0
abbrev r2_1 : Rect S2x8x32768 := Rect.unit (s := S2x8x32768) ![1, 0, 0] S1x8x32768.size inb_S2x8x32768_S1x8x32768_1_0_0
abbrev r3 : Rect S3x1x128 := Rect.unit (s := S3x1x128) ![0, 0, 0] S3x1x128.size inb_S3x1x128_S3x1x128_0_0_0
abbrev r4 : Rect S192x128 := Rect.unit (s := S192x128) ![0, 0] S192x128.size inb_S192x128_S192x128_0_0
abbrev r5 : Rect S3x1x64 := Rect.unit (s := S3x1x64) ![0, 0, 0] S3x1x64.size inb_S3x1x64_S3x1x64_0_0_0
abbrev r6 : Rect S192x64 := Rect.unit (s := S192x64) ![0, 0] S192x64.size inb_S192x64_S192x64_0_0
abbrev r7 : Rect S128 := Rect.unit (s := S128) ![0] S128.size inb_S128_S128_0
abbrev r8 : Rect S64 := Rect.unit (s := S64) ![0] S64.size inb_S64_S64_0
abbrev r9 : Rect S384x128 := Rect.unit (s := S384x128) ![0, 0] S384x128.size inb_S384x128_S384x128_0_0
abbrev r10 : Rect S384x64 := Rect.unit (s := S384x64) ![0, 0] S384x64.size inb_S384x64_S384x64_0_0
abbrev r13 : Rect S1x64 := Rect.unit (s := S1x64) ![0, 0] S1x64.size inb_S1x64_S1x64_0_0
abbrev r14 : Rect S1 := Rect.unit (s := S1) ![0] S1.size inb_S1_S1_0
/-- The projection output block, whole. -/
abbrev r15 : Rect S8x512 := r0
/-- Row 0 and row 1 of the hidden-state output block. -/
abbrev r16_0 : Rect S2x8x32768 := r2_0
abbrev r16_1 : Rect S2x8x32768 := r2_1

/-! ## What the body leaves in each output window's buffer -/

/-- The sixteen vectors the body loads, from the contents `xW` of the fifteen input windows' staging
    buffers: the input block, the adjacency, the two rows of the hidden-state block, and the weights
    and biases of the two layers and of the projection. -/
def loads (x0 : Vec F S8x512 .f32) (x1 : Vec F S512x512 .f32) (x2 : Vec F S2x8x32768 .f32) (x3 : Vec F S3x1x128 .bf16) (x4 : Vec F S192x128 .bf16) (x5 : Vec F S3x1x64 .bf16) (x6 : Vec F S192x64 .bf16) (x7 : Vec F S128 .f32) (x8 : Vec F S64 .f32) (x9 : Vec F S384x128 .bf16) (x10 : Vec F S384x64 .bf16) (x11 : Vec F S128 .f32) (x12 : Vec F S64 .f32) (x13 : Vec F S1x64 .f32) (x14 : Vec F S1 .f32) : Comp.Loads F where
  v0 := View.ld x1 r1
  v5 := View.ld x2 r2_0
  v10 := View.ld x0 r0
  v25 := View.ld x3 r3
  v27 := View.ld x4 r4
  v29 := View.ld x7 r7
  v79 := View.ld x5 r5
  v81 := View.ld x6 r6
  v83 := View.ld x8 r8
  v134 := View.ld x2 r2_1
  v153 := View.ld x9 r9
  v155 := View.ld x11 r7
  v179 := View.ld x10 r10
  v181 := View.ld x12 r8
  v219 := View.ld x13 r13
  v225 := View.ld x14 r14

/-- The projection output buffer after the body: its one store, of the whole block. -/
def out0_15 (x0 : Vec F S8x512 .f32) (x1 : Vec F S512x512 .f32) (x2 : Vec F S2x8x32768 .f32) (x3 : Vec F S3x1x128 .bf16) (x4 : Vec F S192x128 .bf16) (x5 : Vec F S3x1x64 .bf16) (x6 : Vec F S192x64 .bf16) (x7 : Vec F S128 .f32) (x8 : Vec F S64 .f32) (x9 : Vec F S384x128 .bf16) (x10 : Vec F S384x64 .bf16) (x11 : Vec F S128 .f32) (x12 : Vec F S64 .f32) (x13 : Vec F S1x64 .f32) (x14 : Vec F S1 .f32) : Vec F S8x512 .f32 :=
  View.canon [⟨r15, Comp.out (loads x0 x1 x2 x3 x4 x5 x6 x7 x8 x9 x10 x11 x12 x13 x14)⟩]

/-- The hidden-state output buffer after the body: its two stores, the later one first — row 1 holds
    layer 1's new state, row 0 layer 0's. -/
def out0_16 (x0 : Vec F S8x512 .f32) (x1 : Vec F S512x512 .f32) (x2 : Vec F S2x8x32768 .f32) (x3 : Vec F S3x1x128 .bf16) (x4 : Vec F S192x128 .bf16) (x5 : Vec F S3x1x64 .bf16) (x6 : Vec F S192x64 .bf16) (x7 : Vec F S128 .f32) (x8 : Vec F S64 .f32) (x9 : Vec F S384x128 .bf16) (x10 : Vec F S384x64 .bf16) (x11 : Vec F S128 .f32) (x12 : Vec F S64 .f32) (x13 : Vec F S1x64 .f32) (x14 : Vec F S1 .f32) : Vec F S2x8x32768 .f32 :=
  View.canon [⟨r16_1, Comp.hs1 (loads x0 x1 x2 x3 x4 x5 x6 x7 x8 x9 x10 x11 x12 x13 x14)⟩, ⟨r16_0, Comp.hs0 (loads x0 x1 x2 x3 x4 x5 x6 x7 x8 x9 x10 x11 x12 x13 x14)⟩]

/-- The one store of the projection block covers it. -/
theorem cover0_15 (p0 : Vec F S8x512 .f32) (y : S8x512.Idx) :
    ∃ pc ∈ ([⟨r15, p0⟩] : List (View.Piece (Elt F) S8x512 .f32)), y ∈ pc.1.set :=
  View.cover_of_tiled [⟨r15, p0⟩] S8x512.size (by rfl) y

/-- The two rows tile the hidden-state block, so the two stores cover it. -/
theorem cover0_16 (p0 p1 : Vec F S1x8x32768 .f32) (y : S2x8x32768.Idx) :
    ∃ pc ∈ ([⟨r16_1, p0⟩, ⟨r16_0, p1⟩] : List (View.Piece (Elt F) S2x8x32768 .f32)), y ∈ pc.1.set :=
  View.cover_of_tiled [⟨r16_1, p0⟩, ⟨r16_0, p1⟩] S1x8x32768.size (by rfl) y

/-! ## The body's triple -/

set_option maxHeartbeats 4000000 in
/-- The body on whole staging buffers, the inputs' at contents `xW` and the outputs' at anything, runs to
    a state with the inputs' as they were and each output's at `out0_W` of the inputs'. Its loads read
    rectangles of buffers held at known contents (the two of the output buffers read values nothing
    uses); each output buffer ends as the list of the stores into it, which cover it. -/
theorem sound_kernel (c : Dev nD) (E : Set ℕ) (i : grid0.Coords) (arg1 : Memref sig .tc .vmem S8x512 .f32) (harg1 : arg1.IsWhole) (arg2 : Memref sig .tc .vmem S512x512 .f32) (harg2 : arg2.IsWhole) (arg3 : Memref sig .tc .vmem S2x8x32768 .f32) (harg3 : arg3.IsWhole) (arg4 : Memref sig .tc .vmem S3x1x128 .bf16) (harg4 : arg4.IsWhole) (arg5 : Memref sig .tc .vmem S192x128 .bf16) (harg5 : arg5.IsWhole) (arg6 : Memref sig .tc .vmem S3x1x64 .bf16) (harg6 : arg6.IsWhole) (arg7 : Memref sig .tc .vmem S192x64 .bf16) (harg7 : arg7.IsWhole) (arg8 : Memref sig .tc .vmem S128 .f32) (harg8 : arg8.IsWhole) (arg9 : Memref sig .tc .vmem S64 .f32) (harg9 : arg9.IsWhole) (arg10 : Memref sig .tc .vmem S384x128 .bf16) (harg10 : arg10.IsWhole) (arg11 : Memref sig .tc .vmem S384x64 .bf16) (harg11 : arg11.IsWhole) (arg12 : Memref sig .tc .vmem S128 .f32) (harg12 : arg12.IsWhole) (arg13 : Memref sig .tc .vmem S64 .f32) (harg13 : arg13.IsWhole) (arg14 : Memref sig .tc .vmem S1x64 .f32) (harg14 : arg14.IsWhole) (arg15 : Memref sig .tc .vmem S1 .f32) (harg15 : arg15.IsWhole) (arg16 : Memref sig .tc .vmem S8x512 .f32) (harg16 : arg16.IsWhole) (arg17 : Memref sig .tc .vmem S2x8x32768 .f32) (harg17 : arg17.IsWhole)
    (x0 : Vec F S8x512 .f32) (x1 : Vec F S512x512 .f32) (x2 : Vec F S2x8x32768 .f32) (x3 : Vec F S3x1x128 .bf16) (x4 : Vec F S192x128 .bf16) (x5 : Vec F S3x1x64 .bf16) (x6 : Vec F S192x64 .bf16) (x7 : Vec F S128 .f32) (x8 : Vec F S64 .f32) (x9 : Vec F S384x128 .bf16) (x10 : Vec F S384x64 .bf16) (x11 : Vec F S128 .f32) (x12 : Vec F S64 .f32) (x13 : Vec F S1x64 .f32) (x14 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out0_15 x0 x1 x2 x3 x4 x5 x6 x7 x8 x9 x10 x11 x12 x13 x14) ∗ owns (c : Thread nD τ) arg17 fullShare (out0_16 x0 x1 x2 x3 x4 x5 x6 x7 x8 x9 x10 x11 x12 x13 x14)) -∗ K ⟨⟩))
      ⊢ wp frame (wpE (defs₀ (F := F)) Variants.none c none) E (cc0__dcgru_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__dcgru_body_eq_skeleton]; unfold cc0__dcgru_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    -- the one store covers the block; what was stored is the composition's projection, name by name
    refine (View.read_writes_eq_canon _ _ _ (cover0_15 _)).trans ?_
    sl_unfold_run_names
    dsimp only [out0_15, Comp.w1, Comp.w4, Comp.w9, Comp.w19, Comp.w21, Comp.w23, Comp.w26, Comp.w28, Comp.w35, Comp.w38, Comp.w39, Comp.w76, Comp.w78, Comp.w80, Comp.w82, Comp.w87, Comp.w89, Comp.wcst26, Comp.w133, Comp.w138, Comp.w139, Comp.w143, Comp.w149, Comp.w150, Comp.w151, Comp.w176, Comp.w178, Comp.w180, Comp.w185, Comp.w187, Comp.w188, Comp.hs0, Comp.hs1, Comp.out, loads, View.readAt_eq_ld]
    first | done | with_reducible rfl | fail "the run's payload is not the composition's"
  iexists _; isplitr
  swap; · iexact H16
  ipureintro
  -- the two stores cover the block; what was stored are the composition's two new hidden states
  refine (View.read_writes_eq_canon _ _ _ (cover0_16 _ _)).trans ?_
  sl_unfold_run_names
  dsimp only [out0_16, Comp.w1, Comp.w4, Comp.w9, Comp.w19, Comp.w21, Comp.w23, Comp.w26, Comp.w28, Comp.w35, Comp.w38, Comp.w39, Comp.w76, Comp.w78, Comp.w80, Comp.w82, Comp.w87, Comp.w89, Comp.wcst26, Comp.w133, Comp.w138, Comp.w139, Comp.w143, Comp.w149, Comp.w150, Comp.w151, Comp.w176, Comp.w178, Comp.w180, Comp.w185, Comp.w187, Comp.w188, Comp.hs0, Comp.hs1, Comp.out, loads, View.readAt_eq_ld]
  first | done | with_reducible rfl | fail "the run's payload is not the composition's"

/-! ## The pipeline's proof data -/

/-- The proof data of the pipeline on core `c`: the arrays as the region finds them; after the body at
    point `t` each input's staging buffer still at its block and each output's at `out0_W` of the input
    blocks; the invariant that of a body touching nothing but its windows; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨_ + 17, h⟩ => absurd h (Nat.not_lt.2 (Nat.le_add_left _ _))
  Φ _ := Pipeline.ΦA spec0 c
  q _ := fullShare
  owed _ := 0

/-- The proof data's arrays are the region-entry contents (a projection: the fold `V` stays folded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]

/-- An input window's current staging buffer holds its block at every point, fetched there or not: where
    it is not fetched its block index has not moved and the body left the block in place. No input
    window is clipped or idle. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
      (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
      (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
      (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl)
      (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl)
      (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl)
      (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl)
      (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl)
      (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl)
      (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl)
      (fun t => by rw [after0_13]; unfold Dat.blockOf iblk; rw [A_eq]; try rfl) t d).trans
    (by unfold Dat.fetched Dat.blockOf iblk; rw [A_eq]; try rfl)
theorem before0_14 (c : Dev nD) (t : Fin cfg0.N) (d) : (dats m 0 c).before 14 t d = iblk m c 14 t :=
  ((dats m 0 c).before_in_eq_fetched 14 rfl (fun _ => rfl) (fun _ _ _ => rfl)
      (fun t => by rw [after0_14]; unfold Dat.blockOf iblk; rw [A_eq]; try rfl) t d).trans
    (by unfold Dat.fetched Dat.blockOf iblk; rw [A_eq]; try rfl)

/-! ## The body obligation -/

/-- What the body is called with at point `t`: the invariant, the core's debts, and every window's current
    staging buffer at what the pipeline left in it. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

/-- What it returns: the same, every buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t))

set_option maxHeartbeats 2000000 in
/-- The body at any point: the inputs' buffers hold their blocks, so the body's triple applies; the
    invariant and the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel c Set.univ (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the frame theorem's implicit arguments are determined by its conclusion only up to unfolding definitions in types
set_option backward.isDefEq.respectTransparency.types false in
/-- From any memory with zero counters, every weakly fair execution of the program terminates, every
    array of the pipeline ends at what the proof data computes and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-! ## The run's post read at the program's arrays

After the run an array a window stages holds what the proof data computes for it: for an input window
its contents at the region's entry, which for an argument array are the launch contents; an unscoped
buffer that no window stages holds what the region found. -/

/-- Input window 0 stages `main_arg0` and never writes it back. -/
theorem kept_main_arg0 (r : PUnit × MemSt nD τ sig (Elt F)) (h : Pipeline.FramePost cfgs (dats m) 0 (V m) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))
/-- Input window 1 stages `main_arg1` and never writes it back. -/
theorem kept_main_arg1 (r : PUnit × MemSt nD τ sig (Elt F)) (h : Pipeline.FramePost cfgs (dats m) 0 (V m) r) (c : Dev nD) :
    r.2.mem ((c.tc : Thread nD τ).loc main_arg1) = m ((c.tc : Thread nD τ).loc main_arg1) :=
  ((h c).1 1).trans (((dats m 0 c).arrAt_in 1 rfl _).trans ((A_eq m c 1).trans (V_main_arg1 m c)))
/-- Input window 2 stages `main_arg2` and never writes it back. -/
theorem kept_main_arg2 (r : PUnit × MemSt nD τ sig (Elt F)) (h : Pipeline.FramePost cfgs (dats m) 0 (V m) r) (c : Dev nD) :
    r.2.mem ((c.tc : Thread nD τ).loc main_arg2) = m ((c.tc : Thread nD τ).loc main_arg2) :=
  ((h c).1 2).trans (((dats m 0 c).arrAt_in 2 rfl _).trans ((A_eq m c 2).trans (V_main_arg2 m c)))
/-- No window stages `main_arg3` (the host prefix alone reads it): the region does not touch it. -/
theorem kept_main_arg3 (r : PUnit × MemSt nD τ sig (Elt F)) (h : Pipeline.FramePost cfgs (dats m) 0 (V m) r) (c : Dev nD) :
    r.2.mem ((c.tc : Thread nD τ).loc main_arg3) = m ((c.tc : Thread nD τ).loc main_arg3) :=
  ((h c).2 main_arg3 (Pipeline.mem_restRefs_of main_arg3 (by decide) (by decide))).trans (V_main_arg3 m c)
/-- Input window 7 stages `main_arg4` and never writes it back. -/
theorem kept_main_arg4 (r : PUnit × MemSt nD τ sig (Elt F)) (h : Pipeline.FramePost cfgs (dats m) 0 (V m) r) (c : Dev nD) :
    r.2.mem ((c.tc : Thread nD τ).loc main_arg4) = m ((c.tc : Thread nD τ).loc main_arg4) :=
  ((h c).1 7).trans (((dats m 0 c).arrAt_in 7 rfl _).trans ((A_eq m c 7).trans (V_main_arg4 m c)))
/-- No window stages `main_arg5` (the host prefix alone reads it): the region does not touch it. -/
theorem kept_main_arg5 (r : PUnit × MemSt nD τ sig (Elt F)) (h : Pipeline.FramePost cfgs (dats m) 0 (V m) r) (c : Dev nD) :
    r.2.mem ((c.tc : Thread nD τ).loc main_arg5) = m ((c.tc : Thread nD τ).loc main_arg5) :=
  ((h c).2 main_arg5 (Pipeline.mem_restRefs_of main_arg5 (by decide) (by decide))).trans (V_main_arg5 m c)
/-- Input window 8 stages `main_arg6` and never writes it back. -/
theorem kept_main_arg6 (r : PUnit × MemSt nD τ sig (Elt F)) (h : Pipeline.FramePost cfgs (dats m) 0 (V m) r) (c : Dev nD) :
    r.2.mem ((c.tc : Thread nD τ).loc main_arg6) = m ((c.tc : Thread nD τ).loc main_arg6) :=
  ((h c).1 8).trans (((dats m 0 c).arrAt_in 8 rfl _).trans ((A_eq m c 8).trans (V_main_arg6 m c)))
/-- No window stages `main_arg7` (the host prefix alone reads it): the region does not touch it. -/
theorem kept_main_arg7 (r : PUnit × MemSt nD τ sig (Elt F)) (h : Pipeline.FramePost cfgs (dats m) 0 (V m) r) (c : Dev nD) :
    r.2.mem ((c.tc : Thread nD τ).loc main_arg7) = m ((c.tc : Thread nD τ).loc main_arg7) :=
  ((h c).2 main_arg7 (Pipeline.mem_restRefs_of main_arg7 (by decide) (by decide))).trans (V_main_arg7 m c)
/-- Input window 11 stages `main_arg8` and never writes it back. -/
theorem kept_main_arg8 (r : PUnit × MemSt nD τ sig (Elt F)) (h : Pipeline.FramePost cfgs (dats m) 0 (V m) r) (c : Dev nD) :
    r.2.mem ((c.tc : Thread nD τ).loc main_arg8) = m ((c.tc : Thread nD τ).loc main_arg8) :=
  ((h c).1 11).trans (((dats m 0 c).arrAt_in 11 rfl _).trans ((A_eq m c 11).trans (V_main_arg8 m c)))
/-- No window stages `main_arg9` (the host prefix alone reads it): the region does not touch it. -/
theorem kept_main_arg9 (r : PUnit × MemSt nD τ sig (Elt F)) (h : Pipeline.FramePost cfgs (dats m) 0 (V m) r) (c : Dev nD) :
    r.2.mem ((c.tc : Thread nD τ).loc main_arg9) = m ((c.tc : Thread nD τ).loc main_arg9) :=
  ((h c).2 main_arg9 (Pipeline.mem_restRefs_of main_arg9 (by decide) (by decide))).trans (V_main_arg9 m c)
/-- Input window 12 stages `main_arg10` and never writes it back. -/
theorem kept_main_arg10 (r : PUnit × MemSt nD τ sig (Elt F)) (h : Pipeline.FramePost cfgs (dats m) 0 (V m) r) (c : Dev nD) :
    r.2.mem ((c.tc : Thread nD τ).loc main_arg10) = m ((c.tc : Thread nD τ).loc main_arg10) :=
  ((h c).1 12).trans (((dats m 0 c).arrAt_in 12 rfl _).trans ((A_eq m c 12).trans (V_main_arg10 m c)))
/-- No window stages `main_arg11` (the host prefix alone reads it): the region does not touch it. -/
theorem kept_main_arg11 (r : PUnit × MemSt nD τ sig (Elt F)) (h : Pipeline.FramePost cfgs (dats m) 0 (V m) r) (c : Dev nD) :
    r.2.mem ((c.tc : Thread nD τ).loc main_arg11) = m ((c.tc : Thread nD τ).loc main_arg11) :=
  ((h c).2 main_arg11 (Pipeline.mem_restRefs_of main_arg11 (by decide) (by decide))).trans (V_main_arg11 m c)
/-- Input window 14 stages `main_arg12` and never writes it back. -/
theorem kept_main_arg12 (r : PUnit × MemSt nD τ sig (Elt F)) (h : Pipeline.FramePost cfgs (dats m) 0 (V m) r) (c : Dev nD) :
    r.2.mem ((c.tc : Thread nD τ).loc main_arg12) = m ((c.tc : Thread nD τ).loc main_arg12) :=
  ((h c).1 14).trans (((dats m 0 c).arrAt_in 14 rfl _).trans ((A_eq m c 14).trans (V_main_arg12 m c)))

/-- After the run the projection's array is the proof data's for output window 15, -/
theorem post15 (r : PUnit × MemSt nD τ sig (Elt F)) (h : Pipeline.FramePost cfgs (dats m) 0 (V m) r) (c : Dev nD) :
    r.2.mem ((c.tc : Thread nD τ).loc main_v65_0) = (dats m 0 c).arrAt 15 cfg0.N :=
  (h c).1 15
/-- and the new hidden states' array that for output window 16. -/
theorem post16 (r : PUnit × MemSt nD τ sig (Elt F)) (h : Pipeline.FramePost cfgs (dats m) 0 (V m) r) (c : Dev nD) :
    r.2.mem ((c.tc : Thread nD τ).loc main_v65_1) = (dats m 0 c).arrAt 16 cfg0.N :=
  (h c).1 16

/-- THE FRAME: every weakly fair execution of the program terminates without a fault, and the thirteen
    argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c⟩) (run_main m ρ)

/-- The same run with the two result arrays named: each is what the proof data computes from the
    blocks the body left at the four points; the arguments are unchanged. -/
theorem run_blocks : θ_run defs (onTc (τ := τ) (main (F := F))) ⟨m, fun _ => 0, ρ⟩ fun r => ∀ c : Dev nD,
      r.2.mem ((c.tc : Thread nD τ).loc main_v65_0) = (dats m 0 c).arrAt 15 cfg0.N
      ∧ r.2.mem ((c.tc : Thread nD τ).loc main_v65_1) = (dats m 0 c).arrAt 16 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨post15 m r h c, post16 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c⟩) (run_main m ρ)

end Cert.KernelIdeal.GenH

end
-- ==== Proof.Spec.lean ====
/-
  The mathematics both programs compute, for ONE batch element, over plain index types.

  A diffusion-convolutional GRU cell acts on a signal over the 512 graph nodes. For a node signal
  `z` the three diffusion taps are `z`, `A z` and `2 · A (A z) − z` (a Chebyshev recurrence in
  the adjacency `A`). A graph convolution takes a family of feature columns (node signals), forms
  all three taps of every column, and contracts (feature, tap) against a weight `W f m o`, plus a
  bias. The cell's gates are the logistic of one such convolution over [input, state], its
  candidate the hyperbolic tangent of another over [input, reset · state], and the new state is
  `u · h + (1 − u) · c`. Nothing here mixes batch elements: every function below is of one batch
  element's node signals, which is why a kernel that walks the batch in chunks and a reference
  that takes the whole batch at once are instances of the same functions.
-/
import Idealize.ShloMosaic.PureOps.Ideal
import Idealize.ShloMosaic.PureOps.Ideal.Laws
import Idealize.ShloMosaic.Lib.ValueIdx

noncomputable section

namespace Cert.DcgruSpec

open Idealize.ShloMosaic

/-- The Chebyshev scale, as the word both programs print (the float 2). -/
def two : EReal := Ideal.ofBits .f32 0x40000000#32
/-- The unit of the convex combination, as the word both programs print (the float 1). -/
def one : EReal := Ideal.ofBits .f32 0x3F800000#32

variable (A : Fin 512 → Fin 512 → EReal)

/-- First diffusion tap: the adjacency applied to a node signal. -/
def tap1 (z : Fin 512 → EReal) (n : Fin 512) : EReal := ∑ k, A n k * z k
/-- Second tap, with the scale outside the sum: `2 · (A (A z)) − z`. -/
def tap2 (z : Fin 512 → EReal) (n : Fin 512) : EReal := two * (∑ k, A n k * tap1 A z k) - z n
/-- Second tap with the scale folded into the adjacency: `((A · 2) (A z)) − z`. -/
def tap2k (z : Fin 512 → EReal) (n : Fin 512) : EReal := (∑ k, (A n k * two) * tap1 A z k) - z n

/-- The three taps of a node signal. -/
def tap (m : Fin 3) (z : Fin 512 → EReal) : Fin 512 → EReal :=
  if m.val = 0 then z else if m.val = 1 then tap1 A z else tap2 A z

theorem tap_zero (z : Fin 512 → EReal) : tap A 0 z = z := rfl
theorem tap_one (z : Fin 512 → EReal) : tap A 1 z = tap1 A z := rfl
theorem tap_two (z : Fin 512 → EReal) : tap A 2 z = tap2 A z := rfl

/-- A graph convolution at node `n`, output channel `o`: every tap of every feature column against
    its weight, plus the bias. -/
def gconv {Fn O : ℕ} (col : Fin Fn → Fin 512 → EReal) (W : Fin Fn → Fin 3 → Fin O → EReal)
    (bias : Fin O → EReal) (n : Fin 512) (o : Fin O) : EReal :=
  (∑ f : Fin Fn, ∑ m : Fin 3, tap A m (col f) n * W f m o) + bias o

/-- Layer 0's feature columns: the scalar input, then the 64 state channels. -/
def col0 (x : Fin 512 → EReal) (s : Fin 512 → Fin 64 → EReal) (f : Fin 65) : Fin 512 → EReal :=
  fun k => if h : f.val = 0 then x k else s k ⟨f.val - 1, by omega⟩
/-- Layer 1's feature columns: the 64 input channels, then the 64 state channels. -/
def col1 (x : Fin 512 → Fin 64 → EReal) (s : Fin 512 → Fin 64 → EReal) (f : Fin 128) : Fin 512 → EReal :=
  fun k => if h : f.val < 64 then x k ⟨f.val, h⟩ else s k ⟨f.val - 64, by omega⟩

section Cell
variable {Fn : ℕ} (colOf : (Fin 512 → Fin 64 → EReal) → Fin Fn → Fin 512 → EReal)
  (h : Fin 512 → Fin 64 → EReal)
  (Wg : Fin Fn → Fin 3 → Fin 128 → EReal) (bg : Fin 128 → EReal)
  (Wc : Fin Fn → Fin 3 → Fin 64 → EReal) (bc : Fin 64 → EReal)

/-- Reset gate: channels 0..63 of the logistic of the gate convolution. -/
def gateR (n : Fin 512) (u : Fin 64) : EReal :=
  Ideal.logistic (gconv A (colOf h) Wg bg n ⟨u.val, by omega⟩)
/-- Update gate: channels 64..127. -/
def gateU (n : Fin 512) (u : Fin 64) : EReal :=
  Ideal.logistic (gconv A (colOf h) Wg bg n ⟨64 + u.val, by omega⟩)
/-- The state the candidate convolution sees: reset gate times state. -/
def resetH (n : Fin 512) (u : Fin 64) : EReal := gateR A colOf h Wg bg n u * h n u
/-- Candidate: tanh of the convolution over [input, reset · state]. -/
def cand (n : Fin 512) (u : Fin 64) : EReal :=
  Ideal.tanh (gconv A (colOf (resetH A colOf h Wg bg)) Wc bc n u)
/-- The new state: `u · h + (1 − u) · c`. -/
def newH (n : Fin 512) (u : Fin 64) : EReal :=
  gateU A colOf h Wg bg n u * h n u + (one - gateU A colOf h Wg bg n u) * cand A colOf h Wg bg Wc bc n u
end Cell

/-- The output projection of a state: channels against `Wp`, plus `bp`. -/
def proj (hn : Fin 512 → Fin 64 → EReal) (Wp : Fin 64 → EReal) (bp : EReal) (n : Fin 512) : EReal :=
  (∑ u, hn n u * Wp u) + bp

/-! ## The three index layouts that recur

A value over (node, batch-in-chunk, channel) is held by the kernel in a row form (rows = node · 8 +
batch, columns = channel), in a node-major form (rows = node, columns = batch · 64 + channel) and, in
the hidden-state arrays, flat per batch row (offset = node · 64 + channel). -/

/-- Row of the (node, batch-in-chunk) row form. -/
def rowIx (n : Fin 512) (bb : Fin 8) : Fin 4096 := ⟨n.val * 8 + bb.val, by omega⟩
/-- Column of the node-major form. -/
def colIx (bb : Fin 8) (u : Fin 64) : Fin 512 := ⟨bb.val * 64 + u.val, by omega⟩
/-- Offset of (node, channel) inside one batch row of a hidden-state array. -/
def flatIx (n : Fin 512) (u : Fin 64) : Fin 32768 := ⟨n.val * 64 + u.val, by omega⟩
/-- Row of the reference's (batch, node) row form over the whole batch. -/
def brow (b : Fin 32) (n : Fin 512) : Fin 16384 := ⟨b.val * 512 + n.val, by omega⟩
/-- The whole-batch row a chunk's row is: chunk `t`, row `bb` of the chunk. -/
def chunkRow (t : Fin 4) (bb : Fin 8) : Fin 32 := ⟨t.val * 8 + bb.val, by omega⟩

/-! ## The weight arrays as (feature, tap, channel) tables

A convolution's weight array has one row per (feature, tap), feature-major: row `f · 3 + m`. -/

/-- Layer 0's weight (195 rows = 65 features × 3 taps) as a table. -/
def wL0 {O : ℕ} (W : (⟨2, ![195, O]⟩ : Shape).Idx → EReal) (f : Fin 65) (m : Fin 3) (o : Fin O) : EReal :=
  W (ValueIdx.ix2 (⟨f.val * 3 + m.val, by omega⟩ : Fin 195) o)
/-- Layer 1's weight (384 rows = 128 features × 3 taps) as a table. -/
def wL1 {O : ℕ} (W : (⟨2, ![384, O]⟩ : Shape).Idx → EReal) (f : Fin 128) (m : Fin 3) (o : Fin O) : EReal :=
  W (ValueIdx.ix2 (⟨f.val * 3 + m.val, by omega⟩ : Fin 384) o)
/-- A bias vector as a function of the channel. -/
def bOf {O : ℕ} (b : (⟨1, ![O]⟩ : Shape).Idx → EReal) (o : Fin O) : EReal := b (ValueIdx.ix1 o)

/-- Column of the reference's node-major form over the whole batch, layer 0: feature · 32 + batch. -/
def fcol0 (f : Fin 65) (b : Fin 32) : Fin 2080 := ⟨f.val * 32 + b.val, by omega⟩
/-- The same for layer 1's 128 features. -/
def fcol1 (f : Fin 128) (b : Fin 32) : Fin 4096 := ⟨f.val * 32 + b.val, by omega⟩

end Cert.DcgruSpec

end
-- ==== Proof.KLay.lean ====
/-
  The kernel's first stretch at the ideal instance, read index by index: the adjacency and its
  doubled copy; the hidden-state block re-laid from (batch, node · 64 + channel) to the row form
  (node · 8 + batch, channel) and to the node-major form (node, batch · 64 + channel); the input
  block transposed to (node, batch); and the diffusion taps `A z`, `(A · 2)(A z) − z` of the
  input and of the hidden state, taken column by column. Changes of float format are the identity
  at this instance, and a product into a zero accumulator is the plain sum over the contracted
  node index.
-/
import proofs.«145957_g44504451121623_cont_8to1_c_180_24_alg».proof.Proof.Gen.KernelIdeal.Skeleton
import proofs.«145957_g44504451121623_cont_8to1_c_180_24_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Sem

open Idealize.ShloMosaic Idealize.ShloMosaic.ValueIdx Cert.KernelIdeal Cert.KernelIdeal.Gen Cert.DcgruSpec

/-- The adjacency block as a function of (row node, column node). -/
abbrev adj (v0 : Vec Ideal S512x512 .f32) : Fin 512 → Fin 512 → EReal := fun a b => v0 (ix2 a b)
/-- Batch row `bb` of the input block as a node signal. -/
abbrev xsig (v10 : Vec Ideal S8x512 .f32) (bb : Fin 8) : Fin 512 → EReal := fun k => v10 (ix2 bb k)
/-- Batch row `bb` of one layer's hidden-state block as (node, channel). -/
abbrev hsig (v5 : Vec Ideal S1x8x32768 .f32) (bb : Fin 8) : Fin 512 → Fin 64 → EReal :=
  fun k u => v5 (ix3 0 bb (flatIx k u))

/-! ### The layout operations of this stretch, each read at an index given by its coordinates

A reshape keeps the row-major position; the position of (node, batch, channel) in [512, 8, 64] is
`(n · 8 + bb) · 64 + u`, which is the position of (row `n · 8 + bb`, channel `u`) in [4096, 64] and of
(node `n`, column `bb · 64 + u`) in [512, 512]; the position of (batch, node, channel) in [8, 512, 64] is
`(bb · 512 + n) · 64 + u`, that of (batch, offset `n · 64 + u`) in [8, 32768]. A transpose by [1, 0, 2]
swaps the first two coordinates. -/

section Layouts
variable {α : Type}

/-- [512, 8, 64] → [4096, 64]: row `n · 8 + bb`, channel `u` reads (n, bb, u). -/
private theorem cast_row_of_nbu (x : S512x8x64.Idx → α) (h : S512x8x64.ShapeCasts S4096x64)
    (n : Fin 512) (bb : Fin 8) (u : Fin 64) :
    shapeCast S4096x64 x h (ix2 (rowIx n bb) u) = x (ix3 n bb u) :=
  shapeCast_apply x h _ _ (by
    rw [Shape.rowMajor_val_three, Shape.rowMajor_val_two]
    show (n.val * 8 + bb.val) * 64 + u.val = (n.val * 8 + bb.val) * 64 + u.val
    rfl)

/-- [4096, 64] → [512, 8, 64]: (n, bb, u) reads row `n · 8 + bb`, channel `u`. -/
private theorem cast_nbu_of_row (x : S4096x64.Idx → α) (h : S4096x64.ShapeCasts S512x8x64)
    (n : Fin 512) (bb : Fin 8) (u : Fin 64) :
    shapeCast S512x8x64 x h (ix3 n bb u) = x (ix2 (rowIx n bb) u) :=
  shapeCast_apply x h _ _ (by
    rw [Shape.rowMajor_val_three, Shape.rowMajor_val_two]
    show (n.val * 8 + bb.val) * 64 + u.val = (n.val * 8 + bb.val) * 64 + u.val
    rfl)

/-- [512, 8, 64] → [512, 512]: node `n`, column `bb · 64 + u` reads (n, bb, u). -/
private theorem cast_col_of_nbu (x : S512x8x64.Idx → α) (h : S512x8x64.ShapeCasts S512x512)
    (n : Fin 512) (bb : Fin 8) (u : Fin 64) :
    shapeCast S512x512 x h (ix2 n (colIx bb u)) = x (ix3 n bb u) :=
  shapeCast_apply x h _ _ (by
    rw [Shape.rowMajor_val_three, Shape.rowMajor_val_two]
    show (n.val * 8 + bb.val) * 64 + u.val = n.val * 512 + (bb.val * 64 + u.val)
    omega)

/-- [8, 512, 64] transposed by [1, 0, 2] to [512, 8, 64]: (n, bb, u) reads (bb, n, u). -/
private theorem tr_nbu_of_bnu (x : S8x512x64.Idx → α) (h : S8x512x64.Transposes [1, 0, 2] S512x8x64)
    (n : Fin 512) (bb : Fin 8) (u : Fin 64) :
    transpose S512x8x64 [1, 0, 2] x h (ix3 n bb u) = x (ix3 bb n u) :=
  transpose_apply _ x h _ _ (fun b => match b with
    | ⟨0, _⟩ => rfl
    | ⟨1, _⟩ => rfl
    | ⟨2, _⟩ => rfl)

/-- [512, 8, 64] transposed by [1, 0, 2] to [8, 512, 64]: (bb, n, u) reads (n, bb, u). -/
private theorem tr_bnu_of_nbu (x : S512x8x64.Idx → α) (h : S512x8x64.Transposes [1, 0, 2] S8x512x64)
    (bb : Fin 8) (n : Fin 512) (u : Fin 64) :
    transpose S8x512x64 [1, 0, 2] x h (ix3 bb n u) = x (ix3 n bb u) :=
  transpose_apply _ x h _ _ (fun b => match b with
    | ⟨0, _⟩ => rfl
    | ⟨1, _⟩ => rfl
    | ⟨2, _⟩ => rfl)

/-- [8, 32768] → [8, 512, 64]: (bb, n, u) reads batch row `bb` at offset `n · 64 + u`. -/
private theorem cast_bnu_of_flat (x : S8x32768.Idx → α) (h : S8x32768.ShapeCasts S8x512x64)
    (bb : Fin 8) (n : Fin 512) (u : Fin 64) :
    shapeCast S8x512x64 x h (ix3 bb n u) = x (ix2 bb (flatIx n u)) :=
  shapeCast_apply x h _ _ (by
    rw [Shape.rowMajor_val_three, Shape.rowMajor_val_two]
    show bb.val * 32768 + (n.val * 64 + u.val) = (bb.val * 512 + n.val) * 64 + u.val
    omega)

/-- [8, 512, 64] → [8, 32768]: batch row `bb` at offset `n · 64 + u` reads (bb, n, u). -/
private theorem cast_flat_of_bnu (x : S8x512x64.Idx → α) (h : S8x512x64.ShapeCasts S8x32768)
    (bb : Fin 8) (n : Fin 512) (u : Fin 64) :
    shapeCast S8x32768 x h (ix2 bb (flatIx n u)) = x (ix3 bb n u) :=
  shapeCast_apply x h _ _ (by
    rw [Shape.rowMajor_val_three, Shape.rowMajor_val_two]
    show (bb.val * 512 + n.val) * 64 + u.val = bb.val * 32768 + (n.val * 64 + u.val)
    omega)

/-- [1, 8, 32768] → [8, 32768]: the leading unit axis is dropped. -/
private theorem cast_drop_unit (x : S1x8x32768.Idx → α) (h : S1x8x32768.ShapeCasts S8x32768)
    (bb : Fin 8) (f : Fin 32768) :
    shapeCast S8x32768 x h (ix2 bb f) = x (ix3 0 bb f) :=
  shapeCast_apply x h _ _ (by
    rw [Shape.rowMajor_val_three, Shape.rowMajor_val_two]
    show (0 * 8 + bb.val) * 32768 + f.val = bb.val * 32768 + f.val
    omega)

/-- [8, 32768] → [1, 8, 32768]: the leading unit axis is added. -/
private theorem cast_add_unit (x : S8x32768.Idx → α) (h : S8x32768.ShapeCasts S1x8x32768)
    (bb : Fin 8) (f : Fin 32768) :
    shapeCast S1x8x32768 x h (ix3 0 bb f) = x (ix2 bb f) :=
  shapeCast_apply x h _ _ (by
    rw [Shape.rowMajor_val_three, Shape.rowMajor_val_two]
    show bb.val * 32768 + f.val = (0 * 8 + bb.val) * 32768 + f.val
    omega)

/-- [8, 512] transposed to [512, 8]: (n, bb) reads (bb, n). -/
private theorem tr_nb_of_bn (x : S8x512.Idx → α) (h : S8x512.Transposes [1, 0] S512x8)
    (n : Fin 512) (bb : Fin 8) :
    transpose S512x8 [1, 0] x h (ix2 n bb) = x (ix2 bb n) :=
  transpose_apply _ x h _ _ (fun b => match b with
    | ⟨0, _⟩ => rfl
    | ⟨1, _⟩ => rfl)

/-- [512, 8] → [512, 8, 1]: the trailing unit axis is added. -/
private theorem cast_trail_unit (x : S512x8.Idx → α) (h : S512x8.ShapeCasts S512x8x1)
    (n : Fin 512) (bb : Fin 8) :
    shapeCast S512x8x1 x h (ix3 n bb 0) = x (ix2 n bb) :=
  shapeCast_apply x h _ _ (by
    rw [Shape.rowMajor_val_three, Shape.rowMajor_val_two]
    show n.val * 8 + bb.val = (n.val * 8 + bb.val) * 1 + 0
    omega)

end Layouts

/-- The zero word of the reduced format is the extended real `0`. -/
private theorem ofBits_zero_bf16 : Ideal.ofBits .bf16 0x0000#16 = 0 := by simp [Ideal.ofBits, Ideal.ieee]

/-- A hidden-state block re-laid to the row form: the reshape to (batch, node, channel), the swap of
    batch and node, and the reshape to rows. -/
private theorem rowform_apply (v : Vec Ideal S1x8x32768 .f32)
    (h1 : S1x8x32768.ShapeCasts S8x32768) (h2 : S8x32768.ShapeCasts S8x512x64)
    (h3 : S8x512x64.Transposes [1, 0, 2] S512x8x64) (h4 : S512x8x64.ShapeCasts S4096x64)
    (n : Fin 512) (bb : Fin 8) (u : Fin 64) :
    shapeCast S4096x64 (transpose S512x8x64 [1, 0, 2] (shapeCast S8x512x64 (shapeCast S8x32768 v h1) h2) h3) h4
      (ix2 (rowIx n bb) u) = v (ix3 0 bb (flatIx n u)) :=
  (cast_row_of_nbu _ h4 n bb u).trans <|
  (tr_nbu_of_bnu _ h3 n bb u).trans <|
  (cast_bnu_of_flat _ h2 bb n u).trans <|
  cast_drop_unit v h1 bb (flatIx n u)

/-- A row-form value written back flat per batch row: the reshape to (node, batch, channel), the swap of
    node and batch, and the two reshapes to (1, batch, offset). -/
private theorem flatform_apply (v : FVec Ideal S4096x64 .f32)
    (h1 : S4096x64.ShapeCasts S512x8x64) (h2 : S512x8x64.Transposes [1, 0, 2] S8x512x64)
    (h3 : S8x512x64.ShapeCasts S8x32768) (h4 : S8x32768.ShapeCasts S1x8x32768)
    (bb : Fin 8) (n : Fin 512) (u : Fin 64) :
    shapeCast S1x8x32768 (shapeCast S8x32768 (transpose S8x512x64 [1, 0, 2] (shapeCast S512x8x64 v h1) h2) h3) h4
      (ix3 0 bb (flatIx n u)) = v (ix2 (rowIx n bb) u) :=
  (cast_add_unit _ h4 bb (flatIx n u)).trans <|
  (cast_flat_of_bnu _ h3 bb n u).trans <|
  (tr_bnu_of_nbu _ h2 bb n u).trans <|
  cast_nbu_of_row v h1 n bb u

/-- A row-form value of the reduced format re-laid to the node-major form, the zero of that format added on
    the way: the value itself. -/
private theorem colform_add_zero (w : FVec Ideal S4096x64 .bf16)
    (h1 : S4096x64.ShapeCasts S512x8x64) (h2 : S512x8x64.ShapeCasts S512x512)
    (n : Fin 512) (bb : Fin 8) (u : Fin 64) :
    shapeCast S512x512
        (addf (shapeCast S512x8x64 w h1) (broadcast S512x8x64 (Scalar.ofBits (F := Ideal) .bf16 0x0000#16))) h2
      (ix2 n (colIx bb u)) = w (ix2 (rowIx n bb) u) := by
  refine (cast_col_of_nbu _ h2 n bb u).trans ?_
  rw [addf_apply, broadcast_apply, cast_nbu_of_row w h1 n bb u]
  show w (ix2 (rowIx n bb) u) + Ideal.ofBits .bf16 0x0000#16 = w (ix2 (rowIx n bb) u)
  rw [ofBits_zero_bf16, add_zero]

theorem pay1_sem (v0 : Vec Ideal S512x512 .f32) (a b : Fin 512) :
    k0_pay1 (F := Ideal) v0 (ix2 a b) = adj v0 a b := rfl

theorem pay2_sem (v0 : Vec Ideal S512x512 .f32) (a b : Fin 512) :
    k0_pay2 (F := Ideal) v0 (ix2 a b) = adj v0 a b * two := rfl

theorem pay3_sem (v5 : Vec Ideal S1x8x32768 .f32) (n : Fin 512) (bb : Fin 8) (u : Fin 64) :
    k0_pay3 (F := Ideal) v5 (ix2 (rowIx n bb) u) = hsig v5 bb n u :=
  rowform_apply v5 _ _ _ _ n bb u

theorem pay25_sem (v134 : Vec Ideal S1x8x32768 .f32) (n : Fin 512) (bb : Fin 8) (u : Fin 64) :
    k0_pay25 (F := Ideal) v134 (ix2 (rowIx n bb) u) = hsig v134 bb n u :=
  rowform_apply v134 _ _ _ _ n bb u

theorem pay7_sem (v10 : Vec Ideal S8x512 .f32) (n : Fin 512) (bb : Fin 8) :
    k0_pay7 (F := Ideal) v10 (ix3 n bb 0) = xsig v10 bb n :=
  (cast_trail_unit _ _ n bb).trans (tr_nb_of_bn v10 _ n bb)

/-! #### The product of a [512, 512] by a [512, 8] block, read at an index

The left operand is contracted on its second axis and the right one on its first; the other two axes are
the result's. -/

/-- The left operand's row is the result's row. -/
private theorem lhs8_0 (j : S512x8.Idx) (k : dot_S512x512_S512x8_S512x8_1_0_0_1_n_n.contr.Idx) :
    (dot_S512x512_S512x8_S512x8_1_0_0_1_n_n.lhsIdx j k 0).val = (j 0).val := by
  unfold DotDims.lhsIdx
  rw [dif_neg (show ¬(0 : Fin S512x512.rank) ∈ dot_S512x512_S512x8_S512x8_1_0_0_1_n_n.lhsBatch by decide),
    dif_pos (show (0 : Fin S512x512.rank) ∈ dot_S512x512_S512x8_S512x8_1_0_0_1_n_n.lhsNonContracting by decide)]
  rfl

/-- The left operand's column is the contracted index. -/
private theorem lhs8_1 (j : S512x8.Idx) (k : dot_S512x512_S512x8_S512x8_1_0_0_1_n_n.contr.Idx) :
    (dot_S512x512_S512x8_S512x8_1_0_0_1_n_n.lhsIdx j k 1).val = (k ⟨0, by decide⟩).val :=
  DotDims.lhsIdx_val_of_single dot_S512x512_S512x8_S512x8_1_0_0_1_n_n (cl := 1) rfl j k

/-- The right operand's row is the contracted index. -/
private theorem rhs8_0 (j : S512x8.Idx) (k : dot_S512x512_S512x8_S512x8_1_0_0_1_n_n.contr.Idx) :
    (dot_S512x512_S512x8_S512x8_1_0_0_1_n_n.rhsIdx j k 0).val = (k ⟨0, by decide⟩).val :=
  DotDims.rhsIdx_val_of_single dot_S512x512_S512x8_S512x8_1_0_0_1_n_n (cr := 0) rfl j k

/-- The right operand's column is the result's column. -/
private theorem rhs8_1 (j : S512x8.Idx) (k : dot_S512x512_S512x8_S512x8_1_0_0_1_n_n.contr.Idx) :
    (dot_S512x512_S512x8_S512x8_1_0_0_1_n_n.rhsIdx j k 1).val = (j 1).val := by
  unfold DotDims.rhsIdx
  rw [dif_neg (show ¬(1 : Fin S512x8.rank) ∈ dot_S512x512_S512x8_S512x8_1_0_0_1_n_n.rhsBatch by decide),
    dif_pos (show (1 : Fin S512x8.rank) ∈ dot_S512x512_S512x8_S512x8_1_0_0_1_n_n.rhsNonContracting by decide)]
  rfl

/-- The product into the zero accumulator at (row `n`, column `c`): the sum over the contracted node index. -/
private theorem matmul8_apply {φ₁ φ₂ : FTy} (L : FVec Ideal S512x512 φ₁) (R : FVec Ideal S512x8 φ₂)
    (n : Fin 512) (c : Fin 8) :
    matmul dot_S512x512_S512x8_S512x8_1_0_0_1_n_n none L R (constant (F := Ideal) S512x8 .f32 0x00000000#32) (ix2 n c)
      = ∑ k : Fin 512, L (ix2 n k) * R (ix2 k c) := by
  show FloatOps.matmul dot_S512x512_S512x8_S512x8_1_0_0_1_n_n none L R (constant (F := Ideal) S512x8 .f32 0x00000000#32) (ix2 n c) = _
  rw [Ideal.matmul_constant_zero_apply,
    ← Equiv.sum_comp (contrEquiv1 dot_S512x512_S512x8_S512x8_1_0_0_1_n_n 512 rfl rfl).symm]
  refine Finset.sum_congr rfl fun k _ => ?_
  have hk := contrEquiv1_symm_val dot_S512x512_S512x8_S512x8_1_0_0_1_n_n 512 rfl rfl k
  have hl : dot_S512x512_S512x8_S512x8_1_0_0_1_n_n.lhsIdx (ix2 n c) ((contrEquiv1 dot_S512x512_S512x8_S512x8_1_0_0_1_n_n 512 rfl rfl).symm k) = ix2 n k := by
    funext ax; apply Fin.ext
    match ax with
    | ⟨0, _⟩ => exact lhs8_0 _ _
    | ⟨1, _⟩ => exact (lhs8_1 _ _).trans hk
  have hr : dot_S512x512_S512x8_S512x8_1_0_0_1_n_n.rhsIdx (ix2 n c) ((contrEquiv1 dot_S512x512_S512x8_S512x8_1_0_0_1_n_n 512 rfl rfl).symm k) = ix2 k c := by
    funext ax; apply Fin.ext
    match ax with
    | ⟨0, _⟩ => exact (rhs8_0 _ _).trans hk
    | ⟨1, _⟩ => exact rhs8_1 _ _
  rw [hl, hr]

/-- The input block transposed and in the reduced format, at (node, batch): the input's (batch, node) entry. -/
private theorem pay5_apply (v10 : Vec Ideal S8x512 .f32) (k : Fin 512) (bb : Fin 8) :
    k0_pay5 (F := Ideal) v10 (ix2 k bb) = v10 (ix2 bb k) :=
  (truncf_apply (ψ := .bf16) (k0_pay4 (F := Ideal) v10) _ (ix2 k bb)).trans (tr_nb_of_bn v10 _ k bb)

/-- The first tap of the input, before its trailing unit axis is added. -/
private theorem pay6_apply (v0 : Vec Ideal S512x512 .f32) (v10 : Vec Ideal S8x512 .f32) (n : Fin 512) (bb : Fin 8) :
    k0_pay6 (F := Ideal) v0 v10 (ix2 n bb) = tap1 (adj v0) (xsig v10 bb) n := by
  refine (matmul8_apply (k0_pay1 (F := Ideal) v0) (k0_pay5 (F := Ideal) v10) n bb).trans ?_
  unfold tap1
  refine Finset.sum_congr rfl fun k _ => ?_
  rw [pay1_sem, pay5_apply]

theorem pay8_sem (v0 : Vec Ideal S512x512 .f32) (v10 : Vec Ideal S8x512 .f32) (n : Fin 512) (bb : Fin 8) :
    k0_pay8 (F := Ideal) v0 v10 (ix3 n bb 0) = tap1 (adj v0) (xsig v10 bb) n :=
  (cast_trail_unit (k0_pay6 (F := Ideal) v0 v10) _ n bb).trans (pay6_apply v0 v10 n bb)

theorem pay9_sem (v0 : Vec Ideal S512x512 .f32) (v10 : Vec Ideal S8x512 .f32) (n : Fin 512) (bb : Fin 8) :
    k0_pay9 (F := Ideal) v0 v10 (ix3 n bb 0) = tap2k (adj v0) (xsig v10 bb) n := by
  show shapeCast S512x8x1
      (extf .f32 (subf (truncf .bf16 (matmul dot_S512x512_S512x8_S512x8_1_0_0_1_n_n none (k0_pay2 (F := Ideal) v0)
          (truncf .bf16 (k0_pay6 (F := Ideal) v0 v10) _) (constant (F := Ideal) S512x8 .f32 0x00000000#32)) _)
        (k0_pay5 (F := Ideal) v10)) _) _ (ix3 n bb 0) = _
  rw [cast_trail_unit, extf_apply, subf_apply, truncf_apply, matmul8_apply, pay5_apply]
  unfold tap2k
  refine congrArg (· - xsig v10 bb n) (Finset.sum_congr rfl fun k _ => ?_)
  rw [pay2_sem, truncf_apply, pay6_apply]

theorem pay11_sem (v25 : Vec Ideal S3x1x128 .bf16) : k0_pay11 (F := Ideal) v25 = v25 :=
  shapeCast_self v25 _
theorem pay12_sem (v27 : Vec Ideal S192x128 .bf16) : k0_pay12 (F := Ideal) v27 = v27 :=
  shapeCast_self v27 _
theorem pay20_sem (v79 : Vec Ideal S3x1x64 .bf16) : k0_pay20 (F := Ideal) v79 = v79 :=
  shapeCast_self v79 _
theorem pay21_sem (v81 : Vec Ideal S192x64 .bf16) : k0_pay21 (F := Ideal) v81 = v81 :=
  shapeCast_self v81 _
theorem pay35_sem (v179 : Vec Ideal S384x64 .bf16) : k0_pay35 (F := Ideal) v179 = v179 :=
  shapeCast_self v179 _

/-! #### The product of a [512, 512] by a [512, 512] block, read at an index

The left operand is contracted on its second axis and the right one on its first; the other two axes are
the result's. -/

/-- The left operand's row is the result's row. -/
private theorem lhs512_0 (j : S512x512.Idx) (k : dot_S512x512_S512x512_S512x512_1_0_0_1_n_n.contr.Idx) :
    (dot_S512x512_S512x512_S512x512_1_0_0_1_n_n.lhsIdx j k 0).val = (j 0).val := by
  unfold DotDims.lhsIdx
  rw [dif_neg (show ¬(0 : Fin S512x512.rank) ∈ dot_S512x512_S512x512_S512x512_1_0_0_1_n_n.lhsBatch by decide),
    dif_pos (show (0 : Fin S512x512.rank) ∈ dot_S512x512_S512x512_S512x512_1_0_0_1_n_n.lhsNonContracting by decide)]
  rfl

/-- The left operand's column is the contracted index. -/
private theorem lhs512_1 (j : S512x512.Idx) (k : dot_S512x512_S512x512_S512x512_1_0_0_1_n_n.contr.Idx) :
    (dot_S512x512_S512x512_S512x512_1_0_0_1_n_n.lhsIdx j k 1).val = (k ⟨0, by decide⟩).val :=
  DotDims.lhsIdx_val_of_single dot_S512x512_S512x512_S512x512_1_0_0_1_n_n (cl := 1) rfl j k

/-- The right operand's row is the contracted index. -/
private theorem rhs512_0 (j : S512x512.Idx) (k : dot_S512x512_S512x512_S512x512_1_0_0_1_n_n.contr.Idx) :
    (dot_S512x512_S512x512_S512x512_1_0_0_1_n_n.rhsIdx j k 0).val = (k ⟨0, by decide⟩).val :=
  DotDims.rhsIdx_val_of_single dot_S512x512_S512x512_S512x512_1_0_0_1_n_n (cr := 0) rfl j k

/-- The right operand's column is the result's column. -/
private theorem rhs512_1 (j : S512x512.Idx) (k : dot_S512x512_S512x512_S512x512_1_0_0_1_n_n.contr.Idx) :
    (dot_S512x512_S512x512_S512x512_1_0_0_1_n_n.rhsIdx j k 1).val = (j 1).val := by
  unfold DotDims.rhsIdx
  rw [dif_neg (show ¬(1 : Fin S512x512.rank) ∈ dot_S512x512_S512x512_S512x512_1_0_0_1_n_n.rhsBatch by decide),
    dif_pos (show (1 : Fin S512x512.rank) ∈ dot_S512x512_S512x512_S512x512_1_0_0_1_n_n.rhsNonContracting by decide)]
  rfl

/-- The product into the zero accumulator at (row `n`, column `c`): the sum over the contracted node index. -/
private theorem matmul512_apply {φ₁ φ₂ : FTy} (L : FVec Ideal S512x512 φ₁) (R : FVec Ideal S512x512 φ₂)
    (n : Fin 512) (c : Fin 512) :
    matmul dot_S512x512_S512x512_S512x512_1_0_0_1_n_n none L R (constant (F := Ideal) S512x512 .f32 0x00000000#32) (ix2 n c)
      = ∑ k : Fin 512, L (ix2 n k) * R (ix2 k c) := by
  show FloatOps.matmul dot_S512x512_S512x512_S512x512_1_0_0_1_n_n none L R (constant (F := Ideal) S512x512 .f32 0x00000000#32) (ix2 n c) = _
  rw [Ideal.matmul_constant_zero_apply,
    ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have hl : dot_S512x512_S512x512_S512x512_1_0_0_1_n_n.lhsIdx (ix2 n c) ((contrEquiv1 dot_S512x512_S512x512_S512x512_1_0_0_1_n_n 512 rfl rfl).symm k) = ix2 n k := by
    funext ax; apply Fin.ext
    match ax with
    | ⟨0, _⟩ => exact lhs512_0 _ _
    | ⟨1, _⟩ => exact (lhs512_1 _ _).trans hk
  have hr : dot_S512x512_S512x512_S512x512_1_0_0_1_n_n.rhsIdx (ix2 n c) ((contrEquiv1 dot_S512x512_S512x512_S512x512_1_0_0_1_n_n 512 rfl rfl).symm k) = ix2 k c := by
    funext ax; apply Fin.ext
    match ax with
    | ⟨0, _⟩ => exact (rhs512_0 _ _).trans hk
    | ⟨1, _⟩ => exact rhs512_1 _ _
  rw [hl, hr]

/-- The hidden-state block in node-major form, at (node, column of (batch, channel)). -/
private theorem pay13_apply (v5 : Vec Ideal S1x8x32768 .f32) (k : Fin 512) (bb : Fin 8) (u : Fin 64) :
    k0_pay13 (F := Ideal) v5 (ix2 k (colIx bb u)) = hsig v5 bb k u :=
  (colform_add_zero (k0_pay10 (F := Ideal) v5) _ _ k bb u).trans
    ((truncf_apply (ψ := .bf16) (k0_pay3 (F := Ideal) v5) _ (ix2 (rowIx k bb) u)).trans (pay3_sem v5 k bb u))

theorem pay14_sem (v0 : Vec Ideal S512x512 .f32) (v5 : Vec Ideal S1x8x32768 .f32) (n : Fin 512) (bb : Fin 8) (u : Fin 64) :
    k0_pay14 (F := Ideal) v0 v5 (ix2 n (colIx bb u)) = tap1 (adj v0) (fun k => hsig v5 bb k u) n := by
  show matmul dot_S512x512_S512x512_S512x512_1_0_0_1_n_n none (k0_pay1 (F := Ideal) v0) (k0_pay13 (F := Ideal) v5)
      (constant (F := Ideal) S512x512 .f32 0x00000000#32) (ix2 n (colIx bb u)) = _
  rw [matmul512_apply]
  unfold tap1
  refine Finset.sum_congr rfl fun k _ => ?_
  rw [pay1_sem, pay13_apply]

theorem pay15_sem (v0 : Vec Ideal S512x512 .f32) (v5 : Vec Ideal S1x8x32768 .f32) (n : Fin 512) (bb : Fin 8) (u : Fin 64) :
    k0_pay15 (F := Ideal) v0 v5 (ix2 n (colIx bb u)) = tap2k (adj v0) (fun k => hsig v5 bb k u) n := by
  show matmul dot_S512x512_S512x512_S512x512_1_0_0_1_n_n none (k0_pay2 (F := Ideal) v0) (k0_pay14 (F := Ideal) v0 v5)
      (constant (F := Ideal) S512x512 .f32 0x00000000#32) (ix2 n (colIx bb u))
    - k0_pay13 (F := Ideal) v5 (ix2 n (colIx bb u)) = _
  rw [matmul512_apply, pay13_apply]
  unfold tap2k
  refine congrArg (· - hsig v5 bb n u) (Finset.sum_congr rfl fun k _ => ?_)
  rw [pay2_sem, pay14_sem]

theorem pay16_sem (v5 : Vec Ideal S1x8x32768 .f32) (n : Fin 512) (bb : Fin 8) (u : Fin 64) :
    k0_pay16 (F := Ideal) v5 (ix3 n bb u) = hsig v5 bb n u :=
  (cast_nbu_of_row (k0_pay10 (F := Ideal) v5) _ n bb u).trans
    ((truncf_apply (ψ := .bf16) (k0_pay3 (F := Ideal) v5) _ (ix2 (rowIx n bb) u)).trans (pay3_sem v5 n bb u))

section NewState
variable (v4 : FVec Ideal S512x512 .bf16) (v9 : FVec Ideal S4096x64 .f32) (v19 v21 v23 : FVec Ideal S512x8x1 .f32)
  (v76 : FVec Ideal S4096x64 .f32) (v78 : FVec Ideal S4096x64 .bf16) (v80 : FVec Ideal S3x1x64 .bf16)
  (v82 : FVec Ideal S192x64 .bf16) (v83 : Vec Ideal S64 .f32) (v87 v89 : FVec Ideal S512x512 .bf16)
  (cst_26 : FVec Ideal S512x512 .f32)

/-- The reduced-format copy of the new layer-0 state is that state. -/
theorem pay26_sem (i : S4096x64.Idx) :
    k0_pay26 (F := Ideal) v4 v9 v19 v21 v23 v76 v78 v80 v82 v83 v87 v89 cst_26 i
      = k0_pay24 (F := Ideal) v4 v9 v19 v21 v23 v76 v78 v80 v82 v83 v87 v89 cst_26 i := rfl

/-- The new layer-0 state in node-major form. -/
theorem pay27_sem (n : Fin 512) (bb : Fin 8) (u : Fin 64) :
    k0_pay27 (F := Ideal) v4 v9 v19 v21 v23 v76 v78 v80 v82 v83 v87 v89 cst_26 (ix2 n (colIx bb u))
      = k0_pay24 (F := Ideal) v4 v9 v19 v21 v23 v76 v78 v80 v82 v83 v87 v89 cst_26 (ix2 (rowIx n bb) u) :=
  (colform_add_zero (k0_pay26 (F := Ideal) v4 v9 v19 v21 v23 v76 v78 v80 v82 v83 v87 v89 cst_26) _ _ n bb u).trans
    (pay26_sem v4 v9 v19 v21 v23 v76 v78 v80 v82 v83 v87 v89 cst_26 _)
end NewState

/-- A row-form value read in the (node, batch, channel) form. -/
theorem pay29_sem (v139 : FVec Ideal S4096x64 .bf16) (n : Fin 512) (bb : Fin 8) (u : Fin 64) :
    k0_pay29 (F := Ideal) v139 (ix3 n bb u) = v139 (ix2 (rowIx n bb) u) :=
  cast_nbu_of_row v139 _ n bb u

/-- The output layout: a row-form value written back flat per batch row. -/
theorem pay40_sem (v133 : FVec Ideal S4096x64 .f32) (bb : Fin 8) (n : Fin 512) (u : Fin 64) :
    k0_pay40 (F := Ideal) v133 (ix3 0 bb (flatIx n u)) = v133 (ix2 (rowIx n bb) u) :=
  flatform_apply v133 _ _ _ _ bb n u

end Cert.KernelIdeal.Sem

end
-- ==== Proof.SpecLaws.lean ====
/-
  The two facts about the printed constants, and the one algebraic law of the certificate.

  The Chebyshev scale 2 may stand inside the adjacency or outside the sum:
  `∑ (A n k · 2) · w k = 2 · ∑ A n k · w k`. On the extended reals a product distributes over a sum
  when the factor is a non-negative real (the factor then maps +∞ to +∞ and −∞ to −∞ and the sum's
  convention ⊤ + ⊥ = ⊥ is preserved), which the float 2 is; no finiteness of the summands is needed.
-/
import proofs.«145957_g44504451121623_cont_8to1_c_180_24_alg».proof.Proof.Spec
import Mathlib.Data.EReal.Operations

noncomputable section

namespace Cert.DcgruSpec

open Idealize.ShloMosaic

/-- The word 0x40000000 is the real number 2: sign bit 0, exponent field 128, fraction field 0, so the
    value is `1 · 2^23 · 2^(128 − 127 − 23) = 2`. -/
theorem two_eq : two = ((2 : ℝ) : EReal) := by
  have hs : ((0x40000000#32 : BitVec 32).extractLsb' (8 + 23) 1 == 1#1) = false := by decide
  have he : ((0x40000000#32 : BitVec 32).extractLsb' 23 8).toNat = 128 := by decide
  have hf : ((0x40000000#32 : BitVec 32).extractLsb' 0 23).toNat = 0 := by decide
  show Ideal.ieee 8 23 (0x40000000#32 : BitVec 32) = _
  unfold Ideal.ieee
  simp only [hs, he, hf]
  norm_num

/-- The word 0x3F800000 is the real number 1: sign bit 0, exponent field 127, fraction field 0, so the
    value is `1 · 2^23 · 2^(127 − 127 − 23) = 1`. -/
theorem one_eq : one = 1 := by
  have hs : ((0x3F800000#32 : BitVec 32).extractLsb' (8 + 23) 1 == 1#1) = false := by decide
  have he : ((0x3F800000#32 : BitVec 32).extractLsb' 23 8).toNat = 127 := by decide
  have hf : ((0x3F800000#32 : BitVec 32).extractLsb' 0 23).toNat = 0 := by decide
  show Ideal.ieee 8 23 (0x3F800000#32 : BitVec 32) = _
  unfold Ideal.ieee
  simp only [hs, he, hf]
  norm_num

/-- A non-negative real factor moves through a finite sum of extended reals: by induction on the
    index set, each step being distributivity of a finite non-negative factor over one sum of two. -/
theorem coe_mul_sum {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

/-- The scale folded into the adjacency is the scale outside the sum: each summand
    `(A n k · 2) · w k` is `2 · (A n k · w k)`, and the non-negative real 2 then leaves the sum. -/
theorem tap2k_eq (A : Fin 512 → Fin 512 → EReal) (z : Fin 512 → EReal) (n : Fin 512) :
    tap2k A z n = tap2 A z n := by
  unfold tap2k tap2
  rw [two_eq, coe_mul_sum Finset.univ 2 (by norm_num)]
  congr 1
  refine Finset.sum_congr rfl fun k _ => ?_
  rw [mul_comm (A n k) _, mul_assoc]

end Cert.DcgruSpec

end
-- ==== Proof.KCand0.lean ====
/-
  Layer 0's candidate and new state inside the kernel, at the ideal instance. The candidate
  convolution repeats the gate's accumulation with the 64-channel candidate weight and with the
  reset gate times the state in place of the state: a product of the row-form concatenation
  [r·h, A(r·h), 2 A A(r·h) − r·h] (192 columns, tap-major) with the state rows of the weight, plus
  the bias, plus the input's three taps each as an outer product with its weight row — the
  specification's double sum over (feature, tap) with the feature axis split into the scalar input
  and the 64 state channels. Its hyperbolic tangent is the candidate c, and the new state is
  u · h + (1 − u) · c.
-/
import proofs.«145957_g44504451121623_cont_8to1_c_180_24_alg».proof.Proof.Gen.KernelIdeal.Skeleton
import proofs.«145957_g44504451121623_cont_8to1_c_180_24_alg».proof.Proof.Spec
import proofs.«145957_g44504451121623_cont_8to1_c_180_24_alg».proof.Proof.SpecLaws
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Sem

open Idealize.ShloMosaic Idealize.ShloMosaic.ValueIdx Cert.KernelIdeal Cert.KernelIdeal.Gen Cert.DcgruSpec

/-! ### The layout operations of the candidate's payload, each read at an index given by its coordinates

A reshape keeps the row-major position: (node, batch, channel) in [512, 8, C] sits at `(n · 8 + bb) · C + c`,
which is (row `n · 8 + bb`, column `c`) of [4096, C]; with C = 64 it is also (node `n`, column
`bb · 64 + u`) of [512, 512]. A broadcast reads its operand at `0` on the operand's unit axes; a slice reads
it shifted by the offsets; a concatenation reads the piece that holds the coordinate. -/

section Reads
variable {α : Type}

/-- [512, 8, 64] → [4096, 64]: row `n · 8 + bb`, channel `u` reads (n, bb, u). -/
private theorem c0_cast_row_of_nbu (x : S512x8x64.Idx → α) (h : S512x8x64.ShapeCasts S4096x64)
    (n : Fin 512) (bb : Fin 8) (u : Fin 64) :
    shapeCast S4096x64 x h (ix2 (rowIx n bb) u) = x (ix3 n bb u) :=
  shapeCast_apply x h _ _ (by
    rw [Shape.rowMajor_val_three, Shape.rowMajor_val_two]
    show (n.val * 8 + bb.val) * 64 + u.val = (n.val * 8 + bb.val) * 64 + u.val
    rfl)

/-- [4096, 64] → [512, 8, 64]: (n, bb, u) reads row `n · 8 + bb`, channel `u`. -/
private theorem c0_cast_nbu_of_row (x : S4096x64.Idx → α) (h : S4096x64.ShapeCasts S512x8x64)
    (n : Fin 512) (bb : Fin 8) (u : Fin 64) :
    shapeCast S512x8x64 x h (ix3 n bb u) = x (ix2 (rowIx n bb) u) :=
  shapeCast_apply x h _ _ (by
    rw [Shape.rowMajor_val_three, Shape.rowMajor_val_two]
    show (n.val * 8 + bb.val) * 64 + u.val = (n.val * 8 + bb.val) * 64 + u.val
    rfl)

/-- [512, 512] → [512, 8, 64]: (n, bb, u) reads node `n`, column `bb · 64 + u`. -/
private theorem c0_cast_nbu_of_col (x : S512x512.Idx → α) (h : S512x512.ShapeCasts S512x8x64)
    (n : Fin 512) (bb : Fin 8) (u : Fin 64) :
    shapeCast S512x8x64 x h (ix3 n bb u) = x (ix2 n (colIx bb u)) :=
  shapeCast_apply x h _ _ (by
    rw [Shape.rowMajor_val_three, Shape.rowMajor_val_two]
    show n.val * 512 + (bb.val * 64 + u.val) = (n.val * 8 + bb.val) * 64 + u.val
    omega)

/-- [512, 8, 192] → [4096, 192]: row `n · 8 + bb`, column `c` reads (n, bb, c). -/
private theorem c0_cast_rows192 (x : S512x8x192.Idx → α) (h : S512x8x192.ShapeCasts S4096x192)
    (n : Fin 512) (bb : Fin 8) (c : Fin 192) :
    shapeCast S4096x192 x h (ix2 (rowIx n bb) c) = x (ix3 n bb c) :=
  shapeCast_apply x h _ _ (by
    rw [Shape.rowMajor_val_three, Shape.rowMajor_val_two]
    show (n.val * 8 + bb.val) * 192 + c.val = (n.val * 8 + bb.val) * 192 + c.val
    rfl)

/-- A vector over the 64 channels, reshaped to [1, 1, 64] and broadcast over (node, batch): its entry at the
    channel. -/
private theorem c0_chan (v : S64.Idx → α) (h1 : S64.ShapeCasts S1x1x64) (h2 : S1x1x64.Broadcasts S512x8x64)
    (n : Fin 512) (bb : Fin 8) (u : Fin 64) :
    broadcastTo S512x8x64 (shapeCast S1x1x64 v h1) h2 (ix3 n bb u) = v (ix1 u) :=
  (broadcastTo_apply _ h2 (ix3 n bb u) (ix3 0 0 u) (fun a => match a with
    | ⟨0, _⟩ => rfl
    | ⟨1, _⟩ => rfl
    | ⟨2, _⟩ => rfl)).trans <|
  shapeCast_apply v h1 (ix3 0 0 u) (ix1 u) (by
    rw [Shape.rowMajor_val_three, Shape.rowMajor_val_one]
    show u.val = (0 * 1 + 0) * 64 + u.val
    omega)

/-- A (node, batch) signal with a trailing unit axis, broadcast over the channels: its entry at (node, batch). -/
private theorem c0_sig (v : S512x8x1.Idx → α) (h : S512x8x1.Broadcasts S512x8x64)
    (n : Fin 512) (bb : Fin 8) (u : Fin 64) :
    broadcastTo S512x8x64 v h (ix3 n bb u) = v (ix3 n bb 0) :=
  broadcastTo_apply v h (ix3 n bb u) (ix3 n bb 0) (fun a => match a with
    | ⟨0, _⟩ => rfl
    | ⟨1, _⟩ => rfl
    | ⟨2, _⟩ => rfl)

/-- [1, 1, 64] → [64]: channel `u` reads (0, 0, u). -/
private theorem c0_cast_chan_of_unit (x : S1x1x64.Idx → α) (h : S1x1x64.ShapeCasts S64) (u : Fin 64) :
    shapeCast S64 x h (ix1 u) = x (ix3 0 0 u) :=
  shapeCast_apply x h (ix1 u) (ix3 0 0 u) (by
    rw [Shape.rowMajor_val_three, Shape.rowMajor_val_one]
    show (0 * 1 + 0) * 64 + u.val = u.val
    omega)

/-- Row `o` of a [3, 1, 64] block, sliced out as [1, 1, 64]: (0, 0, u) reads (o, 0, u). -/
private theorem c0_slice_row (x : S3x1x64.Idx → α) (o : Nat) (ho : o < 3) (h : S3x1x64.Slices ![o, 0, 0] S1x1x64)
    (u : Fin 64) :
    extractStridedSlice S1x1x64 ![o, 0, 0] x h (ix3 0 0 u) = x (ix3 ⟨o, ho⟩ 0 u) :=
  extractStridedSlice_apply _ x h (ix3 0 0 u) (ix3 ⟨o, ho⟩ 0 u) (fun a => match a with
    | ⟨0, _⟩ => rfl
    | ⟨1, _⟩ => rfl
    | ⟨2, _⟩ => (Nat.zero_add _).symm)

section Concat
variable (p0 p1 p2 : S512x8x64.Idx → α)
  (hc : Shape.Concatenates [S512x8x64, S512x8x64, S512x8x64] S512x8x192 2)
  (n : Fin 512) (bb : Fin 8) (f : Fin 64)

/-- Columns 0..63 of the concatenation along the channel axis are the first piece. -/
private theorem c0_concat0 (c : Fin 192) (hcf : 0 + f.val = c.val) :
    concatenate S512x8x192 2 [⟨S512x8x64, p0⟩, ⟨S512x8x64, p1⟩, ⟨S512x8x64, p2⟩] hc (ix3 n bb c) = p0 (ix3 n bb f) :=
  concatenate_apply_piece 2 [⟨S512x8x64, p0⟩, ⟨S512x8x64, p1⟩, ⟨S512x8x64, p2⟩] hc (ix3 n bb c) 0 (by show (0 : ℕ) < 3; omega) S512x8x64 p0 rfl rfl 0 rfl (ix3 n bb f)
    (fun b hb => match b, hb with
      | ⟨0, _⟩, _ => rfl
      | ⟨1, _⟩, _ => rfl
      | ⟨2, _⟩, hb => absurd rfl hb) hcf

/-- Columns 64..127 are the second piece. -/
private theorem c0_concat1 (c : Fin 192) (hcf : 64 + f.val = c.val) :
    concatenate S512x8x192 2 [⟨S512x8x64, p0⟩, ⟨S512x8x64, p1⟩, ⟨S512x8x64, p2⟩] hc (ix3 n bb c) = p1 (ix3 n bb f) :=
  concatenate_apply_piece 2 [⟨S512x8x64, p0⟩, ⟨S512x8x64, p1⟩, ⟨S512x8x64, p2⟩] hc (ix3 n bb c) 1 (by show (1 : ℕ) < 3; omega) S512x8x64 p1 rfl rfl 64 rfl (ix3 n bb f)
    (fun b hb => match b, hb with
      | ⟨0, _⟩, _ => rfl
      | ⟨1, _⟩, _ => rfl
      | ⟨2, _⟩, hb => absurd rfl hb) hcf

/-- Columns 128..191 are the third piece. -/
private theorem c0_concat2 (c : Fin 192) (hcf : 128 + f.val = c.val) :
    concatenate S512x8x192 2 [⟨S512x8x64, p0⟩, ⟨S512x8x64, p1⟩, ⟨S512x8x64, p2⟩] hc (ix3 n bb c) = p2 (ix3 n bb f) :=
  concatenate_apply_piece 2 [⟨S512x8x64, p0⟩, ⟨S512x8x64, p1⟩, ⟨S512x8x64, p2⟩] hc (ix3 n bb c) 2 (by show (2 : ℕ) < 3; omega) S512x8x64 p2 rfl rfl 128 rfl (ix3 n bb f)
    (fun b hb => match b, hb with
      | ⟨0, _⟩, _ => rfl
      | ⟨1, _⟩, _ => rfl
      | ⟨2, _⟩, hb => absurd rfl hb) hcf

end Concat

end Reads

/-- The hyperbolic tangent of a vector, read at an index. -/
private theorem c0_tanh_apply {s : Shape} {φ : FTy} (a : FVec Ideal s φ) (i : s.Idx) :
    Idealize.ShloMosaic.tanh a i = Ideal.tanh (a i) := rfl

/-- A weight row: row `o` of the [3, 1, 64] block, widened and broadcast over (node, batch). -/
private theorem c0_wrow (w : FVec Ideal S3x1x64 .bf16) (o : Nat) (ho : o < 3)
    (hs : S3x1x64.Slices ![o, 0, 0] S1x1x64) (h1 : S1x1x64.ShapeCasts S64) (hb : FTy.bits .bf16 < FTy.bits .f32)
    (h2 : S64.ShapeCasts S1x1x64) (h3 : S1x1x64.Broadcasts S512x8x64) (n : Fin 512) (bb : Fin 8) (u : Fin 64) :
    broadcastTo S512x8x64
        (shapeCast S1x1x64 (extf .f32 (shapeCast S64 (extractStridedSlice S1x1x64 ![o, 0, 0] w hs) h1) hb) h2) h3
      (ix3 n bb u) = w (ix3 ⟨o, ho⟩ 0 u) :=
  (c0_chan _ h2 h3 n bb u).trans <|
  (extf_apply (ψ := .f32) (shapeCast S64 (extractStridedSlice S1x1x64 ![o, 0, 0] w hs) h1) hb (ix1 u)).trans <|
  (c0_cast_chan_of_unit _ h1 u).trans <|
  c0_slice_row w o ho hs u

/-! #### The product of a [512, 512] by a [512, 512] block, read at an index

The left operand is contracted on its second axis and the right one on its first; the other two axes are
the result's. -/

/-- The left operand's row is the result's row. -/
private theorem c0_lhs512_0 (j : S512x512.Idx) (k : dot_S512x512_S512x512_S512x512_1_0_0_1_n_n.contr.Idx) :
    (dot_S512x512_S512x512_S512x512_1_0_0_1_n_n.lhsIdx j k 0).val = (j 0).val := by
  unfold DotDims.lhsIdx
  rw [dif_neg (show ¬(0 : Fin S512x512.rank) ∈ dot_S512x512_S512x512_S512x512_1_0_0_1_n_n.lhsBatch by decide),
    dif_pos (show (0 : Fin S512x512.rank) ∈ dot_S512x512_S512x512_S512x512_1_0_0_1_n_n.lhsNonContracting by decide)]
  rfl

/-- The left operand's column is the contracted index. -/
private theorem c0_lhs512_1 (j : S512x512.Idx) (k : dot_S512x512_S512x512_S512x512_1_0_0_1_n_n.contr.Idx) :
    (dot_S512x512_S512x512_S512x512_1_0_0_1_n_n.lhsIdx j k 1).val = (k ⟨0, by decide⟩).val :=
  DotDims.lhsIdx_val_of_single dot_S512x512_S512x512_S512x512_1_0_0_1_n_n (cl := 1) rfl j k

/-- The right operand's row is the contracted index. -/
private theorem c0_rhs512_0 (j : S512x512.Idx) (k : dot_S512x512_S512x512_S512x512_1_0_0_1_n_n.contr.Idx) :
    (dot_S512x512_S512x512_S512x512_1_0_0_1_n_n.rhsIdx j k 0).val = (k ⟨0, by decide⟩).val :=
  DotDims.rhsIdx_val_of_single dot_S512x512_S512x512_S512x512_1_0_0_1_n_n (cr := 0) rfl j k

/-- The right operand's column is the result's column. -/
private theorem c0_rhs512_1 (j : S512x512.Idx) (k : dot_S512x512_S512x512_S512x512_1_0_0_1_n_n.contr.Idx) :
    (dot_S512x512_S512x512_S512x512_1_0_0_1_n_n.rhsIdx j k 1).val = (j 1).val := by
  unfold DotDims.rhsIdx
  rw [dif_neg (show ¬(1 : Fin S512x512.rank) ∈ dot_S512x512_S512x512_S512x512_1_0_0_1_n_n.rhsBatch by decide),
    dif_pos (show (1 : Fin S512x512.rank) ∈ dot_S512x512_S512x512_S512x512_1_0_0_1_n_n.rhsNonContracting by decide)]
  rfl

/-- The product into the zero accumulator at (row `r`, column `c`): the sum over the contracted index. -/
private theorem c0_matmul512_apply {φ₁ φ₂ : FTy} (L : FVec Ideal S512x512 φ₁) (R : FVec Ideal S512x512 φ₂)
    (r : Fin 512) (c : Fin 512) :
    matmul dot_S512x512_S512x512_S512x512_1_0_0_1_n_n none L R (constant (F := Ideal) S512x512 .f32 0x00000000#32) (ix2 r c)
      = ∑ k : Fin 512, L (ix2 r k) * R (ix2 k c) := by
  show FloatOps.matmul dot_S512x512_S512x512_S512x512_1_0_0_1_n_n none L R (constant (F := Ideal) S512x512 .f32 0x00000000#32) (ix2 r c) = _
  rw [Ideal.matmul_constant_zero_apply,
    ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have hl : dot_S512x512_S512x512_S512x512_1_0_0_1_n_n.lhsIdx (ix2 r c) ((contrEquiv1 dot_S512x512_S512x512_S512x512_1_0_0_1_n_n 512 rfl rfl).symm k) = ix2 r k := by
    funext ax; apply Fin.ext
    match ax with
    | ⟨0, _⟩ => exact c0_lhs512_0 _ _
    | ⟨1, _⟩ => exact (c0_lhs512_1 _ _).trans hk
  have hr : dot_S512x512_S512x512_S512x512_1_0_0_1_n_n.rhsIdx (ix2 r c) ((contrEquiv1 dot_S512x512_S512x512_S512x512_1_0_0_1_n_n 512 rfl rfl).symm k) = ix2 k c := by
    funext ax; apply Fin.ext
    match ax with
    | ⟨0, _⟩ => exact (c0_rhs512_0 _ _).trans hk
    | ⟨1, _⟩ => exact c0_rhs512_1 _ _
  rw [hl, hr]

/-! #### The product of a [4096, 192] by a [192, 64] block, read at an index

The left operand is contracted on its second axis and the right one on its first; the other two axes are
the result's. -/

/-- The left operand's row is the result's row. -/
private theorem c0_lhs192_0 (j : S4096x64.Idx) (k : dot_S4096x192_S192x64_S4096x64_1_0_0_1_n_n.contr.Idx) :
    (dot_S4096x192_S192x64_S4096x64_1_0_0_1_n_n.lhsIdx j k 0).val = (j 0).val := by
  unfold DotDims.lhsIdx
  rw [dif_neg (show ¬(0 : Fin S4096x192.rank) ∈ dot_S4096x192_S192x64_S4096x64_1_0_0_1_n_n.lhsBatch by decide),
    dif_pos (show (0 : Fin S4096x192.rank) ∈ dot_S4096x192_S192x64_S4096x64_1_0_0_1_n_n.lhsNonContracting by decide)]
  rfl

/-- The left operand's column is the contracted index. -/
private theorem c0_lhs192_1 (j : S4096x64.Idx) (k : dot_S4096x192_S192x64_S4096x64_1_0_0_1_n_n.contr.Idx) :
    (dot_S4096x192_S192x64_S4096x64_1_0_0_1_n_n.lhsIdx j k 1).val = (k ⟨0, by decide⟩).val :=
  DotDims.lhsIdx_val_of_single dot_S4096x192_S192x64_S4096x64_1_0_0_1_n_n (cl := 1) rfl j k

/-- The right operand's row is the contracted index. -/
private theorem c0_rhs192_0 (j : S4096x64.Idx) (k : dot_S4096x192_S192x64_S4096x64_1_0_0_1_n_n.contr.Idx) :
    (dot_S4096x192_S192x64_S4096x64_1_0_0_1_n_n.rhsIdx j k 0).val = (k ⟨0, by decide⟩).val :=
  DotDims.rhsIdx_val_of_single dot_S4096x192_S192x64_S4096x64_1_0_0_1_n_n (cr := 0) rfl j k

/-- The right operand's column is the result's column. -/
private theorem c0_rhs192_1 (j : S4096x64.Idx) (k : dot_S4096x192_S192x64_S4096x64_1_0_0_1_n_n.contr.Idx) :
    (dot_S4096x192_S192x64_S4096x64_1_0_0_1_n_n.rhsIdx j k 1).val = (j 1).val := by
  unfold DotDims.rhsIdx
  rw [dif_neg (show ¬(1 : Fin S192x64.rank) ∈ dot_S4096x192_S192x64_S4096x64_1_0_0_1_n_n.rhsBatch by decide),
    dif_pos (show (1 : Fin S192x64.rank) ∈ dot_S4096x192_S192x64_S4096x64_1_0_0_1_n_n.rhsNonContracting by decide)]
  rfl

/-- The product into the zero accumulator at (row `r`, column `c`): the sum over the contracted index. -/
private theorem c0_matmul192_apply {φ₁ φ₂ : FTy} (L : FVec Ideal S4096x192 φ₁) (R : FVec Ideal S192x64 φ₂)
    (r : Fin 4096) (c : Fin 64) :
    matmul dot_S4096x192_S192x64_S4096x64_1_0_0_1_n_n none L R (constant (F := Ideal) S4096x64 .f32 0x00000000#32) (ix2 r c)
      = ∑ k : Fin 192, L (ix2 r k) * R (ix2 k c) := by
  show FloatOps.matmul dot_S4096x192_S192x64_S4096x64_1_0_0_1_n_n none L R (constant (F := Ideal) S4096x64 .f32 0x00000000#32) (ix2 r c) = _
  rw [Ideal.matmul_constant_zero_apply,
    ← Equiv.sum_comp (contrEquiv1 dot_S4096x192_S192x64_S4096x64_1_0_0_1_n_n 192 rfl rfl).symm]
  refine Finset.sum_congr rfl fun k _ => ?_
  have hk := contrEquiv1_symm_val dot_S4096x192_S192x64_S4096x64_1_0_0_1_n_n 192 rfl rfl k
  have hl : dot_S4096x192_S192x64_S4096x64_1_0_0_1_n_n.lhsIdx (ix2 r c) ((contrEquiv1 dot_S4096x192_S192x64_S4096x64_1_0_0_1_n_n 192 rfl rfl).symm k) = ix2 r k := by
    funext ax; apply Fin.ext
    match ax with
    | ⟨0, _⟩ => exact c0_lhs192_0 _ _
    | ⟨1, _⟩ => exact (c0_lhs192_1 _ _).trans hk
  have hr : dot_S4096x192_S192x64_S4096x64_1_0_0_1_n_n.rhsIdx (ix2 r c) ((contrEquiv1 dot_S4096x192_S192x64_S4096x64_1_0_0_1_n_n 192 rfl rfl).symm k) = ix2 k c := by
    funext ax; apply Fin.ext
    match ax with
    | ⟨0, _⟩ => exact (c0_rhs192_0 _ _).trans hk
    | ⟨1, _⟩ => exact c0_rhs192_1 _ _
  rw [hl, hr]

/-! ### The regrouping of the specification's double sum

The feature axis of layer 0 has 65 entries: the scalar input (feature 0) and the 64 state channels. The
state part, taken tap-major, runs over 192 = 3 · 64 positions: position `k` is tap `k / 64` of channel
`k % 64`. Addition on the extended reals is commutative and associative, so the sum may be regrouped freely. -/

/-- Tap-major positions are the pairs (tap, channel). -/
private theorem sum_tapmajor (G : Fin 3 → Fin 64 → EReal) :
    ∑ k : Fin 192, G ⟨k.val / 64, by omega⟩ ⟨k.val % 64, by omega⟩ = ∑ m : Fin 3, ∑ f : Fin 64, G m f := by
  rw [← Fintype.sum_prod_type']
  refine (Fintype.sum_equiv (finProdFinEquiv (m := 3) (n := 64)) _ _ fun p => ?_).symm
  obtain ⟨m, f⟩ := p
  have h1 : (f.val + 64 * m.val) / 64 = m.val := by omega
  have h2 : (f.val + 64 * m.val) % 64 = f.val := by omega
  show G m f = G ⟨(f.val + 64 * m.val) / 64, _⟩ ⟨(f.val + 64 * m.val) % 64, _⟩
  congr 1
  · exact Fin.ext h1.symm
  · exact Fin.ext h2.symm

/-- A sum over the 192 tap-major positions is the double sum over (tap, channel). -/
private theorem sum192_split (T : Fin 192 → EReal) :
    ∑ k : Fin 192, T k = ∑ m : Fin 3, ∑ f : Fin 64, T ⟨m.val * 64 + f.val, by omega⟩ := by
  refine Eq.trans ?_ (sum_tapmajor fun m f => T ⟨m.val * 64 + f.val, by omega⟩)
  refine Finset.sum_congr rfl fun k _ => congrArg T (Fin.ext ?_)
  show k.val = k.val / 64 * 64 + k.val % 64
  omega

/-- The double sum over (feature, tap) plus a bias, with the input feature's three taps split off last. -/
private theorem regroup (g : Fin 65 → Fin 3 → EReal) (b : EReal) :
    (∑ f : Fin 65, ∑ m : Fin 3, g f m) + b
      = ((((∑ m : Fin 3, ∑ f : Fin 64, g f.succ m) + b) + g 0 0) + g 0 1) + g 0 2 := by
  rw [Fin.sum_univ_succ, Fin.sum_univ_three, Finset.sum_comm]
  ac_rfl

/-! ### The specification's convolution for layer 0, in the payload's association -/

/-- Layer 0's feature column 0 is the input signal. -/
private theorem col0_zero (xs : Fin 512 → EReal) (s : Fin 512 → Fin 64 → EReal) : col0 xs s 0 = xs := by
  funext k
  unfold col0
  exact dif_pos rfl

/-- Layer 0's feature column `f + 1` is state channel `f`. -/
private theorem col0_succ (xs : Fin 512 → EReal) (s : Fin 512 → Fin 64 → EReal) (f : Fin 64) :
    col0 xs s f.succ = fun k => s k f := by
  funext k
  unfold col0
  rw [dif_neg (show ¬(f.succ).val = 0 from Nat.succ_ne_zero f.val)]
  rfl

/-- The graph convolution over [input, state channels]: the state channels' taps tap-major against their
    weights, the bias, then the input's three taps against theirs. -/
private theorem gconv0_canon (A : Fin 512 → Fin 512 → EReal) (W : Fin 65 → Fin 3 → Fin 64 → EReal)
    (bias : Fin 64 → EReal) (xs : Fin 512 → EReal) (z : Fin 512 → Fin 64 → EReal) (n : Fin 512) (u : Fin 64) :
    gconv A (col0 xs z) W bias n u
      = ((((∑ m : Fin 3, ∑ f : Fin 64, tap A m (fun k => z k f) n * W ⟨f.val + 1, by omega⟩ m u) + bias u)
          + xs n * W 0 0 u) + tap1 A xs n * W 0 1 u) + tap2 A xs n * W 0 2 u := by
  unfold gconv
  rw [regroup (fun f m => tap A m (col0 xs z f) n * W f m u) (bias u)]
  simp only [col0_zero, col0_succ, tap_zero, tap_one, tap_two]
  rfl

/-! ### The tap-major rows of the candidate's product -/

section Rows
variable {A : Fin 512 → Fin 512 → EReal} {z : Fin 8 → Fin 512 → Fin 64 → EReal}
  {v4 v87 v89 : FVec Ideal S512x512 .bf16} {v78 : FVec Ideal S4096x64 .bf16}

/-- Row `n · 8 + bb`, column `m · 64 + f` of the concatenation [z, A z, (A · 2)(A z) − z] in row form is tap
    `m` of channel `f` of `z` at node `n`; for the last tap the scale moves out of the adjacency. -/
private theorem c0_rows_sem
    (hv4 : ∀ a b, v4 (ix2 a b) = A a b * two)
    (hv78 : ∀ n bb u, v78 (ix2 (rowIx n bb) u) = z bb n u)
    (hv87 : ∀ n bb u, v87 (ix2 n (colIx bb u)) = z bb n u)
    (hv89 : ∀ n bb u, v89 (ix2 n (colIx bb u)) = tap1 A (fun k => z bb k u) n)
    (h1 : S4096x64.ShapeCasts S512x8x64) (h2 h3 : S512x512.ShapeCasts S512x8x64)
    (hb : FTy.bits .bf16 < FTy.bits .f32)
    (hc : Shape.Concatenates [S512x8x64, S512x8x64, S512x8x64] S512x8x192 2)
    (hs : S512x8x192.ShapeCasts S4096x192) (n : Fin 512) (bb : Fin 8) (m : Fin 3) (f : Fin 64) :
    shapeCast S4096x192
        (concatenate S512x8x192 2
          [⟨S512x8x64, shapeCast S512x8x64 v78 h1⟩, ⟨S512x8x64, shapeCast S512x8x64 v89 h2⟩,
            ⟨S512x8x64, shapeCast S512x8x64
              (subf (truncf .bf16 (matmul dot_S512x512_S512x512_S512x512_1_0_0_1_n_n none v4 v89
                (constant (F := Ideal) S512x512 .f32 0x00000000#32)) hb) v87) h3⟩] hc) hs
      (ix2 (rowIx n bb) ⟨m.val * 64 + f.val, by omega⟩)
      = tap A m (fun k => z bb k f) n := by
  rw [c0_cast_rows192]
  match m with
  | ⟨0, _⟩ =>
    rw [c0_concat0 _ _ _ hc n bb f _ (by show 0 + f.val = 0 * 64 + f.val; omega), c0_cast_nbu_of_row, hv78]
    rfl
  | ⟨1, _⟩ =>
    rw [c0_concat1 _ _ _ hc n bb f _ (by show 64 + f.val = 1 * 64 + f.val; omega), c0_cast_nbu_of_col, hv89]
    rfl
  | ⟨2, _⟩ =>
    rw [c0_concat2 _ _ _ hc n bb f _ (by show 128 + f.val = 2 * 64 + f.val; omega), c0_cast_nbu_of_col,
      subf_apply, truncf_apply, c0_matmul512_apply, hv87]
    simp only [hv4, hv89]
    exact tap2k_eq A (fun k => z bb k f) n

end Rows

section Cand0
variable (A : Fin 512 → Fin 512 → EReal) (x : Fin 8 → Fin 512 → EReal) (h : Fin 8 → Fin 512 → Fin 64 → EReal)
  (Wg : Fin 65 → Fin 3 → Fin 128 → EReal) (bg : Fin 128 → EReal)
  (Wc : Fin 65 → Fin 3 → Fin 64 → EReal) (bc : Fin 64 → EReal)
variable (v4 : FVec Ideal S512x512 .bf16) (v9 : FVec Ideal S4096x64 .f32) (v19 v21 v23 : FVec Ideal S512x8x1 .f32)
variable (v76 : FVec Ideal S4096x64 .f32) (v78 : FVec Ideal S4096x64 .bf16) (v80 : FVec Ideal S3x1x64 .bf16)
  (v82 : FVec Ideal S192x64 .bf16) (v83 : Vec Ideal S64 .f32) (v87 v89 : FVec Ideal S512x512 .bf16)
  (cst_26 : FVec Ideal S512x512 .f32)

/-- What the values the candidate reads mean: the doubled adjacency, the state in row form, the
    input's three taps, the update gate, reset gate times state in row and node-major form and its
    first tap, the candidate weight's input rows, state rows (tap-major) and bias, and the zero
    accumulator. -/
structure Cand0Sem : Prop where
  hv4 : ∀ a b, v4 (ix2 a b) = A a b * two
  hv9 : ∀ n bb u, v9 (ix2 (rowIx n bb) u) = h bb n u
  hv19 : ∀ n bb, v19 (ix3 n bb 0) = x bb n
  hv21 : ∀ n bb, v21 (ix3 n bb 0) = tap1 A (x bb) n
  hv23 : ∀ n bb, v23 (ix3 n bb 0) = tap2 A (x bb) n
  hv76 : ∀ n bb u, v76 (ix2 (rowIx n bb) u) = gateU A (col0 (x bb)) (h bb) Wg bg n u
  hv78 : ∀ n bb u, v78 (ix2 (rowIx n bb) u) = resetH A (col0 (x bb)) (h bb) Wg bg n u
  hv80 : ∀ (m : Fin 3) (o : Fin 64), v80 (ix3 m 0 o) = Wc 0 m o
  hv82 : ∀ (m : Fin 3) (f : Fin 64) (o : Fin 64),
    v82 (ix2 (⟨m.val * 64 + f.val, by omega⟩ : Fin 192) o) = Wc ⟨f.val + 1, by omega⟩ m o
  hv83 : ∀ o, v83 (ix1 o) = bc o
  hv87 : ∀ n bb u, v87 (ix2 n (colIx bb u)) = resetH A (col0 (x bb)) (h bb) Wg bg n u
  hv89 : ∀ n bb u, v89 (ix2 n (colIx bb u)) = tap1 A (fun k => resetH A (col0 (x bb)) (h bb) Wg bg k u) n
  hcst : cst_26 = constant (F := Ideal) S512x512 .f32 0x00000000#32

/-- The new layer-0 state, row form. -/
theorem cand0_sem (P : Cand0Sem A x h Wg bg Wc bc v4 v9 v19 v21 v23 v76 v78 v80 v82 v83 v87 v89 cst_26)
    (n : Fin 512) (bb : Fin 8) (u : Fin 64) :
    k0_pay24 (F := Ideal) v4 v9 v19 v21 v23 v76 v78 v80 v82 v83 v87 v89 cst_26 (ix2 (rowIx n bb) u)
      = newH A (col0 (x bb)) (h bb) Wg bg Wc bc n u := by
  obtain ⟨hv4, hv9, hv19, hv21, hv23, hv76, hv78, hv80, hv82, hv83, hv87, hv89, hcst⟩ := P
  subst hcst
  unfold k0_pay24
  simp only [addf_apply, mulf_apply, subf_apply, broadcast_apply]
  rw [c0_tanh_apply, c0_cast_row_of_nbu]
  simp only [addf_apply, mulf_apply]
  rw [c0_cast_nbu_of_row, c0_matmul192_apply, sum192_split, c0_chan, c0_sig, c0_sig, c0_sig,
    c0_wrow v80 0 (by decide), c0_wrow v80 1 (by decide), c0_wrow v80 2 (by decide)]
  simp only [c0_rows_sem hv4 hv78 hv87 hv89, hv82]
  rw [hv76, hv9, hv83, hv19, hv21, hv23, hv80, hv80, hv80]
  unfold newH cand
  rw [gconv0_canon]
  rfl

end Cand0

end Cert.KernelIdeal.Sem

end
-- ==== Proof.KCell0.lean ====
/-
  Layer 0 of the cell inside the kernel, at the ideal instance. The gate convolution is assembled
  from a product of the row-form concatenation [h, A h, 2 A A h − h] (192 columns, tap-major) with
  the state rows of the gate weight, plus the bias, plus the input's three taps each as an outer
  product with its weight row: the same double sum over (feature, tap) as the specification's,
  with the feature axis split into the scalar input and the 64 state channels and the 192 columns
  enumerated tap first. The logistic of it gives the reset and update gates; the reset gate times
  the state is diffused again for the candidate, and the new state is u · h + (1 − u) · c.
-/
import proofs.«145957_g44504451121623_cont_8to1_c_180_24_alg».proof.Proof.Gen.KernelIdeal.Skeleton
import proofs.«145957_g44504451121623_cont_8to1_c_180_24_alg».proof.Proof.Spec
import proofs.«145957_g44504451121623_cont_8to1_c_180_24_alg».proof.Proof.KCand0
import Idealize.ShloMosaic.Lib.Pipeline.Value
import Idealize.ShloMosaic.Lib.ValueLayout
import Idealize.ShloMosaic.Lib.ValueIdx
import Idealize.ShloMosaic.PureOps.Ideal.Laws
import Mathlib.Algebra.BigOperators.Fin
import Mathlib.Logic.Equiv.Fin.Basic

noncomputable section

namespace Cert.KernelIdeal.Sem

open Idealize.ShloMosaic Idealize.ShloMosaic.ValueIdx Cert.KernelIdeal Cert.KernelIdeal.Gen Cert.DcgruSpec

/-! ### The double sum over (feature, tap), with the feature axis split and the columns enumerated tap first -/

/-- A sum over 192 columns, enumerated tap first: column `m * 64 + f`. -/
private theorem sum_fin192 {M : Type*} [AddCommMonoid M] (r : Fin 192 → M) :
    ∑ k, r k = ∑ m : Fin 3, ∑ f : Fin 64, r ⟨m.val * 64 + f.val, by omega⟩ := by
  rw [← Equiv.sum_comp (finProdFinEquiv : Fin 3 × Fin 64 ≃ Fin 192) r, Fintype.sum_prod_type]
  refine Finset.sum_congr rfl fun m _ => Finset.sum_congr rfl fun f _ => congrArg r (Fin.ext ?_)
  show f.val + 64 * m.val = m.val * 64 + f.val
  omega

/-- The sum over 65 features and 3 taps, plus a bias, is the sum over the 192 (tap, state channel)
    columns, plus the bias, plus the three taps of feature 0, in that association: split off feature 0,
    exchange the two sums over the remaining 64 features, and enumerate (tap, channel) as one column. -/
private theorem gconv_split {M : Type*} [AddCommMonoid M] (g : Fin 65 → Fin 3 → M) (r : Fin 192 → M) (b : M)
    (hr : ∀ (m : Fin 3) (f : Fin 64), r ⟨m.val * 64 + f.val, by omega⟩ = g ⟨f.val + 1, by omega⟩ m) :
    (∑ f : Fin 65, ∑ m : Fin 3, g f m) + b = ((((∑ k, r k) + b) + g 0 0) + g 0 1) + g 0 2 := by
  have h1 : ∑ k, r k = ∑ f : Fin 64, ∑ m : Fin 3, g f.succ m := by
    rw [sum_fin192, Finset.sum_comm]
    exact Finset.sum_congr rfl fun f _ => Finset.sum_congr rfl fun m _ => hr m f
  rw [Fin.sum_univ_succ, Fin.sum_univ_three, h1]
  simp only [add_comm, add_left_comm, add_assoc]

section Layout
variable {α : Type}

/-- A per-row column vector spread over 128 output channels reads its row's entry. -/
private theorem bcastCol128 (v : S512x8x1.Idx → α) (hb : S512x8x1.Broadcasts S512x8x128) (n : Fin 512) (bb : Fin 8) (o : Fin 128) :
    broadcastTo S512x8x128 v hb (ix3 n bb o) = v (ix3 n bb 0) :=
  broadcastTo_apply v hb (ix3 n bb o) (ix3 n bb 0) (fun a => by
    match a with
    | ⟨0, _⟩ => rfl
    | ⟨1, _⟩ => rfl
    | ⟨2, _⟩ => rfl)

/-- A per-channel row vector spread over all rows reads its channel's entry. -/
private theorem bcastRow128 (w : S1x1x128.Idx → α) (hb : S1x1x128.Broadcasts S512x8x128) (n : Fin 512) (bb : Fin 8) (o : Fin 128) :
    broadcastTo S512x8x128 w hb (ix3 n bb o) = w (ix3 0 0 o) :=
  broadcastTo_apply w hb (ix3 n bb o) (ix3 0 0 o) (fun a => by
    match a with
    | ⟨0, _⟩ => rfl
    | ⟨1, _⟩ => rfl
    | ⟨2, _⟩ => rfl)

private theorem cast128to3 (v : S128.Idx → α) (hc : S128.ShapeCasts S1x1x128) (o : Fin 128) :
    shapeCast S1x1x128 v hc (ix3 0 0 o) = v (ix1 o) :=
  shapeCast_apply v hc (ix3 0 0 o) (ix1 o) (by
    rw [Shape.rowMajor_val_one, Shape.rowMajor_val_three]; simp)

private theorem cast3to128 (v : S1x1x128.Idx → α) (hc : S1x1x128.ShapeCasts S128) (o : Fin 128) :
    shapeCast S128 v hc (ix1 o) = v (ix3 0 0 o) :=
  shapeCast_apply v hc (ix1 o) (ix3 0 0 o) (by
    rw [Shape.rowMajor_val_one, Shape.rowMajor_val_three]; simp)

private theorem castRows128to3 (v : S4096x128.Idx → α) (hc : S4096x128.ShapeCasts S512x8x128) (n : Fin 512) (bb : Fin 8) (o : Fin 128) :
    shapeCast S512x8x128 v hc (ix3 n bb o) = v (ix2 (rowIx n bb) o) :=
  shapeCast_apply v hc (ix3 n bb o) (ix2 (rowIx n bb) o) (by
    rw [Shape.rowMajor_val_two, Shape.rowMajor_val_three]; rfl)

private theorem cast3toRows128 (v : S512x8x128.Idx → α) (hc : S512x8x128.ShapeCasts S4096x128) (n : Fin 512) (bb : Fin 8) (o : Fin 128) :
    shapeCast S4096x128 v hc (ix2 (rowIx n bb) o) = v (ix3 n bb o) :=
  shapeCast_apply v hc (ix2 (rowIx n bb) o) (ix3 n bb o) (by
    rw [Shape.rowMajor_val_two, Shape.rowMajor_val_three]; rfl)

private theorem sliceTap128_0 (w : S3x1x128.Idx → α) (hs : S3x1x128.Slices ![0, 0, 0] S1x1x128) (o : Fin 128) :
    extractStridedSlice S1x1x128 ![0, 0, 0] w hs (ix3 0 0 o) = w (ix3 0 0 o) :=
  extractStridedSlice_apply _ w hs (ix3 0 0 o) (ix3 0 0 o) (fun a => by
    match a with
    | ⟨0, _⟩ => rfl
    | ⟨1, _⟩ => rfl
    | ⟨2, _⟩ => show o.val = 0 + o.val; omega)

private theorem sliceTap128_1 (w : S3x1x128.Idx → α) (hs : S3x1x128.Slices ![1, 0, 0] S1x1x128) (o : Fin 128) :
    extractStridedSlice S1x1x128 ![1, 0, 0] w hs (ix3 0 0 o) = w (ix3 1 0 o) :=
  extractStridedSlice_apply _ w hs (ix3 0 0 o) (ix3 1 0 o) (fun a => by
    match a with
    | ⟨0, _⟩ => rfl
    | ⟨1, _⟩ => rfl
    | ⟨2, _⟩ => show o.val = 0 + o.val; omega)

private theorem sliceTap128_2 (w : S3x1x128.Idx → α) (hs : S3x1x128.Slices ![2, 0, 0] S1x1x128) (o : Fin 128) :
    extractStridedSlice S1x1x128 ![2, 0, 0] w hs (ix3 0 0 o) = w (ix3 2 0 o) :=
  extractStridedSlice_apply _ w hs (ix3 0 0 o) (ix3 2 0 o) (fun a => by
    match a with
    | ⟨0, _⟩ => rfl
    | ⟨1, _⟩ => rfl
    | ⟨2, _⟩ => show o.val = 0 + o.val; omega)

/-! ### The 192-column row form of three 64-channel pieces -/

/-- The columns 0..63 of the row form are the first piece. -/
private theorem rowsPiece0 (p0 p1 p2 : S512x8x64.Idx → α)
    (hcat : Shape.Concatenates [S512x8x64, S512x8x64, S512x8x64] S512x8x192 2) (hc : S512x8x192.ShapeCasts S4096x192)
    (n : Fin 512) (bb : Fin 8) (c : Fin 192) (f : Fin 64) (hcf : c.val = f.val) :
    shapeCast S4096x192 (concatenate S512x8x192 2 [⟨S512x8x64, p0⟩, ⟨S512x8x64, p1⟩, ⟨S512x8x64, p2⟩] hcat) hc
      (ix2 (rowIx n bb) c) = p0 (ix3 n bb f) := by
  refine (shapeCast_apply _ hc (ix2 (rowIx n bb) c) (ix3 n bb c) (by
    rw [Shape.rowMajor_val_two, Shape.rowMajor_val_three]; rfl)).trans ?_
  refine concatenate_apply_piece (2 : Fin S512x8x192.rank) ([⟨S512x8x64, p0⟩, ⟨S512x8x64, p1⟩, ⟨S512x8x64, p2⟩] : List ((s : Shape) × (s.Idx → α))) hcat (ix3 n bb c) 0 (by simp) S512x8x64 p0 rfl rfl 0 rfl
    (ix3 n bb f) (fun b hb => ?_) ?_
  · match b with
    | ⟨0, _⟩ => rfl
    | ⟨1, _⟩ => rfl
    | ⟨2, _⟩ => exact absurd rfl hb
  · show 0 + f.val = c.val
    omega

/-- The columns 64..127 are the second piece. -/
private theorem rowsPiece1 (p0 p1 p2 : S512x8x64.Idx → α)
    (hcat : Shape.Concatenates [S512x8x64, S512x8x64, S512x8x64] S512x8x192 2) (hc : S512x8x192.ShapeCasts S4096x192)
    (n : Fin 512) (bb : Fin 8) (c : Fin 192) (f : Fin 64) (hcf : c.val = 64 + f.val) :
    shapeCast S4096x192 (concatenate S512x8x192 2 [⟨S512x8x64, p0⟩, ⟨S512x8x64, p1⟩, ⟨S512x8x64, p2⟩] hcat) hc
      (ix2 (rowIx n bb) c) = p1 (ix3 n bb f) := by
  refine (shapeCast_apply _ hc (ix2 (rowIx n bb) c) (ix3 n bb c) (by
    rw [Shape.rowMajor_val_two, Shape.rowMajor_val_three]; rfl)).trans ?_
  refine concatenate_apply_piece (2 : Fin S512x8x192.rank) ([⟨S512x8x64, p0⟩, ⟨S512x8x64, p1⟩, ⟨S512x8x64, p2⟩] : List ((s : Shape) × (s.Idx → α))) hcat (ix3 n bb c) 1 (by simp) S512x8x64 p1 rfl rfl 64 rfl
    (ix3 n bb f) (fun b hb => ?_) ?_
  · match b with
    | ⟨0, _⟩ => rfl
    | ⟨1, _⟩ => rfl
    | ⟨2, _⟩ => exact absurd rfl hb
  · show 64 + f.val = c.val
    omega

/-- The columns 128..191 are the third piece. -/
private theorem rowsPiece2 (p0 p1 p2 : S512x8x64.Idx → α)
    (hcat : Shape.Concatenates [S512x8x64, S512x8x64, S512x8x64] S512x8x192 2) (hc : S512x8x192.ShapeCasts S4096x192)
    (n : Fin 512) (bb : Fin 8) (c : Fin 192) (f : Fin 64) (hcf : c.val = 128 + f.val) :
    shapeCast S4096x192 (concatenate S512x8x192 2 [⟨S512x8x64, p0⟩, ⟨S512x8x64, p1⟩, ⟨S512x8x64, p2⟩] hcat) hc
      (ix2 (rowIx n bb) c) = p2 (ix3 n bb f) := by
  refine (shapeCast_apply _ hc (ix2 (rowIx n bb) c) (ix3 n bb c) (by
    rw [Shape.rowMajor_val_two, Shape.rowMajor_val_three]; rfl)).trans ?_
  refine concatenate_apply_piece (2 : Fin S512x8x192.rank) ([⟨S512x8x64, p0⟩, ⟨S512x8x64, p1⟩, ⟨S512x8x64, p2⟩] : List ((s : Shape) × (s.Idx → α))) hcat (ix3 n bb c) 2 (by simp) S512x8x64 p2 rfl rfl 128 rfl
    (ix3 n bb f) (fun b hb => ?_) ?_
  · match b with
    | ⟨0, _⟩ => rfl
    | ⟨1, _⟩ => rfl
    | ⟨2, _⟩ => exact absurd rfl hb
  · show 128 + f.val = c.val
    omega

/-- The node-major form read as (node, batch, channel): column `bb * 64 + u`. -/
private theorem castNodeTo3 (v : S512x512.Idx → α) (hc : S512x512.ShapeCasts S512x8x64) (n : Fin 512) (bb : Fin 8) (u : Fin 64) :
    shapeCast S512x8x64 v hc (ix3 n bb u) = v (ix2 n (colIx bb u)) :=
  shapeCast_apply v hc (ix3 n bb u) (ix2 n (colIx bb u)) (by
    rw [Shape.rowMajor_val_two, Shape.rowMajor_val_three]
    show n.val * 512 + (bb.val * 64 + u.val) = (n.val * 8 + bb.val) * 64 + u.val
    omega)

private theorem cast3ToNode (v : S512x8x64.Idx → α) (hc : S512x8x64.ShapeCasts S512x512) (n : Fin 512) (bb : Fin 8) (u : Fin 64) :
    shapeCast S512x512 v hc (ix2 n (colIx bb u)) = v (ix3 n bb u) :=
  shapeCast_apply v hc (ix2 n (colIx bb u)) (ix3 n bb u) (by
    rw [Shape.rowMajor_val_two, Shape.rowMajor_val_three]
    show (n.val * 8 + bb.val) * 64 + u.val = n.val * 512 + (bb.val * 64 + u.val)
    omega)

private theorem castRows64to3 (v : S4096x64.Idx → α) (hc : S4096x64.ShapeCasts S512x8x64) (n : Fin 512) (bb : Fin 8) (o : Fin 64) :
    shapeCast S512x8x64 v hc (ix3 n bb o) = v (ix2 (rowIx n bb) o) :=
  shapeCast_apply v hc (ix3 n bb o) (ix2 (rowIx n bb) o) (by
    rw [Shape.rowMajor_val_two, Shape.rowMajor_val_three]; rfl)

/-- Channels 64..127 of the gate array. -/
private theorem sliceHi (y : S4096x128.Idx → α) (hs : S4096x128.Slices ![0, 64] S4096x64) (r : Fin 4096) (u : Fin 64) :
    extractStridedSlice S4096x64 ![0, 64] y hs (ix2 r u) = y (ix2 r (⟨64 + u.val, by omega⟩ : Fin 128)) :=
  extractStridedSlice_apply _ y hs (ix2 r u) (ix2 r (⟨64 + u.val, by omega⟩ : Fin 128)) (fun a => by
    match a with
    | ⟨0, _⟩ => show r.val = 0 + r.val; omega
    | ⟨1, _⟩ => rfl)

/-- Channels 0..63 of the gate array. -/
private theorem sliceLo (y : S4096x128.Idx → α) (hs : S4096x128.Slices ![0, 0] S4096x64) (r : Fin 4096) (u : Fin 64) :
    extractStridedSlice S4096x64 ![0, 0] y hs (ix2 r u) = y (ix2 r (⟨u.val, by omega⟩ : Fin 128)) :=
  extractStridedSlice_apply _ y hs (ix2 r u) (ix2 r (⟨u.val, by omega⟩ : Fin 128)) (fun a => by
    match a with
    | ⟨0, _⟩ => show r.val = 0 + r.val; omega
    | ⟨1, _⟩ => show u.val = 0 + u.val; omega)

end Layout

section Products

/-! ### The product `S4096x192 · S192x128` read at an entry -/

private theorem lhs_gate_0 (i : S4096x128.Idx) (q : dot_S4096x192_S192x128_S4096x128_1_0_0_1_n_n.contr.Idx) :
    (dot_S4096x192_S192x128_S4096x128_1_0_0_1_n_n.lhsIdx i q 0).val = (i 0).val := by
  unfold DotDims.lhsIdx
  rw [dif_neg (show ¬(0 : Fin S4096x192.rank) ∈ dot_S4096x192_S192x128_S4096x128_1_0_0_1_n_n.lhsBatch by decide), dif_pos (show (0 : Fin S4096x192.rank) ∈ dot_S4096x192_S192x128_S4096x128_1_0_0_1_n_n.lhsNonContracting by decide)]
  rfl
private theorem lhs_gate_1 (i : S4096x128.Idx) (q : dot_S4096x192_S192x128_S4096x128_1_0_0_1_n_n.contr.Idx) :
    (dot_S4096x192_S192x128_S4096x128_1_0_0_1_n_n.lhsIdx i q 1).val = (q ⟨0, by decide⟩).val :=
  dot_S4096x192_S192x128_S4096x128_1_0_0_1_n_n.lhsIdx_val_of_single rfl i q
private theorem rhs_gate_0 (i : S4096x128.Idx) (q : dot_S4096x192_S192x128_S4096x128_1_0_0_1_n_n.contr.Idx) :
    (dot_S4096x192_S192x128_S4096x128_1_0_0_1_n_n.rhsIdx i q 0).val = (q ⟨0, by decide⟩).val :=
  dot_S4096x192_S192x128_S4096x128_1_0_0_1_n_n.rhsIdx_val_of_single rfl i q
private theorem rhs_gate_1 (i : S4096x128.Idx) (q : dot_S4096x192_S192x128_S4096x128_1_0_0_1_n_n.contr.Idx) :
    (dot_S4096x192_S192x128_S4096x128_1_0_0_1_n_n.rhsIdx i q 1).val = (i 1).val := by
  unfold DotDims.rhsIdx
  rw [dif_neg (show ¬(1 : Fin S192x128.rank) ∈ dot_S4096x192_S192x128_S4096x128_1_0_0_1_n_n.rhsBatch by decide), dif_pos (show (1 : Fin S192x128.rank) ∈ dot_S4096x192_S192x128_S4096x128_1_0_0_1_n_n.rhsNonContracting by decide)]
  rfl

/-- Into a zero accumulator the product's entry `(r, c)` is the sum over the 192 inner positions. -/
private theorem matmul_gate_apply {φ₁ φ₂ : FTy} (lhs : FVec Ideal S4096x192 φ₁) (rhs : FVec Ideal S192x128 φ₂) (r : Fin 4096) (c : Fin 128) :
    matmul dot_S4096x192_S192x128_S4096x128_1_0_0_1_n_n none lhs rhs (constant (F := Ideal) S4096x128 .f32 0x00000000#32) (ix2 r c)
      = ∑ k : Fin 192, lhs (ix2 r k) * rhs (ix2 k c) := by
  simp only [matmul]
  rw [Ideal.matmul_constant_zero_apply, ← Equiv.sum_comp (contrEquiv1 dot_S4096x192_S192x128_S4096x128_1_0_0_1_n_n 192 rfl rfl).symm]
  refine Finset.sum_congr rfl fun k _ => ?_
  have hk := contrEquiv1_symm_val dot_S4096x192_S192x128_S4096x128_1_0_0_1_n_n 192 rfl rfl k
  have el : dot_S4096x192_S192x128_S4096x128_1_0_0_1_n_n.lhsIdx (ix2 r c) ((contrEquiv1 dot_S4096x192_S192x128_S4096x128_1_0_0_1_n_n 192 rfl rfl).symm k) = ix2 r k := funext fun a => Fin.ext (by
    match a with
    | ⟨0, _⟩ => exact lhs_gate_0 _ _
    | ⟨1, _⟩ => exact (lhs_gate_1 _ _).trans hk)
  have er : dot_S4096x192_S192x128_S4096x128_1_0_0_1_n_n.rhsIdx (ix2 r c) ((contrEquiv1 dot_S4096x192_S192x128_S4096x128_1_0_0_1_n_n 192 rfl rfl).symm k) = ix2 k c := funext fun a => Fin.ext (by
    match a with
    | ⟨0, _⟩ => exact (rhs_gate_0 _ _).trans hk
    | ⟨1, _⟩ => exact rhs_gate_1 _ _)
  rw [el, er]

/-! ### The product `S512x512 · S512x512` read at an entry -/

private theorem lhs_adj_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
private theorem lhs_adj_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
private theorem rhs_adj_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
private theorem rhs_adj_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- Into a zero accumulator the product's entry `(r, c)` is the sum over the 512 inner positions. -/
private theorem matmul_adj_apply {φ₁ φ₂ : FTy} (lhs : FVec Ideal S512x512 φ₁) (rhs : FVec Ideal S512x512 φ₂) (r : Fin 512) (c : Fin 512) :
    matmul dot_S512x512_S512x512_S512x512_1_0_0_1_n_n none lhs rhs (constant (F := Ideal) S512x512 .f32 0x00000000#32) (ix2 r c)
      = ∑ k : Fin 512, lhs (ix2 r k) * rhs (ix2 k c) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 r c) ((contrEquiv1 dot_S512x512_S512x512_S512x512_1_0_0_1_n_n 512 rfl rfl).symm k) = ix2 r k := funext fun a => Fin.ext (by
    match a with
    | ⟨0, _⟩ => exact lhs_adj_0 _ _
    | ⟨1, _⟩ => exact (lhs_adj_1 _ _).trans hk)
  have er : dot_S512x512_S512x512_S512x512_1_0_0_1_n_n.rhsIdx (ix2 r c) ((contrEquiv1 dot_S512x512_S512x512_S512x512_1_0_0_1_n_n 512 rfl rfl).symm k) = ix2 k c := funext fun a => Fin.ext (by
    match a with
    | ⟨0, _⟩ => exact (rhs_adj_0 _ _).trans hk
    | ⟨1, _⟩ => exact rhs_adj_1 _ _)
  rw [el, er]

end Products

/-! ### The feature columns, and the row form's three taps -/

/-- Feature 0 of layer 0 is the input. -/
private theorem col0_zero (x : Fin 512 → EReal) (s : Fin 512 → Fin 64 → EReal) : col0 x s 0 = x := rfl

/-- Feature `f + 1` of layer 0 is state channel `f`. -/
private theorem col0_succ (x : Fin 512 → EReal) (s : Fin 512 → Fin 64 → EReal) (f : Fin 64) :
    col0 x s ⟨f.val + 1, by omega⟩ = fun k => s k f := by
  funext k
  unfold col0
  rw [dif_neg (Nat.succ_ne_zero f.val)]
  exact congrArg (s k) (Fin.ext (Nat.add_sub_cancel f.val 1))

/-- Column `m * 64 + f` of the row form of [z, A z, 2 A A z − z] (each piece holding channel `f` of its
    signal at the row's node) is tap `m` of the signal. -/
private theorem rows_tap (A : Fin 512 → Fin 512 → EReal) (p0 p1 p2 : S512x8x64.Idx → EReal)
    (hcat : Shape.Concatenates [S512x8x64, S512x8x64, S512x8x64] S512x8x192 2) (hc : S512x8x192.ShapeCasts S4096x192)
    (n : Fin 512) (bb : Fin 8) (f : Fin 64) (z : Fin 512 → EReal)
    (h0 : p0 (ix3 n bb f) = z n) (h1 : p1 (ix3 n bb f) = tap1 A z n) (h2 : p2 (ix3 n bb f) = tap2 A z n) (m : Fin 3) :
    shapeCast S4096x192 (concatenate S512x8x192 2 [⟨S512x8x64, p0⟩, ⟨S512x8x64, p1⟩, ⟨S512x8x64, p2⟩] hcat) hc
      (ix2 (rowIx n bb) (⟨m.val * 64 + f.val, by omega⟩ : Fin 192)) = tap A m z n := by
  match m with
  | ⟨0, _⟩ => exact (rowsPiece0 p0 p1 p2 hcat hc n bb _ f (by show 0 * 64 + f.val = f.val; omega)).trans h0
  | ⟨1, _⟩ => exact (rowsPiece1 p0 p1 p2 hcat hc n bb _ f (by show 1 * 64 + f.val = 64 + f.val; omega)).trans h1
  | ⟨2, _⟩ => exact (rowsPiece2 p0 p1 p2 hcat hc n bb _ f (by show 2 * 64 + f.val = 128 + f.val; omega)).trans h2

/-- The bf16 word of zero is the extended real zero. -/
private theorem ofBits_zero_bf16' : Ideal.ofBits .bf16 0x0000#16 = 0 := by simp [Ideal.ofBits, Ideal.ieee]

section Cell0
variable (A : Fin 512 → Fin 512 → EReal) (x : Fin 8 → Fin 512 → EReal) (h : Fin 8 → Fin 512 → Fin 64 → EReal)
  (Wg : Fin 65 → Fin 3 → Fin 128 → EReal) (bg : Fin 128 → EReal)
  (Wc : Fin 65 → Fin 3 → Fin 64 → EReal) (bc : Fin 64 → EReal)
variable (v1 v4 : FVec Ideal S512x512 .bf16) (v9 : FVec Ideal S4096x64 .f32) (v19 v21 v23 : FVec Ideal S512x8x1 .f32)
  (v26 : FVec Ideal S3x1x128 .bf16) (v28 : FVec Ideal S192x128 .bf16) (v29 : Vec Ideal S128 .f32)
  (v35 v38 : FVec Ideal S512x512 .bf16) (v39 : FVec Ideal S512x8x64 .bf16)

/-- What the first stretch's values mean: the adjacency and its doubled copy, the state in its
    three layouts, the input's and the state's taps, and the gate weight's input rows, state rows
    (tap-major) and bias. -/
structure Part1Sem : Prop where
  hv1 : ∀ a b, v1 (ix2 a b) = A a b
  hv4 : ∀ a b, v4 (ix2 a b) = A a b * two
  hv9 : ∀ n bb u, v9 (ix2 (rowIx n bb) u) = h bb n u
  hv19 : ∀ n bb, v19 (ix3 n bb 0) = x bb n
  hv21 : ∀ n bb, v21 (ix3 n bb 0) = tap1 A (x bb) n
  hv23 : ∀ n bb, v23 (ix3 n bb 0) = tap2 A (x bb) n
  hv26 : ∀ (m : Fin 3) (o : Fin 128), v26 (ix3 m 0 o) = Wg 0 m o
  hv28 : ∀ (m : Fin 3) (f : Fin 64) (o : Fin 128),
    v28 (ix2 (⟨m.val * 64 + f.val, by omega⟩ : Fin 192) o) = Wg ⟨f.val + 1, by omega⟩ m o
  hv29 : ∀ o, v29 (ix1 o) = bg o
  hv35 : ∀ n bb u, v35 (ix2 n (colIx bb u)) = tap1 A (fun k => h bb k u) n
  hv38 : ∀ n bb u, v38 (ix2 n (colIx bb u)) = tap2 A (fun k => h bb k u) n
  hv39 : ∀ n bb u, v39 (ix3 n bb u) = h bb n u

/-- The gate array before it is sliced: the logistic of the gate convolution. The product of the row
    form with the state rows of the weight is the (tap, channel) part of the double sum, the three
    outer products are feature 0's three taps. -/
private theorem pay17_sem (P : Part1Sem A x h Wg bg v1 v4 v9 v19 v21 v23 v26 v28 v29 v35 v38 v39)
    (n : Fin 512) (bb : Fin 8) (o : Fin 128) :
    k0_pay17 (F := Ideal) v19 v21 v23 v26 v28 v29 v35 v38 v39 (ix2 (rowIx n bb) o)
      = Ideal.logistic (gconv A (col0 (x bb) (h bb)) Wg bg n o) := by
  unfold k0_pay17
  refine congrArg Ideal.logistic ?_
  rw [cast3toRows128]
  simp only [addf_apply, mulf_apply, extf_apply, bcastCol128, bcastRow128, cast128to3, cast3to128, castRows128to3,
    sliceTap128_0, sliceTap128_1, sliceTap128_2]
  rw [matmul_gate_apply, P.hv29, P.hv19, P.hv21, P.hv23, P.hv26, P.hv26, P.hv26]
  unfold gconv
  refine (gconv_split (fun f m => tap A m (col0 (x bb) (h bb) f) n * Wg f m o) _ (bg o) (fun m f => ?_)).symm
  rw [P.hv28 m f o, col0_succ,
    rows_tap A _ _ _ _ _ n bb f (fun k => h bb k f) (P.hv39 n bb f)
      ((castNodeTo3 v35 _ n bb f).trans (P.hv35 n bb f)) ((castNodeTo3 v38 _ n bb f).trans (P.hv38 n bb f)) m]

/-- Update gate, row form. -/
theorem pay18_sem (P : Part1Sem A x h Wg bg v1 v4 v9 v19 v21 v23 v26 v28 v29 v35 v38 v39)
    (n : Fin 512) (bb : Fin 8) (u : Fin 64) :
    k0_pay18 (F := Ideal) v19 v21 v23 v26 v28 v29 v35 v38 v39 (ix2 (rowIx n bb) u)
      = gateU A (col0 (x bb)) (h bb) Wg bg n u := by
  unfold k0_pay18
  rw [sliceHi, pay17_sem A x h Wg bg v1 v4 v9 v19 v21 v23 v26 v28 v29 v35 v38 v39 P]
  rfl

/-- Reset gate times state, row form. -/
theorem pay19_sem (P : Part1Sem A x h Wg bg v1 v4 v9 v19 v21 v23 v26 v28 v29 v35 v38 v39)
    (n : Fin 512) (bb : Fin 8) (u : Fin 64) :
    k0_pay19 (F := Ideal) v9 v19 v21 v23 v26 v28 v29 v35 v38 v39 (ix2 (rowIx n bb) u)
      = resetH A (col0 (x bb)) (h bb) Wg bg n u := by
  unfold k0_pay19
  rw [truncf_apply, mulf_apply, sliceLo, pay17_sem A x h Wg bg v1 v4 v9 v19 v21 v23 v26 v28 v29 v35 v38 v39 P, P.hv9]
  rfl

/-- Reset gate times state, node-major form. -/
theorem pay22_sem (P : Part1Sem A x h Wg bg v1 v4 v9 v19 v21 v23 v26 v28 v29 v35 v38 v39)
    (n : Fin 512) (bb : Fin 8) (u : Fin 64) :
    k0_pay22 (F := Ideal) v9 v19 v21 v23 v26 v28 v29 v35 v38 v39 (ix2 n (colIx bb u))
      = resetH A (col0 (x bb)) (h bb) Wg bg n u := by
  unfold k0_pay22
  rw [cast3ToNode, addf_apply, broadcast_apply, castRows64to3,
    pay19_sem A x h Wg bg v1 v4 v9 v19 v21 v23 v26 v28 v29 v35 v38 v39 P]
  show _ + Ideal.ofBits .bf16 0x0000#16 = _
  rw [ofBits_zero_bf16', add_zero]

/-- First tap of reset gate times state, node-major form. -/
theorem pay23_sem (P : Part1Sem A x h Wg bg v1 v4 v9 v19 v21 v23 v26 v28 v29 v35 v38 v39)
    (n : Fin 512) (bb : Fin 8) (u : Fin 64) :
    k0_pay23 (F := Ideal) v1 v9 v19 v21 v23 v26 v28 v29 v35 v38 v39 (ix2 n (colIx bb u))
      = tap1 A (fun k => resetH A (col0 (x bb)) (h bb) Wg bg k u) n := by
  unfold k0_pay23
  rw [truncf_apply, matmul_adj_apply]
  unfold tap1
  refine Finset.sum_congr rfl fun k _ => ?_
  rw [P.hv1, pay22_sem A x h Wg bg v1 v4 v9 v19 v21 v23 v26 v28 v29 v35 v38 v39 P]

variable (v76 : FVec Ideal S4096x64 .f32) (v78 : FVec Ideal S4096x64 .bf16) (v80 : FVec Ideal S3x1x64 .bf16)
  (v82 : FVec Ideal S192x64 .bf16) (v83 : Vec Ideal S64 .f32) (v87 v89 : FVec Ideal S512x512 .bf16)
  (cst_26 : FVec Ideal S512x512 .f32)

/-- What the second stretch's values mean, beside the first's that the candidate still reads. -/
structure Part2Sem : Prop where
  hv4 : ∀ a b, v4 (ix2 a b) = A a b * two
  hv9 : ∀ n bb u, v9 (ix2 (rowIx n bb) u) = h bb n u
  hv19 : ∀ n bb, v19 (ix3 n bb 0) = x bb n
  hv21 : ∀ n bb, v21 (ix3 n bb 0) = tap1 A (x bb) n
  hv23 : ∀ n bb, v23 (ix3 n bb 0) = tap2 A (x bb) n
  hv76 : ∀ n bb u, v76 (ix2 (rowIx n bb) u) = gateU A (col0 (x bb)) (h bb) Wg bg n u
  hv78 : ∀ n bb u, v78 (ix2 (rowIx n bb) u) = resetH A (col0 (x bb)) (h bb) Wg bg n u
  hv80 : ∀ (m : Fin 3) (o : Fin 64), v80 (ix3 m 0 o) = Wc 0 m o
  hv82 : ∀ (m : Fin 3) (f : Fin 64) (o : Fin 64),
    v82 (ix2 (⟨m.val * 64 + f.val, by omega⟩ : Fin 192) o) = Wc ⟨f.val + 1, by omega⟩ m o
  hv83 : ∀ o, v83 (ix1 o) = bc o
  hv87 : ∀ n bb u, v87 (ix2 n (colIx bb u)) = resetH A (col0 (x bb)) (h bb) Wg bg n u
  hv89 : ∀ n bb u, v89 (ix2 n (colIx bb u)) = tap1 A (fun k => resetH A (col0 (x bb)) (h bb) Wg bg k u) n
  hcst : cst_26 = constant (F := Ideal) S512x512 .f32 0x00000000#32

/-- The new layer-0 state, row form. -/
theorem pay24_sem (P : Part2Sem A x h Wg bg Wc bc v4 v9 v19 v21 v23 v76 v78 v80 v82 v83 v87 v89 cst_26)
    (n : Fin 512) (bb : Fin 8) (u : Fin 64) :
    k0_pay24 (F := Ideal) v4 v9 v19 v21 v23 v76 v78 v80 v82 v83 v87 v89 cst_26 (ix2 (rowIx n bb) u)
      = newH A (col0 (x bb)) (h bb) Wg bg Wc bc n u :=
  cand0_sem _ _ _ _ _ _ _ _ _ _ _ _ _ _ _ _ _ _ _ _
    ⟨P.hv4, P.hv9, P.hv19, P.hv21, P.hv23, P.hv76, P.hv78, P.hv80, P.hv82, P.hv83, P.hv87, P.hv89, P.hcst⟩ n bb u

end Cell0

end Cert.KernelIdeal.Sem

end
-- ==== Proof.KCell1.lean ====
/-
  Layer 1 of the cell inside the kernel, and the outputs, at the ideal instance. The input of this
  layer is layer 0's new state. Its three taps are taken once and shared by the gate and the
  candidate convolutions; each convolution is one product of the row-form concatenation
  [s, A s, 2 A A s − s, x, A x, 2 A A x − x] (384 columns: the state's taps, then the input's, each
  tap-major) with a weight whose rows were laid out in that order — the specification's double sum
  over (feature, tap) with the feature axis split into the 64 input channels and the 64 state
  channels. The new state is written back flat per batch row, and its projection onto the single
  output channel is a lane sum plus the scalar bias.
-/
import proofs.«145957_g44504451121623_cont_8to1_c_180_24_alg».proof.Proof.Gen.KernelIdeal.Skeleton
import proofs.«145957_g44504451121623_cont_8to1_c_180_24_alg».proof.Proof.Spec
import Idealize.ShloMosaic.Lib.Pipeline.Value
import Idealize.ShloMosaic.Lib.ValueLayout
import Idealize.ShloMosaic.Lib.ValueIdx
import Idealize.ShloMosaic.PureOps.Ideal.Laws
import Idealize.ShloMosaic.Lib.StackMember
import proofs.«145957_g44504451121623_cont_8to1_c_180_24_alg».proof.Proof.SpecLaws

noncomputable section

namespace Cert.KernelIdeal.Sem

open Idealize.ShloMosaic Idealize.ShloMosaic.ValueIdx Cert.KernelIdeal Cert.KernelIdeal.Gen Cert.DcgruSpec

/-! ## Layout operations of this kernel read at coordinate indices -/

section Layout
variable {α : Type}

/-- A row-form value read in (node, batch, channel) form. -/
private theorem sc_row_nbu (x : S4096x64.Idx → α) (n : Fin 512) (bb : Fin 8) (u : Fin 64) :
    shapeCast S512x8x64 x shapeCasts_S4096x64_S512x8x64 (ix3 n bb u) = x (ix2 (rowIx n bb) u) :=
  shapeCast_apply x _ (ix3 n bb u) (ix2 (rowIx n bb) u) (by
    rw [Shape.rowMajor_val_two, Shape.rowMajor_val_three]; rfl)

/-- A (node, batch, channel) value read in node-major form. -/
private theorem sc_nbu_nm (x : S512x8x64.Idx → α) (n : Fin 512) (bb : Fin 8) (u : Fin 64) :
    shapeCast S512x512 x shapeCasts_S512x8x64_S512x512 (ix2 n (colIx bb u)) = x (ix3 n bb u) :=
  shapeCast_apply x _ (ix2 n (colIx bb u)) (ix3 n bb u) (by
    rw [Shape.rowMajor_val_two, Shape.rowMajor_val_three]
    show (n.val * 8 + bb.val) * 64 + u.val = n.val * 512 + (bb.val * 64 + u.val)
    omega)

/-- A node-major value read in (node, batch, channel) form. -/
private theorem sc_nm_nbu (x : S512x512.Idx → α) (n : Fin 512) (bb : Fin 8) (u : Fin 64) :
    shapeCast S512x8x64 x shapeCasts_S512x512_S512x8x64 (ix3 n bb u) = x (ix2 n (colIx bb u)) :=
  shapeCast_apply x _ (ix3 n bb u) (ix2 n (colIx bb u)) (by
    rw [Shape.rowMajor_val_two, Shape.rowMajor_val_three]
    show n.val * 512 + (bb.val * 64 + u.val) = (n.val * 8 + bb.val) * 64 + u.val
    omega)

/-- The 384-column (node, batch, column) value read in row form. -/
private theorem sc_rows384 (x : S512x8x384.Idx → α) (n : Fin 512) (bb : Fin 8) (k : Fin 384) :
    shapeCast S4096x384 x shapeCasts_S512x8x384_S4096x384 (ix2 (rowIx n bb) k) = x (ix3 n bb k) :=
  shapeCast_apply x _ (ix2 (rowIx n bb) k) (ix3 n bb k) (by
    rw [Shape.rowMajor_val_two, Shape.rowMajor_val_three]; rfl)

end Layout

/-! ## Products, biases, slices and the six-block concatenation at coordinate indices -/

section Products
open Idealize.ShloMosaic.StackMember

/-- A plain product into the zero accumulator is the sum over the contracted coordinate. -/
private theorem matmul_plain_apply {m k n : Nat} {φ₁ φ₂ : FTy}
    (d : DotDims ⟨2, ![m, k]⟩ ⟨2, ![k, n]⟩ ⟨2, ![m, n]⟩) (hd : d = DotDims.plain m k n)
    (lhs : FVec Ideal ⟨2, ![m, k]⟩ φ₁) (rhs : FVec Ideal ⟨2, ![k, n]⟩ φ₂) (a : Fin m) (b : Fin n) :
    matmul d none lhs rhs (constant ⟨2, ![m, n]⟩ .f32 0x00000000#32) (ix2 a b)
      = ∑ c : Fin k, lhs (ix2 a c) * rhs (ix2 c b) := by
  subst hd
  refine (Ideal.matmul_constant_zero_apply _ none lhs rhs (ix2 a b)).trans ?_
  refine (Ideal.dotGeneral_apply _ none .single lhs rhs (ix2 a b)).symm.trans ?_
  exact dotGeneral_plain_apply none lhs rhs a b

private theorem mm512 {φ₁ φ₂ : FTy} (lhs : FVec Ideal S512x512 φ₁) (rhs : FVec Ideal S512x512 φ₂) (a b : Fin 512) :
    matmul dot_S512x512_S512x512_S512x512_1_0_0_1_n_n none lhs rhs (constant S512x512 .f32 0x00000000#32) (ix2 a b)
      = ∑ c : Fin 512, lhs (ix2 a c) * rhs (ix2 c b) :=
  matmul_plain_apply _ rfl lhs rhs a b

private theorem mm384x128 {φ₁ φ₂ : FTy} (lhs : FVec Ideal S4096x384 φ₁) (rhs : FVec Ideal S384x128 φ₂) (a : Fin 4096) (b : Fin 128) :
    matmul dot_S4096x384_S384x128_S4096x128_1_0_0_1_n_n none lhs rhs (constant S4096x128 .f32 0x00000000#32) (ix2 a b)
      = ∑ c : Fin 384, lhs (ix2 a c) * rhs (ix2 c b) :=
  matmul_plain_apply _ rfl lhs rhs a b

private theorem mm384x64 {φ₁ φ₂ : FTy} (lhs : FVec Ideal S4096x384 φ₁) (rhs : FVec Ideal S384x64 φ₂) (a : Fin 4096) (b : Fin 64) :
    matmul dot_S4096x384_S384x64_S4096x64_1_0_0_1_n_n none lhs rhs (constant S4096x64 .f32 0x00000000#32) (ix2 a b)
      = ∑ c : Fin 384, lhs (ix2 a c) * rhs (ix2 c b) :=
  matmul_plain_apply _ rfl lhs rhs a b

end Products

section Pieces
variable {α : Type}

/-- The bf16 zero word is the extended real 0. -/
private theorem ofBits_zero_bf16 : Ideal.ofBits .bf16 0x0000#16 = 0 := by simp [Ideal.ofBits, Ideal.ieee]

/-- The 128-wide bias row broadcast over the rows. -/
private theorem bias128 (v : S128.Idx → α) (r : Fin 4096) (o : Fin 128) :
    broadcastTo S4096x128 (shapeCast S1x128 v shapeCasts_S128_S1x128) broadcasts_S1x128_S4096x128 (ix2 r o) = v (ix1 o) := by
  refine (broadcastTo_apply _ _ (ix2 r o) (ix2 (0 : Fin 1) o) (fun a => ?_)).trans ?_
  · match a with
    | ⟨0, _⟩ => rfl
    | ⟨1, _⟩ => rfl
  · exact shapeCast_apply v _ (ix2 (0 : Fin 1) o) (ix1 o) (by
      rw [Shape.rowMajor_val_two, Shape.rowMajor_val_one]
      show o.val = 0 * 128 + o.val
      omega)

/-- The 64-wide bias row broadcast over the rows. -/
private theorem bias64 (v : S64.Idx → α) (r : Fin 4096) (o : Fin 64) :
    broadcastTo S4096x64 (shapeCast S1x64 v shapeCasts_S64_S1x64) broadcasts_S1x64_S4096x64 (ix2 r o) = v (ix1 o) := by
  refine (broadcastTo_apply _ _ (ix2 r o) (ix2 (0 : Fin 1) o) (fun a => ?_)).trans ?_
  · match a with
    | ⟨0, _⟩ => rfl
    | ⟨1, _⟩ => rfl
  · exact shapeCast_apply v _ (ix2 (0 : Fin 1) o) (ix1 o) (by
      rw [Shape.rowMajor_val_two, Shape.rowMajor_val_one]
      show o.val = 0 * 64 + o.val
      omega)

/-- The upper half of the 128 gate channels. -/
private theorem slice_hi (x : S4096x128.Idx → α) (r : Fin 4096) (u : Fin 64) :
    extractStridedSlice S4096x64 ![0, 64] x slices_S4096x128_o0_64_S4096x64 (ix2 r u)
      = x (ix2 r (⟨64 + u.val, by omega⟩ : Fin 128)) :=
  extractStridedSlice_apply _ x _ (ix2 r u) (ix2 r (⟨64 + u.val, by omega⟩ : Fin 128)) (fun a => by
    match a with
    | ⟨0, _⟩ => show r.val = 0 + r.val; omega
    | ⟨1, _⟩ => rfl)

/-- The lower half of the 128 gate channels. -/
private theorem slice_lo (x : S4096x128.Idx → α) (r : Fin 4096) (u : Fin 64) :
    extractStridedSlice S4096x64 ![0, 0] x slices_S4096x128_o0_0_S4096x64 (ix2 r u)
      = x (ix2 r (⟨u.val, by omega⟩ : Fin 128)) :=
  extractStridedSlice_apply _ x _ (ix2 r u) (ix2 r (⟨u.val, by omega⟩ : Fin 128)) (fun a => by
    match a with
    | ⟨0, _⟩ => show r.val = 0 + r.val; omega
    | ⟨1, _⟩ => show u.val = 0 + u.val; omega)

/-- A concatenation of 64-wide blocks along the last axis: column `k · 64 + f` reads block `k` at `f`. -/
private theorem concat_block (xs : List ((s : Shape) × (s.Idx → α)))
    (hc : Shape.Concatenates (xs.map (·.1)) S512x8x384 2) (n : Fin 512) (bb : Fin 8) (q : Fin 384) (f : Fin 64)
    (k : Nat) (hk : k < xs.length) (hq : q.val = k * 64 + f.val) (x₁ : S512x8x64.Idx → α) (hxk : xs[k] = ⟨S512x8x64, x₁⟩)
    (hpre : (((xs.take k).map (·.1)).map fun s : Shape =>
      if h : s.rank = S512x8x384.rank then s.size ((2 : Fin S512x8x384.rank).cast h.symm) else 0).sum = k * 64) :
    concatenate S512x8x384 2 xs hc (ix3 n bb q) = x₁ (ix3 n bb f) := by
  refine concatenate_apply_piece (2 : Fin S512x8x384.rank) xs hc (ix3 n bb q) k hk S512x8x64 x₁ hxk rfl (k * 64) hpre
    (ix3 n bb f) (fun b hb => ?_) ?_
  · match b with
    | ⟨0, _⟩ => rfl
    | ⟨1, _⟩ => rfl
    | ⟨2, _⟩ => exact absurd rfl hb
  · show k * 64 + f.val = q.val
    exact hq.symm

/-- The six-block concatenation along the last axis: column `c · 64 + f` reads block `c` at `f`. -/
private theorem concat6 (p : Fin 6 → (S512x8x64.Idx → α)) (n : Fin 512) (bb : Fin 8) (c : Fin 6) (f : Fin 64) :
    concatenate S512x8x384 2 [⟨S512x8x64, p 0⟩, ⟨S512x8x64, p 1⟩, ⟨S512x8x64, p 2⟩, ⟨S512x8x64, p 3⟩, ⟨S512x8x64, p 4⟩, ⟨S512x8x64, p 5⟩]
        concatenates_S512x8x64_S512x8x64_S512x8x64_S512x8x64_S512x8x64_S512x8x64_S512x8x384_d2
        (ix3 n bb (⟨c.val * 64 + f.val, by omega⟩ : Fin 384))
      = p c (ix3 n bb f) := by
  match c with
  | ⟨0, _⟩ => exact concat_block _ _ n bb _ f 0 (by show 0 < 6; omega) rfl (p 0) rfl rfl
  | ⟨1, _⟩ => exact concat_block _ _ n bb _ f 1 (by show 1 < 6; omega) rfl (p 1) rfl rfl
  | ⟨2, _⟩ => exact concat_block _ _ n bb _ f 2 (by show 2 < 6; omega) rfl (p 2) rfl rfl
  | ⟨3, _⟩ => exact concat_block _ _ n bb _ f 3 (by show 3 < 6; omega) rfl (p 3) rfl rfl
  | ⟨4, _⟩ => exact concat_block _ _ n bb _ f 4 (by show 4 < 6; omega) rfl (p 4) rfl rfl
  | ⟨5, _⟩ => exact concat_block _ _ n bb _ f 5 (by show 5 < 6; omega) rfl (p 5) rfl rfl

end Pieces

/-! ## The (feature, tap) double sum as one sum over the 384 columns

Column `k` of the row-form concatenation belongs to block `k / 64` and channel `k % 64`: blocks 0–2 are the
taps of the state channels (features 64–127), blocks 3–5 the taps of the input channels (features 0–63). -/

/-- The (feature, tap) pair of a column. -/
private def featTap : Fin 384 ≃ Fin 128 × Fin 3 where
  toFun k := if h : k.val / 64 < 3 then (⟨64 + k.val % 64, by omega⟩, ⟨k.val / 64, h⟩)
    else (⟨k.val % 64, by omega⟩, ⟨k.val / 64 - 3, by omega⟩)
  invFun p := if h : p.1.val < 64 then ⟨(3 + p.2.val) * 64 + p.1.val, by omega⟩
    else ⟨p.2.val * 64 + (p.1.val - 64), by omega⟩
  left_inv k := by
    by_cases h : k.val / 64 < 3
    · have h2 : ¬ (64 + k.val % 64 < 64) := by omega
      simp only [dif_pos h, dif_neg h2]
      exact Fin.ext (by show k.val / 64 * 64 + (64 + k.val % 64 - 64) = k.val; omega)
    · have h2 : k.val % 64 < 64 := by omega
      simp only [dif_neg h, dif_pos h2]
      exact Fin.ext (by show (3 + (k.val / 64 - 3)) * 64 + k.val % 64 = k.val; omega)
  right_inv p := by
    obtain ⟨F, m⟩ := p
    by_cases h : F.val < 64
    · have h2 : ¬ (((3 + m.val) * 64 + F.val) / 64 < 3) := by omega
      simp only [dif_pos h, dif_neg h2]
      exact Prod.ext (Fin.ext (by show ((3 + m.val) * 64 + F.val) % 64 = F.val; omega))
        (Fin.ext (by show ((3 + m.val) * 64 + F.val) / 64 - 3 = m.val; omega))
    · have h2 : (m.val * 64 + (F.val - 64)) / 64 < 3 := by omega
      simp only [dif_neg h, dif_pos h2]
      exact Prod.ext (Fin.ext (by show 64 + (m.val * 64 + (F.val - 64)) % 64 = F.val; omega))
        (Fin.ext (by show (m.val * 64 + (F.val - 64)) / 64 = m.val; omega))

private theorem featTap_state (m : Fin 3) (f : Fin 64) :
    featTap (⟨m.val * 64 + f.val, by omega⟩ : Fin 384) = (⟨64 + f.val, by omega⟩, m) := by
  have h : (m.val * 64 + f.val) / 64 < 3 := by omega
  show (if h : (m.val * 64 + f.val) / 64 < 3 then _ else _) = _
  rw [dif_pos h]
  exact Prod.ext (Fin.ext (by show 64 + (m.val * 64 + f.val) % 64 = 64 + f.val; omega))
    (Fin.ext (by show (m.val * 64 + f.val) / 64 = m.val; omega))

private theorem featTap_input (m : Fin 3) (f : Fin 64) :
    featTap (⟨(3 + m.val) * 64 + f.val, by omega⟩ : Fin 384) = (⟨f.val, by omega⟩, m) := by
  have h : ¬ (((3 + m.val) * 64 + f.val) / 64 < 3) := by omega
  show (if h : ((3 + m.val) * 64 + f.val) / 64 < 3 then _ else _) = _
  rw [dif_neg h]
  exact Prod.ext (Fin.ext (by show ((3 + m.val) * 64 + f.val) % 64 = f.val; omega))
    (Fin.ext (by show ((3 + m.val) * 64 + f.val) / 64 - 3 = m.val; omega))

/-- The double sum over (feature, tap) is the single sum over the columns. -/
private theorem sum_feat_tap (g : Fin 128 → Fin 3 → EReal) :
    ∑ F : Fin 128, ∑ m : Fin 3, g F m = ∑ k : Fin 384, g (featTap k).1 (featTap k).2 := by
  rw [← Fintype.sum_prod_type' (f := g)]
  exact (Equiv.sum_comp featTap (fun p : Fin 128 × Fin 3 => g p.1 p.2)).symm

/-- Every column is block `c`, channel `f` for one (block, channel) pair. -/
private theorem col_split (k : Fin 384) : ∃ (c : Fin 6) (f : Fin 64), k = ⟨c.val * 64 + f.val, by omega⟩ :=
  ⟨⟨k.val / 64, by omega⟩, ⟨k.val % 64, by omega⟩, Fin.ext (by show k.val = k.val / 64 * 64 + k.val % 64; omega)⟩

/-! ## The diffusion taps and the convolution of the row-form concatenation -/

section Sem
variable (A : Fin 512 → Fin 512 → EReal)

private theorem logistic_apply {s : Shape} {φ : FTy} (x : FVec Ideal s φ) (i : s.Idx) :
    logistic x i = Ideal.logistic (x i) := rfl
private theorem tanh_apply {s : Shape} {φ : FTy} (x : FVec Ideal s φ) (i : s.Idx) :
    tanh x i = Ideal.tanh (x i) := rfl

/-- Layer 1's state columns are features 64–127 … -/
private theorem col1_state (x s : Fin 512 → Fin 64 → EReal) (f : Fin 64) :
    col1 x s (⟨64 + f.val, by omega⟩ : Fin 128) = fun k => s k f := by
  funext k
  have h : ¬ (64 + f.val < 64) := by omega
  show (if h : 64 + f.val < 64 then _ else _) = _
  rw [dif_neg h]
  exact congrArg (s k) (Fin.ext (by show 64 + f.val - 64 = f.val; omega))

/-- … and its input columns features 0–63. -/
private theorem col1_input (x s : Fin 512 → Fin 64 → EReal) (f : Fin 64) :
    col1 x s (⟨f.val, by omega⟩ : Fin 128) = fun k => x k f := by
  funext k
  show (if h : f.val < 64 then _ else _) = _
  rw [dif_pos f.isLt]

/-- The adjacency applied to a node-major value, at a node-major index: the first tap of its column. -/
private theorem mm_tap1 {φ₁ φ₂ : FTy} (v1 : FVec Ideal S512x512 φ₁) (w : FVec Ideal S512x512 φ₂)
    (Z : Fin 8 → Fin 512 → Fin 64 → EReal)
    (hv1 : ∀ a b, v1 (ix2 a b) = A a b) (hw : ∀ n bb u, w (ix2 n (colIx bb u)) = Z bb n u)
    (n : Fin 512) (bb : Fin 8) (u : Fin 64) :
    matmul dot_S512x512_S512x512_S512x512_1_0_0_1_n_n none v1 w (constant S512x512 .f32 0x00000000#32) (ix2 n (colIx bb u))
      = tap1 A (fun k => Z bb k u) n :=
  (mm512 v1 w n (colIx bb u)).trans (Finset.sum_congr rfl fun k _ => by rw [hv1, hw])

/-- The doubled adjacency applied to a node-major value, at a node-major index. -/
private theorem mm_dbl {φ₁ φ₂ : FTy} (v4 : FVec Ideal S512x512 φ₁) (w : FVec Ideal S512x512 φ₂)
    (Y : Fin 8 → Fin 512 → Fin 64 → EReal)
    (hv4 : ∀ a b, v4 (ix2 a b) = A a b * two) (hw : ∀ n bb u, w (ix2 n (colIx bb u)) = Y bb n u)
    (n : Fin 512) (bb : Fin 8) (u : Fin 64) :
    matmul dot_S512x512_S512x512_S512x512_1_0_0_1_n_n none v4 w (constant S512x512 .f32 0x00000000#32) (ix2 n (colIx bb u))
      = ∑ k, (A n k * two) * Y bb k u :=
  (mm512 v4 w n (colIx bb u)).trans (Finset.sum_congr rfl fun k _ => by rw [hv4, hw])

/-- The doubled adjacency applied to a first tap, less the signal: the second tap. -/
private theorem dbl_sub_tap2 (Z : Fin 8 → Fin 512 → Fin 64 → EReal) (n : Fin 512) (bb : Fin 8) (u : Fin 64) :
    (∑ k, (A n k * two) * tap1 A (fun k' => Z bb k' u) k) - Z bb n u = tap2 A (fun k => Z bb k u) n :=
  tap2k_eq A (fun k => Z bb k u) n

end Sem

section Conv
variable (A : Fin 512 → Fin 512 → EReal)

/-- Every column is a state column (block `m`, `m < 3`) or an input column (block `3 + m`). -/
private theorem col_cases (k : Fin 384) :
    (∃ (m : Fin 3) (f : Fin 64), k = ⟨m.val * 64 + f.val, by omega⟩) ∨
    (∃ (m : Fin 3) (f : Fin 64), k = ⟨(3 + m.val) * 64 + f.val, by omega⟩) := by
  by_cases h : k.val / 64 < 3
  · exact Or.inl ⟨⟨k.val / 64, h⟩, ⟨k.val % 64, by omega⟩, Fin.ext (by show k.val = k.val / 64 * 64 + k.val % 64; omega)⟩
  · exact Or.inr ⟨⟨k.val / 64 - 3, by omega⟩, ⟨k.val % 64, by omega⟩,
      Fin.ext (by show k.val = (3 + (k.val / 64 - 3)) * 64 + k.val % 64; omega)⟩

/-- The row-form concatenation of the three taps of the state channels and the three taps of the input
    channels, contracted with a weight whose rows are laid out in the same order, is the specification's
    double sum over (feature, tap). -/
private theorem conv_rows {O : Nat} (p0 p1 p2 p3 p4 p5 : S512x8x64.Idx → EReal)
    (wv : (⟨2, ![384, O]⟩ : Shape).Idx → EReal)
    (X S : Fin 8 → Fin 512 → Fin 64 → EReal) (W : Fin 128 → Fin 3 → Fin O → EReal)
    (hp0 : ∀ n bb f, p0 (ix3 n bb f) = S bb n f)
    (hp1 : ∀ n bb f, p1 (ix3 n bb f) = tap1 A (fun k => S bb k f) n)
    (hp2 : ∀ n bb f, p2 (ix3 n bb f) = tap2 A (fun k => S bb k f) n)
    (hp3 : ∀ n bb f, p3 (ix3 n bb f) = X bb n f)
    (hp4 : ∀ n bb f, p4 (ix3 n bb f) = tap1 A (fun k => X bb k f) n)
    (hp5 : ∀ n bb f, p5 (ix3 n bb f) = tap2 A (fun k => X bb k f) n)
    (hws : ∀ (m : Fin 3) (f : Fin 64) (o : Fin O),
      wv (ix2 (⟨m.val * 64 + f.val, by omega⟩ : Fin 384) o) = W ⟨64 + f.val, by omega⟩ m o)
    (hwx : ∀ (m : Fin 3) (f : Fin 64) (o : Fin O),
      wv (ix2 (⟨(3 + m.val) * 64 + f.val, by omega⟩ : Fin 384) o) = W ⟨f.val, by omega⟩ m o)
    (n : Fin 512) (bb : Fin 8) (o : Fin O) :
    ∑ c : Fin 384,
        shapeCast S4096x384
          (concatenate S512x8x384 2 [⟨S512x8x64, p0⟩, ⟨S512x8x64, p1⟩, ⟨S512x8x64, p2⟩, ⟨S512x8x64, p3⟩, ⟨S512x8x64, p4⟩, ⟨S512x8x64, p5⟩]
            concatenates_S512x8x64_S512x8x64_S512x8x64_S512x8x64_S512x8x64_S512x8x64_S512x8x384_d2)
          shapeCasts_S512x8x384_S4096x384 (ix2 (rowIx n bb) c) * wv (ix2 c o)
      = ∑ F : Fin 128, ∑ m : Fin 3, tap A m (col1 (X bb) (S bb) F) n * W F m o := by
  rw [sum_feat_tap (fun F m => tap A m (col1 (X bb) (S bb) F) n * W F m o)]
  refine Finset.sum_congr rfl fun k _ => ?_
  rw [sc_rows384]
  rcases col_cases k with ⟨m, f, rfl⟩ | ⟨m, f, rfl⟩
  · -- a state column: block m, channel f
    rw [featTap_state m f, hws m f o, col1_state]
    refine congrArg (· * W ⟨64 + f.val, by omega⟩ m o) ?_
    refine (concat6 ![p0, p1, p2, p3, p4, p5] n bb ⟨m.val, by omega⟩ f).trans ?_
    match m with
    | ⟨0, _⟩ => exact hp0 n bb f
    | ⟨1, _⟩ => exact hp1 n bb f
    | ⟨2, _⟩ => exact hp2 n bb f
  · -- an input column: block 3 + m, channel f
    rw [featTap_input m f, hwx m f o, col1_input]
    refine congrArg (· * W ⟨f.val, by omega⟩ m o) ?_
    refine (concat6 ![p0, p1, p2, p3, p4, p5] n bb ⟨3 + m.val, by omega⟩ f).trans ?_
    match m with
    | ⟨0, _⟩ => exact hp3 n bb f
    | ⟨1, _⟩ => exact hp4 n bb f
    | ⟨2, _⟩ => exact hp5 n bb f

end Conv

section RowState
variable (A : Fin 512 → Fin 512 → EReal)

/-- A row-form value re-laid to node-major form (through the (node, batch, channel) form, plus a zero). -/
private theorem nm_of_row (s : FVec Ideal S4096x64 .bf16) (n : Fin 512) (bb : Fin 8) (u : Fin 64) :
    shapeCast S512x512
        (addf (shapeCast S512x8x64 s shapeCasts_S4096x64_S512x8x64)
          (broadcast S512x8x64 (Scalar.ofBits (F := Ideal) .bf16 0x0000#16)))
        shapeCasts_S512x8x64_S512x512 (ix2 n (colIx bb u))
      = s (ix2 (rowIx n bb) u) := by
  refine (sc_nbu_nm _ n bb u).trans ?_
  refine (addf_apply _ _ _).trans ?_
  rw [sc_row_nbu, broadcast_apply]
  show _ + Ideal.ofBits .bf16 0x0000#16 = _
  rw [ofBits_zero_bf16, add_zero]

end RowState

section Output
variable {α : Type}

/-- The write-back layout: a row-form value laid flat per batch row. -/
private theorem out_layout (x : S4096x64.Idx → α) (bb : Fin 8) (n : Fin 512) (u : Fin 64) :
    shapeCast S1x8x32768
        (shapeCast S8x32768
          (transpose S8x512x64 [1, 0, 2] (shapeCast S512x8x64 x shapeCasts_S4096x64_S512x8x64)
            transposes_S512x8x64_p1_0_2_S8x512x64)
          shapeCasts_S8x512x64_S8x32768)
        shapeCasts_S8x32768_S1x8x32768 (ix3 (0 : Fin 1) bb (flatIx n u))
      = x (ix2 (rowIx n bb) u) := by
  refine (shapeCast_apply _ _ (ix3 (0 : Fin 1) bb (flatIx n u)) (ix2 bb (flatIx n u)) (by
    rw [Shape.rowMajor_val_two, Shape.rowMajor_val_three]
    show bb.val * 32768 + (n.val * 64 + u.val) = (0 * 8 + bb.val) * 32768 + (n.val * 64 + u.val)
    omega)).trans ?_
  refine (shapeCast_apply _ _ (ix2 bb (flatIx n u)) (ix3 bb n u) (by
    rw [Shape.rowMajor_val_two, Shape.rowMajor_val_three]
    show (bb.val * 512 + n.val) * 64 + u.val = bb.val * 32768 + (n.val * 64 + u.val)
    omega)).trans ?_
  refine (transpose_apply _ _ _ (ix3 bb n u) (ix3 n bb u) (fun b => ?_)).trans (sc_row_nbu x n bb u)
  match b with
  | ⟨0, _⟩ => rfl
  | ⟨1, _⟩ => rfl
  | ⟨2, _⟩ => rfl

/-- The (node, batch) value read transposed. -/
private theorem transpose_nb (x : S512x8.Idx → α) (bb : Fin 8) (n : Fin 512) :
    transpose S8x512 [1, 0] x transposes_S512x8_p1_0_S8x512 (ix2 bb n) = x (ix2 n bb) :=
  transpose_apply _ _ _ (ix2 bb n) (ix2 n bb) (fun b => by
    match b with
    | ⟨0, _⟩ => rfl
    | ⟨1, _⟩ => rfl)

/-- The projection weight row broadcast over (node, batch). -/
private theorem wp_bcast (v : S1x64.Idx → α) (n : Fin 512) (bb : Fin 8) (u : Fin 64) :
    broadcastTo S512x8x64
        (shapeCast S1x1x64 (shapeCast S1x64 v shapeCasts_S1x64_S1x64) shapeCasts_S1x64_S1x1x64)
        broadcasts_S1x1x64_S512x8x64 (ix3 n bb u)
      = v (ix2 (0 : Fin 1) u) := by
  refine (broadcastTo_apply _ _ (ix3 n bb u) (ix3 (0 : Fin 1) (0 : Fin 1) u) (fun a => ?_)).trans ?_
  · match a with
    | ⟨0, _⟩ => rfl
    | ⟨1, _⟩ => rfl
    | ⟨2, _⟩ => rfl
  · refine (shapeCast_apply _ _ (ix3 (0 : Fin 1) (0 : Fin 1) u) (ix2 (0 : Fin 1) u) (by
      rw [Shape.rowMajor_val_two, Shape.rowMajor_val_three]
      show 0 * 64 + u.val = (0 * 1 + 0) * 64 + u.val
      omega)).trans ?_
    exact congrFun (shapeCast_self v _) _

/-- The lane sum over the 64 channels. -/
private theorem lane_sum (src : FVec Ideal S512x8x64 .f32) (n : Fin 512) (bb : Fin 8) :
    multiReduction .add [2] S512x8 src 0x00000000#32 reduces_S512x8x64_S512x8 (.inl rfl) rfl (ix2 n bb)
      = ∑ u : Fin 64, src (ix3 n bb u) := by
  refine (Ideal.multiReduction_add_single src 0x00000000#32 reduces_S512x8x64_S512x8 (.inl rfl) rfl (ix2 n bb)).trans ?_
  show ∑ k : Fin 64, src (reduces_S512x8x64_S512x8.lift (ix2 n bb) k) = _
  refine Finset.sum_congr rfl fun k _ => congrArg src ?_
  funext c
  apply Fin.ext
  match c with
  | ⟨0, _⟩ => rfl
  | ⟨1, _⟩ => rfl
  | ⟨2, _⟩ => rfl

/-- The one-element vector's element. -/
private theorem extract_one (v : S1.Idx → α) : extractAt ![0] v inpos_S1_p0 = v (ix1 (0 : Fin 1)) := by
  unfold extractAt
  refine congrArg v (funext fun a => ?_)
  match a with
  | ⟨0, _⟩ => rfl

end Output

section Cell1
variable (A : Fin 512 → Fin 512 → EReal) (hx : Fin 8 → Fin 512 → Fin 64 → EReal) (h : Fin 8 → Fin 512 → Fin 64 → EReal)
  (Wg : Fin 128 → Fin 3 → Fin 128 → EReal) (bg : Fin 128 → EReal)
  (Wc : Fin 128 → Fin 3 → Fin 64 → EReal) (bc : Fin 64 → EReal)
  (Wp : Fin 64 → EReal) (bp : EReal)
variable (v1 v4 : FVec Ideal S512x512 .bf16) (v138 : FVec Ideal S4096x64 .f32) (v139 : FVec Ideal S4096x64 .bf16)
  (v143 : FVec Ideal S512x512 .bf16) (v153 : Vec Ideal S384x128 .bf16) (v155 : Vec Ideal S128 .f32)

/-- The once-diffused node-major value at a node-major index. -/
private theorem pay28_nm (z : Fin 8 → Fin 512 → Fin 64 → EReal)
    (hv1 : ∀ a b, v1 (ix2 a b) = A a b)
    (hv143 : ∀ n bb u, v143 (ix2 n (colIx bb u)) = z bb n u)
    (n : Fin 512) (bb : Fin 8) (u : Fin 64) :
    k0_pay28 (F := Ideal) v1 v143 (ix2 n (colIx bb u)) = tap1 A (fun k => z bb k u) n := by
  unfold k0_pay28
  exact mm_tap1 A v1 v143 z hv1 hv143 n bb u

/-- A node-major value diffused once, read in the (node, batch, channel) form. -/
theorem pay30_sem (z : Fin 8 → Fin 512 → Fin 64 → EReal)
    (hv1 : ∀ a b, v1 (ix2 a b) = A a b)
    (hv143 : ∀ n bb u, v143 (ix2 n (colIx bb u)) = z bb n u)
    (n : Fin 512) (bb : Fin 8) (u : Fin 64) :
    k0_pay30 (F := Ideal) v1 v143 (ix3 n bb u) = tap1 A (fun k => z bb k u) n := by
  unfold k0_pay30
  exact (sc_nm_nbu _ n bb u).trans (pay28_nm A v1 v143 z hv1 hv143 n bb u)

/-- A node-major value's second tap, read in the (node, batch, channel) form. -/
theorem pay31_sem (z : Fin 8 → Fin 512 → Fin 64 → EReal)
    (hv1 : ∀ a b, v1 (ix2 a b) = A a b) (hv4 : ∀ a b, v4 (ix2 a b) = A a b * two)
    (hv143 : ∀ n bb u, v143 (ix2 n (colIx bb u)) = z bb n u)
    (n : Fin 512) (bb : Fin 8) (u : Fin 64) :
    k0_pay31 (F := Ideal) v1 v4 v143 (ix3 n bb u) = tap2 A (fun k => z bb k u) n := by
  unfold k0_pay31
  refine (sc_nm_nbu _ n bb u).trans ?_
  refine Eq.trans ?_ (dbl_sub_tap2 A z n bb u)
  refine congrArg₂ (· - ·) ?_ (hv143 n bb u)
  exact mm_dbl A v4 (k0_pay28 v1 v143) (fun bb k u => tap1 A (fun k' => z bb k' u) k) hv4
    (fun n bb u => pay28_nm A v1 v143 z hv1 hv143 n bb u) n bb u

/-- What the third stretch's values mean: the adjacency and its doubled copy, this layer's state in
    row form, its input (layer 0's new state) in row and node-major form, and the gate weight's
    state rows, input rows (each tap-major) and bias. -/
structure Part3Sem : Prop where
  hv1 : ∀ a b, v1 (ix2 a b) = A a b
  hv4 : ∀ a b, v4 (ix2 a b) = A a b * two
  hv138 : ∀ n bb u, v138 (ix2 (rowIx n bb) u) = h bb n u
  hv139 : ∀ n bb u, v139 (ix2 (rowIx n bb) u) = hx bb n u
  hv143 : ∀ n bb u, v143 (ix2 n (colIx bb u)) = hx bb n u
  hv153s : ∀ (m : Fin 3) (f : Fin 64) (o : Fin 128),
    v153 (ix2 (⟨m.val * 64 + f.val, by omega⟩ : Fin 384) o) = Wg ⟨64 + f.val, by omega⟩ m o
  hv153x : ∀ (m : Fin 3) (f : Fin 64) (o : Fin 128),
    v153 (ix2 (⟨(3 + m.val) * 64 + f.val, by omega⟩ : Fin 384) o) = Wg ⟨f.val, by omega⟩ m o
  hv155 : ∀ o, v155 (ix1 o) = bg o

/-- The gate convolution's logistic, row form, all 128 channels. -/
private theorem pay32_sem (P : Part3Sem A hx h Wg bg v1 v4 v138 v139 v143 v153 v155)
    (n : Fin 512) (bb : Fin 8) (o : Fin 128) :
    k0_pay32 (F := Ideal) v1 v4 v138 v139 v143 v153 v155 (ix2 (rowIx n bb) o)
      = Ideal.logistic (gconv A (col1 (hx bb) (h bb)) Wg bg n o) := by
  -- the state in node-major form, and its first tap
  have hnm : ∀ n bb u, shapeCast S512x512
        (addf (shapeCast S512x8x64 (truncf .bf16 v138 bitsLt_bf16_f32) shapeCasts_S4096x64_S512x8x64)
          (broadcast S512x8x64 (Scalar.ofBits (F := Ideal) .bf16 0x0000#16)))
        shapeCasts_S512x8x64_S512x512 (ix2 n (colIx bb u)) = h bb n u :=
    fun n bb u => (nm_of_row (truncf .bf16 v138 bitsLt_bf16_f32) n bb u).trans (P.hv138 n bb u)
  have ht1 := mm_tap1 A v1 _ h P.hv1 hnm
  unfold k0_pay32
  refine (logistic_apply _ _).trans (congrArg Ideal.logistic ?_)
  unfold gconv
  refine (addf_apply _ _ _).trans ?_
  refine congrArg₂ (· + ·) ?_ ((bias128 v155 _ o).trans (P.hv155 o))
  refine (mm384x128 _ _ _ _).trans ?_
  refine conv_rows A _ _ _ _ _ _ _ hx h Wg ?_ ?_ ?_ ?_ ?_ ?_ ?_ ?_ n bb o
  · exact fun n bb f => (sc_row_nbu _ n bb f).trans (P.hv138 n bb f)
  · exact fun n bb f => (sc_nm_nbu _ n bb f).trans (ht1 n bb f)
  · intro n bb f
    refine (sc_nm_nbu _ n bb f).trans ?_
    refine Eq.trans ?_ (dbl_sub_tap2 A h n bb f)
    refine (subf_apply _ _ _).trans (congrArg₂ (· - ·) ?_ (hnm n bb f))
    exact mm_dbl A v4 _ (fun bb k u => tap1 A (fun k' => h bb k' u) k) P.hv4 ht1 n bb f
  · intro n bb f
    unfold k0_pay29
    exact (sc_row_nbu _ n bb f).trans (P.hv139 n bb f)
  · exact pay30_sem A v1 v143 hx P.hv1 P.hv143
  · exact pay31_sem A v1 v4 v143 hx P.hv1 P.hv4 P.hv143
  · exact fun m f o => (congrFun (shapeCast_self v153 _) _).trans (P.hv153s m f o)
  · exact fun m f o => (congrFun (shapeCast_self v153 _) _).trans (P.hv153x m f o)

/-- Update gate, row form. -/
theorem pay33_sem (P : Part3Sem A hx h Wg bg v1 v4 v138 v139 v143 v153 v155)
    (n : Fin 512) (bb : Fin 8) (u : Fin 64) :
    k0_pay33 (F := Ideal) v1 v4 v138 v139 v143 v153 v155 (ix2 (rowIx n bb) u)
      = gateU A (col1 (hx bb)) (h bb) Wg bg n u := by
  unfold k0_pay33
  exact (slice_hi _ _ u).trans (pay32_sem A hx h Wg bg v1 v4 v138 v139 v143 v153 v155 P n bb ⟨64 + u.val, by omega⟩)

/-- Reset gate times state, row form. -/
theorem pay34_sem (P : Part3Sem A hx h Wg bg v1 v4 v138 v139 v143 v153 v155)
    (n : Fin 512) (bb : Fin 8) (u : Fin 64) :
    k0_pay34 (F := Ideal) v1 v4 v138 v139 v143 v153 v155 (ix2 (rowIx n bb) u)
      = resetH A (col1 (hx bb)) (h bb) Wg bg n u := by
  unfold k0_pay34
  unfold resetH gateR
  refine (mulf_apply _ _ _).trans (congrArg₂ (· * ·) ?_ (P.hv138 n bb u))
  exact (slice_lo _ _ u).trans (pay32_sem A hx h Wg bg v1 v4 v138 v139 v143 v153 v155 P n bb ⟨u.val, by omega⟩)

/-- Reset gate times state, node-major form. -/
theorem pay36_sem (P : Part3Sem A hx h Wg bg v1 v4 v138 v139 v143 v153 v155)
    (n : Fin 512) (bb : Fin 8) (u : Fin 64) :
    k0_pay36 (F := Ideal) v1 v4 v138 v139 v143 v153 v155 (ix2 n (colIx bb u))
      = resetH A (col1 (hx bb)) (h bb) Wg bg n u := by
  unfold k0_pay36
  exact (nm_of_row _ n bb u).trans (pay34_sem A hx h Wg bg v1 v4 v138 v139 v143 v153 v155 P n bb u)

/-- Its first tap, node-major form. -/
theorem pay37_sem (P : Part3Sem A hx h Wg bg v1 v4 v138 v139 v143 v153 v155)
    (n : Fin 512) (bb : Fin 8) (u : Fin 64) :
    k0_pay37 (F := Ideal) v1 v4 v138 v139 v143 v153 v155 (ix2 n (colIx bb u))
      = tap1 A (fun k => resetH A (col1 (hx bb)) (h bb) Wg bg k u) n := by
  unfold k0_pay37
  exact mm_tap1 A v1 _ (fun bb n u => resetH A (col1 (hx bb)) (h bb) Wg bg n u) P.hv1
    (pay36_sem A hx h Wg bg v1 v4 v138 v139 v143 v153 v155 P) n bb u

/-- The doubled adjacency applied to that first tap (the second tap before its subtraction). -/
theorem pay38_sem (P : Part3Sem A hx h Wg bg v1 v4 v138 v139 v143 v153 v155)
    (n : Fin 512) (bb : Fin 8) (u : Fin 64) :
    k0_pay38 (F := Ideal) v1 v4 v138 v139 v143 v153 v155 (ix2 n (colIx bb u))
      = ∑ k, (A n k * two) * tap1 A (fun k' => resetH A (col1 (hx bb)) (h bb) Wg bg k' u) k := by
  unfold k0_pay38
  exact mm_dbl A v4 _ (fun bb k u => tap1 A (fun k' => resetH A (col1 (hx bb)) (h bb) Wg bg k' u) k) P.hv4
    (pay37_sem A hx h Wg bg v1 v4 v138 v139 v143 v153 v155 P) n bb u

variable (v149 v150 v151 : FVec Ideal S512x8x64 .bf16) (v176 : FVec Ideal S4096x64 .f32) (v178 : FVec Ideal S4096x64 .bf16)
  (v180 : FVec Ideal S384x64 .bf16) (v181 : Vec Ideal S64 .f32) (v185 v187 : FVec Ideal S512x512 .bf16)
  (v188 : FVec Ideal S512x512 .f32) (v219 : Vec Ideal S1x64 .f32) (v225 : Vec Ideal S1 .f32)

/-- What the fourth stretch's values mean. -/
structure Part4Sem : Prop where
  hv138 : ∀ n bb u, v138 (ix2 (rowIx n bb) u) = h bb n u
  hv149 : ∀ n bb u, v149 (ix3 n bb u) = hx bb n u
  hv150 : ∀ n bb u, v150 (ix3 n bb u) = tap1 A (fun k => hx bb k u) n
  hv151 : ∀ n bb u, v151 (ix3 n bb u) = tap2 A (fun k => hx bb k u) n
  hv176 : ∀ n bb u, v176 (ix2 (rowIx n bb) u) = gateU A (col1 (hx bb)) (h bb) Wg bg n u
  hv178 : ∀ n bb u, v178 (ix2 (rowIx n bb) u) = resetH A (col1 (hx bb)) (h bb) Wg bg n u
  hv180s : ∀ (m : Fin 3) (f : Fin 64) (o : Fin 64),
    v180 (ix2 (⟨m.val * 64 + f.val, by omega⟩ : Fin 384) o) = Wc ⟨64 + f.val, by omega⟩ m o
  hv180x : ∀ (m : Fin 3) (f : Fin 64) (o : Fin 64),
    v180 (ix2 (⟨(3 + m.val) * 64 + f.val, by omega⟩ : Fin 384) o) = Wc ⟨f.val, by omega⟩ m o
  hv181 : ∀ o, v181 (ix1 o) = bc o
  hv185 : ∀ n bb u, v185 (ix2 n (colIx bb u)) = resetH A (col1 (hx bb)) (h bb) Wg bg n u
  hv187 : ∀ n bb u, v187 (ix2 n (colIx bb u)) = tap1 A (fun k => resetH A (col1 (hx bb)) (h bb) Wg bg k u) n
  hv188 : ∀ n bb u, v188 (ix2 n (colIx bb u))
    = ∑ k, (A n k * two) * tap1 A (fun k' => resetH A (col1 (hx bb)) (h bb) Wg bg k' u) k

/-- The new layer-1 state, row form. -/
theorem pay39_sem (P : Part4Sem A hx h Wg bg Wc bc v138 v149 v150 v151 v176 v178 v180 v181 v185 v187 v188)
    (n : Fin 512) (bb : Fin 8) (u : Fin 64) :
    k0_pay39 (F := Ideal) v138 v149 v150 v151 v176 v178 v180 v181 v185 v187 v188 (ix2 (rowIx n bb) u)
      = newH A (col1 (hx bb)) (h bb) Wg bg Wc bc n u := by
  unfold k0_pay39
  unfold newH cand
  refine (addf_apply _ _ _).trans (congrArg₂ (· + ·) ?_ ?_)
  · exact (mulf_apply _ _ _).trans (congrArg₂ (· * ·) (P.hv176 n bb u) (P.hv138 n bb u))
  · refine (mulf_apply _ _ _).trans (congrArg₂ (· * ·) ?_ ?_)
    · exact (subf_apply _ _ _).trans (congrArg₂ (· - ·) rfl (P.hv176 n bb u))
    · refine (tanh_apply _ _).trans (congrArg Ideal.tanh ?_)
      unfold gconv
      refine (addf_apply _ _ _).trans (congrArg₂ (· + ·) ?_ ((bias64 v181 _ u).trans (P.hv181 u)))
      refine (mm384x64 _ _ _ _).trans ?_
      refine conv_rows A _ _ _ _ _ _ v180 hx (fun bb n u => resetH A (col1 (hx bb)) (h bb) Wg bg n u) Wc
        ?_ ?_ ?_ P.hv149 P.hv150 P.hv151 P.hv180s P.hv180x n bb u
      · exact fun n bb f => (sc_row_nbu _ n bb f).trans (P.hv178 n bb f)
      · exact fun n bb f => (sc_nm_nbu _ n bb f).trans (P.hv187 n bb f)
      · intro n bb f
        refine (sc_nm_nbu _ n bb f).trans ?_
        refine Eq.trans ?_ (dbl_sub_tap2 A (fun bb n u => resetH A (col1 (hx bb)) (h bb) Wg bg n u) n bb f)
        exact (subf_apply _ _ _).trans (congrArg₂ (· - ·) (P.hv188 n bb f) (P.hv185 n bb f))

/-- The new layer-1 state as written back, flat per batch row. -/
theorem pay41_sem (P : Part4Sem A hx h Wg bg Wc bc v138 v149 v150 v151 v176 v178 v180 v181 v185 v187 v188)
    (bb : Fin 8) (n : Fin 512) (u : Fin 64) :
    k0_pay41 (F := Ideal) v138 v149 v150 v151 v176 v178 v180 v181 v185 v187 v188 (ix3 0 bb (flatIx n u))
      = newH A (col1 (hx bb)) (h bb) Wg bg Wc bc n u := by
  unfold k0_pay41
  exact (out_layout _ bb n u).trans
    (pay39_sem A hx h Wg bg Wc bc v138 v149 v150 v151 v176 v178 v180 v181 v185 v187 v188 P n bb u)

/-- The projection of the new layer-1 state, as written back (batch, node). -/
theorem pay42_sem (P : Part4Sem A hx h Wg bg Wc bc v138 v149 v150 v151 v176 v178 v180 v181 v185 v187 v188)
    (hv219 : ∀ u, v219 (ix2 0 u) = Wp u) (hv225 : v225 (ix1 0) = bp)
    (bb : Fin 8) (n : Fin 512) :
    k0_pay42 (F := Ideal) v138 v149 v150 v151 v176 v178 v180 v181 v185 v187 v188 v219 v225 (ix2 bb n)
      = proj (newH A (col1 (hx bb)) (h bb) Wg bg Wc bc) Wp bp n := by
  unfold k0_pay42
  unfold proj
  refine (transpose_nb _ bb n).trans ?_
  refine (addf_apply _ _ _).trans (congrArg₂ (· + ·) ?_ ?_)
  · refine (lane_sum _ n bb).trans (Finset.sum_congr rfl fun u _ => ?_)
    refine (mulf_apply _ _ _).trans (congrArg₂ (· * ·) ?_ ((wp_bcast v219 n bb u).trans (hv219 u)))
    exact (sc_row_nbu _ n bb u).trans
      (pay39_sem A hx h Wg bg Wc bc v138 v149 v150 v151 v176 v178 v180 v181 v185 v187 v188 P n bb u)
  · exact (broadcast_apply _ _).trans ((extract_one v225).trans hv225)

end Cell1

end Cert.KernelIdeal.Sem

end
-- ==== Proof.Tabs.lean ====
/-
  The kernel's weight blocks as (feature, tap, channel) tables. Outside the kernel each weight array
  (rows feature · 3 + tap) is cut into the input features' rows and the state features' rows, each
  re-laid tap-major (row tap · 64 + channel). Layer 0 keeps the single input feature's three rows as
  a (3, 1, O) block beside the (192, O) state block; layer 1 stacks state taps then input taps in
  one (384, O) block. Read back through these tables the blocks are the original arrays.
-/
import proofs.«145957_g44504451121623_cont_8to1_c_180_24_alg».proof.Proof.Spec

noncomputable section

namespace Cert.DcgruSpec

open Idealize.ShloMosaic Idealize.ShloMosaic.ValueIdx

/-- Layer 0's weight table from the input-feature block (3, 1, O) and the state-feature block (192, O). -/
def tab0 {O : ℕ} (wx : (⟨3, ![3, 1, O]⟩ : Shape).Idx → EReal) (ws : (⟨2, ![192, O]⟩ : Shape).Idx → EReal)
    (f : Fin 65) (m : Fin 3) (o : Fin O) : EReal :=
  if h : f.val = 0 then wx (ix3 m 0 o) else ws (ix2 (⟨m.val * 64 + (f.val - 1), by omega⟩ : Fin 192) o)

/-- Layer 1's weight table from the (384, O) block: state taps first, then input taps. -/
def tab1 {O : ℕ} (w : (⟨2, ![384, O]⟩ : Shape).Idx → EReal) (f : Fin 128) (m : Fin 3) (o : Fin O) : EReal :=
  if h : f.val < 64 then w (ix2 (⟨(3 + m.val) * 64 + f.val, by omega⟩ : Fin 384) o)
  else w (ix2 (⟨m.val * 64 + (f.val - 64), by omega⟩ : Fin 384) o)

theorem tab0_zero {O : ℕ} (wx : (⟨3, ![3, 1, O]⟩ : Shape).Idx → EReal) (ws : (⟨2, ![192, O]⟩ : Shape).Idx → EReal)
    (m : Fin 3) (o : Fin O) : tab0 wx ws 0 m o = wx (ix3 m 0 o) := by
  unfold tab0; rw [dif_pos (show ((0 : Fin 65) : ℕ) = 0 from rfl)]

theorem tab0_succ {O : ℕ} (wx : (⟨3, ![3, 1, O]⟩ : Shape).Idx → EReal) (ws : (⟨2, ![192, O]⟩ : Shape).Idx → EReal)
    (m : Fin 3) (f : Fin 64) (o : Fin O) :
    tab0 wx ws ⟨f.val + 1, by omega⟩ m o = ws (ix2 (⟨m.val * 64 + f.val, by omega⟩ : Fin 192) o) := by
  unfold tab0; rw [dif_neg (by simp)]; rfl

theorem tab1_state {O : ℕ} (w : (⟨2, ![384, O]⟩ : Shape).Idx → EReal) (m : Fin 3) (f : Fin 64) (o : Fin O) :
    tab1 w ⟨64 + f.val, by omega⟩ m o = w (ix2 (⟨m.val * 64 + f.val, by omega⟩ : Fin 384) o) := by
  unfold tab1; rw [dif_neg (by simp)]; congr 2; apply Fin.ext; simp

theorem tab1_input {O : ℕ} (w : (⟨2, ![384, O]⟩ : Shape).Idx → EReal) (m : Fin 3) (f : Fin 64) (o : Fin O) :
    tab1 w ⟨f.val, by omega⟩ m o = w (ix2 (⟨(3 + m.val) * 64 + f.val, by omega⟩ : Fin 384) o) := by
  unfold tab1; rw [dif_pos (by simp)]

end Cert.DcgruSpec

end
-- ==== Proof.KSem.lean ====
/-
  The three values the kernel body stores, index by index, as the specification's functions of the
  loaded blocks: layer 0's new state, layer 1's new state (both as written back, flat per batch
  row) and the projection. The stage lemmas are chained along the body's own order: the first
  stretch's layouts and taps give the meaning of what the gate reads, the gate's of what the
  candidate reads, layer 0's new state is layer 1's input, and so on. The kernel's weight blocks
  arrive pre-sliced per tap (the input feature's rows apart from the state features', each
  tap-major); read back as one (feature, tap, channel) table they are the specification's weights.
-/
import proofs.«145957_g44504451121623_cont_8to1_c_180_24_alg».proof.Proof.KComp
import proofs.«145957_g44504451121623_cont_8to1_c_180_24_alg».proof.Proof.KLay
import proofs.«145957_g44504451121623_cont_8to1_c_180_24_alg».proof.Proof.KCell0
import proofs.«145957_g44504451121623_cont_8to1_c_180_24_alg».proof.Proof.KCell1
import proofs.«145957_g44504451121623_cont_8to1_c_180_24_alg».proof.Proof.SpecLaws
import proofs.«145957_g44504451121623_cont_8to1_c_180_24_alg».proof.Proof.Tabs

noncomputable section

namespace Cert.KernelIdeal.Sem

open Idealize.ShloMosaic Idealize.ShloMosaic.ValueIdx Cert.KernelIdeal Cert.KernelIdeal.Gen Cert.KernelIdeal.Comp Cert.DcgruSpec

variable (L : Loads Ideal)

/-- The chunk's adjacency, input rows and state rows. -/
abbrev kA : Fin 512 → Fin 512 → EReal := adj L.v0
abbrev kX (bb : Fin 8) : Fin 512 → EReal := xsig L.v10 bb
abbrev kH0 (bb : Fin 8) : Fin 512 → Fin 64 → EReal := hsig L.v5 bb
abbrev kH1 (bb : Fin 8) : Fin 512 → Fin 64 → EReal := hsig L.v134 bb

/-- Layer 0's new state of chunk row `bb`, by the specification over the loaded blocks. -/
def kH0n (bb : Fin 8) : Fin 512 → Fin 64 → EReal :=
  newH (kA L) (col0 (kX L bb)) (kH0 L bb) (tab0 L.v25 L.v27) (bOf L.v29) (tab0 L.v79 L.v81) (bOf L.v83)
/-- Layer 1's new state of chunk row `bb`. -/
def kH1n (bb : Fin 8) : Fin 512 → Fin 64 → EReal :=
  newH (kA L) (col1 (kH0n L bb)) (kH1 L bb) (tab1 L.v153) (bOf L.v155) (tab1 L.v179) (bOf L.v181)

theorem part1 : Part1Sem (kA L) (kX L) (kH0 L) (tab0 L.v25 L.v27) (bOf L.v29)
    (w1 L) (w4 L) (w9 L) (w19 L) (w21 L) (w23 L) (w26 L) (w28 L) L.v29 (w35 L) (w38 L) (w39 L) where
  hv1 := fun a b => pay1_sem L.v0 a b
  hv4 := fun a b => pay2_sem L.v0 a b
  hv9 := fun n bb u => pay3_sem L.v5 n bb u
  hv19 := fun n bb => pay7_sem L.v10 n bb
  hv21 := fun n bb => pay8_sem L.v0 L.v10 n bb
  hv23 := fun n bb => (pay9_sem L.v0 L.v10 n bb).trans (tap2k_eq _ _ _)
  hv26 := fun m o => by
    show k0_pay11 (F := Ideal) L.v25 (ix3 m 0 o) = _
    rw [pay11_sem, tab0_zero]
  hv28 := fun m f o => by
    show k0_pay12 (F := Ideal) L.v27 _ = _
    rw [pay12_sem, tab0_succ]
  hv29 := fun o => rfl
  hv35 := fun n bb u => pay14_sem L.v0 L.v5 n bb u
  hv38 := fun n bb u => (pay15_sem L.v0 L.v5 n bb u).trans (tap2k_eq _ _ _)
  hv39 := fun n bb u => pay16_sem L.v5 n bb u

theorem part2 : Part2Sem (kA L) (kX L) (kH0 L) (tab0 L.v25 L.v27) (bOf L.v29) (tab0 L.v79 L.v81) (bOf L.v83)
    (w4 L) (w9 L) (w19 L) (w21 L) (w23 L) (w76 L) (w78 L) (w80 L) (w82 L) L.v83 (w87 L) (w89 L) wcst26 where
  hv4 := (part1 L).hv4
  hv9 := (part1 L).hv9
  hv19 := (part1 L).hv19
  hv21 := (part1 L).hv21
  hv23 := (part1 L).hv23
  hv76 := fun n bb u => pay18_sem _ _ _ _ _ _ _ _ _ _ _ _ _ _ _ _ _ (part1 L) n bb u
  hv78 := fun n bb u => pay19_sem _ _ _ _ _ _ _ _ _ _ _ _ _ _ _ _ _ (part1 L) n bb u
  hv80 := fun m o => by
    show k0_pay20 (F := Ideal) L.v79 (ix3 m 0 o) = _
    rw [pay20_sem, tab0_zero]
  hv82 := fun m f o => by
    show k0_pay21 (F := Ideal) L.v81 _ = _
    rw [pay21_sem, tab0_succ]
  hv83 := fun o => rfl
  hv87 := fun n bb u => pay22_sem _ _ _ _ _ _ _ _ _ _ _ _ _ _ _ _ _ (part1 L) n bb u
  hv89 := fun n bb u => pay23_sem _ _ _ _ _ _ _ _ _ _ _ _ _ _ _ _ _ (part1 L) n bb u
  hcst := rfl

/-- Layer 0's new state, row form. -/
theorem w133_sem (n : Fin 512) (bb : Fin 8) (u : Fin 64) :
    w133 L (ix2 (rowIx n bb) u) = kH0n L bb n u :=
  pay24_sem _ _ _ _ _ _ _ _ _ _ _ _ _ _ _ _ _ _ _ _ (part2 L) n bb u

/-- Layer 0's new state as written back. -/
theorem hs0_sem (bb : Fin 8) (n : Fin 512) (u : Fin 64) :
    hs0 L (ix3 0 bb (flatIx n u)) = kH0n L bb n u :=
  (pay40_sem (w133 L) bb n u).trans (w133_sem L n bb u)

theorem part3 : Part3Sem (kA L) (kH0n L) (kH1 L) (tab1 L.v153) (bOf L.v155)
    (w1 L) (w4 L) (w138 L) (w139 L) (w143 L) L.v153 L.v155 where
  hv1 := (part1 L).hv1
  hv4 := (part1 L).hv4
  hv138 := fun n bb u => pay25_sem L.v134 n bb u
  hv139 := fun n bb u => (pay26_sem _ _ _ _ _ _ _ _ _ _ _ _ _ _).trans (w133_sem L n bb u)
  hv143 := fun n bb u => (pay27_sem _ _ _ _ _ _ _ _ _ _ _ _ _ n bb u).trans (w133_sem L n bb u)
  hv153s := fun m f o => (tab1_state L.v153 m f o).symm
  hv153x := fun m f o => (tab1_input L.v153 m f o).symm
  hv155 := fun o => rfl

theorem part4 : Part4Sem (kA L) (kH0n L) (kH1 L) (tab1 L.v153) (bOf L.v155) (tab1 L.v179) (bOf L.v181)
    (w138 L) (w149 L) (w150 L) (w151 L) (w176 L) (w178 L) (w180 L) L.v181 (w185 L) (w187 L) (w188 L) where
  hv138 := (part3 L).hv138
  hv149 := fun n bb u => (pay29_sem (w139 L) n bb u).trans ((part3 L).hv139 n bb u)
  hv150 := fun n bb u => pay30_sem (kA L) (w1 L) (w143 L) (kH0n L) (part3 L).hv1 (part3 L).hv143 n bb u
  hv151 := fun n bb u => pay31_sem (kA L) (w1 L) (w4 L) (w143 L) (kH0n L) (part3 L).hv1 (part3 L).hv4 (part3 L).hv143 n bb u
  hv176 := fun n bb u => pay33_sem _ _ _ _ _ _ _ _ _ _ _ _ (part3 L) n bb u
  hv178 := fun n bb u => pay34_sem _ _ _ _ _ _ _ _ _ _ _ _ (part3 L) n bb u
  hv180s := fun m f o => by
    show k0_pay35 (F := Ideal) L.v179 _ = _
    rw [pay35_sem]; exact (tab1_state L.v179 m f o).symm
  hv180x := fun m f o => by
    show k0_pay35 (F := Ideal) L.v179 _ = _
    rw [pay35_sem]; exact (tab1_input L.v179 m f o).symm
  hv181 := fun o => rfl
  hv185 := fun n bb u => pay36_sem _ _ _ _ _ _ _ _ _ _ _ _ (part3 L) n bb u
  hv187 := fun n bb u => pay37_sem _ _ _ _ _ _ _ _ _ _ _ _ (part3 L) n bb u
  hv188 := fun n bb u => pay38_sem _ _ _ _ _ _ _ _ _ _ _ _ (part3 L) n bb u

/-- Layer 1's new state as written back. -/
theorem hs1_sem (bb : Fin 8) (n : Fin 512) (u : Fin 64) :
    hs1 L (ix3 0 bb (flatIx n u)) = kH1n L bb n u :=
  pay41_sem _ _ _ _ _ _ _ _ _ _ _ _ _ _ _ _ _ _ (part4 L) bb n u

/-- The projection as written back. -/
theorem out_sem (bb : Fin 8) (n : Fin 512) :
    out L (ix2 bb n) = proj (kH1n L bb) (fun u => L.v219 (ix2 0 u)) (L.v225 (ix1 0)) n :=
  pay42_sem _ _ _ _ _ _ _ (fun u => L.v219 (ix2 0 u)) (L.v225 (ix1 0)) _ _ _ _ _ _ _ _ _ _ _ L.v219 L.v225
    (part4 L) (fun _ => rfl) rfl bb n

end Cert.KernelIdeal.Sem

end
-- ==== Proof.KLoads.lean ====
/-
  The record of the body's sixteen loads, built from the contents of the fifteen input windows'
  staging buffers: every load reads a whole buffer, except the two of the hidden-state block, which
  read its row 0 and its row 1 (one layer each).
-/
import proofs.«145957_g44504451121623_cont_8to1_c_180_24_alg».proof.Proof.KComp
import Idealize.ShloMosaic.Lib.Pipeline.Value

noncomputable section

namespace Cert.KernelIdeal.Comp

open Idealize.ShloMosaic Cert.KernelIdeal Cert.KernelIdeal.Gen

variable {F : FTy → Type} [FloatOps F]

abbrev q0 : Rect S8x512 := Rect.unit (s := S8x512) ![0, 0] S8x512.size inb_S8x512_S8x512_0_0
abbrev q1 : Rect S512x512 := Rect.unit (s := S512x512) ![0, 0] S512x512.size inb_S512x512_S512x512_0_0
abbrev q2_0 : Rect S2x8x32768 := Rect.unit (s := S2x8x32768) ![0, 0, 0] S1x8x32768.size inb_S2x8x32768_S1x8x32768_0_0_0
abbrev q2_1 : Rect S2x8x32768 := Rect.unit (s := S2x8x32768) ![1, 0, 0] S1x8x32768.size inb_S2x8x32768_S1x8x32768_1_0_0
abbrev q3 : Rect S3x1x128 := Rect.unit (s := S3x1x128) ![0, 0, 0] S3x1x128.size inb_S3x1x128_S3x1x128_0_0_0
abbrev q4 : Rect S192x128 := Rect.unit (s := S192x128) ![0, 0] S192x128.size inb_S192x128_S192x128_0_0
abbrev q5 : Rect S3x1x64 := Rect.unit (s := S3x1x64) ![0, 0, 0] S3x1x64.size inb_S3x1x64_S3x1x64_0_0_0
abbrev q6 : Rect S192x64 := Rect.unit (s := S192x64) ![0, 0] S192x64.size inb_S192x64_S192x64_0_0
abbrev q7 : Rect S128 := Rect.unit (s := S128) ![0] S128.size inb_S128_S128_0
abbrev q8 : Rect S64 := Rect.unit (s := S64) ![0] S64.size inb_S64_S64_0
abbrev q9 : Rect S384x128 := Rect.unit (s := S384x128) ![0, 0] S384x128.size inb_S384x128_S384x128_0_0
abbrev q10 : Rect S384x64 := Rect.unit (s := S384x64) ![0, 0] S384x64.size inb_S384x64_S384x64_0_0
abbrev q13 : Rect S1x64 := Rect.unit (s := S1x64) ![0, 0] S1x64.size inb_S1x64_S1x64_0_0
abbrev q14 : Rect S1 := Rect.unit (s := S1) ![0] S1.size inb_S1_S1_0

/-- The sixteen loads from the fifteen input buffers' contents. -/
def loadsOf (x0 : Vec F S8x512 .f32) (x1 : Vec F S512x512 .f32) (x2 : Vec F S2x8x32768 .f32) (x3 : Vec F S3x1x128 .bf16)
    (x4 : Vec F S192x128 .bf16) (x5 : Vec F S3x1x64 .bf16) (x6 : Vec F S192x64 .bf16) (x7 : Vec F S128 .f32)
    (x8 : Vec F S64 .f32) (x9 : Vec F S384x128 .bf16) (x10 : Vec F S384x64 .bf16) (x11 : Vec F S128 .f32)
    (x12 : Vec F S64 .f32) (x13 : Vec F S1x64 .f32) (x14 : Vec F S1 .f32) : Loads F where
  v0 := View.ld x1 q1
  v5 := View.ld x2 q2_0
  v10 := View.ld x0 q0
  v25 := View.ld x3 q3
  v27 := View.ld x4 q4
  v29 := View.ld x7 q7
  v79 := View.ld x5 q5
  v81 := View.ld x6 q6
  v83 := View.ld x8 q8
  v134 := View.ld x2 q2_1
  v153 := View.ld x9 q9
  v155 := View.ld x11 q7
  v179 := View.ld x10 q10
  v181 := View.ld x12 q8
  v219 := View.ld x13 q13
  v225 := View.ld x14 q14

end Cert.KernelIdeal.Comp

end
-- ==== Proof.Whole.lean ====
/-
  The two results as functions of the thirteen argument arrays, index by index: for batch row b and
  node n the projection of layer 1's new state, and for layer l, batch row b and offset
  node · 64 + channel the layer's new state. Both programs' results are these functions: the
  reference's over the whole batch at once, the kernel's assembled from four chunks of eight rows.
-/
import proofs.«145957_g44504451121623_cont_8to1_c_180_24_alg».proof.Proof.Spec

noncomputable section

namespace Cert.DcgruSpec

open Idealize.ShloMosaic Idealize.ShloMosaic.ValueIdx

section Whole
variable (X : (⟨2, ![32, 512]⟩ : Shape).Idx → EReal) (A : (⟨2, ![512, 512]⟩ : Shape).Idx → EReal)
  (H : (⟨3, ![2, 32, 32768]⟩ : Shape).Idx → EReal)
  (Wg0 : (⟨2, ![195, 128]⟩ : Shape).Idx → EReal) (bg0 : (⟨1, ![128]⟩ : Shape).Idx → EReal)
  (Wc0 : (⟨2, ![195, 64]⟩ : Shape).Idx → EReal) (bc0 : (⟨1, ![64]⟩ : Shape).Idx → EReal)
  (Wg1 : (⟨2, ![384, 128]⟩ : Shape).Idx → EReal) (bg1 : (⟨1, ![128]⟩ : Shape).Idx → EReal)
  (Wc1 : (⟨2, ![384, 64]⟩ : Shape).Idx → EReal) (bc1 : (⟨1, ![64]⟩ : Shape).Idx → EReal)
  (Wp : (⟨2, ![64, 1]⟩ : Shape).Idx → EReal) (bp : (⟨1, ![1]⟩ : Shape).Idx → EReal)

/-- The adjacency as a function of two node indices. -/
def gAdj : Fin 512 → Fin 512 → EReal := fun a b => A (ix2 a b)
/-- Batch row `b` of the input as a node signal. -/
def gX (b : Fin 32) : Fin 512 → EReal := fun k => X (ix2 b k)
/-- Batch row `b` of layer `l`'s hidden state as (node, channel). -/
def gH (l : Fin 2) (b : Fin 32) : Fin 512 → Fin 64 → EReal := fun k u => H (ix3 l b (flatIx k u))

/-- Layer 0's new state of batch row `b`. -/
def gH0n (b : Fin 32) : Fin 512 → Fin 64 → EReal :=
  newH (gAdj A) (col0 (gX X b)) (gH H 0 b) (wL0 Wg0) (bOf bg0) (wL0 Wc0) (bOf bc0)
/-- Layer 1's new state of batch row `b`. -/
def gH1n (b : Fin 32) : Fin 512 → Fin 64 → EReal :=
  newH (gAdj A) (col1 (gH0n X A H Wg0 bg0 Wc0 bc0 b)) (gH H 1 b) (wL1 Wg1) (bOf bg1) (wL1 Wc1) (bOf bc1)

/-- The projection result. -/
def gOut : (⟨2, ![32, 512]⟩ : Shape).Idx → EReal := fun i =>
  proj (gH1n X A H Wg0 bg0 Wc0 bc0 Wg1 bg1 Wc1 bc1 (i 0)) (fun u => Wp (ix2 u 0)) (bp (ix1 0)) (i 1)

/-- The hidden-state result. -/
def gHs : (⟨3, ![2, 32, 32768]⟩ : Shape).Idx → EReal := fun i =>
  if (i 0).val = 0 then
    gH0n X A H Wg0 bg0 Wc0 bc0 (i 1) ⟨(i 2).val / 64, by have h : (i 2).val < 32768 := (i 2).isLt; omega⟩ ⟨(i 2).val % 64, Nat.mod_lt _ (by decide)⟩
  else
    gH1n X A H Wg0 bg0 Wc0 bc0 Wg1 bg1 Wc1 bc1 (i 1) ⟨(i 2).val / 64, by have h : (i 2).val < 32768 := (i 2).isLt; omega⟩ ⟨(i 2).val % 64, Nat.mod_lt _ (by decide)⟩

/-- The hidden-state result at layer `l`, batch row `b`, node `n`, channel `u`. -/
theorem gHs_apply (l : Fin 2) (b : Fin 32) (n : Fin 512) (u : Fin 64) :
    gHs X A H Wg0 bg0 Wc0 bc0 Wg1 bg1 Wc1 bc1 (ix3 l b (flatIx n u))
      = if l.val = 0 then gH0n X A H Wg0 bg0 Wc0 bc0 b n u
        else gH1n X A H Wg0 bg0 Wc0 bc0 Wg1 bg1 Wc1 bc1 b n u := by
  have hn : ∀ (h : (flatIx n u).val / 64 < 512), (⟨(flatIx n u).val / 64, h⟩ : Fin 512) = n := fun h =>
    Fin.ext (by show (n.val * 64 + u.val) / 64 = n.val; have := u.isLt; omega)
  have hu : ∀ (h : (flatIx n u).val % 64 < 64), (⟨(flatIx n u).val % 64, h⟩ : Fin 64) = u := fun h =>
    Fin.ext (by show (n.val * 64 + u.val) % 64 = u.val; have := u.isLt; omega)
  show (if l.val = 0 then gH0n X A H Wg0 bg0 Wc0 bc0 b ⟨(flatIx n u).val / 64, _⟩ ⟨(flatIx n u).val % 64, _⟩
      else gH1n X A H Wg0 bg0 Wc0 bc0 Wg1 bg1 Wc1 bc1 b ⟨(flatIx n u).val / 64, _⟩ ⟨(flatIx n u).val % 64, _⟩) = _
  rw [hn, hu]

/-- The projection result at batch row `b`, node `n`. -/
theorem gOut_apply (b : Fin 32) (n : Fin 512) :
    gOut X A H Wg0 bg0 Wc0 bc0 Wg1 bg1 Wc1 bc1 Wp bp (ix2 b n)
      = proj (gH1n X A H Wg0 bg0 Wc0 bc0 Wg1 bg1 Wc1 bc1 b) (fun u => Wp (ix2 u 0)) (bp (ix1 0)) n := rfl

end Whole

/-- An offset inside a batch row is its (node, channel) pair's offset. -/
theorem flatIx_divmod (j : Fin 32768) :
    flatIx ⟨j.val / 64, by have := j.isLt; omega⟩ ⟨j.val % 64, Nat.mod_lt _ (by decide)⟩ = j := by
  apply Fin.ext; show j.val / 64 * 64 + j.val % 64 = j.val; omega

end Cert.DcgruSpec

end
-- ==== Proof.KChunk.lean ====
/-
  One chunk of the kernel against the whole batch. If the fifteen input buffers hold, at grid point
  t, rows 8t … 8t+7 of the input and of both layers' hidden state, the whole adjacency, and weight
  blocks that read back as the argument weight arrays' (feature, tap, channel) tables, then what the
  body stores for chunk row bb is the whole-array result at batch row 8t + bb: nothing in the cell
  mixes batch rows, so each chunk row's adjacency, input signal, state and weights are exactly the
  whole-batch row's.
-/
import proofs.«145957_g44504451121623_cont_8to1_c_180_24_alg».proof.Proof.KSem
import proofs.«145957_g44504451121623_cont_8to1_c_180_24_alg».proof.Proof.KLoads
import proofs.«145957_g44504451121623_cont_8to1_c_180_24_alg».proof.Proof.Whole
import proofs.«145957_g44504451121623_cont_8to1_c_180_24_alg».proof.Proof.Tabs

noncomputable section

namespace Cert.KernelIdeal.Sem

open Idealize.ShloMosaic Idealize.ShloMosaic.ValueIdx Cert.KernelIdeal Cert.KernelIdeal.Gen Cert.KernelIdeal.Comp Cert.DcgruSpec

/-! ## The zero offsets, however spelt -/

private theorem zeros1 : (![0] : Fin 1 → Nat) = fun _ => 0 := by
  funext a
  match a with
  | ⟨0, _⟩ => rfl
private theorem zeros2 : (![0, 0] : Fin 2 → Nat) = fun _ => 0 := by
  funext a
  match a with
  | ⟨0, _⟩ => rfl
  | ⟨1, _⟩ => rfl
private theorem zeros3 : (![0, 0, 0] : Fin 3 → Nat) = fun _ => 0 := by
  funext a
  match a with
  | ⟨0, _⟩ => rfl
  | ⟨1, _⟩ => rfl
  | ⟨2, _⟩ => rfl

section Chunk
variable (X : (⟨2, ![32, 512]⟩ : Shape).Idx → EReal) (A : (⟨2, ![512, 512]⟩ : Shape).Idx → EReal)
  (H : (⟨3, ![2, 32, 32768]⟩ : Shape).Idx → EReal)
  (Wg0 : (⟨2, ![195, 128]⟩ : Shape).Idx → EReal) (bg0 : (⟨1, ![128]⟩ : Shape).Idx → EReal)
  (Wc0 : (⟨2, ![195, 64]⟩ : Shape).Idx → EReal) (bc0 : (⟨1, ![64]⟩ : Shape).Idx → EReal)
  (Wg1 : (⟨2, ![384, 128]⟩ : Shape).Idx → EReal) (bg1 : (⟨1, ![128]⟩ : Shape).Idx → EReal)
  (Wc1 : (⟨2, ![384, 64]⟩ : Shape).Idx → EReal) (bc1 : (⟨1, ![64]⟩ : Shape).Idx → EReal)
  (Wp : (⟨2, ![64, 1]⟩ : Shape).Idx → EReal) (bp : (⟨1, ![1]⟩ : Shape).Idx → EReal)
variable (t : Fin 4)
variable (x0 : Vec Ideal S8x512 .f32) (x1 : Vec Ideal S512x512 .f32) (x2 : Vec Ideal S2x8x32768 .f32)
  (x3 : Vec Ideal S3x1x128 .bf16) (x4 : Vec Ideal S192x128 .bf16) (x5 : Vec Ideal S3x1x64 .bf16)
  (x6 : Vec Ideal S192x64 .bf16) (x7 : Vec Ideal S128 .f32) (x8 : Vec Ideal S64 .f32)
  (x9 : Vec Ideal S384x128 .bf16) (x10 : Vec Ideal S384x64 .bf16) (x11 : Vec Ideal S128 .f32)
  (x12 : Vec Ideal S64 .f32) (x13 : Vec Ideal S1x64 .f32) (x14 : Vec Ideal S1 .f32)

/-- The input buffers hold chunk t of the batch-indexed arrays, the whole adjacency, and the weights. -/
structure ChunkSem : Prop where
  h0 : ∀ (bb : Fin 8) (k : Fin 512), x0 (ix2 bb k) = X (ix2 (chunkRow t bb) k)
  h1 : ∀ (a b : Fin 512), x1 (ix2 a b) = A (ix2 a b)
  h2 : ∀ (l : Fin 2) (bb : Fin 8) (j : Fin 32768), x2 (ix3 l bb j) = H (ix3 l (chunkRow t bb) j)
  h34 : tab0 x3 x4 = wL0 Wg0
  h56 : tab0 x5 x6 = wL0 Wc0
  h7 : ∀ o : Fin 128, x7 (ix1 o) = bg0 (ix1 o)
  h8 : ∀ o : Fin 64, x8 (ix1 o) = bc0 (ix1 o)
  h9 : tab1 x9 = wL1 Wg1
  h10 : tab1 x10 = wL1 Wc1
  h11 : ∀ o : Fin 128, x11 (ix1 o) = bg1 (ix1 o)
  h12 : ∀ o : Fin 64, x12 (ix1 o) = bc1 (ix1 o)
  h13 : ∀ u : Fin 64, x13 (ix2 0 u) = Wp (ix2 u 0)
  h14 : x14 (ix1 0) = bp (ix1 0)

section Views
variable (P : ChunkSem X A H Wg0 bg0 Wc0 bc0 Wg1 bg1 Wc1 bc1 Wp bp t x0 x1 x2 x3 x4 x5 x6 x7 x8 x9 x10 x11 x12 x13 x14)
include P

/-- The chunk's adjacency is the whole adjacency. -/
private theorem kA_eq : kA (loadsOf x0 x1 x2 x3 x4 x5 x6 x7 x8 x9 x10 x11 x12 x13 x14) = gAdj A := by
  funext a b
  show View.ld x1 q1 (ix2 a b) = A (ix2 a b)
  rw [View.ld_unit_zero zeros2]
  exact P.h1 a b

/-- Chunk row bb's input signal is batch row 8t + bb's. -/
private theorem kX_eq (bb : Fin 8) : kX (loadsOf x0 x1 x2 x3 x4 x5 x6 x7 x8 x9 x10 x11 x12 x13 x14) bb = gX X (chunkRow t bb) := by
  funext k
  show View.ld x0 q0 (ix2 bb k) = X (ix2 (chunkRow t bb) k)
  rw [View.ld_unit_zero zeros2]
  exact P.h0 bb k

/-- Chunk row bb's layer-0 state is batch row 8t + bb's. -/
private theorem kH0_eq (bb : Fin 8) : kH0 (loadsOf x0 x1 x2 x3 x4 x5 x6 x7 x8 x9 x10 x11 x12 x13 x14) bb = gH H 0 (chunkRow t bb) := by
  funext k u
  show x2 (q2_0.idx (ix3 (0 : Fin 1) bb (flatIx k u))) = H (ix3 0 (chunkRow t bb) (flatIx k u))
  refine Eq.trans (congrArg x2 ?_) (P.h2 0 bb (flatIx k u))
  funext a
  apply Fin.ext
  match a with
  | ⟨0, _⟩ => rfl
  | ⟨1, _⟩ => show 0 + 1 * bb.val = bb.val; omega
  | ⟨2, _⟩ => show 0 + 1 * (flatIx k u).val = (flatIx k u).val; omega

/-- Chunk row bb's layer-1 state is batch row 8t + bb's. -/
private theorem kH1_eq (bb : Fin 8) : kH1 (loadsOf x0 x1 x2 x3 x4 x5 x6 x7 x8 x9 x10 x11 x12 x13 x14) bb = gH H 1 (chunkRow t bb) := by
  funext k u
  show x2 (q2_1.idx (ix3 (0 : Fin 1) bb (flatIx k u))) = H (ix3 1 (chunkRow t bb) (flatIx k u))
  refine Eq.trans (congrArg x2 ?_) (P.h2 1 bb (flatIx k u))
  funext a
  apply Fin.ext
  match a with
  | ⟨0, _⟩ => rfl
  | ⟨1, _⟩ => show 0 + 1 * bb.val = bb.val; omega
  | ⟨2, _⟩ => show 0 + 1 * (flatIx k u).val = (flatIx k u).val; omega

/-- Layer 0's gate weight blocks read back as the argument array's table. -/
private theorem wg0_eq : tab0 (loadsOf x0 x1 x2 x3 x4 x5 x6 x7 x8 x9 x10 x11 x12 x13 x14).v25 (loadsOf x0 x1 x2 x3 x4 x5 x6 x7 x8 x9 x10 x11 x12 x13 x14).v27 = wL0 Wg0 := by
  show tab0 (View.ld x3 q3) (View.ld x4 q4) = wL0 Wg0
  rw [View.ld_unit_zero zeros3, View.ld_unit_zero zeros2]
  exact P.h34

private theorem wc0_eq : tab0 (loadsOf x0 x1 x2 x3 x4 x5 x6 x7 x8 x9 x10 x11 x12 x13 x14).v79 (loadsOf x0 x1 x2 x3 x4 x5 x6 x7 x8 x9 x10 x11 x12 x13 x14).v81 = wL0 Wc0 := by
  show tab0 (View.ld x5 q5) (View.ld x6 q6) = wL0 Wc0
  rw [View.ld_unit_zero zeros3, View.ld_unit_zero zeros2]
  exact P.h56

private theorem wg1_eq : tab1 (loadsOf x0 x1 x2 x3 x4 x5 x6 x7 x8 x9 x10 x11 x12 x13 x14).v153 = wL1 Wg1 := by
  show tab1 (View.ld x9 q9) = wL1 Wg1
  rw [View.ld_unit_zero zeros2]
  exact P.h9

private theorem wc1_eq : tab1 (loadsOf x0 x1 x2 x3 x4 x5 x6 x7 x8 x9 x10 x11 x12 x13 x14).v179 = wL1 Wc1 := by
  show tab1 (View.ld x10 q10) = wL1 Wc1
  rw [View.ld_unit_zero zeros2]
  exact P.h10

private theorem bg0_eq : bOf (loadsOf x0 x1 x2 x3 x4 x5 x6 x7 x8 x9 x10 x11 x12 x13 x14).v29 = bOf bg0 := by
  funext o
  show View.ld x7 q7 (ix1 o) = bg0 (ix1 o)
  rw [View.ld_unit_zero zeros1]
  exact P.h7 o

private theorem bc0_eq : bOf (loadsOf x0 x1 x2 x3 x4 x5 x6 x7 x8 x9 x10 x11 x12 x13 x14).v83 = bOf bc0 := by
  funext o
  show View.ld x8 q8 (ix1 o) = bc0 (ix1 o)
  rw [View.ld_unit_zero zeros1]
  exact P.h8 o

private theorem bg1_eq : bOf (loadsOf x0 x1 x2 x3 x4 x5 x6 x7 x8 x9 x10 x11 x12 x13 x14).v155 = bOf bg1 := by
  funext o
  show View.ld x11 q7 (ix1 o) = bg1 (ix1 o)
  rw [View.ld_unit_zero zeros1]
  exact P.h11 o

private theorem bc1_eq : bOf (loadsOf x0 x1 x2 x3 x4 x5 x6 x7 x8 x9 x10 x11 x12 x13 x14).v181 = bOf bc1 := by
  funext o
  show View.ld x12 q8 (ix1 o) = bc1 (ix1 o)
  rw [View.ld_unit_zero zeros1]
  exact P.h12 o

/-- Chunk row bb's new layer-0 state is batch row 8t + bb's. -/
private theorem kH0n_eq (bb : Fin 8) :
    kH0n (loadsOf x0 x1 x2 x3 x4 x5 x6 x7 x8 x9 x10 x11 x12 x13 x14) bb = gH0n X A H Wg0 bg0 Wc0 bc0 (chunkRow t bb) := by
  unfold kH0n gH0n
  rw [kA_eq X A H Wg0 bg0 Wc0 bc0 Wg1 bg1 Wc1 bc1 Wp bp t x0 x1 x2 x3 x4 x5 x6 x7 x8 x9 x10 x11 x12 x13 x14 P, kX_eq X A H Wg0 bg0 Wc0 bc0 Wg1 bg1 Wc1 bc1 Wp bp t x0 x1 x2 x3 x4 x5 x6 x7 x8 x9 x10 x11 x12 x13 x14 P bb, kH0_eq X A H Wg0 bg0 Wc0 bc0 Wg1 bg1 Wc1 bc1 Wp bp t x0 x1 x2 x3 x4 x5 x6 x7 x8 x9 x10 x11 x12 x13 x14 P bb,
    wg0_eq X A H Wg0 bg0 Wc0 bc0 Wg1 bg1 Wc1 bc1 Wp bp t x0 x1 x2 x3 x4 x5 x6 x7 x8 x9 x10 x11 x12 x13 x14 P, wc0_eq X A H Wg0 bg0 Wc0 bc0 Wg1 bg1 Wc1 bc1 Wp bp t x0 x1 x2 x3 x4 x5 x6 x7 x8 x9 x10 x11 x12 x13 x14 P, bg0_eq X A H Wg0 bg0 Wc0 bc0 Wg1 bg1 Wc1 bc1 Wp bp t x0 x1 x2 x3 x4 x5 x6 x7 x8 x9 x10 x11 x12 x13 x14 P, bc0_eq X A H Wg0 bg0 Wc0 bc0 Wg1 bg1 Wc1 bc1 Wp bp t x0 x1 x2 x3 x4 x5 x6 x7 x8 x9 x10 x11 x12 x13 x14 P]

/-- Chunk row bb's new layer-1 state is batch row 8t + bb's. -/
private theorem kH1n_eq (bb : Fin 8) :
    kH1n (loadsOf x0 x1 x2 x3 x4 x5 x6 x7 x8 x9 x10 x11 x12 x13 x14) bb = gH1n X A H Wg0 bg0 Wc0 bc0 Wg1 bg1 Wc1 bc1 (chunkRow t bb) := by
  unfold kH1n gH1n
  rw [kA_eq X A H Wg0 bg0 Wc0 bc0 Wg1 bg1 Wc1 bc1 Wp bp t x0 x1 x2 x3 x4 x5 x6 x7 x8 x9 x10 x11 x12 x13 x14 P, kH0n_eq X A H Wg0 bg0 Wc0 bc0 Wg1 bg1 Wc1 bc1 Wp bp t x0 x1 x2 x3 x4 x5 x6 x7 x8 x9 x10 x11 x12 x13 x14 P bb, kH1_eq X A H Wg0 bg0 Wc0 bc0 Wg1 bg1 Wc1 bc1 Wp bp t x0 x1 x2 x3 x4 x5 x6 x7 x8 x9 x10 x11 x12 x13 x14 P bb,
    wg1_eq X A H Wg0 bg0 Wc0 bc0 Wg1 bg1 Wc1 bc1 Wp bp t x0 x1 x2 x3 x4 x5 x6 x7 x8 x9 x10 x11 x12 x13 x14 P, wc1_eq X A H Wg0 bg0 Wc0 bc0 Wg1 bg1 Wc1 bc1 Wp bp t x0 x1 x2 x3 x4 x5 x6 x7 x8 x9 x10 x11 x12 x13 x14 P, bg1_eq X A H Wg0 bg0 Wc0 bc0 Wg1 bg1 Wc1 bc1 Wp bp t x0 x1 x2 x3 x4 x5 x6 x7 x8 x9 x10 x11 x12 x13 x14 P, bc1_eq X A H Wg0 bg0 Wc0 bc0 Wg1 bg1 Wc1 bc1 Wp bp t x0 x1 x2 x3 x4 x5 x6 x7 x8 x9 x10 x11 x12 x13 x14 P]

end Views

/-- Layer 0's new state as stored, for chunk row bb. -/
theorem chunk_hs0 (P : ChunkSem X A H Wg0 bg0 Wc0 bc0 Wg1 bg1 Wc1 bc1 Wp bp t x0 x1 x2 x3 x4 x5 x6 x7 x8 x9 x10 x11 x12 x13 x14)
    (bb : Fin 8) (n : Fin 512) (u : Fin 64) :
    hs0 (loadsOf x0 x1 x2 x3 x4 x5 x6 x7 x8 x9 x10 x11 x12 x13 x14) (ix3 0 bb (flatIx n u))
      = gH0n X A H Wg0 bg0 Wc0 bc0 (chunkRow t bb) n u := by
  rw [hs0_sem, kH0n_eq X A H Wg0 bg0 Wc0 bc0 Wg1 bg1 Wc1 bc1 Wp bp t x0 x1 x2 x3 x4 x5 x6 x7 x8 x9 x10 x11 x12 x13 x14 P bb]

/-- Layer 1's new state as stored, for chunk row bb. -/
theorem chunk_hs1 (P : ChunkSem X A H Wg0 bg0 Wc0 bc0 Wg1 bg1 Wc1 bc1 Wp bp t x0 x1 x2 x3 x4 x5 x6 x7 x8 x9 x10 x11 x12 x13 x14)
    (bb : Fin 8) (n : Fin 512) (u : Fin 64) :
    hs1 (loadsOf x0 x1 x2 x3 x4 x5 x6 x7 x8 x9 x10 x11 x12 x13 x14) (ix3 0 bb (flatIx n u))
      = gH1n X A H Wg0 bg0 Wc0 bc0 Wg1 bg1 Wc1 bc1 (chunkRow t bb) n u := by
  rw [hs1_sem, kH1n_eq X A H Wg0 bg0 Wc0 bc0 Wg1 bg1 Wc1 bc1 Wp bp t x0 x1 x2 x3 x4 x5 x6 x7 x8 x9 x10 x11 x12 x13 x14 P bb]

/-- The projection as stored, for chunk row bb. -/
theorem chunk_out (P : ChunkSem X A H Wg0 bg0 Wc0 bc0 Wg1 bg1 Wc1 bc1 Wp bp t x0 x1 x2 x3 x4 x5 x6 x7 x8 x9 x10 x11 x12 x13 x14)
    (bb : Fin 8) (n : Fin 512) :
    out (loadsOf x0 x1 x2 x3 x4 x5 x6 x7 x8 x9 x10 x11 x12 x13 x14) (ix2 bb n)
      = gOut X A H Wg0 bg0 Wc0 bc0 Wg1 bg1 Wc1 bc1 Wp bp (ix2 (chunkRow t bb) n) := by
  rw [out_sem, gOut_apply, kH1n_eq X A H Wg0 bg0 Wc0 bc0 Wg1 bg1 Wc1 bc1 Wp bp t x0 x1 x2 x3 x4 x5 x6 x7 x8 x9 x10 x11 x12 x13 x14 P bb]
  show proj _ (fun u => View.ld x13 q13 (ix2 0 u)) (View.ld x14 q14 (ix1 0)) n = _
  rw [View.ld_unit_zero zeros2, View.ld_unit_zero zeros1, P.h14]
  exact congrArg (fun w => proj _ w _ n) (funext fun u => P.h13 u)

end Chunk

end Cert.KernelIdeal.Sem

end
-- ==== Proof.KHostV.lean ====
/-
  What both weight-table modules share: the region-entry contents of a buffer as a function of the launch
  memory, the result of a concatenate of three and of six references with each operand at its own reference,
  and the layout readings that recur — a (rows, channel) weight regrouped as (feature, tap, channel), a run of
  features cut out with the tap axis moved first, one tap's (feature, channel) slab, and a row of a stack of
  three or six such slabs.
-/
import proofs.«145957_g44504451121623_cont_8to1_c_180_24_alg».proof.Proof.Gen.KernelIdeal.Launch
import Idealize.ShloMosaic.Lib.Pipeline.Value
import Idealize.ShloMosaic.Lib.ValueLayout
import Idealize.ShloMosaic.Lib.ValueIdx
import Idealize.ShloMosaic.PureOps.Ideal.Laws
import Idealize.ShloMosaic.Lib.StableHlo.Run

noncomputable section

namespace Cert.KernelIdeal.Host

open Idealize.ShloMosaic Idealize.ShloMosaic.TcCoe Idealize.ShloMosaic.ValueIdx Cert.KernelIdeal Cert.KernelIdeal.Gen

variable (m : (ℓ : Loc nD τ sig) → Buf (Elt Ideal) ℓ) (c : Dev nD)

/-- The region-entry contents of buffer `b`: the launch memory after @main's host operations. -/
abbrev hV (b : Ref sig .tc) : Buf (Elt Ideal) ((c : Thread nD τ).loc b) :=
  StableHlo.after (hostOps0 (F := Ideal)) (fun b => m (c, b)) b

/-! ## Results of a concatenate of three, and of six, references

`StableHlo.nary` over a literal family leaves each operand's contents at its own reference, so the
operands' own defining operations can be read in turn. -/
section NaryResults
variable {τ' : Topo} {sig' : RefSig} {Val : EltTy → Type} {x0 x1 x2 x3 x4 x5 y : Ref sig' .tc}

/-- `StableHlo.nary` over a LITERAL family of three references (a concatenate of three operands): the result with each
    operand's contents at its own reference, so that the operands' own defining operations can be rewritten in turn
    (under the binder of the general `nary_result` the reference `![a, b, c] k` is no literal). -/
theorem nary3_result
    (f : ((k : Fin 3) → ((![x0, x1, x2] : Fin 3 → Ref sig' .tc) k).ty.Contents Val) → y.ty.Contents Val) (hxs hy)
    (F : Valuation τ' sig' Val) :
    (StableHlo.nary (τ := τ') ![x0, x1, x2] y f hxs hy).result F (Proc.devRef .tc y)
      = f (Fin.cons (F (Proc.devRef .tc x0)) (Fin.cons (F (Proc.devRef .tc x1)) (Fin.cons (F (Proc.devRef .tc x2))
          (fun i => i.elim0)))) := by
  rw [StableHlo.nary_result]; congr 1; funext k; fin_cases k <;> rfl

/-- The same for a literal family of six references (a concatenate of six operands). -/
theorem nary6_result
    (f : ((k : Fin 6) → ((![x0, x1, x2, x3, x4, x5] : Fin 6 → Ref sig' .tc) k).ty.Contents Val) → y.ty.Contents Val) (hxs hy)
    (F : Valuation τ' sig' Val) :
    (StableHlo.nary (τ := τ') ![x0, x1, x2, x3, x4, x5] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (fun i => i.elim0))))))) := by
  rw [StableHlo.nary_result]; congr 1; funext k; fin_cases k <;> rfl
end NaryResults

/-- Reads what a buffer holds after a literal line of reshapes, unary operations and three- or six-piece
    concatenates: each operation's result at its own buffer is its function of the operands' contents, and
    at any other buffer what was there before. -/
macro "host_results" : tactic =>
  `(tactic| (simp only [StableHlo.after_cons, StableHlo.after_nil]
             repeat (first
               | rw [StableHlo.unary_result] | rw [StableHlo.reshape_result] | rw [nary3_result] | rw [nary6_result]
               | (rw [StableHlo.unary_result_ne]; rotate_left; decide)
               | (rw [StableHlo.reshape_result_ne]; rotate_left; decide)
               | (rw [StableHlo.nary_result_ne]; rotate_left; decide))))

/-! ## The three layout readings that recur -/
section Reads
variable {α : Type}

/-- Features `off … off+n-1` cut from a (feature, tap, channel) array and the tap axis moved first: at
    (tap, feature, channel) it is the array at (off + feature, tap, channel). -/
theorem cut_at {Fn n O off : ℕ} (Y : (⟨3, ![Fn, 3, O]⟩ : Shape).Idx → α)
    (hs : (⟨3, ![Fn, 3, O]⟩ : Shape).Slices ![off, 0, 0] ⟨3, ![n, 3, O]⟩)
    (ht : (⟨3, ![n, 3, O]⟩ : Shape).Transposes [1, 0, 2] ⟨3, ![3, n, O]⟩)
    (t : Fin 3) (j : Fin n) (o : Fin O) (hf : off + j.val < Fn) :
    transpose ⟨3, ![3, n, O]⟩ [1, 0, 2] (extractStridedSlice ⟨3, ![n, 3, O]⟩ ![off, 0, 0] Y hs) ht (ix3 t j o)
      = Y (ix3 (⟨off + j.val, hf⟩ : Fin Fn) t o) := by
  refine (transpose_apply [1, 0, 2] _ ht (ix3 t j o) (ix3 j t o) ?_).trans ?_
  · intro b; match b with | ⟨0, _⟩ => rfl | ⟨1, _⟩ => rfl | ⟨2, _⟩ => rfl
  refine extractStridedSlice_apply ![off, 0, 0] Y hs (ix3 j t o) (ix3 (⟨off + j.val, hf⟩ : Fin Fn) t o) ?_
  intro a; match a with
    | ⟨0, _⟩ => rfl
    | ⟨1, _⟩ => show t.val = 0 + t.val; omega
    | ⟨2, _⟩ => show o.val = 0 + o.val; omega

/-- A (rows, channel) array regrouped as (feature, tap, channel): row `feature · 3 + tap`. -/
theorem regroup_at {R Fn O : ℕ} (W : (⟨2, ![R, O]⟩ : Shape).Idx → α)
    (hc : (⟨2, ![R, O]⟩ : Shape).ShapeCasts ⟨3, ![Fn, 3, O]⟩)
    (f : Fin Fn) (t : Fin 3) (o : Fin O) (hrow : f.val * 3 + t.val < R) :
    shapeCast ⟨3, ![Fn, 3, O]⟩ W hc (ix3 f t o) = W (ix2 (⟨f.val * 3 + t.val, hrow⟩ : Fin R) o) := by
  refine shapeCast_apply W hc (ix3 f t o) (ix2 (⟨f.val * 3 + t.val, hrow⟩ : Fin R) o) ?_
  rw [Shape.rowMajor_val_two, Shape.rowMajor_val_three]
  rfl

/-- One tap's slab of a (tap, feature, channel) array, as a (feature, channel) array. -/
theorem slab_at {n O t0 : ℕ} (X : (⟨3, ![3, n, O]⟩ : Shape).Idx → α)
    (hs : (⟨3, ![3, n, O]⟩ : Shape).Slices ![t0, 0, 0] ⟨3, ![1, n, O]⟩)
    (hc : (⟨3, ![1, n, O]⟩ : Shape).ShapeCasts ⟨2, ![n, O]⟩)
    (ht0 : t0 < 3) (j : Fin n) (o : Fin O) :
    shapeCast ⟨2, ![n, O]⟩ (extractStridedSlice ⟨3, ![1, n, O]⟩ ![t0, 0, 0] X hs) hc (ix2 j o)
      = X (ix3 (⟨t0, ht0⟩ : Fin 3) j o) := by
  refine (shapeCast_apply _ hc (ix2 j o) (ix3 (0 : Fin 1) j o) ?_).trans ?_
  · rw [Shape.rowMajor_val_two, Shape.rowMajor_val_three]
    show (0 * n + j.val) * O + o.val = j.val * O + o.val
    rw [Nat.zero_mul, Nat.zero_add]
  refine extractStridedSlice_apply ![t0, 0, 0] X hs (ix3 (0 : Fin 1) j o) (ix3 (⟨t0, ht0⟩ : Fin 3) j o) ?_
  intro a; match a with
    | ⟨0, _⟩ => rfl
    | ⟨1, _⟩ => show j.val = 0 + j.val; omega
    | ⟨2, _⟩ => show o.val = 0 + o.val; omega
end Reads

section Reads2
variable {α : Type}

/-- Tap `t0`'s slab of the features `off …` of a (feature, tap, channel) array `Y` that regroups the rows of `W`:
    at (feature `j`, channel) it is `W` at row `(off + j) · 3 + t0`. -/
theorem tapfeat_at {Fn n O R off t0 : ℕ} (Y : (⟨3, ![Fn, 3, O]⟩ : Shape).Idx → α) (W : (⟨2, ![R, O]⟩ : Shape).Idx → α)
    (hY : ∀ (f : Fin Fn) (t : Fin 3) (o : Fin O) (hrow : f.val * 3 + t.val < R),
      Y (ix3 f t o) = W (ix2 (⟨f.val * 3 + t.val, hrow⟩ : Fin R) o))
    (hs1 : (⟨3, ![Fn, 3, O]⟩ : Shape).Slices ![off, 0, 0] ⟨3, ![n, 3, O]⟩)
    (ht : (⟨3, ![n, 3, O]⟩ : Shape).Transposes [1, 0, 2] ⟨3, ![3, n, O]⟩)
    (hs2 : (⟨3, ![3, n, O]⟩ : Shape).Slices ![t0, 0, 0] ⟨3, ![1, n, O]⟩)
    (hc : (⟨3, ![1, n, O]⟩ : Shape).ShapeCasts ⟨2, ![n, O]⟩)
    (ht0 : t0 < 3) (j : Fin n) (o : Fin O) (hf : off + j.val < Fn) (hrow : (off + j.val) * 3 + t0 < R) :
    shapeCast ⟨2, ![n, O]⟩ (extractStridedSlice ⟨3, ![1, n, O]⟩ ![t0, 0, 0]
        (transpose ⟨3, ![3, n, O]⟩ [1, 0, 2] (extractStridedSlice ⟨3, ![n, 3, O]⟩ ![off, 0, 0] Y hs1) ht) hs2) hc (ix2 j o)
      = W (ix2 (⟨(off + j.val) * 3 + t0, hrow⟩ : Fin R) o) :=
  (slab_at _ hs2 hc ht0 j o).trans ((cut_at Y hs1 ht ⟨t0, ht0⟩ j o hf).trans (hY ⟨off + j.val, hf⟩ ⟨t0, ht0⟩ o hrow))
end Reads2

section Cat
variable {α : Type}

theorem cat_hi {n O : ℕ} (rowj : ℕ) {R : ℕ} (hr : rowj < R) (j : Fin n) (o : Fin O) :
    ∀ b : Fin (⟨2, ![n, O]⟩ : Shape).rank, b.cast (rfl : (⟨2, ![n, O]⟩ : Shape).rank = (⟨2, ![R, O]⟩ : Shape).rank) ≠ (0 : Fin 2) →
      ((ix2 j o : (⟨2, ![n, O]⟩ : Shape).Idx) b).val
        = ((ix2 (⟨rowj, hr⟩ : Fin R) o : (⟨2, ![R, O]⟩ : Shape).Idx) (b.cast rfl)).val := by
  intro b hb
  match b with
  | ⟨0, _⟩ => exact absurd rfl hb
  | ⟨1, _⟩ => rfl

/-- Three (n, O) arrays stacked along the rows: row `k · n + j` is row `j` of piece `k`. -/
theorem cat3_at {n O R : ℕ} (P0 P1 P2 : (⟨2, ![n, O]⟩ : Shape).Idx → α)
    (h : Shape.Concatenates [(⟨2, ![n, O]⟩ : Shape), ⟨2, ![n, O]⟩, ⟨2, ![n, O]⟩] ⟨2, ![R, O]⟩ 0)
    (k : Fin 3) (j : Fin n) (o : Fin O) (hr : k.val * n + j.val < R) :
    concatenate ⟨2, ![R, O]⟩ 0 [⟨⟨2, ![n, O]⟩, P0⟩, ⟨⟨2, ![n, O]⟩, P1⟩, ⟨⟨2, ![n, O]⟩, P2⟩] h
        (ix2 (⟨k.val * n + j.val, hr⟩ : Fin R) o)
      = (match k with | ⟨0, _⟩ => P0 | ⟨1, _⟩ => P1 | ⟨2, _⟩ => P2) (ix2 j o) := by
  match k with
  | ⟨0, _⟩ =>
    exact concatenate_apply_piece (t := ⟨2, ![R, O]⟩) (0 : Fin 2)
      [⟨⟨2, ![n, O]⟩, P0⟩, ⟨⟨2, ![n, O]⟩, P1⟩, ⟨⟨2, ![n, O]⟩, P2⟩] h _ 0 (by show (0 : ℕ) < 3; omega) ⟨2, ![n, O]⟩ P0 rfl rfl 0 rfl (ix2 j o)
      (cat_hi _ hr j o) (by show 0 + j.val = 0 * n + j.val; omega)
  | ⟨1, _⟩ =>
    exact concatenate_apply_piece (t := ⟨2, ![R, O]⟩) (0 : Fin 2)
      [⟨⟨2, ![n, O]⟩, P0⟩, ⟨⟨2, ![n, O]⟩, P1⟩, ⟨⟨2, ![n, O]⟩, P2⟩] h _ 1 (by show (1 : ℕ) < 3; omega) ⟨2, ![n, O]⟩ P1 rfl rfl n
      (by show n + 0 = n; omega) (ix2 j o)
      (cat_hi _ hr j o) (by show n + j.val = 1 * n + j.val; omega)
  | ⟨2, _⟩ =>
    exact concatenate_apply_piece (t := ⟨2, ![R, O]⟩) (0 : Fin 2)
      [⟨⟨2, ![n, O]⟩, P0⟩, ⟨⟨2, ![n, O]⟩, P1⟩, ⟨⟨2, ![n, O]⟩, P2⟩] h _ 2 (by show (2 : ℕ) < 3; omega) ⟨2, ![n, O]⟩ P2 rfl rfl (n + n)
      (by show n + (n + 0) = n + n; omega) (ix2 j o)
      (cat_hi _ hr j o) (by show n + n + j.val = 2 * n + j.val; omega)
end Cat

section Reads3
/-- The whole reading of one tap's slab: regroup the rows of `W` as (feature, tap, channel), narrow (the identity on
    the extended reals), cut the features `off …`, move the tap axis first, take tap `t0`'s slab. At (feature `j`,
    channel) it is `W` at row `(off + j) · 3 + t0`. -/
theorem slab_of_weight {Fn n O R off t0 : ℕ} (W : FVec Ideal ⟨2, ![R, O]⟩ .f32)
    (hcW : (⟨2, ![R, O]⟩ : Shape).ShapeCasts ⟨3, ![Fn, 3, O]⟩) (hb : FTy.bits .bf16 < FTy.bits .f32)
    (hs1 : (⟨3, ![Fn, 3, O]⟩ : Shape).Slices ![off, 0, 0] ⟨3, ![n, 3, O]⟩)
    (ht : (⟨3, ![n, 3, O]⟩ : Shape).Transposes [1, 0, 2] ⟨3, ![3, n, O]⟩)
    (hs2 : (⟨3, ![3, n, O]⟩ : Shape).Slices ![t0, 0, 0] ⟨3, ![1, n, O]⟩)
    (hc : (⟨3, ![1, n, O]⟩ : Shape).ShapeCasts ⟨2, ![n, O]⟩)
    (ht0 : t0 < 3) (j : Fin n) (o : Fin O) (hf : off + j.val < Fn) (hrow : (off + j.val) * 3 + t0 < R) :
    shapeCast ⟨2, ![n, O]⟩ (extractStridedSlice ⟨3, ![1, n, O]⟩ ![t0, 0, 0]
        (transpose ⟨3, ![3, n, O]⟩ [1, 0, 2] (extractStridedSlice ⟨3, ![n, 3, O]⟩ ![off, 0, 0]
          (truncf (F := Ideal) .bf16 (shapeCast ⟨3, ![Fn, 3, O]⟩ W hcW) hb) hs1) ht) hs2) hc (ix2 j o)
      = W (ix2 (⟨(off + j.val) * 3 + t0, hrow⟩ : Fin R) o) :=
  tapfeat_at (truncf (F := Ideal) .bf16 (shapeCast ⟨3, ![Fn, 3, O]⟩ W hcW) hb) W
    (fun f t o hrow => (truncf_apply _ hb (ix3 f t o)).trans (regroup_at W hcW f t o hrow))
    hs1 ht hs2 hc ht0 j o hf hrow
end Reads3

section Cat6
variable {α : Type}

/-- Six (n, O) arrays stacked along the rows: row `k · n + j` is row `j` of piece `k`. -/
theorem cat6_at {n O R : ℕ} (P0 P1 P2 P3 P4 P5 : (⟨2, ![n, O]⟩ : Shape).Idx → α)
    (h : Shape.Concatenates [(⟨2, ![n, O]⟩ : Shape), ⟨2, ![n, O]⟩, ⟨2, ![n, O]⟩, ⟨2, ![n, O]⟩, ⟨2, ![n, O]⟩, ⟨2, ![n, O]⟩] ⟨2, ![R, O]⟩ 0)
    (k : Fin 6) (j : Fin n) (o : Fin O) (hr : k.val * n + j.val < R) :
    concatenate ⟨2, ![R, O]⟩ 0 [⟨⟨2, ![n, O]⟩, P0⟩, ⟨⟨2, ![n, O]⟩, P1⟩, ⟨⟨2, ![n, O]⟩, P2⟩, ⟨⟨2, ![n, O]⟩, P3⟩, ⟨⟨2, ![n, O]⟩, P4⟩, ⟨⟨2, ![n, O]⟩, P5⟩] h
        (ix2 (⟨k.val * n + j.val, hr⟩ : Fin R) o)
      = (match k with | ⟨0, _⟩ => P0 | ⟨1, _⟩ => P1 | ⟨2, _⟩ => P2 | ⟨3, _⟩ => P3 | ⟨4, _⟩ => P4 | ⟨5, _⟩ => P5) (ix2 j o) := by
  match k with
  | ⟨0, _⟩ =>
    exact concatenate_apply_piece (t := ⟨2, ![R, O]⟩) (0 : Fin 2)
      [⟨⟨2, ![n, O]⟩, P0⟩, ⟨⟨2, ![n, O]⟩, P1⟩, ⟨⟨2, ![n, O]⟩, P2⟩, ⟨⟨2, ![n, O]⟩, P3⟩, ⟨⟨2, ![n, O]⟩, P4⟩, ⟨⟨2, ![n, O]⟩, P5⟩] h _ 0 (by show (0 : ℕ) < 6; omega) ⟨2, ![n, O]⟩ P0 rfl rfl (0)
      rfl (ix2 j o)
      (cat_hi _ hr j o) (by show 0 + j.val = 0 * n + j.val; omega)
  | ⟨1, _⟩ =>
    exact concatenate_apply_piece (t := ⟨2, ![R, O]⟩) (0 : Fin 2)
      [⟨⟨2, ![n, O]⟩, P0⟩, ⟨⟨2, ![n, O]⟩, P1⟩, ⟨⟨2, ![n, O]⟩, P2⟩, ⟨⟨2, ![n, O]⟩, P3⟩, ⟨⟨2, ![n, O]⟩, P4⟩, ⟨⟨2, ![n, O]⟩, P5⟩] h _ 1 (by show (1 : ℕ) < 6; omega) ⟨2, ![n, O]⟩ P1 rfl rfl (n)
      (by show n + 0 = n; omega) (ix2 j o)
      (cat_hi _ hr j o) (by show n + j.val = 1 * n + j.val; omega)
  | ⟨2, _⟩ =>
    exact concatenate_apply_piece (t := ⟨2, ![R, O]⟩) (0 : Fin 2)
      [⟨⟨2, ![n, O]⟩, P0⟩, ⟨⟨2, ![n, O]⟩, P1⟩, ⟨⟨2, ![n, O]⟩, P2⟩, ⟨⟨2, ![n, O]⟩, P3⟩, ⟨⟨2, ![n, O]⟩, P4⟩, ⟨⟨2, ![n, O]⟩, P5⟩] h _ 2 (by show (2 : ℕ) < 6; omega) ⟨2, ![n, O]⟩ P2 rfl rfl (n + n)
      (by show n + (n + 0) = n + n; omega) (ix2 j o)
      (cat_hi _ hr j o) (by show n + n + j.val = 2 * n + j.val; omega)
  | ⟨3, _⟩ =>
    exact concatenate_apply_piece (t := ⟨2, ![R, O]⟩) (0 : Fin 2)
      [⟨⟨2, ![n, O]⟩, P0⟩, ⟨⟨2, ![n, O]⟩, P1⟩, ⟨⟨2, ![n, O]⟩, P2⟩, ⟨⟨2, ![n, O]⟩, P3⟩, ⟨⟨2, ![n, O]⟩, P4⟩, ⟨⟨2, ![n, O]⟩, P5⟩] h _ 3 (by show (3 : ℕ) < 6; omega) ⟨2, ![n, O]⟩ P3 rfl rfl (n + n + n)
      (by show n + (n + (n + 0)) = n + n + n; omega) (ix2 j o)
      (cat_hi _ hr j o) (by show n + n + n + j.val = 3 * n + j.val; omega)
  | ⟨4, _⟩ =>
    exact concatenate_apply_piece (t := ⟨2, ![R, O]⟩) (0 : Fin 2)
      [⟨⟨2, ![n, O]⟩, P0⟩, ⟨⟨2, ![n, O]⟩, P1⟩, ⟨⟨2, ![n, O]⟩, P2⟩, ⟨⟨2, ![n, O]⟩, P3⟩, ⟨⟨2, ![n, O]⟩, P4⟩, ⟨⟨2, ![n, O]⟩, P5⟩] h _ 4 (by show (4 : ℕ) < 6; omega) ⟨2, ![n, O]⟩ P4 rfl rfl (n + n + n + n)
      (by show n + (n + (n + (n + 0))) = n + n + n + n; omega) (ix2 j o)
      (cat_hi _ hr j o) (by show n + n + n + n + j.val = 4 * n + j.val; omega)
  | ⟨5, _⟩ =>
    exact concatenate_apply_piece (t := ⟨2, ![R, O]⟩) (0 : Fin 2)
      [⟨⟨2, ![n, O]⟩, P0⟩, ⟨⟨2, ![n, O]⟩, P1⟩, ⟨⟨2, ![n, O]⟩, P2⟩, ⟨⟨2, ![n, O]⟩, P3⟩, ⟨⟨2, ![n, O]⟩, P4⟩, ⟨⟨2, ![n, O]⟩, P5⟩] h _ 5 (by show (5 : ℕ) < 6; omega) ⟨2, ![n, O]⟩ P5 rfl rfl (n + n + n + n + n)
      (by show n + (n + (n + (n + (n + 0)))) = n + n + n + n + n; omega) (ix2 j o)
      (cat_hi _ hr j o) (by show n + n + n + n + n + j.val = 5 * n + j.val; omega)
end Cat6

end Cert.KernelIdeal.Host

end
-- ==== Proof.KHost0.lean ====
/-
  Layer 0's two weight tables and the projection row, as functions of the launch memory. Layer 0's weight
  array (rows feature · 3 + tap) reaches the region as the single input feature's three rows, a (3, 1, O)
  block, beside the 64 state features re-laid tap-major in a (192, O) block; read back as (feature, tap,
  channel) tables the two blocks are the argument array. The projection weight is transposed to a row.
-/
import proofs.«145957_g44504451121623_cont_8to1_c_180_24_alg».proof.Proof.KHostV
import proofs.«145957_g44504451121623_cont_8to1_c_180_24_alg».proof.Proof.Tabs

noncomputable section

namespace Cert.KernelIdeal.Host

open Idealize.ShloMosaic Idealize.ShloMosaic.TcCoe Idealize.ShloMosaic.ValueIdx Cert.KernelIdeal Cert.KernelIdeal.Gen Cert.DcgruSpec

variable (m : (ℓ : Loc nD τ sig) → Buf (Elt Ideal) ℓ) (c : Dev nD)

/-- The input-feature block of layer 0, (tap, 1, channel): feature 0's tap `t` is row `t` of the argument array. -/
private theorem v3_at (t : Fin 3) (o : Fin 128) :
    hV m c main_v3 (ix3 t 0 o) = m ((c : Thread nD τ).loc main_arg3) (ix2 (⟨t.val, by omega⟩ : Fin 195) o) := by
  dsimp only [hV, hostOps0]
  host_results
  refine (cut_at (Fn := 65) (n := 1) (O := 128) (off := 0) _ slices_S65x3x128_S1x3x128_0_0_0
    transposes_S1x3x128_S3x1x128_1_0_2 t 0 o (by decide)).trans ?_
  refine (regroup_at (R := 195) (Fn := 65) (O := 128) (m (c, Proc.tc.devRef main_arg3))
    shapeCasts_S195x128_S65x3x128 ⟨0 + (0 : Fin 1).val, by decide⟩ t o (by show (0 + 0) * 3 + t.val < 195; omega)).trans ?_
  refine congrArg (fun r : Fin 195 => m (c, Proc.tc.devRef main_arg3) (ix2 r o)) (Fin.ext ?_)
  show (0 + 0) * 3 + t.val = t.val
  omega

set_option maxHeartbeats 2000000 in
/-- The state-feature block of layer 0 (rows tap · 64 + feature) read back into the argument array: state feature
    `j` is feature `1 + j`, whose tap `t` is row `(1 + j) · 3 + t`. -/
private theorem v30_at (t : Fin 3) (j : Fin 64) (o : Fin 128) :
    hV m c main_v30 (ix2 (⟨t.val * 64 + j.val, by omega⟩ : Fin 192) o)
      = m ((c : Thread nD τ).loc main_arg3) (ix2 (⟨(1 + j.val) * 3 + t.val, by omega⟩ : Fin 195) o) := by
  dsimp only [hV, hostOps0]
  host_results
  refine (cat3_at _ _ _ concatenates_S64x128_S64x128_S64x128_S192x128_d0 t j o (by omega)).trans ?_
  match t with
  | ⟨0, _⟩ =>
    exact slab_of_weight (Fn := 65) (n := 64) (O := 128) (R := 195) (off := 1) (t0 := 0) (m (c, Proc.tc.devRef main_arg3))
      shapeCasts_S195x128_S65x3x128 bitsLt_bf16_f32
      slices_S65x3x128_S64x3x128_1_0_0 transposes_S64x3x128_S3x64x128_1_0_2 slices_S3x64x128_S1x64x128_0_0_0
      shapeCasts_S1x64x128_S64x128 (by decide) j o (by omega) (by omega)
  | ⟨1, _⟩ =>
    exact slab_of_weight (Fn := 65) (n := 64) (O := 128) (R := 195) (off := 1) (t0 := 1) (m (c, Proc.tc.devRef main_arg3))
      shapeCasts_S195x128_S65x3x128 bitsLt_bf16_f32
      slices_S65x3x128_S64x3x128_1_0_0 transposes_S64x3x128_S3x64x128_1_0_2 slices_S3x64x128_S1x64x128_1_0_0
      shapeCasts_S1x64x128_S64x128 (by decide) j o (by omega) (by omega)
  | ⟨2, _⟩ =>
    exact slab_of_weight (Fn := 65) (n := 64) (O := 128) (R := 195) (off := 1) (t0 := 2) (m (c, Proc.tc.devRef main_arg3))
      shapeCasts_S195x128_S65x3x128 bitsLt_bf16_f32
      slices_S65x3x128_S64x3x128_1_0_0 transposes_S64x3x128_S3x64x128_1_0_2 slices_S3x64x128_S1x64x128_2_0_0
      shapeCasts_S1x64x128_S64x128 (by decide) j o (by omega) (by omega)

/-- The input-feature block of layer 0, (tap, 1, channel): feature 0's tap `t` is row `t` of the argument array. -/
private theorem v9_at (t : Fin 3) (o : Fin 64) :
    hV m c main_v9 (ix3 t 0 o) = m ((c : Thread nD τ).loc main_arg5) (ix2 (⟨t.val, by omega⟩ : Fin 195) o) := by
  dsimp only [hV, hostOps0]
  host_results
  refine (cut_at (Fn := 65) (n := 1) (O := 64) (off := 0) _ slices_S65x3x64_S1x3x64_0_0_0
    transposes_S1x3x64_S3x1x64_1_0_2 t 0 o (by decide)).trans ?_
  refine (regroup_at (R := 195) (Fn := 65) (O := 64) (m (c, Proc.tc.devRef main_arg5))
    shapeCasts_S195x64_S65x3x64 ⟨0 + (0 : Fin 1).val, by decide⟩ t o (by show (0 + 0) * 3 + t.val < 195; omega)).trans ?_
  refine congrArg (fun r : Fin 195 => m (c, Proc.tc.devRef main_arg5) (ix2 r o)) (Fin.ext ?_)
  show (0 + 0) * 3 + t.val = t.val
  omega

set_option maxHeartbeats 2000000 in
/-- The state-feature block of layer 0 (rows tap · 64 + feature) read back into the argument array: state feature
    `j` is feature `1 + j`, whose tap `t` is row `(1 + j) · 3 + t`. -/
private theorem v37_at (t : Fin 3) (j : Fin 64) (o : Fin 64) :
    hV m c main_v37 (ix2 (⟨t.val * 64 + j.val, by omega⟩ : Fin 192) o)
      = m ((c : Thread nD τ).loc main_arg5) (ix2 (⟨(1 + j.val) * 3 + t.val, by omega⟩ : Fin 195) o) := by
  dsimp only [hV, hostOps0]
  host_results
  refine (cat3_at _ _ _ concatenates_S64x64_S64x64_S64x64_S192x64_d0 t j o (by omega)).trans ?_
  match t with
  | ⟨0, _⟩ =>
    exact slab_of_weight (Fn := 65) (n := 64) (O := 64) (R := 195) (off := 1) (t0 := 0) (m (c, Proc.tc.devRef main_arg5))
      shapeCasts_S195x64_S65x3x64 bitsLt_bf16_f32
      slices_S65x3x64_S64x3x64_1_0_0 transposes_S64x3x64_S3x64x64_1_0_2 slices_S3x64x64_S1x64x64_0_0_0
      shapeCasts_S1x64x64_S64x64 (by decide) j o (by omega) (by omega)
  | ⟨1, _⟩ =>
    exact slab_of_weight (Fn := 65) (n := 64) (O := 64) (R := 195) (off := 1) (t0 := 1) (m (c, Proc.tc.devRef main_arg5))
      shapeCasts_S195x64_S65x3x64 bitsLt_bf16_f32
      slices_S65x3x64_S64x3x64_1_0_0 transposes_S64x3x64_S3x64x64_1_0_2 slices_S3x64x64_S1x64x64_1_0_0
      shapeCasts_S1x64x64_S64x64 (by decide) j o (by omega) (by omega)
  | ⟨2, _⟩ =>
    exact slab_of_weight (Fn := 65) (n := 64) (O := 64) (R := 195) (off := 1) (t0 := 2) (m (c, Proc.tc.devRef main_arg5))
      shapeCasts_S195x64_S65x3x64 bitsLt_bf16_f32
      slices_S65x3x64_S64x3x64_1_0_0 transposes_S64x3x64_S3x64x64_1_0_2 slices_S3x64x64_S1x64x64_2_0_0
      shapeCasts_S1x64x64_S64x64 (by decide) j o (by omega) (by omega)

/-! ## The statements -/

/-- Layer 0's gate weight, as the region finds it cut in two blocks, is the argument array. -/
theorem tabG0 : tab0 (hV m c main_v3) (hV m c main_v30) = wL0 (m ((c : Thread nD τ).loc main_arg3)) := by
  funext f t o
  unfold tab0 wL0
  by_cases hf : f.val = 0
  · rw [dif_pos hf]
    refine (v3_at m c t o).trans ?_
    refine congrArg (fun r : Fin 195 => m ((c : Thread nD τ).loc main_arg3) (ix2 r o)) (Fin.ext ?_)
    show t.val = f.val * 3 + t.val
    omega
  · rw [dif_neg hf]
    refine (v30_at m c t ⟨f.val - 1, by omega⟩ o).trans ?_
    refine congrArg (fun r : Fin 195 => m ((c : Thread nD τ).loc main_arg3) (ix2 r o)) (Fin.ext ?_)
    show (1 + (f.val - 1)) * 3 + t.val = f.val * 3 + t.val
    omega

/-- Layer 0's candidate weight. -/
theorem tabC0 : tab0 (hV m c main_v9) (hV m c main_v37) = wL0 (m ((c : Thread nD τ).loc main_arg5)) := by
  funext f t o
  unfold tab0 wL0
  by_cases hf : f.val = 0
  · rw [dif_pos hf]
    refine (v9_at m c t o).trans ?_
    refine congrArg (fun r : Fin 195 => m ((c : Thread nD τ).loc main_arg5) (ix2 r o)) (Fin.ext ?_)
    show t.val = f.val * 3 + t.val
    omega
  · rw [dif_neg hf]
    refine (v37_at m c t ⟨f.val - 1, by omega⟩ o).trans ?_
    refine congrArg (fun r : Fin 195 => m ((c : Thread nD τ).loc main_arg5) (ix2 r o)) (Fin.ext ?_)
    show (1 + (f.val - 1)) * 3 + t.val = f.val * 3 + t.val
    omega

/-- The projection weight, transposed to a row. -/
theorem wpT (u : Fin 64) : hV m c main_v64 (ix2 0 u) = m ((c : Thread nD τ).loc main_arg11) (ix2 u 0) := by
  have e : (hV m c main_v64 : S1x64.Idx → EReal)
      = transpose S1x64 [1, 0] (m ((c : Thread nD τ).loc main_arg11) : S64x1.Idx → EReal) transposes_S64x1_S1x64_1_0 := by
    dsimp only [hV, hostOps0]
    host_results
  refine (congrFun e (ix2 0 u)).trans ?_
  exact transpose_apply [1, 0] _ transposes_S64x1_S1x64_1_0 (ix2 0 u) (ix2 u 0)
    (fun b => by match b with | ⟨0, _⟩ => rfl | ⟨1, _⟩ => rfl)

end Cert.KernelIdeal.Host

end
-- ==== Proof.KHost1.lean ====
/-
  Layer 1's two weight tables as functions of the launch memory. Layer 1's weight array (rows
  feature · 3 + tap, the 64 input features then the 64 state features) reaches the region as one (384, O)
  block of six 64-row slabs: the state features' three taps, then the input features' three taps. Read
  back as a (feature, tap, channel) table the block is the argument array.
-/
import proofs.«145957_g44504451121623_cont_8to1_c_180_24_alg».proof.Proof.KHostV
import proofs.«145957_g44504451121623_cont_8to1_c_180_24_alg».proof.Proof.Tabs

noncomputable section

namespace Cert.KernelIdeal.Host

open Idealize.ShloMosaic Idealize.ShloMosaic.TcCoe Idealize.ShloMosaic.ValueIdx Cert.KernelIdeal Cert.KernelIdeal.Gen Cert.DcgruSpec

variable (m : (ℓ : Loc nD τ sig) → Buf (Elt Ideal) ℓ) (c : Dev nD)

set_option maxHeartbeats 8000000 in
/-- Layer 1's block is six slabs of 64 rows: the state features' three taps, then the input features' three taps.
    Read back into the argument array, slab `t0` holds tap `t0` of the features from 64 on, and slab `3 + t0` tap
    `t0` of the features from 0 on; feature `f`'s tap `t0` is row `f · 3 + t0`. -/
private theorem v50_at (t0 : ℕ) (ht : t0 < 3) (j : Fin 64) (o : Fin 128) :
    hV m c main_v50 (ix2 (⟨t0 * 64 + j.val, by omega⟩ : Fin 384) o)
        = m ((c : Thread nD τ).loc main_arg7) (ix2 (⟨(64 + j.val) * 3 + t0, by omega⟩ : Fin 384) o)
    ∧ hV m c main_v50 (ix2 (⟨(3 + t0) * 64 + j.val, by omega⟩ : Fin 384) o)
        = m ((c : Thread nD τ).loc main_arg7) (ix2 (⟨(0 + j.val) * 3 + t0, by omega⟩ : Fin 384) o) := by
  dsimp only [hV, hostOps0]
  host_results
  match t0, ht with
  | 0, _ =>
    refine ⟨?_, ?_⟩
    · refine (cat6_at _ _ _ _ _ _ concatenates_S64x128_S64x128_S64x128_S64x128_S64x128_S64x128_S384x128_d0 (⟨0, by omega⟩ : Fin 6) j o (by omega)).trans ?_
      exact slab_of_weight (Fn := 128) (n := 64) (O := 128) (R := 384) (off := 64) (t0 := 0) (m (c, Proc.tc.devRef main_arg7))
        shapeCasts_S384x128_S128x3x128 bitsLt_bf16_f32
        slices_S128x3x128_S64x3x128_64_0_0 transposes_S64x3x128_S3x64x128_1_0_2 slices_S3x64x128_S1x64x128_0_0_0
        shapeCasts_S1x64x128_S64x128 (by decide) j o (by omega) (by omega)
    · refine (cat6_at _ _ _ _ _ _ concatenates_S64x128_S64x128_S64x128_S64x128_S64x128_S64x128_S384x128_d0 (⟨3, by omega⟩ : Fin 6) j o (by omega)).trans ?_
      exact slab_of_weight (Fn := 128) (n := 64) (O := 128) (R := 384) (off := 0) (t0 := 0) (m (c, Proc.tc.devRef main_arg7))
        shapeCasts_S384x128_S128x3x128 bitsLt_bf16_f32
        slices_S128x3x128_S64x3x128_0_0_0 transposes_S64x3x128_S3x64x128_1_0_2 slices_S3x64x128_S1x64x128_0_0_0
        shapeCasts_S1x64x128_S64x128 (by decide) j o (by omega) (by omega)
  | 1, _ =>
    refine ⟨?_, ?_⟩
    · refine (cat6_at _ _ _ _ _ _ concatenates_S64x128_S64x128_S64x128_S64x128_S64x128_S64x128_S384x128_d0 (⟨1, by omega⟩ : Fin 6) j o (by omega)).trans ?_
      exact slab_of_weight (Fn := 128) (n := 64) (O := 128) (R := 384) (off := 64) (t0 := 1) (m (c, Proc.tc.devRef main_arg7))
        shapeCasts_S384x128_S128x3x128 bitsLt_bf16_f32
        slices_S128x3x128_S64x3x128_64_0_0 transposes_S64x3x128_S3x64x128_1_0_2 slices_S3x64x128_S1x64x128_1_0_0
        shapeCasts_S1x64x128_S64x128 (by decide) j o (by omega) (by omega)
    · refine (cat6_at _ _ _ _ _ _ concatenates_S64x128_S64x128_S64x128_S64x128_S64x128_S64x128_S384x128_d0 (⟨4, by omega⟩ : Fin 6) j o (by omega)).trans ?_
      exact slab_of_weight (Fn := 128) (n := 64) (O := 128) (R := 384) (off := 0) (t0 := 1) (m (c, Proc.tc.devRef main_arg7))
        shapeCasts_S384x128_S128x3x128 bitsLt_bf16_f32
        slices_S128x3x128_S64x3x128_0_0_0 transposes_S64x3x128_S3x64x128_1_0_2 slices_S3x64x128_S1x64x128_1_0_0
        shapeCasts_S1x64x128_S64x128 (by decide) j o (by omega) (by omega)
  | 2, _ =>
    refine ⟨?_, ?_⟩
    · refine (cat6_at _ _ _ _ _ _ concatenates_S64x128_S64x128_S64x128_S64x128_S64x128_S64x128_S384x128_d0 (⟨2, by omega⟩ : Fin 6) j o (by omega)).trans ?_
      exact slab_of_weight (Fn := 128) (n := 64) (O := 128) (R := 384) (off := 64) (t0 := 2) (m (c, Proc.tc.devRef main_arg7))
        shapeCasts_S384x128_S128x3x128 bitsLt_bf16_f32
        slices_S128x3x128_S64x3x128_64_0_0 transposes_S64x3x128_S3x64x128_1_0_2 slices_S3x64x128_S1x64x128_2_0_0
        shapeCasts_S1x64x128_S64x128 (by decide) j o (by omega) (by omega)
    · refine (cat6_at _ _ _ _ _ _ concatenates_S64x128_S64x128_S64x128_S64x128_S64x128_S64x128_S384x128_d0 (⟨5, by omega⟩ : Fin 6) j o (by omega)).trans ?_
      exact slab_of_weight (Fn := 128) (n := 64) (O := 128) (R := 384) (off := 0) (t0 := 2) (m (c, Proc.tc.devRef main_arg7))
        shapeCasts_S384x128_S128x3x128 bitsLt_bf16_f32
        slices_S128x3x128_S64x3x128_0_0_0 transposes_S64x3x128_S3x64x128_1_0_2 slices_S3x64x128_S1x64x128_2_0_0
        shapeCasts_S1x64x128_S64x128 (by decide) j o (by omega) (by omega)
  | n + 3, h => exact absurd h (by omega)

set_option maxHeartbeats 8000000 in
/-- Layer 1's block is six slabs of 64 rows: the state features' three taps, then the input features' three taps.
    Read back into the argument array, slab `t0` holds tap `t0` of the features from 64 on, and slab `3 + t0` tap
    `t0` of the features from 0 on; feature `f`'s tap `t0` is row `f · 3 + t0`. -/
private theorem v63_at (t0 : ℕ) (ht : t0 < 3) (j : Fin 64) (o : Fin 64) :
    hV m c main_v63 (ix2 (⟨t0 * 64 + j.val, by omega⟩ : Fin 384) o)
        = m ((c : Thread nD τ).loc main_arg9) (ix2 (⟨(64 + j.val) * 3 + t0, by omega⟩ : Fin 384) o)
    ∧ hV m c main_v63 (ix2 (⟨(3 + t0) * 64 + j.val, by omega⟩ : Fin 384) o)
        = m ((c : Thread nD τ).loc main_arg9) (ix2 (⟨(0 + j.val) * 3 + t0, by omega⟩ : Fin 384) o) := by
  dsimp only [hV, hostOps0]
  host_results
  match t0, ht with
  | 0, _ =>
    refine ⟨?_, ?_⟩
    · refine (cat6_at _ _ _ _ _ _ concatenates_S64x64_S64x64_S64x64_S64x64_S64x64_S64x64_S384x64_d0 (⟨0, by omega⟩ : Fin 6) j o (by omega)).trans ?_
      exact slab_of_weight (Fn := 128) (n := 64) (O := 64) (R := 384) (off := 64) (t0 := 0) (m (c, Proc.tc.devRef main_arg9))
        shapeCasts_S384x64_S128x3x64 bitsLt_bf16_f32
        slices_S128x3x64_S64x3x64_64_0_0 transposes_S64x3x64_S3x64x64_1_0_2 slices_S3x64x64_S1x64x64_0_0_0
        shapeCasts_S1x64x64_S64x64 (by decide) j o (by omega) (by omega)
    · refine (cat6_at _ _ _ _ _ _ concatenates_S64x64_S64x64_S64x64_S64x64_S64x64_S64x64_S384x64_d0 (⟨3, by omega⟩ : Fin 6) j o (by omega)).trans ?_
      exact slab_of_weight (Fn := 128) (n := 64) (O := 64) (R := 384) (off := 0) (t0 := 0) (m (c, Proc.tc.devRef main_arg9))
        shapeCasts_S384x64_S128x3x64 bitsLt_bf16_f32
        slices_S128x3x64_S64x3x64_0_0_0 transposes_S64x3x64_S3x64x64_1_0_2 slices_S3x64x64_S1x64x64_0_0_0
        shapeCasts_S1x64x64_S64x64 (by decide) j o (by omega) (by omega)
  | 1, _ =>
    refine ⟨?_, ?_⟩
    · refine (cat6_at _ _ _ _ _ _ concatenates_S64x64_S64x64_S64x64_S64x64_S64x64_S64x64_S384x64_d0 (⟨1, by omega⟩ : Fin 6) j o (by omega)).trans ?_
      exact slab_of_weight (Fn := 128) (n := 64) (O := 64) (R := 384) (off := 64) (t0 := 1) (m (c, Proc.tc.devRef main_arg9))
        shapeCasts_S384x64_S128x3x64 bitsLt_bf16_f32
        slices_S128x3x64_S64x3x64_64_0_0 transposes_S64x3x64_S3x64x64_1_0_2 slices_S3x64x64_S1x64x64_1_0_0
        shapeCasts_S1x64x64_S64x64 (by decide) j o (by omega) (by omega)
    · refine (cat6_at _ _ _ _ _ _ concatenates_S64x64_S64x64_S64x64_S64x64_S64x64_S64x64_S384x64_d0 (⟨4, by omega⟩ : Fin 6) j o (by omega)).trans ?_
      exact slab_of_weight (Fn := 128) (n := 64) (O := 64) (R := 384) (off := 0) (t0 := 1) (m (c, Proc.tc.devRef main_arg9))
        shapeCasts_S384x64_S128x3x64 bitsLt_bf16_f32
        slices_S128x3x64_S64x3x64_0_0_0 transposes_S64x3x64_S3x64x64_1_0_2 slices_S3x64x64_S1x64x64_1_0_0
        shapeCasts_S1x64x64_S64x64 (by decide) j o (by omega) (by omega)
  | 2, _ =>
    refine ⟨?_, ?_⟩
    · refine (cat6_at _ _ _ _ _ _ concatenates_S64x64_S64x64_S64x64_S64x64_S64x64_S64x64_S384x64_d0 (⟨2, by omega⟩ : Fin 6) j o (by omega)).trans ?_
      exact slab_of_weight (Fn := 128) (n := 64) (O := 64) (R := 384) (off := 64) (t0 := 2) (m (c, Proc.tc.devRef main_arg9))
        shapeCasts_S384x64_S128x3x64 bitsLt_bf16_f32
        slices_S128x3x64_S64x3x64_64_0_0 transposes_S64x3x64_S3x64x64_1_0_2 slices_S3x64x64_S1x64x64_2_0_0
        shapeCasts_S1x64x64_S64x64 (by decide) j o (by omega) (by omega)
    · refine (cat6_at _ _ _ _ _ _ concatenates_S64x64_S64x64_S64x64_S64x64_S64x64_S64x64_S384x64_d0 (⟨5, by omega⟩ : Fin 6) j o (by omega)).trans ?_
      exact slab_of_weight (Fn := 128) (n := 64) (O := 64) (R := 384) (off := 0) (t0 := 2) (m (c, Proc.tc.devRef main_arg9))
        shapeCasts_S384x64_S128x3x64 bitsLt_bf16_f32
        slices_S128x3x64_S64x3x64_0_0_0 transposes_S64x3x64_S3x64x64_1_0_2 slices_S3x64x64_S1x64x64_2_0_0
        shapeCasts_S1x64x64_S64x64 (by decide) j o (by omega) (by omega)
  | n + 3, h => exact absurd h (by omega)

/-! ## The statements -/

/-- Layer 1's gate weight. -/
theorem tabG1 : tab1 (hV m c main_v50) = wL1 (m ((c : Thread nD τ).loc main_arg7)) := by
  funext f t o
  unfold tab1 wL1
  by_cases hf : f.val < 64
  · rw [dif_pos hf]
    refine ((v50_at m c t.val t.isLt ⟨f.val, hf⟩ o).2).trans ?_
    refine congrArg (fun r : Fin 384 => m ((c : Thread nD τ).loc main_arg7) (ix2 r o)) (Fin.ext ?_)
    show (0 + f.val) * 3 + t.val = f.val * 3 + t.val
    omega
  · rw [dif_neg hf]
    refine ((v50_at m c t.val t.isLt ⟨f.val - 64, by omega⟩ o).1).trans ?_
    refine congrArg (fun r : Fin 384 => m ((c : Thread nD τ).loc main_arg7) (ix2 r o)) (Fin.ext ?_)
    show (64 + (f.val - 64)) * 3 + t.val = f.val * 3 + t.val
    omega

/-- Layer 1's candidate weight. -/
theorem tabC1 : tab1 (hV m c main_v63) = wL1 (m ((c : Thread nD τ).loc main_arg9)) := by
  funext f t o
  unfold tab1 wL1
  by_cases hf : f.val < 64
  · rw [dif_pos hf]
    refine ((v63_at m c t.val t.isLt ⟨f.val, hf⟩ o).2).trans ?_
    refine congrArg (fun r : Fin 384 => m ((c : Thread nD τ).loc main_arg9) (ix2 r o)) (Fin.ext ?_)
    show (0 + f.val) * 3 + t.val = f.val * 3 + t.val
    omega
  · rw [dif_neg hf]
    refine ((v63_at m c t.val t.isLt ⟨f.val - 64, by omega⟩ o).1).trans ?_
    refine congrArg (fun r : Fin 384 => m ((c : Thread nD τ).loc main_arg9) (ix2 r o)) (Fin.ext ?_)
    show (64 + (f.val - 64)) * 3 + t.val = f.val * 3 + t.val
    omega

end Cert.KernelIdeal.Host

end
-- ==== Proof.KHost.lean ====
/-
  What the region finds in its weight windows, as functions of the launch memory. Before the region
  @main reshapes each weight array to (feature, tap, channel), narrows it (the identity at the ideal
  instance), cuts the input features from the state features, moves the tap axis first, and for the
  state rows (and in layer 1 the input rows) concatenates the three taps' (64, O) slabs. Read back as
  (feature, tap, channel) tables the results are the original arrays; the projection weight is
  transposed to a row.
-/
import proofs.«145957_g44504451121623_cont_8to1_c_180_24_alg».proof.Proof.KHost0
import proofs.«145957_g44504451121623_cont_8to1_c_180_24_alg».proof.Proof.KHost1
-- ==== Proof.KBlk.lean ====
/-
  Where the windows' blocks lie in their arrays. The grid has four points; at point t the input
  block is rows 8t … 8t+7 of the (32, 512) input, the hidden-state block is batch rows 8t … 8t+7 of
  both layers of the (2, 32, 32768) state, the two result blocks lie likewise in the results, and
  every other window is its whole array. A block's coordinate in the array is its index times the
  block's extent plus the coordinate inside the block.
-/
import proofs.«145957_g44504451121623_cont_8to1_c_180_24_alg».proof.Proof.Gen.KernelIdeal.Launch
import proofs.«145957_g44504451121623_cont_8to1_c_180_24_alg».proof.Proof.Gen.KernelIdeal.Points
import proofs.«145957_g44504451121623_cont_8to1_c_180_24_alg».proof.Proof.Spec
import Idealize.ShloMosaic.Lib.Pipeline.Value
import Idealize.ShloMosaic.Lib.ValueIdx

set_option maxRecDepth 16384

noncomputable section

namespace Cert.KernelIdeal.Blk

open Idealize.ShloMosaic Idealize.ShloMosaic.TcCoe Idealize.ShloMosaic.ValueIdx Cert.KernelIdeal Cert.KernelIdeal.Gen Cert.DcgruSpec

/-- A grid point as the number of its chunk. -/
def tq (t : Fin cfg0.N) : Fin 4 := ⟨t.val, Nat.lt_of_lt_of_eq t.isLt N_0⟩

theorem idx0 : ∀ t : Fin cfg0.N, win0_0.index t (0 : Fin 2) = t.val ∧ win0_0.index t (1 : Fin 2) = 0 :=
  (by decide +kernel : ∀ t : Fin grid0.N, _)
theorem idx2 : ∀ t : Fin cfg0.N, win0_2.index t (0 : Fin 3) = 0 ∧ win0_2.index t (1 : Fin 3) = t.val ∧ win0_2.index t (2 : Fin 3) = 0 :=
  (by decide +kernel : ∀ t : Fin grid0.N, _)
theorem idx15 : ∀ t : Fin cfg0.N, win0_15.index t (0 : Fin 2) = t.val ∧ win0_15.index t (1 : Fin 2) = 0 :=
  (by decide +kernel : ∀ t : Fin grid0.N, _)
theorem idx16 : ∀ t : Fin cfg0.N, win0_16.index t (0 : Fin 3) = 0 ∧ win0_16.index t (1 : Fin 3) = t.val ∧ win0_16.index t (2 : Fin 3) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)

/-- The input block's index in the input array. -/
theorem emb0 (t : Fin cfg0.N) (bb : Fin 8) (k : Fin 512) :
    ((cfg0.win 0).blk t).view.emb (ix2 bb k : S8x512.Idx) = (ix2 (chunkRow (tq t) bb) k : S32x512.Idx) := by
  funext a; apply Fin.ext
  match a with
  | ⟨0, _⟩ => show win0_0.index t (0 : Fin 2) * 8 + 1 * bb.val = t.val * 8 + bb.val; rw [(idx0 t).1]; omega
  | ⟨1, _⟩ => show win0_0.index t (1 : Fin 2) * 512 + 1 * k.val = k.val; rw [(idx0 t).2]; omega

/-- The projection result block's index in the result array. -/
theorem emb15 (t : Fin cfg0.N) (bb : Fin 8) (k : Fin 512) :
    ((cfg0.win 15).blk t).view.emb (ix2 bb k : S8x512.Idx) = (ix2 (chunkRow (tq t) bb) k : S32x512.Idx) := by
  funext a; apply Fin.ext
  match a with
  | ⟨0, _⟩ => show win0_15.index t (0 : Fin 2) * 8 + 1 * bb.val = t.val * 8 + bb.val; rw [(idx15 t).1]; omega
  | ⟨1, _⟩ => show win0_15.index t (1 : Fin 2) * 512 + 1 * k.val = k.val; rw [(idx15 t).2]; omega

/-- The adjacency window is the whole adjacency. -/
theorem emb1 (t : Fin cfg0.N) (a b : Fin 512) :
    ((cfg0.win 1).blk t).view.emb (ix2 a b : S512x512.Idx) = (ix2 a b : S512x512.Idx) := by
  funext d; apply Fin.ext
  match d with
  | ⟨0, _⟩ => show win0_1.index t (0 : Fin 2) * 512 + 1 * a.val = a.val; rw [(idx1 t).1]; omega
  | ⟨1, _⟩ => show win0_1.index t (1 : Fin 2) * 512 + 1 * b.val = b.val; rw [(idx1 t).2]; omega

/-- The hidden-state block's index in the state array. -/
theorem emb2 (t : Fin cfg0.N) (l : Fin 2) (bb : Fin 8) (j : Fin 32768) :
    ((cfg0.win 2).blk t).view.emb (ix3 l bb j : S2x8x32768.Idx) = (ix3 l (chunkRow (tq t) bb) j : S2x32x32768.Idx) := by
  funext a; apply Fin.ext
  match a with
  | ⟨0, _⟩ => show win0_2.index t (0 : Fin 3) * 2 + 1 * l.val = l.val; rw [(idx2 t).1]; omega
  | ⟨1, _⟩ => show win0_2.index t (1 : Fin 3) * 8 + 1 * bb.val = t.val * 8 + bb.val; rw [(idx2 t).2.1]; omega
  | ⟨2, _⟩ => show win0_2.index t (2 : Fin 3) * 32768 + 1 * j.val = j.val; rw [(idx2 t).2.2]; omega

/-- The hidden-state result block's index in the result array. -/
theorem emb16 (t : Fin cfg0.N) (l : Fin 2) (bb : Fin 8) (j : Fin 32768) :
    ((cfg0.win 16).blk t).view.emb (ix3 l bb j : S2x8x32768.Idx) = (ix3 l (chunkRow (tq t) bb) j : S2x32x32768.Idx) := by
  funext a; apply Fin.ext
  match a with
  | ⟨0, _⟩ => show win0_16.index t (0 : Fin 3) * 2 + 1 * l.val = l.val; rw [(idx16 t).1]; omega
  | ⟨1, _⟩ => show win0_16.index t (1 : Fin 3) * 8 + 1 * bb.val = t.val * 8 + bb.val; rw [(idx16 t).2.1]; omega
  | ⟨2, _⟩ => show win0_16.index t (2 : Fin 3) * 32768 + 1 * j.val = j.val; rw [(idx16 t).2.2]; omega

end Cert.KernelIdeal.Blk

end
-- ==== Proof.KBlkW.lean ====
/-
  The whole-array windows. Windows 3 to 14 of the region stage a whole small array (a weight block or
  a bias) at every grid point: their index is zero on every axis, so an index inside the block is the
  same index of the array. One pair of statements per window, each by the same argument: the index
  map decided over the four grid points, then index times extent plus the inner coordinate.
-/
import proofs.«145957_g44504451121623_cont_8to1_c_180_24_alg».proof.Proof.Gen.KernelIdeal.Launch
import proofs.«145957_g44504451121623_cont_8to1_c_180_24_alg».proof.Proof.Gen.KernelIdeal.Points
import Idealize.ShloMosaic.Lib.Pipeline.Value

set_option maxRecDepth 16384

noncomputable section

namespace Cert.KernelIdeal.Blk

open Idealize.ShloMosaic Idealize.ShloMosaic.TcCoe Cert.KernelIdeal Cert.KernelIdeal.Gen

theorem idxW3 : ∀ t : Fin cfg0.N, win0_3.index t (0 : Fin 3) = 0 ∧ win0_3.index t (1 : Fin 3) = 0 ∧ win0_3.index t (2 : Fin 3) = 0 :=
  (by decide +kernel : ∀ t : Fin grid0.N, _)
theorem embW3 (t : Fin cfg0.N) (y : S3x1x128.Idx) : ((cfg0.win 3).blk t).view.emb y = y := by
  funext a; apply Fin.ext
  match a with
  | ⟨0, _⟩ => show win0_3.index t (0 : Fin 3) * 3 + 1 * (y 0).val = (y 0).val; rw [(idxW3 t).1]; omega
  | ⟨1, _⟩ => show win0_3.index t (1 : Fin 3) * 1 + 1 * (y 1).val = (y 1).val; rw [(idxW3 t).2.1]; omega
  | ⟨2, _⟩ => show win0_3.index t (2 : Fin 3) * 128 + 1 * (y 2).val = (y 2).val; rw [(idxW3 t).2.2]; omega

theorem idxW4 : ∀ t : Fin cfg0.N, win0_4.index t (0 : Fin 2) = 0 ∧ win0_4.index t (1 : Fin 2) = 0 :=
  (by decide +kernel : ∀ t : Fin grid0.N, _)
theorem embW4 (t : Fin cfg0.N) (y : S192x128.Idx) : ((cfg0.win 4).blk t).view.emb y = y := by
  funext a; apply Fin.ext
  match a with
  | ⟨0, _⟩ => show win0_4.index t (0 : Fin 2) * 192 + 1 * (y 0).val = (y 0).val; rw [(idxW4 t).1]; omega
  | ⟨1, _⟩ => show win0_4.index t (1 : Fin 2) * 128 + 1 * (y 1).val = (y 1).val; rw [(idxW4 t).2]; omega

theorem idxW5 : ∀ t : Fin cfg0.N, win0_5.index t (0 : Fin 3) = 0 ∧ win0_5.index t (1 : Fin 3) = 0 ∧ win0_5.index t (2 : Fin 3) = 0 :=
  (by decide +kernel : ∀ t : Fin grid0.N, _)
theorem embW5 (t : Fin cfg0.N) (y : S3x1x64.Idx) : ((cfg0.win 5).blk t).view.emb y = y := by
  funext a; apply Fin.ext
  match a with
  | ⟨0, _⟩ => show win0_5.index t (0 : Fin 3) * 3 + 1 * (y 0).val = (y 0).val; rw [(idxW5 t).1]; omega
  | ⟨1, _⟩ => show win0_5.index t (1 : Fin 3) * 1 + 1 * (y 1).val = (y 1).val; rw [(idxW5 t).2.1]; omega
  | ⟨2, _⟩ => show win0_5.index t (2 : Fin 3) * 64 + 1 * (y 2).val = (y 2).val; rw [(idxW5 t).2.2]; omega

theorem idxW6 : ∀ t : Fin cfg0.N, win0_6.index t (0 : Fin 2) = 0 ∧ win0_6.index t (1 : Fin 2) = 0 :=
  (by decide +kernel : ∀ t : Fin grid0.N, _)
theorem embW6 (t : Fin cfg0.N) (y : S192x64.Idx) : ((cfg0.win 6).blk t).view.emb y = y := by
  funext a; apply Fin.ext
  match a with
  | ⟨0, _⟩ => show win0_6.index t (0 : Fin 2) * 192 + 1 * (y 0).val = (y 0).val; rw [(idxW6 t).1]; omega
  | ⟨1, _⟩ => show win0_6.index t (1 : Fin 2) * 64 + 1 * (y 1).val = (y 1).val; rw [(idxW6 t).2]; omega

theorem idxW7 : ∀ t : Fin cfg0.N, win0_7.index t (0 : Fin 1) = 0 :=
  (by decide +kernel : ∀ t : Fin grid0.N, _)
theorem embW7 (t : Fin cfg0.N) (y : S128.Idx) : ((cfg0.win 7).blk t).view.emb y = y := by
  funext a; apply Fin.ext
  match a with
  | ⟨0, _⟩ => show win0_7.index t (0 : Fin 1) * 128 + 1 * (y 0).val = (y 0).val; rw [(idxW7 t)]; omega

theorem idxW8 : ∀ t : Fin cfg0.N, win0_8.index t (0 : Fin 1) = 0 :=
  (by decide +kernel : ∀ t : Fin grid0.N, _)
theorem embW8 (t : Fin cfg0.N) (y : S64.Idx) : ((cfg0.win 8).blk t).view.emb y = y := by
  funext a; apply Fin.ext
  match a with
  | ⟨0, _⟩ => show win0_8.index t (0 : Fin 1) * 64 + 1 * (y 0).val = (y 0).val; rw [(idxW8 t)]; omega

theorem idxW9 : ∀ t : Fin cfg0.N, win0_9.index t (0 : Fin 2) = 0 ∧ win0_9.index t (1 : Fin 2) = 0 :=
  (by decide +kernel : ∀ t : Fin grid0.N, _)
theorem embW9 (t : Fin cfg0.N) (y : S384x128.Idx) : ((cfg0.win 9).blk t).view.emb y = y := by
  funext a; apply Fin.ext
  match a with
  | ⟨0, _⟩ => show win0_9.index t (0 : Fin 2) * 384 + 1 * (y 0).val = (y 0).val; rw [(idxW9 t).1]; omega
  | ⟨1, _⟩ => show win0_9.index t (1 : Fin 2) * 128 + 1 * (y 1).val = (y 1).val; rw [(idxW9 t).2]; omega

theorem idxW10 : ∀ t : Fin cfg0.N, win0_10.index t (0 : Fin 2) = 0 ∧ win0_10.index t (1 : Fin 2) = 0 :=
  (by decide +kernel : ∀ t : Fin grid0.N, _)
theorem embW10 (t : Fin cfg0.N) (y : S384x64.Idx) : ((cfg0.win 10).blk t).view.emb y = y := by
  funext a; apply Fin.ext
  match a with
  | ⟨0, _⟩ => show win0_10.index t (0 : Fin 2) * 384 + 1 * (y 0).val = (y 0).val; rw [(idxW10 t).1]; omega
  | ⟨1, _⟩ => show win0_10.index t (1 : Fin 2) * 64 + 1 * (y 1).val = (y 1).val; rw [(idxW10 t).2]; omega

theorem idxW11 : ∀ t : Fin cfg0.N, win0_11.index t (0 : Fin 1) = 0 :=
  (by decide +kernel : ∀ t : Fin grid0.N, _)
theorem embW11 (t : Fin cfg0.N) (y : S128.Idx) : ((cfg0.win 11).blk t).view.emb y = y := by
  funext a; apply Fin.ext
  match a with
  | ⟨0, _⟩ => show win0_11.index t (0 : Fin 1) * 128 + 1 * (y 0).val = (y 0).val; rw [(idxW11 t)]; omega

theorem idxW12 : ∀ t : Fin cfg0.N, win0_12.index t (0 : Fin 1) = 0 :=
  (by decide +kernel : ∀ t : Fin grid0.N, _)
theorem embW12 (t : Fin cfg0.N) (y : S64.Idx) : ((cfg0.win 12).blk t).view.emb y = y := by
  funext a; apply Fin.ext
  match a with
  | ⟨0, _⟩ => show win0_12.index t (0 : Fin 1) * 64 + 1 * (y 0).val = (y 0).val; rw [(idxW12 t)]; omega

theorem idxW13 : ∀ t : Fin cfg0.N, win0_13.index t (0 : Fin 2) = 0 ∧ win0_13.index t (1 : Fin 2) = 0 :=
  (by decide +kernel : ∀ t : Fin grid0.N, _)
theorem embW13 (t : Fin cfg0.N) (y : S1x64.Idx) : ((cfg0.win 13).blk t).view.emb y = y := by
  funext a; apply Fin.ext
  match a with
  | ⟨0, _⟩ => show win0_13.index t (0 : Fin 2) * 1 + 1 * (y 0).val = (y 0).val; rw [(idxW13 t).1]; omega
  | ⟨1, _⟩ => show win0_13.index t (1 : Fin 2) * 64 + 1 * (y 1).val = (y 1).val; rw [(idxW13 t).2]; omega

theorem idxW14 : ∀ t : Fin cfg0.N, win0_14.index t (0 : Fin 1) = 0 :=
  (by decide +kernel : ∀ t : Fin grid0.N, _)
theorem embW14 (t : Fin cfg0.N) (y : S1.Idx) : ((cfg0.win 14).blk t).view.emb y = y := by
  funext a; apply Fin.ext
  match a with
  | ⟨0, _⟩ => show win0_14.index t (0 : Fin 1) * 1 + 1 * (y 0).val = (y 0).val; rw [(idxW14 t)]; omega

end Cert.KernelIdeal.Blk

end
-- ==== Proof.KFinal.lean ====
/-
  The kernel's two result arrays after the run, as the whole-array functions of the argument arrays.
  At grid point t the body is handed chunk t of the batch-indexed arrays and the weight blocks as the
  host operations left them; what it stores is, row by row of the chunk, the whole-array result at the
  chunk's batch rows; each result window writes its block back at rows 8t … 8t+7; and the four points'
  blocks tile each result array. So each array ends holding the whole-array function.
-/
import proofs.«145957_g44504451121623_cont_8to1_c_180_24_alg».proof.Proof.FrameKI
import proofs.«145957_g44504451121623_cont_8to1_c_180_24_alg».proof.Proof.KChunk
import proofs.«145957_g44504451121623_cont_8to1_c_180_24_alg».proof.Proof.KHost
import proofs.«145957_g44504451121623_cont_8to1_c_180_24_alg».proof.Proof.KBlk
import proofs.«145957_g44504451121623_cont_8to1_c_180_24_alg».proof.Proof.KBlkW
import proofs.«145957_g44504451121623_cont_8to1_c_180_24_alg».proof.Proof.Whole
import Idealize.ShloMosaic.Lib.Pipeline.Value

set_option maxRecDepth 16384

noncomputable section

namespace Cert.KernelIdeal.Final

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenH Cert.KernelIdeal.Comp Cert.KernelIdeal.Sem
open Cert.KernelIdeal.Host Cert.KernelIdeal.Blk Cert.DcgruSpec

variable (m : (ℓ : Loc nD τ sig) → Buf (Elt Ideal) ℓ) (ρ : Dev nD → PrngReg)

/-! ## The argument arrays as launched -/

abbrev aX (c : Dev nD) : Vec Ideal S32x512 .f32 := m ((c : Thread nD τ).loc main_arg0)
abbrev aA (c : Dev nD) : Vec Ideal S512x512 .f32 := m ((c : Thread nD τ).loc main_arg1)
abbrev aH (c : Dev nD) : Vec Ideal S2x32x32768 .f32 := m ((c : Thread nD τ).loc main_arg2)
abbrev aWg0 (c : Dev nD) : Vec Ideal S195x128 .f32 := m ((c : Thread nD τ).loc main_arg3)
abbrev aBg0 (c : Dev nD) : Vec Ideal S128 .f32 := m ((c : Thread nD τ).loc main_arg4)
abbrev aWc0 (c : Dev nD) : Vec Ideal S195x64 .f32 := m ((c : Thread nD τ).loc main_arg5)
abbrev aBc0 (c : Dev nD) : Vec Ideal S64 .f32 := m ((c : Thread nD τ).loc main_arg6)
abbrev aWg1 (c : Dev nD) : Vec Ideal S384x128 .f32 := m ((c : Thread nD τ).loc main_arg7)
abbrev aBg1 (c : Dev nD) : Vec Ideal S128 .f32 := m ((c : Thread nD τ).loc main_arg8)
abbrev aWc1 (c : Dev nD) : Vec Ideal S384x64 .f32 := m ((c : Thread nD τ).loc main_arg9)
abbrev aBc1 (c : Dev nD) : Vec Ideal S64 .f32 := m ((c : Thread nD τ).loc main_arg10)
abbrev aWp (c : Dev nD) : Vec Ideal S64x1 .f32 := m ((c : Thread nD τ).loc main_arg11)
abbrev aBp (c : Dev nD) : Vec Ideal S1 .f32 := m ((c : Thread nD τ).loc main_arg12)

/-- The projection result as a function of the launch memory. -/
abbrev outG (c : Dev nD) : Vec Ideal S32x512 .f32 := gOut (aX m c) (aA m c) (aH m c) (aWg0 m c) (aBg0 m c) (aWc0 m c) (aBc0 m c) (aWg1 m c) (aBg1 m c) (aWc1 m c) (aBc1 m c) (aWp m c) (aBp m c)
/-- The hidden-state result as a function of the launch memory. -/
abbrev hsG (c : Dev nD) : Vec Ideal S2x32x32768 .f32 :=
  gHs (aX m c) (aA m c) (aH m c) (aWg0 m c) (aBg0 m c) (aWc0 m c) (aBc0 m c) (aWg1 m c) (aBg1 m c) (aWc1 m c) (aBc1 m c)

/-! ## What the body is handed at a grid point -/

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The frame's load record is the composition module's. -/
theorem loads_eq (x0 : Vec Ideal S8x512 .f32) (x1 : Vec Ideal S512x512 .f32) (x2 : Vec Ideal S2x8x32768 .f32)
    (x3 : Vec Ideal S3x1x128 .bf16) (x4 : Vec Ideal S192x128 .bf16) (x5 : Vec Ideal S3x1x64 .bf16)
    (x6 : Vec Ideal S192x64 .bf16) (x7 : Vec Ideal S128 .f32) (x8 : Vec Ideal S64 .f32)
    (x9 : Vec Ideal S384x128 .bf16) (x10 : Vec Ideal S384x64 .bf16) (x11 : Vec Ideal S128 .f32)
    (x12 : Vec Ideal S64 .f32) (x13 : Vec Ideal S1x64 .f32) (x14 : Vec Ideal S1 .f32) :
    loads x0 x1 x2 x3 x4 x5 x6 x7 x8 x9 x10 x11 x12 x13 x14 = loadsOf x0 x1 x2 x3 x4 x5 x6 x7 x8 x9 x10 x11 x12 x13 x14 := rfl

/-! ### The blocks at their literal types, and each one read once -/

abbrev B0 (c : Dev nD) (t : Fin cfg0.N) : Vec Ideal S8x512 .f32 := iblk m c 0 t
abbrev B1 (c : Dev nD) (t : Fin cfg0.N) : Vec Ideal S512x512 .f32 := iblk m c 1 t
abbrev B2 (c : Dev nD) (t : Fin cfg0.N) : Vec Ideal S2x8x32768 .f32 := iblk m c 2 t
abbrev B3 (c : Dev nD) (t : Fin cfg0.N) : Vec Ideal S3x1x128 .bf16 := iblk m c 3 t
abbrev B4 (c : Dev nD) (t : Fin cfg0.N) : Vec Ideal S192x128 .bf16 := iblk m c 4 t
abbrev B5 (c : Dev nD) (t : Fin cfg0.N) : Vec Ideal S3x1x64 .bf16 := iblk m c 5 t
abbrev B6 (c : Dev nD) (t : Fin cfg0.N) : Vec Ideal S192x64 .bf16 := iblk m c 6 t
abbrev B7 (c : Dev nD) (t : Fin cfg0.N) : Vec Ideal S128 .f32 := iblk m c 7 t
abbrev B8 (c : Dev nD) (t : Fin cfg0.N) : Vec Ideal S64 .f32 := iblk m c 8 t
abbrev B9 (c : Dev nD) (t : Fin cfg0.N) : Vec Ideal S384x128 .bf16 := iblk m c 9 t
abbrev B10 (c : Dev nD) (t : Fin cfg0.N) : Vec Ideal S384x64 .bf16 := iblk m c 10 t
abbrev B11 (c : Dev nD) (t : Fin cfg0.N) : Vec Ideal S128 .f32 := iblk m c 11 t
abbrev B12 (c : Dev nD) (t : Fin cfg0.N) : Vec Ideal S64 .f32 := iblk m c 12 t
abbrev B13 (c : Dev nD) (t : Fin cfg0.N) : Vec Ideal S1x64 .f32 := iblk m c 13 t
abbrev B14 (c : Dev nD) (t : Fin cfg0.N) : Vec Ideal S1 .f32 := iblk m c 14 t

set_option maxHeartbeats 1000000 in
theorem B0_apply (c : Dev nD) (t : Fin cfg0.N) (bb : Fin 8) (k : Fin 512) :
    B0 m c t (ix2 bb k) = aX m c (ix2 (chunkRow (tq t) bb) k) := by
  show V m c main_arg0 (((cfg0.win 0).blk t).view.emb (ix2 bb k)) = _
  rw [emb0]; exact congrFun (V_main_arg0 m c) _

set_option maxHeartbeats 1000000 in
theorem B1_apply (c : Dev nD) (t : Fin cfg0.N) (a b : Fin 512) :
    B1 m c t (ix2 a b) = aA m c (ix2 a b) := by
  show V m c main_arg1 (((cfg0.win 1).blk t).view.emb (ix2 a b)) = _
  rw [emb1]; exact congrFun (V_main_arg1 m c) _

set_option maxHeartbeats 1000000 in
theorem B2_apply (c : Dev nD) (t : Fin cfg0.N) (l : Fin 2) (bb : Fin 8) (j : Fin 32768) :
    B2 m c t (ix3 l bb j) = aH m c (ix3 l (chunkRow (tq t) bb) j) := by
  show V m c main_arg2 (((cfg0.win 2).blk t).view.emb (ix3 l bb j)) = _
  rw [emb2]; exact congrFun (V_main_arg2 m c) _

set_option maxHeartbeats 1000000 in
theorem B3_eq (c : Dev nD) (t : Fin cfg0.N) : B3 m c t = hV m c main_v3 := funext fun y => by
  show V m c main_v3 (((cfg0.win 3).blk t).view.emb y) = _
  rw [embW3]
set_option maxHeartbeats 1000000 in
theorem B4_eq (c : Dev nD) (t : Fin cfg0.N) : B4 m c t = hV m c main_v30 := funext fun y => by
  show V m c main_v30 (((cfg0.win 4).blk t).view.emb y) = _
  rw [embW4]
set_option maxHeartbeats 1000000 in
theorem B5_eq (c : Dev nD) (t : Fin cfg0.N) : B5 m c t = hV m c main_v9 := funext fun y => by
  show V m c main_v9 (((cfg0.win 5).blk t).view.emb y) = _
  rw [embW5]
set_option maxHeartbeats 1000000 in
theorem B6_eq (c : Dev nD) (t : Fin cfg0.N) : B6 m c t = hV m c main_v37 := funext fun y => by
  show V m c main_v37 (((cfg0.win 6).blk t).view.emb y) = _
  rw [embW6]
set_option maxHeartbeats 1000000 in
theorem B7_apply (c : Dev nD) (t : Fin cfg0.N) (o : Fin 128) : B7 m c t (ix1 o) = aBg0 m c (ix1 o) := by
  show V m c main_arg4 (((cfg0.win 7).blk t).view.emb (ix1 o)) = _
  rw [embW7]; exact congrFun (V_main_arg4 m c) _
set_option maxHeartbeats 1000000 in
theorem B8_apply (c : Dev nD) (t : Fin cfg0.N) (o : Fin 64) : B8 m c t (ix1 o) = aBc0 m c (ix1 o) := by
  show V m c main_arg6 (((cfg0.win 8).blk t).view.emb (ix1 o)) = _
  rw [embW8]; exact congrFun (V_main_arg6 m c) _
set_option maxHeartbeats 1000000 in
theorem B9_eq (c : Dev nD) (t : Fin cfg0.N) : B9 m c t = hV m c main_v50 := funext fun y => by
  show V m c main_v50 (((cfg0.win 9).blk t).view.emb y) = _
  rw [embW9]
set_option maxHeartbeats 1000000 in
theorem B10_eq (c : Dev nD) (t : Fin cfg0.N) : B10 m c t = hV m c main_v63 := funext fun y => by
  show V m c main_v63 (((cfg0.win 10).blk t).view.emb y) = _
  rw [embW10]
set_option maxHeartbeats 1000000 in
theorem B11_apply (c : Dev nD) (t : Fin cfg0.N) (o : Fin 128) : B11 m c t (ix1 o) = aBg1 m c (ix1 o) := by
  show V m c main_arg8 (((cfg0.win 11).blk t).view.emb (ix1 o)) = _
  rw [embW11]; exact congrFun (V_main_arg8 m c) _
set_option maxHeartbeats 1000000 in
theorem B12_apply (c : Dev nD) (t : Fin cfg0.N) (o : Fin 64) : B12 m c t (ix1 o) = aBc1 m c (ix1 o) := by
  show V m c main_arg10 (((cfg0.win 12).blk t).view.emb (ix1 o)) = _
  rw [embW12]; exact congrFun (V_main_arg10 m c) _
set_option maxHeartbeats 1000000 in
theorem B13_apply (c : Dev nD) (t : Fin cfg0.N) (u : Fin 64) : B13 m c t (ix2 0 u) = aWp m c (ix2 u 0) := by
  show V m c main_v64 (((cfg0.win 13).blk t).view.emb (ix2 0 u)) = _
  rw [embW13]; exact wpT m c u
set_option maxHeartbeats 1000000 in
theorem B14_apply (c : Dev nD) (t : Fin cfg0.N) : B14 m c t (ix1 0) = aBp m c (ix1 0) := by
  show V m c main_arg12 (((cfg0.win 14).blk t).view.emb (ix1 0)) = _
  rw [embW14]; exact congrFun (V_main_arg12 m c) _

set_option maxHeartbeats 1000000 in
/-- At point t the input windows' blocks are chunk t of the batch-indexed arguments, the whole
    adjacency, the weight tables as the host operations left them, and the biases. -/
theorem chunkSem (c : Dev nD) (t : Fin cfg0.N) :
    ChunkSem (aX m c) (aA m c) (aH m c) (aWg0 m c) (aBg0 m c) (aWc0 m c) (aBc0 m c) (aWg1 m c) (aBg1 m c) (aWc1 m c) (aBc1 m c) (aWp m c) (aBp m c) (tq t)
      (B0 m c t) (B1 m c t) (B2 m c t) (B3 m c t) (B4 m c t) (B5 m c t) (B6 m c t) (B7 m c t) (B8 m c t) (B9 m c t) (B10 m c t) (B11 m c t) (B12 m c t) (B13 m c t) (B14 m c t) where
  h0 := B0_apply m c t
  h1 := B1_apply m c t
  h2 := B2_apply m c t
  h34 := by rw [B3_eq, B4_eq]; exact tabG0 m c
  h56 := by rw [B5_eq, B6_eq]; exact tabC0 m c
  h7 := B7_apply m c t
  h8 := B8_apply m c t
  h9 := by rw [B9_eq]; exact tabG1 m c
  h10 := by rw [B10_eq]; exact tabC1 m c
  h11 := B11_apply m c t
  h12 := B12_apply m c t
  h13 := B13_apply m c t
  h14 := B14_apply m c t

/-! ## What each point writes back -/

set_option maxHeartbeats 2000000 in
/-- Point t writes back block t of the projection result. -/
theorem flushed15_eq (c : Dev nD) (t : Fin cfg0.N) :
    (dats m 0 c).flushed 15 t = ((cfg0.win 15).blk t).view.read (Elt Ideal) (outG m c) := by
  show (cfg0.win 15).cut (grid0.coords t) ((dats m 0 c).after 15 t) = _
  rw [after0_15]
  unfold out0_15
  rw [View.canon_unit_zero hz2]
  funext j
  obtain ⟨bb, n, rfl⟩ : ∃ (bb : Fin 8) (n : Fin 512), j = ix2 bb n := ⟨j 0, j 1, eq_ix2 j⟩
  show Comp.out (loads (B0 m c t) (B1 m c t) (B2 m c t) (B3 m c t) (B4 m c t) (B5 m c t) (B6 m c t) (B7 m c t) (B8 m c t) (B9 m c t) (B10 m c t) (B11 m c t) (B12 m c t) (B13 m c t) (B14 m c t)) (ix2 bb n) = gOut (aX m c) (aA m c) (aH m c) (aWg0 m c) (aBg0 m c) (aWc0 m c) (aBc0 m c) (aWg1 m c) (aBg1 m c) (aWc1 m c) (aBc1 m c) (aWp m c) (aBp m c) (((cfg0.win 15).blk t).view.emb (ix2 bb n))
  rw [emb15, loads_eq]
  exact chunk_out _ _ _ _ _ _ _ _ _ _ _ _ _ _ _ _ _ _ _ _ _ _ _ _ _ _ _ _ _ (chunkSem m c t) bb n

set_option maxHeartbeats 4000000 in
/-- Point t writes back block t of the hidden-state result: both layers' rows 8t … 8t+7. -/
theorem flushed16_eq (c : Dev nD) (t : Fin cfg0.N) :
    (dats m 0 c).flushed 16 t = ((cfg0.win 16).blk t).view.read (Elt Ideal) (hsG m c) := by
  show (cfg0.win 16).cut (grid0.coords t) ((dats m 0 c).after 16 t) = _
  rw [after0_16]
  unfold out0_16
  funext j
  show View.canon [⟨r16_1, Comp.hs1 (loads (B0 m c t) (B1 m c t) (B2 m c t) (B3 m c t) (B4 m c t) (B5 m c t) (B6 m c t) (B7 m c t) (B8 m c t) (B9 m c t) (B10 m c t) (B11 m c t) (B12 m c t) (B13 m c t) (B14 m c t))⟩, ⟨r16_0, Comp.hs0 (loads (B0 m c t) (B1 m c t) (B2 m c t) (B3 m c t) (B4 m c t) (B5 m c t) (B6 m c t) (B7 m c t) (B8 m c t) (B9 m c t) (B10 m c t) (B11 m c t) (B12 m c t) (B13 m c t) (B14 m c t))⟩] j
    = hsG m c (((cfg0.win 16).blk t).view.emb j)
  refine View.canon_apply_of_pieces (fun y : S2x8x32768.Idx => hsG m c (((cfg0.win 16).blk t).view.emb y)) _ ?_ j (cover0_16 _ _ j)
  intro p hp x
  simp only [List.mem_cons, List.mem_singleton, List.not_mem_nil, or_false] at hp
  rcases hp with rfl | rfl
  · -- row 1: layer 1's new state
    obtain ⟨z, bb, off, rfl⟩ : ∃ (z : Fin 1) (bb : Fin 8) (off : Fin 32768), x = ix3 z bb off := ⟨x 0, x 1, x 2, eq_ix3 x⟩
    have hz : z = 0 := Subsingleton.elim _ _
    subst hz
    have he : r16_1.emb (ix3 (0 : Fin 1) bb off) = (ix3 (1 : Fin 2) bb off : S2x8x32768.Idx) := by
      funext a; apply Fin.ext
      match a with
      | ⟨0, _⟩ => rfl
      | ⟨1, _⟩ => show 0 + 1 * bb.val = bb.val; omega
      | ⟨2, _⟩ => show 0 + 1 * off.val = off.val; omega
    obtain ⟨n, u, rfl⟩ : ∃ (n : Fin 512) (u : Fin 64), off = flatIx n u := ⟨_, _, (flatIx_divmod off).symm⟩
    show Comp.hs1 (loads (B0 m c t) (B1 m c t) (B2 m c t) (B3 m c t) (B4 m c t) (B5 m c t) (B6 m c t) (B7 m c t) (B8 m c t) (B9 m c t) (B10 m c t) (B11 m c t) (B12 m c t) (B13 m c t) (B14 m c t)) (ix3 0 bb (flatIx n u))
      = gHs (aX m c) (aA m c) (aH m c) (aWg0 m c) (aBg0 m c) (aWc0 m c) (aBc0 m c) (aWg1 m c) (aBg1 m c) (aWc1 m c) (aBc1 m c)
          (((cfg0.win 16).blk t).view.emb (r16_1.emb (ix3 0 bb (flatIx n u))))
    rw [he, emb16, gHs_apply, if_neg (by decide), loads_eq]
    exact chunk_hs1 _ _ _ _ _ _ _ _ _ _ _ _ _ _ _ _ _ _ _ _ _ _ _ _ _ _ _ _ _ (chunkSem m c t) bb _ _
  · -- row 0: layer 0's new state
    obtain ⟨z, bb, off, rfl⟩ : ∃ (z : Fin 1) (bb : Fin 8) (off : Fin 32768), x = ix3 z bb off := ⟨x 0, x 1, x 2, eq_ix3 x⟩
    have hz : z = 0 := Subsingleton.elim _ _
    subst hz
    have he : r16_0.emb (ix3 (0 : Fin 1) bb off) = (ix3 (0 : Fin 2) bb off : S2x8x32768.Idx) := by
      funext a; apply Fin.ext
      match a with
      | ⟨0, _⟩ => rfl
      | ⟨1, _⟩ => show 0 + 1 * bb.val = bb.val; omega
      | ⟨2, _⟩ => show 0 + 1 * off.val = off.val; omega
    obtain ⟨n, u, rfl⟩ : ∃ (n : Fin 512) (u : Fin 64), off = flatIx n u := ⟨_, _, (flatIx_divmod off).symm⟩
    show Comp.hs0 (loads (B0 m c t) (B1 m c t) (B2 m c t) (B3 m c t) (B4 m c t) (B5 m c t) (B6 m c t) (B7 m c t) (B8 m c t) (B9 m c t) (B10 m c t) (B11 m c t) (B12 m c t) (B13 m c t) (B14 m c t)) (ix3 0 bb (flatIx n u))
      = gHs (aX m c) (aA m c) (aH m c) (aWg0 m c) (aBg0 m c) (aWc0 m c) (aBc0 m c) (aWg1 m c) (aBg1 m c) (aWc1 m c) (aBc1 m c)
          (((cfg0.win 16).blk t).view.emb (r16_0.emb (ix3 0 bb (flatIx n u))))
    rw [he, emb16, gHs_apply, if_pos (show ((0 : Fin 2) : ℕ) = 0 from rfl), loads_eq]
    exact chunk_hs0 _ _ _ _ _ _ _ _ _ _ _ _ _ _ _ _ _ _ _ _ _ _ _ _ _ _ _ _ _ (chunkSem m c t) bb _ _

/-! ## The four blocks tile each result -/

theorem mem_blk15 (t : Fin cfg0.N) (i : S32x512.Idx) :
    i ∈ ((cfg0.win 15).blk t).view.set ↔ ∀ a : Fin 2, win0_15.index t a * S8x512.size a ≤ (i a).val ∧ (i a).val < win0_15.index t a * S8x512.size a + S8x512.size a := by
  show i ∈ ((View.whole main_v65_0).slice (win0_15.rect t)).set ↔ _
  rw [View.set_slice_whole, Rect.mem_set_unit]
  exact Iff.rfl

theorem mem_blk16 (t : Fin cfg0.N) (i : S2x32x32768.Idx) :
    i ∈ ((cfg0.win 16).blk t).view.set ↔ ∀ a : Fin 3, win0_16.index t a * S2x8x32768.size a ≤ (i a).val ∧ (i a).val < win0_16.index t a * S2x8x32768.size a + S2x8x32768.size a := by
  show i ∈ ((View.whole main_v65_1).slice (win0_16.rect t)).set ↔ _
  rw [View.set_slice_whole, Rect.mem_set_unit]
  exact Iff.rfl

/-- The point whose block holds batch row b is b / 8. -/
def ptOf (b : Nat) (hb : b < 32) : Fin cfg0.N := ⟨b / 8, by rw [show cfg0.N = 4 from N_0]; omega⟩

theorem cover15 (i : S32x512.Idx) : ∃ t : Fin cfg0.N, (cfg0.win 15).flush t = true ∧ i ∈ ((cfg0.win 15).blk t).view.set := by
  have h0 : (i 0).val < 32 := (i 0).isLt
  have h1 : (i 1).val < 512 := (i 1).isLt
  refine ⟨ptOf (i 0).val h0, flush0_15 _, ?_⟩
  rw [mem_blk15]
  intro a
  match a with
  | ⟨0, _⟩ => show win0_15.index (ptOf (i 0).val h0) (0 : Fin 2) * 8 ≤ (i 0).val ∧ (i 0).val < win0_15.index (ptOf (i 0).val h0) (0 : Fin 2) * 8 + 8; rw [(idx15 _).1]; show (i 0).val / 8 * 8 ≤ (i 0).val ∧ (i 0).val < (i 0).val / 8 * 8 + 8; omega
  | ⟨1, _⟩ => show win0_15.index (ptOf (i 0).val h0) (1 : Fin 2) * 512 ≤ (i 1).val ∧ (i 1).val < win0_15.index (ptOf (i 0).val h0) (1 : Fin 2) * 512 + 512; rw [(idx15 _).2]; omega

theorem cover16 (i : S2x32x32768.Idx) : ∃ t : Fin cfg0.N, (cfg0.win 16).flush t = true ∧ i ∈ ((cfg0.win 16).blk t).view.set := by
  have h0 : (i 0).val < 2 := (i 0).isLt
  have h1 : (i 1).val < 32 := (i 1).isLt
  have h2 : (i 2).val < 32768 := (i 2).isLt
  refine ⟨ptOf (i 1).val h1, flush0_16 _, ?_⟩
  rw [mem_blk16]
  intro a
  match a with
  | ⟨0, _⟩ => show win0_16.index (ptOf (i 1).val h1) (0 : Fin 3) * 2 ≤ (i 0).val ∧ (i 0).val < win0_16.index (ptOf (i 1).val h1) (0 : Fin 3) * 2 + 2; rw [(idx16 _).1]; omega
  | ⟨1, _⟩ => show win0_16.index (ptOf (i 1).val h1) (1 : Fin 3) * 8 ≤ (i 1).val ∧ (i 1).val < win0_16.index (ptOf (i 1).val h1) (1 : Fin 3) * 8 + 8; rw [(idx16 _).2.1]; show (i 1).val / 8 * 8 ≤ (i 1).val ∧ (i 1).val < (i 1).val / 8 * 8 + 8; omega
  | ⟨2, _⟩ => show win0_16.index (ptOf (i 1).val h1) (2 : Fin 3) * 32768 ≤ (i 2).val ∧ (i 2).val < win0_16.index (ptOf (i 1).val h1) (2 : Fin 3) * 32768 + 32768; rw [(idx16 _).2.2]; omega

/-! ## The arrays after the run -/

theorem final15 (c : Dev nD) : (dats m 0 c).arrAt 15 cfg0.N = outG m c :=
  (dats m 0 c).arrAt_eq_of_cover 15 (outG m c) (fun t _ => flushed15_eq m c t) cover15

theorem final16 (c : Dev nD) : (dats m 0 c).arrAt 16 cfg0.N = hsG m c :=
  (dats m 0 c).arrAt_eq_of_cover 16 (hsG m c) (fun t _ => flushed16_eq m c t) cover16

end Cert.KernelIdeal.Final

end
-- ==== Proof.RunPDefs.lean ====
/-
  The reference's @main as a list of its 147 host operations, in order, and the contents of the buffers
  that are read more than once as composed terms of the argument arrays (one definition each: the state
  slices, the concatenated features and their first tap, the gates, the candidate's features, the new
  states). The run read over them is Proof/RRun.lean.
-/
import proofs.«145957_g44504451121623_cont_8to1_c_180_24_alg».proof.Proof.Gen.ReferenceIdeal
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- @main's 147 operations, in order. -/
abbrev ops : List (HloOp τ sig (Elt F)) :=
  [ unary main_arg2 main_v0 ((extractStridedSlice S1x32x32768 ![0, 0, 0] · slices_S2x32x32768_S1x32x32768_0_0_0) : (⟨S2x32x32768, .f32⟩ : BufTy).Contents (Elt F) → (⟨S1x32x32768, .f32⟩ : BufTy).Contents (Elt F)),
    reshape main_v0 main_v1 rfl shapeCasts_S1x32x32768_S32x32768,
    reshape main_arg0 main_v2 rfl shapeCasts_S32x512_S32x512x1,
    reshape main_v1 main_v3 rfl shapeCasts_S32x32768_S32x512x64,
    binary main_v2 main_v3 main_v4 ((fun a b => concatenate S32x512x65 2 [⟨S32x512x1, a⟩, ⟨S32x512x64, b⟩] concatenates_S32x512x1_S32x512x64_S32x512x65_d2) : (⟨S32x512x1, .f32⟩ : BufTy).Contents (Elt F) → (⟨S32x512x64, .f32⟩ : BufTy).Contents (Elt F) → (⟨S32x512x65, .f32⟩ : BufTy).Contents (Elt F)),
    unary main_v4 main_v5 ((transpose S512x65x32 [1, 2, 0] · transposes_S32x512x65_S512x65x32_1_2_0) : (⟨S32x512x65, .f32⟩ : BufTy).Contents (Elt F) → (⟨S512x65x32, .f32⟩ : BufTy).Contents (Elt F)),
    reshape main_v5 main_v6 rfl shapeCasts_S512x65x32_S512x2080,
    binary main_arg1 main_v6 main_v7 ((fun l r => Host.dotGeneral dot_S512x512_S512x2080_S512x2080_1_0_0_1_n_n none l r) : (⟨S512x512, .f32⟩ : BufTy).Contents (Elt F) → (⟨S512x2080, .f32⟩ : BufTy).Contents (Elt F) → (⟨S512x2080, .f32⟩ : BufTy).Contents (Elt F)),
    binary main_arg1 main_v7 main_v8 ((fun l r => Host.dotGeneral dot_S512x512_S512x2080_S512x2080_1_0_0_1_n_n none l r) : (⟨S512x512, .f32⟩ : BufTy).Contents (Elt F) → (⟨S512x2080, .f32⟩ : BufTy).Contents (Elt F) → (⟨S512x2080, .f32⟩ : BufTy).Contents (Elt F)),
    nullary main_cst (constant S_ .f32 0x40000000#32),
    unary main_cst main_v9 (broadcastInDim S512x2080 ![] bcast_S_S512x2080 : (⟨S_, .f32⟩ : BufTy).Contents (Elt F) → (⟨S512x2080, .f32⟩ : BufTy).Contents (Elt F)),
    binary main_v9 main_v8 main_v10 (mulf : (⟨S512x2080, .f32⟩ : BufTy).Contents (Elt F) → (⟨S512x2080, .f32⟩ : BufTy).Contents (Elt F) → (⟨S512x2080, .f32⟩ : BufTy).Contents (Elt F)),
    binary main_v10 main_v6 main_v11 (subf : (⟨S512x2080, .f32⟩ : BufTy).Contents (Elt F) → (⟨S512x2080, .f32⟩ : BufTy).Contents (Elt F) → (⟨S512x2080, .f32⟩ : BufTy).Contents (Elt F)),
    unary main_v6 main_v12 (broadcastInDim S1x512x2080 ![1, 2] bcast_S512x2080_S1x512x2080_1_2 : (⟨S512x2080, .f32⟩ : BufTy).Contents (Elt F) → (⟨S1x512x2080, .f32⟩ : BufTy).Contents (Elt F)),
    unary main_v7 main_v13 (broadcastInDim S1x512x2080 ![1, 2] bcast_S512x2080_S1x512x2080_1_2 : (⟨S512x2080, .f32⟩ : BufTy).Contents (Elt F) → (⟨S1x512x2080, .f32⟩ : BufTy).Contents (Elt F)),
    unary main_v11 main_v14 (broadcastInDim S1x512x2080 ![1, 2] bcast_S512x2080_S1x512x2080_1_2 : (⟨S512x2080, .f32⟩ : BufTy).Contents (Elt F) → (⟨S1x512x2080, .f32⟩ : BufTy).Contents (Elt F)),
    nary ![main_v12, main_v13, main_v14] main_v15 (fun u => concatenate S3x512x2080 0 [⟨S1x512x2080, u 0⟩, ⟨S1x512x2080, u 1⟩, ⟨S1x512x2080, u 2⟩] concatenates_S1x512x2080_S1x512x2080_S1x512x2080_S3x512x2080_d0),
    reshape main_v15 main_v16 rfl shapeCasts_S3x512x2080_S3x512x65x32,
    unary main_v16 main_v17 ((transpose S32x512x65x3 [3, 1, 2, 0] · transposes_S3x512x65x32_S32x512x65x3_3_1_2_0) : (⟨S3x512x65x32, .f32⟩ : BufTy).Contents (Elt F) → (⟨S32x512x65x3, .f32⟩ : BufTy).Contents (Elt F)),
    reshape main_v17 main_v18 rfl shapeCasts_S32x512x65x3_S16384x195,
    binary main_v18 main_arg3 main_v19 ((fun l r => Host.dotGeneral dot_S16384x195_S195x128_S16384x128_1_0_0_1_n_n none l r) : (⟨S16384x195, .f32⟩ : BufTy).Contents (Elt F) → (⟨S195x128, .f32⟩ : BufTy).Contents (Elt F) → (⟨S16384x128, .f32⟩ : BufTy).Contents (Elt F)),
    unary main_arg4 main_v20 (broadcastInDim S1x128 ![1] bcast_S128_S1x128_1 : (⟨S128, .f32⟩ : BufTy).Contents (Elt F) → (⟨S1x128, .f32⟩ : BufTy).Contents (Elt F)),
    unary main_v20 main_v21 (broadcastInDim S16384x128 ![0, 1] bcast_S1x128_S16384x128_0_1 : (⟨S1x128, .f32⟩ : BufTy).Contents (Elt F) → (⟨S16384x128, .f32⟩ : BufTy).Contents (Elt F)),
    binary main_v19 main_v21 main_v22 (addf : (⟨S16384x128, .f32⟩ : BufTy).Contents (Elt F) → (⟨S16384x128, .f32⟩ : BufTy).Contents (Elt F) → (⟨S16384x128, .f32⟩ : BufTy).Contents (Elt F)),
    reshape main_v22 main_v23 rfl shapeCasts_S16384x128_S32x65536,
    unary main_v23 main_v24 (Host.negf : (⟨S32x65536, .f32⟩ : BufTy).Contents (Elt F) → (⟨S32x65536, .f32⟩ : BufTy).Contents (Elt F)),
    unary main_v24 main_v25 (Host.exp : (⟨S32x65536, .f32⟩ : BufTy).Contents (Elt F) → (⟨S32x65536, .f32⟩ : BufTy).Contents (Elt F)),
    nullary main_cst_0 (constant S_ .f32 0x3F800000#32),
    unary main_cst_0 main_v26 (broadcastInDim S32x65536 ![] bcast_S_S32x65536 : (⟨S_, .f32⟩ : BufTy).Contents (Elt F) → (⟨S32x65536, .f32⟩ : BufTy).Contents (Elt F)),
    binary main_v26 main_v25 main_v27 (addf : (⟨S32x65536, .f32⟩ : BufTy).Contents (Elt F) → (⟨S32x65536, .f32⟩ : BufTy).Contents (Elt F) → (⟨S32x65536, .f32⟩ : BufTy).Contents (Elt F)),
    nullary main_cst_1 (constant S_ .f32 0x3F800000#32),
    unary main_cst_1 main_v28 (broadcastInDim S32x65536 ![] bcast_S_S32x65536 : (⟨S_, .f32⟩ : BufTy).Contents (Elt F) → (⟨S32x65536, .f32⟩ : BufTy).Contents (Elt F)),
    binary main_v28 main_v27 main_v29 (Host.divf : (⟨S32x65536, .f32⟩ : BufTy).Contents (Elt F) → (⟨S32x65536, .f32⟩ : BufTy).Contents (Elt F) → (⟨S32x65536, .f32⟩ : BufTy).Contents (Elt F)),
    reshape main_v29 main_v30 rfl shapeCasts_S32x65536_S32x512x128,
    unary main_v30 main_v31 ((extractStridedSlice S32x512x64 ![0, 0, 0] · slices_S32x512x128_S32x512x64_0_0_0) : (⟨S32x512x128, .f32⟩ : BufTy).Contents (Elt F) → (⟨S32x512x64, .f32⟩ : BufTy).Contents (Elt F)),
    unary main_v30 main_v32 ((extractStridedSlice S32x512x64 ![0, 0, 64] · slices_S32x512x128_S32x512x64_0_0_64) : (⟨S32x512x128, .f32⟩ : BufTy).Contents (Elt F) → (⟨S32x512x64, .f32⟩ : BufTy).Contents (Elt F)),
    reshape main_v31 main_v33 rfl shapeCasts_S32x512x64_S32x32768,
    reshape main_v32 main_v34 rfl shapeCasts_S32x512x64_S32x32768,
    binary main_v33 main_v1 main_v35 (mulf : (⟨S32x32768, .f32⟩ : BufTy).Contents (Elt F) → (⟨S32x32768, .f32⟩ : BufTy).Contents (Elt F) → (⟨S32x32768, .f32⟩ : BufTy).Contents (Elt F)),
    reshape main_arg0 main_v36 rfl shapeCasts_S32x512_S32x512x1,
    reshape main_v35 main_v37 rfl shapeCasts_S32x32768_S32x512x64,
    binary main_v36 main_v37 main_v38 ((fun a b => concatenate S32x512x65 2 [⟨S32x512x1, a⟩, ⟨S32x512x64, b⟩] concatenates_S32x512x1_S32x512x64_S32x512x65_d2) : (⟨S32x512x1, .f32⟩ : BufTy).Contents (Elt F) → (⟨S32x512x64, .f32⟩ : BufTy).Contents (Elt F) → (⟨S32x512x65, .f32⟩ : BufTy).Contents (Elt F)),
    unary main_v38 main_v39 ((transpose S512x65x32 [1, 2, 0] · transposes_S32x512x65_S512x65x32_1_2_0) : (⟨S32x512x65, .f32⟩ : BufTy).Contents (Elt F) → (⟨S512x65x32, .f32⟩ : BufTy).Contents (Elt F)),
    reshape main_v39 main_v40 rfl shapeCasts_S512x65x32_S512x2080,
    binary main_arg1 main_v40 main_v41 ((fun l r => Host.dotGeneral dot_S512x512_S512x2080_S512x2080_1_0_0_1_n_n none l r) : (⟨S512x512, .f32⟩ : BufTy).Contents (Elt F) → (⟨S512x2080, .f32⟩ : BufTy).Contents (Elt F) → (⟨S512x2080, .f32⟩ : BufTy).Contents (Elt F)),
    binary main_arg1 main_v41 main_v42 ((fun l r => Host.dotGeneral dot_S512x512_S512x2080_S512x2080_1_0_0_1_n_n none l r) : (⟨S512x512, .f32⟩ : BufTy).Contents (Elt F) → (⟨S512x2080, .f32⟩ : BufTy).Contents (Elt F) → (⟨S512x2080, .f32⟩ : BufTy).Contents (Elt F)),
    nullary main_cst_2 (constant S_ .f32 0x40000000#32),
    unary main_cst_2 main_v43 (broadcastInDim S512x2080 ![] bcast_S_S512x2080 : (⟨S_, .f32⟩ : BufTy).Contents (Elt F) → (⟨S512x2080, .f32⟩ : BufTy).Contents (Elt F)),
    binary main_v43 main_v42 main_v44 (mulf : (⟨S512x2080, .f32⟩ : BufTy).Contents (Elt F) → (⟨S512x2080, .f32⟩ : BufTy).Contents (Elt F) → (⟨S512x2080, .f32⟩ : BufTy).Contents (Elt F)),
    binary main_v44 main_v40 main_v45 (subf : (⟨S512x2080, .f32⟩ : BufTy).Contents (Elt F) → (⟨S512x2080, .f32⟩ : BufTy).Contents (Elt F) → (⟨S512x2080, .f32⟩ : BufTy).Contents (Elt F)),
    unary main_v40 main_v46 (broadcastInDim S1x512x2080 ![1, 2] bcast_S512x2080_S1x512x2080_1_2 : (⟨S512x2080, .f32⟩ : BufTy).Contents (Elt F) → (⟨S1x512x2080, .f32⟩ : BufTy).Contents (Elt F)),
    unary main_v41 main_v47 (broadcastInDim S1x512x2080 ![1, 2] bcast_S512x2080_S1x512x2080_1_2 : (⟨S512x2080, .f32⟩ : BufTy).Contents (Elt F) → (⟨S1x512x2080, .f32⟩ : BufTy).Contents (Elt F)),
    unary main_v45 main_v48 (broadcastInDim S1x512x2080 ![1, 2] bcast_S512x2080_S1x512x2080_1_2 : (⟨S512x2080, .f32⟩ : BufTy).Contents (Elt F) → (⟨S1x512x2080, .f32⟩ : BufTy).Contents (Elt F)),
    nary ![main_v46, main_v47, main_v48] main_v49 (fun u => concatenate S3x512x2080 0 [⟨S1x512x2080, u 0⟩, ⟨S1x512x2080, u 1⟩, ⟨S1x512x2080, u 2⟩] concatenates_S1x512x2080_S1x512x2080_S1x512x2080_S3x512x2080_d0),
    reshape main_v49 main_v50 rfl shapeCasts_S3x512x2080_S3x512x65x32,
    unary main_v50 main_v51 ((transpose S32x512x65x3 [3, 1, 2, 0] · transposes_S3x512x65x32_S32x512x65x3_3_1_2_0) : (⟨S3x512x65x32, .f32⟩ : BufTy).Contents (Elt F) → (⟨S32x512x65x3, .f32⟩ : BufTy).Contents (Elt F)),
    reshape main_v51 main_v52 rfl shapeCasts_S32x512x65x3_S16384x195,
    binary main_v52 main_arg5 main_v53 ((fun l r => Host.dotGeneral dot_S16384x195_S195x64_S16384x64_1_0_0_1_n_n none l r) : (⟨S16384x195, .f32⟩ : BufTy).Contents (Elt F) → (⟨S195x64, .f32⟩ : BufTy).Contents (Elt F) → (⟨S16384x64, .f32⟩ : BufTy).Contents (Elt F)),
    unary main_arg6 main_v54 (broadcastInDim S1x64 ![1] bcast_S64_S1x64_1 : (⟨S64, .f32⟩ : BufTy).Contents (Elt F) → (⟨S1x64, .f32⟩ : BufTy).Contents (Elt F)),
    unary main_v54 main_v55 (broadcastInDim S16384x64 ![0, 1] bcast_S1x64_S16384x64_0_1 : (⟨S1x64, .f32⟩ : BufTy).Contents (Elt F) → (⟨S16384x64, .f32⟩ : BufTy).Contents (Elt F)),
    binary main_v53 main_v55 main_v56 (addf : (⟨S16384x64, .f32⟩ : BufTy).Contents (Elt F) → (⟨S16384x64, .f32⟩ : BufTy).Contents (Elt F) → (⟨S16384x64, .f32⟩ : BufTy).Contents (Elt F)),
    reshape main_v56 main_v57 rfl shapeCasts_S16384x64_S32x32768,
    unary main_v57 main_v58 (Host.tanh : (⟨S32x32768, .f32⟩ : BufTy).Contents (Elt F) → (⟨S32x32768, .f32⟩ : BufTy).Contents (Elt F)),
    binary main_v34 main_v1 main_v59 (mulf : (⟨S32x32768, .f32⟩ : BufTy).Contents (Elt F) → (⟨S32x32768, .f32⟩ : BufTy).Contents (Elt F) → (⟨S32x32768, .f32⟩ : BufTy).Contents (Elt F)),
    nullary main_cst_3 (constant S_ .f32 0x3F800000#32),
    unary main_cst_3 main_v60 (broadcastInDim S32x32768 ![] bcast_S_S32x32768 : (⟨S_, .f32⟩ : BufTy).Contents (Elt F) → (⟨S32x32768, .f32⟩ : BufTy).Contents (Elt F)),
    binary main_v60 main_v34 main_v61 (subf : (⟨S32x32768, .f32⟩ : BufTy).Contents (Elt F) → (⟨S32x32768, .f32⟩ : BufTy).Contents (Elt F) → (⟨S32x32768, .f32⟩ : BufTy).Contents (Elt F)),
    binary main_v61 main_v58 main_v62 (mulf : (⟨S32x32768, .f32⟩ : BufTy).Contents (Elt F) → (⟨S32x32768, .f32⟩ : BufTy).Contents (Elt F) → (⟨S32x32768, .f32⟩ : BufTy).Contents (Elt F)),
    binary main_v59 main_v62 main_v63 (addf : (⟨S32x32768, .f32⟩ : BufTy).Contents (Elt F) → (⟨S32x32768, .f32⟩ : BufTy).Contents (Elt F) → (⟨S32x32768, .f32⟩ : BufTy).Contents (Elt F)),
    unary main_arg2 main_v64 ((extractStridedSlice S1x32x32768 ![1, 0, 0] · slices_S2x32x32768_S1x32x32768_1_0_0) : (⟨S2x32x32768, .f32⟩ : BufTy).Contents (Elt F) → (⟨S1x32x32768, .f32⟩ : BufTy).Contents (Elt F)),
    reshape main_v64 main_v65 rfl shapeCasts_S1x32x32768_S32x32768,
    reshape main_v63 main_v66 rfl shapeCasts_S32x32768_S32x512x64,
    reshape main_v65 main_v67 rfl shapeCasts_S32x32768_S32x512x64,
    binary main_v66 main_v67 main_v68 ((fun a b => concatenate S32x512x128 2 [⟨S32x512x64, a⟩, ⟨S32x512x64, b⟩] concatenates_S32x512x64_S32x512x64_S32x512x128_d2) : (⟨S32x512x64, .f32⟩ : BufTy).Contents (Elt F) → (⟨S32x512x64, .f32⟩ : BufTy).Contents (Elt F) → (⟨S32x512x128, .f32⟩ : BufTy).Contents (Elt F)),
    unary main_v68 main_v69 ((transpose S512x128x32 [1, 2, 0] · transposes_S32x512x128_S512x128x32_1_2_0) : (⟨S32x512x128, .f32⟩ : BufTy).Contents (Elt F) → (⟨S512x128x32, .f32⟩ : BufTy).Contents (Elt F)),
    reshape main_v69 main_v70 rfl shapeCasts_S512x128x32_S512x4096,
    binary main_arg1 main_v70 main_v71 ((fun l r => Host.dotGeneral dot_S512x512_S512x4096_S512x4096_1_0_0_1_n_n none l r) : (⟨S512x512, .f32⟩ : BufTy).Contents (Elt F) → (⟨S512x4096, .f32⟩ : BufTy).Contents (Elt F) → (⟨S512x4096, .f32⟩ : BufTy).Contents (Elt F)),
    binary main_arg1 main_v71 main_v72 ((fun l r => Host.dotGeneral dot_S512x512_S512x4096_S512x4096_1_0_0_1_n_n none l r) : (⟨S512x512, .f32⟩ : BufTy).Contents (Elt F) → (⟨S512x4096, .f32⟩ : BufTy).Contents (Elt F) → (⟨S512x4096, .f32⟩ : BufTy).Contents (Elt F)),
    nullary main_cst_4 (constant S_ .f32 0x40000000#32),
    unary main_cst_4 main_v73 (broadcastInDim S512x4096 ![] bcast_S_S512x4096 : (⟨S_, .f32⟩ : BufTy).Contents (Elt F) → (⟨S512x4096, .f32⟩ : BufTy).Contents (Elt F)),
    binary main_v73 main_v72 main_v74 (mulf : (⟨S512x4096, .f32⟩ : BufTy).Contents (Elt F) → (⟨S512x4096, .f32⟩ : BufTy).Contents (Elt F) → (⟨S512x4096, .f32⟩ : BufTy).Contents (Elt F)),
    binary main_v74 main_v70 main_v75 (subf : (⟨S512x4096, .f32⟩ : BufTy).Contents (Elt F) → (⟨S512x4096, .f32⟩ : BufTy).Contents (Elt F) → (⟨S512x4096, .f32⟩ : BufTy).Contents (Elt F)),
    unary main_v70 main_v76 (broadcastInDim S1x512x4096 ![1, 2] bcast_S512x4096_S1x512x4096_1_2 : (⟨S512x4096, .f32⟩ : BufTy).Contents (Elt F) → (⟨S1x512x4096, .f32⟩ : BufTy).Contents (Elt F)),
    unary main_v71 main_v77 (broadcastInDim S1x512x4096 ![1, 2] bcast_S512x4096_S1x512x4096_1_2 : (⟨S512x4096, .f32⟩ : BufTy).Contents (Elt F) → (⟨S1x512x4096, .f32⟩ : BufTy).Contents (Elt F)),
    unary main_v75 main_v78 (broadcastInDim S1x512x4096 ![1, 2] bcast_S512x4096_S1x512x4096_1_2 : (⟨S512x4096, .f32⟩ : BufTy).Contents (Elt F) → (⟨S1x512x4096, .f32⟩ : BufTy).Contents (Elt F)),
    nary ![main_v76, main_v77, main_v78] main_v79 (fun u => concatenate S3x512x4096 0 [⟨S1x512x4096, u 0⟩, ⟨S1x512x4096, u 1⟩, ⟨S1x512x4096, u 2⟩] concatenates_S1x512x4096_S1x512x4096_S1x512x4096_S3x512x4096_d0),
    reshape main_v79 main_v80 rfl shapeCasts_S3x512x4096_S3x512x128x32,
    unary main_v80 main_v81 ((transpose S32x512x128x3 [3, 1, 2, 0] · transposes_S3x512x128x32_S32x512x128x3_3_1_2_0) : (⟨S3x512x128x32, .f32⟩ : BufTy).Contents (Elt F) → (⟨S32x512x128x3, .f32⟩ : BufTy).Contents (Elt F)),
    reshape main_v81 main_v82 rfl shapeCasts_S32x512x128x3_S16384x384,
    binary main_v82 main_arg7 main_v83 ((fun l r => Host.dotGeneral dot_S16384x384_S384x128_S16384x128_1_0_0_1_n_n none l r) : (⟨S16384x384, .f32⟩ : BufTy).Contents (Elt F) → (⟨S384x128, .f32⟩ : BufTy).Contents (Elt F) → (⟨S16384x128, .f32⟩ : BufTy).Contents (Elt F)),
    unary main_arg8 main_v84 (broadcastInDim S1x128 ![1] bcast_S128_S1x128_1 : (⟨S128, .f32⟩ : BufTy).Contents (Elt F) → (⟨S1x128, .f32⟩ : BufTy).Contents (Elt F)),
    unary main_v84 main_v85 (broadcastInDim S16384x128 ![0, 1] bcast_S1x128_S16384x128_0_1 : (⟨S1x128, .f32⟩ : BufTy).Contents (Elt F) → (⟨S16384x128, .f32⟩ : BufTy).Contents (Elt F)),
    binary main_v83 main_v85 main_v86 (addf : (⟨S16384x128, .f32⟩ : BufTy).Contents (Elt F) → (⟨S16384x128, .f32⟩ : BufTy).Contents (Elt F) → (⟨S16384x128, .f32⟩ : BufTy).Contents (Elt F)),
    reshape main_v86 main_v87 rfl shapeCasts_S16384x128_S32x65536,
    unary main_v87 main_v88 (Host.negf : (⟨S32x65536, .f32⟩ : BufTy).Contents (Elt F) → (⟨S32x65536, .f32⟩ : BufTy).Contents (Elt F)),
    unary main_v88 main_v89 (Host.exp : (⟨S32x65536, .f32⟩ : BufTy).Contents (Elt F) → (⟨S32x65536, .f32⟩ : BufTy).Contents (Elt F)),
    nullary main_cst_5 (constant S_ .f32 0x3F800000#32),
    unary main_cst_5 main_v90 (broadcastInDim S32x65536 ![] bcast_S_S32x65536 : (⟨S_, .f32⟩ : BufTy).Contents (Elt F) → (⟨S32x65536, .f32⟩ : BufTy).Contents (Elt F)),
    binary main_v90 main_v89 main_v91 (addf : (⟨S32x65536, .f32⟩ : BufTy).Contents (Elt F) → (⟨S32x65536, .f32⟩ : BufTy).Contents (Elt F) → (⟨S32x65536, .f32⟩ : BufTy).Contents (Elt F)),
    nullary main_cst_6 (constant S_ .f32 0x3F800000#32),
    unary main_cst_6 main_v92 (broadcastInDim S32x65536 ![] bcast_S_S32x65536 : (⟨S_, .f32⟩ : BufTy).Contents (Elt F) → (⟨S32x65536, .f32⟩ : BufTy).Contents (Elt F)),
    binary main_v92 main_v91 main_v93 (Host.divf : (⟨S32x65536, .f32⟩ : BufTy).Contents (Elt F) → (⟨S32x65536, .f32⟩ : BufTy).Contents (Elt F) → (⟨S32x65536, .f32⟩ : BufTy).Contents (Elt F)),
    reshape main_v93 main_v94 rfl shapeCasts_S32x65536_S32x512x128,
    unary main_v94 main_v95 ((extractStridedSlice S32x512x64 ![0, 0, 0] · slices_S32x512x128_S32x512x64_0_0_0) : (⟨S32x512x128, .f32⟩ : BufTy).Contents (Elt F) → (⟨S32x512x64, .f32⟩ : BufTy).Contents (Elt F)),
    unary main_v94 main_v96 ((extractStridedSlice S32x512x64 ![0, 0, 64] · slices_S32x512x128_S32x512x64_0_0_64) : (⟨S32x512x128, .f32⟩ : BufTy).Contents (Elt F) → (⟨S32x512x64, .f32⟩ : BufTy).Contents (Elt F)),
    reshape main_v95 main_v97 rfl shapeCasts_S32x512x64_S32x32768,
    reshape main_v96 main_v98 rfl shapeCasts_S32x512x64_S32x32768,
    binary main_v97 main_v65 main_v99 (mulf : (⟨S32x32768, .f32⟩ : BufTy).Contents (Elt F) → (⟨S32x32768, .f32⟩ : BufTy).Contents (Elt F) → (⟨S32x32768, .f32⟩ : BufTy).Contents (Elt F)),
    reshape main_v63 main_v100 rfl shapeCasts_S32x32768_S32x512x64,
    reshape main_v99 main_v101 rfl shapeCasts_S32x32768_S32x512x64,
    binary main_v100 main_v101 main_v102 ((fun a b => concatenate S32x512x128 2 [⟨S32x512x64, a⟩, ⟨S32x512x64, b⟩] concatenates_S32x512x64_S32x512x64_S32x512x128_d2) : (⟨S32x512x64, .f32⟩ : BufTy).Contents (Elt F) → (⟨S32x512x64, .f32⟩ : BufTy).Contents (Elt F) → (⟨S32x512x128, .f32⟩ : BufTy).Contents (Elt F)),
    unary main_v102 main_v103 ((transpose S512x128x32 [1, 2, 0] · transposes_S32x512x128_S512x128x32_1_2_0) : (⟨S32x512x128, .f32⟩ : BufTy).Contents (Elt F) → (⟨S512x128x32, .f32⟩ : BufTy).Contents (Elt F)),
    reshape main_v103 main_v104 rfl shapeCasts_S512x128x32_S512x4096,
    binary main_arg1 main_v104 main_v105 ((fun l r => Host.dotGeneral dot_S512x512_S512x4096_S512x4096_1_0_0_1_n_n none l r) : (⟨S512x512, .f32⟩ : BufTy).Contents (Elt F) → (⟨S512x4096, .f32⟩ : BufTy).Contents (Elt F) → (⟨S512x4096, .f32⟩ : BufTy).Contents (Elt F)),
    binary main_arg1 main_v105 main_v106 ((fun l r => Host.dotGeneral dot_S512x512_S512x4096_S512x4096_1_0_0_1_n_n none l r) : (⟨S512x512, .f32⟩ : BufTy).Contents (Elt F) → (⟨S512x4096, .f32⟩ : BufTy).Contents (Elt F) → (⟨S512x4096, .f32⟩ : BufTy).Contents (Elt F)),
    nullary main_cst_7 (constant S_ .f32 0x40000000#32),
    unary main_cst_7 main_v107 (broadcastInDim S512x4096 ![] bcast_S_S512x4096 : (⟨S_, .f32⟩ : BufTy).Contents (Elt F) → (⟨S512x4096, .f32⟩ : BufTy).Contents (Elt F)),
    binary main_v107 main_v106 main_v108 (mulf : (⟨S512x4096, .f32⟩ : BufTy).Contents (Elt F) → (⟨S512x4096, .f32⟩ : BufTy).Contents (Elt F) → (⟨S512x4096, .f32⟩ : BufTy).Contents (Elt F)),
    binary main_v108 main_v104 main_v109 (subf : (⟨S512x4096, .f32⟩ : BufTy).Contents (Elt F) → (⟨S512x4096, .f32⟩ : BufTy).Contents (Elt F) → (⟨S512x4096, .f32⟩ : BufTy).Contents (Elt F)),
    unary main_v104 main_v110 (broadcastInDim S1x512x4096 ![1, 2] bcast_S512x4096_S1x512x4096_1_2 : (⟨S512x4096, .f32⟩ : BufTy).Contents (Elt F) → (⟨S1x512x4096, .f32⟩ : BufTy).Contents (Elt F)),
    unary main_v105 main_v111 (broadcastInDim S1x512x4096 ![1, 2] bcast_S512x4096_S1x512x4096_1_2 : (⟨S512x4096, .f32⟩ : BufTy).Contents (Elt F) → (⟨S1x512x4096, .f32⟩ : BufTy).Contents (Elt F)),
    unary main_v109 main_v112 (broadcastInDim S1x512x4096 ![1, 2] bcast_S512x4096_S1x512x4096_1_2 : (⟨S512x4096, .f32⟩ : BufTy).Contents (Elt F) → (⟨S1x512x4096, .f32⟩ : BufTy).Contents (Elt F)),
    nary ![main_v110, main_v111, main_v112] main_v113 (fun u => concatenate S3x512x4096 0 [⟨S1x512x4096, u 0⟩, ⟨S1x512x4096, u 1⟩, ⟨S1x512x4096, u 2⟩] concatenates_S1x512x4096_S1x512x4096_S1x512x4096_S3x512x4096_d0),
    reshape main_v113 main_v114 rfl shapeCasts_S3x512x4096_S3x512x128x32,
    unary main_v114 main_v115 ((transpose S32x512x128x3 [3, 1, 2, 0] · transposes_S3x512x128x32_S32x512x128x3_3_1_2_0) : (⟨S3x512x128x32, .f32⟩ : BufTy).Contents (Elt F) → (⟨S32x512x128x3, .f32⟩ : BufTy).Contents (Elt F)),
    reshape main_v115 main_v116 rfl shapeCasts_S32x512x128x3_S16384x384,
    binary main_v116 main_arg9 main_v117 ((fun l r => Host.dotGeneral dot_S16384x384_S384x64_S16384x64_1_0_0_1_n_n none l r) : (⟨S16384x384, .f32⟩ : BufTy).Contents (Elt F) → (⟨S384x64, .f32⟩ : BufTy).Contents (Elt F) → (⟨S16384x64, .f32⟩ : BufTy).Contents (Elt F)),
    unary main_arg10 main_v118 (broadcastInDim S1x64 ![1] bcast_S64_S1x64_1 : (⟨S64, .f32⟩ : BufTy).Contents (Elt F) → (⟨S1x64, .f32⟩ : BufTy).Contents (Elt F)),
    unary main_v118 main_v119 (broadcastInDim S16384x64 ![0, 1] bcast_S1x64_S16384x64_0_1 : (⟨S1x64, .f32⟩ : BufTy).Contents (Elt F) → (⟨S16384x64, .f32⟩ : BufTy).Contents (Elt F)),
    binary main_v117 main_v119 main_v120 (addf : (⟨S16384x64, .f32⟩ : BufTy).Contents (Elt F) → (⟨S16384x64, .f32⟩ : BufTy).Contents (Elt F) → (⟨S16384x64, .f32⟩ : BufTy).Contents (Elt F)),
    reshape main_v120 main_v121 rfl shapeCasts_S16384x64_S32x32768,
    unary main_v121 main_v122 (Host.tanh : (⟨S32x32768, .f32⟩ : BufTy).Contents (Elt F) → (⟨S32x32768, .f32⟩ : BufTy).Contents (Elt F)),
    binary main_v98 main_v65 main_v123 (mulf : (⟨S32x32768, .f32⟩ : BufTy).Contents (Elt F) → (⟨S32x32768, .f32⟩ : BufTy).Contents (Elt F) → (⟨S32x32768, .f32⟩ : BufTy).Contents (Elt F)),
    nullary main_cst_8 (constant S_ .f32 0x3F800000#32),
    unary main_cst_8 main_v124 (broadcastInDim S32x32768 ![] bcast_S_S32x32768 : (⟨S_, .f32⟩ : BufTy).Contents (Elt F) → (⟨S32x32768, .f32⟩ : BufTy).Contents (Elt F)),
    binary main_v124 main_v98 main_v125 (subf : (⟨S32x32768, .f32⟩ : BufTy).Contents (Elt F) → (⟨S32x32768, .f32⟩ : BufTy).Contents (Elt F) → (⟨S32x32768, .f32⟩ : BufTy).Contents (Elt F)),
    binary main_v125 main_v122 main_v126 (mulf : (⟨S32x32768, .f32⟩ : BufTy).Contents (Elt F) → (⟨S32x32768, .f32⟩ : BufTy).Contents (Elt F) → (⟨S32x32768, .f32⟩ : BufTy).Contents (Elt F)),
    binary main_v123 main_v126 main_v127 (addf : (⟨S32x32768, .f32⟩ : BufTy).Contents (Elt F) → (⟨S32x32768, .f32⟩ : BufTy).Contents (Elt F) → (⟨S32x32768, .f32⟩ : BufTy).Contents (Elt F)),
    reshape main_v127 main_v128 rfl shapeCasts_S32x32768_S16384x64,
    binary main_v128 main_arg11 main_v129 ((fun l r => Host.dotGeneral dot_S16384x64_S64x1_S16384x1_1_0_0_1_n_n none l r) : (⟨S16384x64, .f32⟩ : BufTy).Contents (Elt F) → (⟨S64x1, .f32⟩ : BufTy).Contents (Elt F) → (⟨S16384x1, .f32⟩ : BufTy).Contents (Elt F)),
    unary main_arg12 main_v130 (broadcastInDim S1x1 ![1] bcast_S1_S1x1_1 : (⟨S1, .f32⟩ : BufTy).Contents (Elt F) → (⟨S1x1, .f32⟩ : BufTy).Contents (Elt F)),
    unary main_v130 main_v131 (broadcastInDim S16384x1 ![0, 1] bcast_S1x1_S16384x1_0_1 : (⟨S1x1, .f32⟩ : BufTy).Contents (Elt F) → (⟨S16384x1, .f32⟩ : BufTy).Contents (Elt F)),
    binary main_v129 main_v131 main_v132 (addf : (⟨S16384x1, .f32⟩ : BufTy).Contents (Elt F) → (⟨S16384x1, .f32⟩ : BufTy).Contents (Elt F) → (⟨S16384x1, .f32⟩ : BufTy).Contents (Elt F)),
    reshape main_v132 main_v133 rfl shapeCasts_S16384x1_S32x512,
    unary main_v63 main_v134 (broadcastInDim S1x32x32768 ![1, 2] bcast_S32x32768_S1x32x32768_1_2 : (⟨S32x32768, .f32⟩ : BufTy).Contents (Elt F) → (⟨S1x32x32768, .f32⟩ : BufTy).Contents (Elt F)),
    unary main_v127 main_v135 (broadcastInDim S1x32x32768 ![1, 2] bcast_S32x32768_S1x32x32768_1_2 : (⟨S32x32768, .f32⟩ : BufTy).Contents (Elt F) → (⟨S1x32x32768, .f32⟩ : BufTy).Contents (Elt F)),
    binary main_v134 main_v135 main_v136 ((fun a b => concatenate S2x32x32768 0 [⟨S1x32x32768, a⟩, ⟨S1x32x32768, b⟩] concatenates_S1x32x32768_S1x32x32768_S2x32x32768_d0) : (⟨S1x32x32768, .f32⟩ : BufTy).Contents (Elt F) → (⟨S1x32x32768, .f32⟩ : BufTy).Contents (Elt F) → (⟨S2x32x32768, .f32⟩ : BufTy).Contents (Elt F)) ]

set_option maxRecDepth 8192 in
/-- `main_v1`'s composed term of the arguments (named: it is used 3 times). -/
def res_main_v1 (V0 : Valuation τ sig (Elt F)) : (Proc.devRef .tc main_v1 : DevRef τ sig).ty.Contents (Elt F) :=
  shapeCast _ (extractStridedSlice S1x32x32768 ![0, 0, 0] (V0 (Proc.devRef .tc main_arg2)) slices_S2x32x32768_S1x32x32768_0_0_0) shapeCasts_S1x32x32768_S32x32768

set_option maxRecDepth 8192 in
/-- `main_v6`'s composed term of the arguments (named: it is used 3 times). -/
def res_main_v6 (V0 : Valuation τ sig (Elt F)) : (Proc.devRef .tc main_v6 : DevRef τ sig).ty.Contents (Elt F) :=
  shapeCast _ (transpose S512x65x32 [1, 2, 0] (concatenate S32x512x65 2 [⟨S32x512x1, (shapeCast _ (V0 (Proc.devRef .tc main_arg0)) shapeCasts_S32x512_S32x512x1)⟩, ⟨S32x512x64, (shapeCast _ (res_main_v1 V0) shapeCasts_S32x32768_S32x512x64)⟩] concatenates_S32x512x1_S32x512x64_S32x512x65_d2) transposes_S32x512x65_S512x65x32_1_2_0) shapeCasts_S512x65x32_S512x2080

set_option maxRecDepth 8192 in
/-- `main_v7`'s composed term of the arguments (named: it is used 2 times). -/
def res_main_v7 (V0 : Valuation τ sig (Elt F)) : (Proc.devRef .tc main_v7 : DevRef τ sig).ty.Contents (Elt F) :=
  Host.dotGeneral dot_S512x512_S512x2080_S512x2080_1_0_0_1_n_n none (V0 (Proc.devRef .tc main_arg1)) (res_main_v6 V0)

set_option maxRecDepth 8192 in
/-- `main_v30`'s composed term of the arguments (named: it is used 2 times). -/
def res_main_v30 (V0 : Valuation τ sig (Elt F)) : (Proc.devRef .tc main_v30 : DevRef τ sig).ty.Contents (Elt F) :=
  shapeCast _ (Host.divf (broadcastInDim S32x65536 ![] bcast_S_S32x65536 (constant S_ .f32 0x3F800000#32)) (addf (broadcastInDim S32x65536 ![] bcast_S_S32x65536 (constant S_ .f32 0x3F800000#32)) (Host.exp (Host.negf (shapeCast _ (addf (Host.dotGeneral dot_S16384x195_S195x128_S16384x128_1_0_0_1_n_n none (shapeCast _ (transpose S32x512x65x3 [3, 1, 2, 0] (shapeCast _ (concatenate S3x512x2080 0 [⟨S1x512x2080, (broadcastInDim S1x512x2080 ![1, 2] bcast_S512x2080_S1x512x2080_1_2 (res_main_v6 V0))⟩, ⟨S1x512x2080, (broadcastInDim S1x512x2080 ![1, 2] bcast_S512x2080_S1x512x2080_1_2 (res_main_v7 V0))⟩, ⟨S1x512x2080, (broadcastInDim S1x512x2080 ![1, 2] bcast_S512x2080_S1x512x2080_1_2 (subf (mulf (broadcastInDim S512x2080 ![] bcast_S_S512x2080 (constant S_ .f32 0x40000000#32)) (Host.dotGeneral dot_S512x512_S512x2080_S512x2080_1_0_0_1_n_n none (V0 (Proc.devRef .tc main_arg1)) (res_main_v7 V0))) (res_main_v6 V0)))⟩] concatenates_S1x512x2080_S1x512x2080_S1x512x2080_S3x512x2080_d0) shapeCasts_S3x512x2080_S3x512x65x32) transposes_S3x512x65x32_S32x512x65x3_3_1_2_0) shapeCasts_S32x512x65x3_S16384x195) (V0 (Proc.devRef .tc main_arg3))) (broadcastInDim S16384x128 ![0, 1] bcast_S1x128_S16384x128_0_1 (broadcastInDim S1x128 ![1] bcast_S128_S1x128_1 (V0 (Proc.devRef .tc main_arg4))))) shapeCasts_S16384x128_S32x65536))))) shapeCasts_S32x65536_S32x512x128

set_option maxRecDepth 8192 in
/-- `main_v34`'s composed term of the arguments (named: it is used 2 times). -/
def res_main_v34 (V0 : Valuation τ sig (Elt F)) : (Proc.devRef .tc main_v34 : DevRef τ sig).ty.Contents (Elt F) :=
  shapeCast _ (extractStridedSlice S32x512x64 ![0, 0, 64] (res_main_v30 V0) slices_S32x512x128_S32x512x64_0_0_64) shapeCasts_S32x512x64_S32x32768

set_option maxRecDepth 8192 in
/-- `main_v40`'s composed term of the arguments (named: it is used 3 times). -/
def res_main_v40 (V0 : Valuation τ sig (Elt F)) : (Proc.devRef .tc main_v40 : DevRef τ sig).ty.Contents (Elt F) :=
  shapeCast _ (transpose S512x65x32 [1, 2, 0] (concatenate S32x512x65 2 [⟨S32x512x1, (shapeCast _ (V0 (Proc.devRef .tc main_arg0)) shapeCasts_S32x512_S32x512x1)⟩, ⟨S32x512x64, (shapeCast _ (mulf (shapeCast _ (extractStridedSlice S32x512x64 ![0, 0, 0] (res_main_v30 V0) slices_S32x512x128_S32x512x64_0_0_0) shapeCasts_S32x512x64_S32x32768) (res_main_v1 V0)) shapeCasts_S32x32768_S32x512x64)⟩] concatenates_S32x512x1_S32x512x64_S32x512x65_d2) transposes_S32x512x65_S512x65x32_1_2_0) shapeCasts_S512x65x32_S512x2080

set_option maxRecDepth 8192 in
/-- `main_v41`'s composed term of the arguments (named: it is used 2 times). -/
def res_main_v41 (V0 : Valuation τ sig (Elt F)) : (Proc.devRef .tc main_v41 : DevRef τ sig).ty.Contents (Elt F) :=
  Host.dotGeneral dot_S512x512_S512x2080_S512x2080_1_0_0_1_n_n none (V0 (Proc.devRef .tc main_arg1)) (res_main_v40 V0)

set_option maxRecDepth 8192 in
/-- `main_v63`'s composed term of the arguments (named: it is used 3 times). -/
def res_main_v63 (V0 : Valuation τ sig (Elt F)) : (Proc.devRef .tc main_v63 : DevRef τ sig).ty.Contents (Elt F) :=
  addf (mulf (res_main_v34 V0) (res_main_v1 V0)) (mulf (subf (broadcastInDim S32x32768 ![] bcast_S_S32x32768 (constant S_ .f32 0x3F800000#32)) (res_main_v34 V0)) (Host.tanh (shapeCast _ (addf (Host.dotGeneral dot_S16384x195_S195x64_S16384x64_1_0_0_1_n_n none (shapeCast _ (transpose S32x512x65x3 [3, 1, 2, 0] (shapeCast _ (concatenate S3x512x2080 0 [⟨S1x512x2080, (broadcastInDim S1x512x2080 ![1, 2] bcast_S512x2080_S1x512x2080_1_2 (res_main_v40 V0))⟩, ⟨S1x512x2080, (broadcastInDim S1x512x2080 ![1, 2] bcast_S512x2080_S1x512x2080_1_2 (res_main_v41 V0))⟩, ⟨S1x512x2080, (broadcastInDim S1x512x2080 ![1, 2] bcast_S512x2080_S1x512x2080_1_2 (subf (mulf (broadcastInDim S512x2080 ![] bcast_S_S512x2080 (constant S_ .f32 0x40000000#32)) (Host.dotGeneral dot_S512x512_S512x2080_S512x2080_1_0_0_1_n_n none (V0 (Proc.devRef .tc main_arg1)) (res_main_v41 V0))) (res_main_v40 V0)))⟩] concatenates_S1x512x2080_S1x512x2080_S1x512x2080_S3x512x2080_d0) shapeCasts_S3x512x2080_S3x512x65x32) transposes_S3x512x65x32_S32x512x65x3_3_1_2_0) shapeCasts_S32x512x65x3_S16384x195) (V0 (Proc.devRef .tc main_arg5))) (broadcastInDim S16384x64 ![0, 1] bcast_S1x64_S16384x64_0_1 (broadcastInDim S1x64 ![1] bcast_S64_S1x64_1 (V0 (Proc.devRef .tc main_arg6))))) shapeCasts_S16384x64_S32x32768)))

set_option maxRecDepth 8192 in
/-- `main_v65`'s composed term of the arguments (named: it is used 3 times). -/
def res_main_v65 (V0 : Valuation τ sig (Elt F)) : (Proc.devRef .tc main_v65 : DevRef τ sig).ty.Contents (Elt F) :=
  shapeCast _ (extractStridedSlice S1x32x32768 ![1, 0, 0] (V0 (Proc.devRef .tc main_arg2)) slices_S2x32x32768_S1x32x32768_1_0_0) shapeCasts_S1x32x32768_S32x32768

set_option maxRecDepth 8192 in
/-- `main_v70`'s composed term of the arguments (named: it is used 3 times). -/
def res_main_v70 (V0 : Valuation τ sig (Elt F)) : (Proc.devRef .tc main_v70 : DevRef τ sig).ty.Contents (Elt F) :=
  shapeCast _ (transpose S512x128x32 [1, 2, 0] (concatenate S32x512x128 2 [⟨S32x512x64, (shapeCast _ (res_main_v63 V0) shapeCasts_S32x32768_S32x512x64)⟩, ⟨S32x512x64, (shapeCast _ (res_main_v65 V0) shapeCasts_S32x32768_S32x512x64)⟩] concatenates_S32x512x64_S32x512x64_S32x512x128_d2) transposes_S32x512x128_S512x128x32_1_2_0) shapeCasts_S512x128x32_S512x4096

set_option maxRecDepth 8192 in
/-- `main_v71`'s composed term of the arguments (named: it is used 2 times). -/
def res_main_v71 (V0 : Valuation τ sig (Elt F)) : (Proc.devRef .tc main_v71 : DevRef τ sig).ty.Contents (Elt F) :=
  Host.dotGeneral dot_S512x512_S512x4096_S512x4096_1_0_0_1_n_n none (V0 (Proc.devRef .tc main_arg1)) (res_main_v70 V0)

set_option maxRecDepth 8192 in
/-- `main_v94`'s composed term of the arguments (named: it is used 2 times). -/
def res_main_v94 (V0 : Valuation τ sig (Elt F)) : (Proc.devRef .tc main_v94 : DevRef τ sig).ty.Contents (Elt F) :=
  shapeCast _ (Host.divf (broadcastInDim S32x65536 ![] bcast_S_S32x65536 (constant S_ .f32 0x3F800000#32)) (addf (broadcastInDim S32x65536 ![] bcast_S_S32x65536 (constant S_ .f32 0x3F800000#32)) (Host.exp (Host.negf (shapeCast _ (addf (Host.dotGeneral dot_S16384x384_S384x128_S16384x128_1_0_0_1_n_n none (shapeCast _ (transpose S32x512x128x3 [3, 1, 2, 0] (shapeCast _ (concatenate S3x512x4096 0 [⟨S1x512x4096, (broadcastInDim S1x512x4096 ![1, 2] bcast_S512x4096_S1x512x4096_1_2 (res_main_v70 V0))⟩, ⟨S1x512x4096, (broadcastInDim S1x512x4096 ![1, 2] bcast_S512x4096_S1x512x4096_1_2 (res_main_v71 V0))⟩, ⟨S1x512x4096, (broadcastInDim S1x512x4096 ![1, 2] bcast_S512x4096_S1x512x4096_1_2 (subf (mulf (broadcastInDim S512x4096 ![] bcast_S_S512x4096 (constant S_ .f32 0x40000000#32)) (Host.dotGeneral dot_S512x512_S512x4096_S512x4096_1_0_0_1_n_n none (V0 (Proc.devRef .tc main_arg1)) (res_main_v71 V0))) (res_main_v70 V0)))⟩] concatenates_S1x512x4096_S1x512x4096_S1x512x4096_S3x512x4096_d0) shapeCasts_S3x512x4096_S3x512x128x32) transposes_S3x512x128x32_S32x512x128x3_3_1_2_0) shapeCasts_S32x512x128x3_S16384x384) (V0 (Proc.devRef .tc main_arg7))) (broadcastInDim S16384x128 ![0, 1] bcast_S1x128_S16384x128_0_1 (broadcastInDim S1x128 ![1] bcast_S128_S1x128_1 (V0 (Proc.devRef .tc main_arg8))))) shapeCasts_S16384x128_S32x65536))))) shapeCasts_S32x65536_S32x512x128

set_option maxRecDepth 8192 in
/-- `main_v98`'s composed term of the arguments (named: it is used 2 times). -/
def res_main_v98 (V0 : Valuation τ sig (Elt F)) : (Proc.devRef .tc main_v98 : DevRef τ sig).ty.Contents (Elt F) :=
  shapeCast _ (extractStridedSlice S32x512x64 ![0, 0, 64] (res_main_v94 V0) slices_S32x512x128_S32x512x64_0_0_64) shapeCasts_S32x512x64_S32x32768

set_option maxRecDepth 8192 in
/-- `main_v104`'s composed term of the arguments (named: it is used 3 times). -/
def res_main_v104 (V0 : Valuation τ sig (Elt F)) : (Proc.devRef .tc main_v104 : DevRef τ sig).ty.Contents (Elt F) :=
  shapeCast _ (transpose S512x128x32 [1, 2, 0] (concatenate S32x512x128 2 [⟨S32x512x64, (shapeCast _ (res_main_v63 V0) shapeCasts_S32x32768_S32x512x64)⟩, ⟨S32x512x64, (shapeCast _ (mulf (shapeCast _ (extractStridedSlice S32x512x64 ![0, 0, 0] (res_main_v94 V0) slices_S32x512x128_S32x512x64_0_0_0) shapeCasts_S32x512x64_S32x32768) (res_main_v65 V0)) shapeCasts_S32x32768_S32x512x64)⟩] concatenates_S32x512x64_S32x512x64_S32x512x128_d2) transposes_S32x512x128_S512x128x32_1_2_0) shapeCasts_S512x128x32_S512x4096

set_option maxRecDepth 8192 in
/-- `main_v105`'s composed term of the arguments (named: it is used 2 times). -/
def res_main_v105 (V0 : Valuation τ sig (Elt F)) : (Proc.devRef .tc main_v105 : DevRef τ sig).ty.Contents (Elt F) :=
  Host.dotGeneral dot_S512x512_S512x4096_S512x4096_1_0_0_1_n_n none (V0 (Proc.devRef .tc main_arg1)) (res_main_v104 V0)

set_option maxRecDepth 8192 in
/-- `main_v127`'s composed term of the arguments (named: it is used 2 times). -/
def res_main_v127 (V0 : Valuation τ sig (Elt F)) : (Proc.devRef .tc main_v127 : DevRef τ sig).ty.Contents (Elt F) :=
  addf (mulf (res_main_v98 V0) (res_main_v65 V0)) (mulf (subf (broadcastInDim S32x32768 ![] bcast_S_S32x32768 (constant S_ .f32 0x3F800000#32)) (res_main_v98 V0)) (Host.tanh (shapeCast _ (addf (Host.dotGeneral dot_S16384x384_S384x64_S16384x64_1_0_0_1_n_n none (shapeCast _ (transpose S32x512x128x3 [3, 1, 2, 0] (shapeCast _ (concatenate S3x512x4096 0 [⟨S1x512x4096, (broadcastInDim S1x512x4096 ![1, 2] bcast_S512x4096_S1x512x4096_1_2 (res_main_v104 V0))⟩, ⟨S1x512x4096, (broadcastInDim S1x512x4096 ![1, 2] bcast_S512x4096_S1x512x4096_1_2 (res_main_v105 V0))⟩, ⟨S1x512x4096, (broadcastInDim S1x512x4096 ![1, 2] bcast_S512x4096_S1x512x4096_1_2 (subf (mulf (broadcastInDim S512x4096 ![] bcast_S_S512x4096 (constant S_ .f32 0x40000000#32)) (Host.dotGeneral dot_S512x512_S512x4096_S512x4096_1_0_0_1_n_n none (V0 (Proc.devRef .tc main_arg1)) (res_main_v105 V0))) (res_main_v104 V0)))⟩] concatenates_S1x512x4096_S1x512x4096_S1x512x4096_S3x512x4096_d0) shapeCasts_S3x512x4096_S3x512x128x32) transposes_S3x512x128x32_S32x512x128x3_3_1_2_0) shapeCasts_S32x512x128x3_S16384x384) (V0 (Proc.devRef .tc main_arg9))) (broadcastInDim S16384x64 ![0, 1] bcast_S1x64_S16384x64_0_1 (broadcastInDim S1x64 ![1] bcast_S64_S1x64_1 (V0 (Proc.devRef .tc main_arg10))))) shapeCasts_S16384x64_S32x32768)))

end Cert.ReferenceIdeal.ValueP

end
-- ==== Proof.RViews.lean ====
/-
  The reference's argument arrays as the specification's inputs: the adjacency as a function of two
  node indices; one batch row of the input as a node signal and of a layer's hidden state as
  (node, channel); the weight arrays as (feature, tap, channel) tables; the biases as functions of
  the channel.
-/
import proofs.«145957_g44504451121623_cont_8to1_c_180_24_alg».proof.Proof.RunPDefs
import proofs.«145957_g44504451121623_cont_8to1_c_180_24_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.ReferenceIdeal.Sem

open Idealize.ShloMosaic Idealize.ShloMosaic.ValueIdx Idealize.ShloMosaic.StableHlo Cert.ReferenceIdeal Cert.ReferenceIdeal.Gen Cert.ReferenceIdeal.ValueP Cert.DcgruSpec

variable (V0 : Valuation τ sig (Elt Ideal))

abbrev aX : Vec Ideal S32x512 .f32 := V0 (Proc.devRef .tc main_arg0)
abbrev aA : Vec Ideal S512x512 .f32 := V0 (Proc.devRef .tc main_arg1)
abbrev aH : Vec Ideal S2x32x32768 .f32 := V0 (Proc.devRef .tc main_arg2)
abbrev aWg0 : Vec Ideal S195x128 .f32 := V0 (Proc.devRef .tc main_arg3)
abbrev aBg0 : Vec Ideal S128 .f32 := V0 (Proc.devRef .tc main_arg4)
abbrev aWc0 : Vec Ideal S195x64 .f32 := V0 (Proc.devRef .tc main_arg5)
abbrev aBc0 : Vec Ideal S64 .f32 := V0 (Proc.devRef .tc main_arg6)
abbrev aWg1 : Vec Ideal S384x128 .f32 := V0 (Proc.devRef .tc main_arg7)
abbrev aBg1 : Vec Ideal S128 .f32 := V0 (Proc.devRef .tc main_arg8)
abbrev aWc1 : Vec Ideal S384x64 .f32 := V0 (Proc.devRef .tc main_arg9)
abbrev aBc1 : Vec Ideal S64 .f32 := V0 (Proc.devRef .tc main_arg10)
abbrev aWp : Vec Ideal S64x1 .f32 := V0 (Proc.devRef .tc main_arg11)
abbrev aBp : Vec Ideal S1 .f32 := V0 (Proc.devRef .tc main_arg12)

/-- The adjacency. -/
def rAdj : Fin 512 → Fin 512 → EReal := fun a b => aA V0 (ix2 a b)
/-- Batch row `b` of the input. -/
def rX (b : Fin 32) : Fin 512 → EReal := fun k => aX V0 (ix2 b k)
/-- Batch row `b` of layer `l`'s hidden state. -/
def rH (l : Fin 2) (b : Fin 32) : Fin 512 → Fin 64 → EReal := fun k u => aH V0 (ix3 l b (flatIx k u))

/-- Layer 0's new state of batch row `b`, by the specification. -/
def rH0n (b : Fin 32) : Fin 512 → Fin 64 → EReal :=
  newH (rAdj V0) (col0 (rX V0 b)) (rH V0 0 b) (wL0 (aWg0 V0)) (bOf (aBg0 V0)) (wL0 (aWc0 V0)) (bOf (aBc0 V0))
/-- Layer 1's new state of batch row `b`, by the specification. -/
def rH1n (b : Fin 32) : Fin 512 → Fin 64 → EReal :=
  newH (rAdj V0) (col1 (rH0n V0 b)) (rH V0 1 b) (wL1 (aWg1 V0)) (bOf (aBg1 V0)) (wL1 (aWc1 V0)) (bOf (aBc1 V0))

end Cert.ReferenceIdeal.Sem

end
-- ==== Proof.RCell0Lay.lean ====
/-
  Layer 0 of the reference over ABSTRACT arrays: the index arithmetic of its layout operations and
  its contractions, with no reference to the program's composed terms.

  * a sum over the 3 · Fn flat columns, column j standing for (feature j / 3, tap j % 3), is the double
    sum over (feature, tap);
  * a plain rows × contraction by contraction × columns product read at (i, j) is the sum over the
    contraction coordinate;
  * a batch row of the stacked state read flat;
  * the feature matrix: [input | state] concatenated on the feature axis, batch moved innermost;
  * the three stacked taps moved to (batch · 512 + node, feature · 3 + tap);
  * a bias laid along every row; the logistic spelt 1 / (1 + exp(−z));
  * and, from these, the graph convolution: taps, weight contraction and bias, at any output width.
-/
import proofs.«145957_g44504451121623_cont_8to1_c_180_24_alg».proof.ReferenceIdeal
import proofs.«145957_g44504451121623_cont_8to1_c_180_24_alg».proof.Proof.Spec
import proofs.«145957_g44504451121623_cont_8to1_c_180_24_alg».proof.Proof.SpecLaws
import Idealize.ShloMosaic.Lib.Pipeline.Value
import Idealize.ShloMosaic.Lib.ValueLayout
import Idealize.ShloMosaic.Lib.ValueIdx
import Idealize.ShloMosaic.PureOps.Ideal.Laws

noncomputable section

namespace Cert.ReferenceIdeal.Lay0

open Idealize.ShloMosaic Idealize.ShloMosaic.ValueIdx Cert.ReferenceIdeal Cert.DcgruSpec

/-! ## Sums -/

/-- The K = 3 · Fn flat columns enumerate (feature, tap) feature-major: column j is feature j / 3,
    tap j % 3. In a commutative monoid the sum over the columns is the double sum. -/
theorem sum_feature_tap {M : Type*} [AddCommMonoid M] (Fn K : ℕ) (hK : K = Fn * 3) (g : Fin Fn → Fin 3 → M) :
    ∑ j : Fin K, g ⟨j.val / 3, by have := j.isLt; omega⟩ ⟨j.val % 3, Nat.mod_lt _ (by norm_num)⟩
      = ∑ f : Fin Fn, ∑ m : Fin 3, g f m := by
  subst hK
  rw [← Fintype.sum_prod_type (f := fun p : Fin Fn × Fin 3 => g p.1 p.2),
    ← Equiv.sum_comp (finProdFinEquiv (m := Fn) (n := 3))]
  refine Finset.sum_congr rfl fun p _ => ?_
  obtain ⟨f, m⟩ := p
  have hm := m.isLt
  have e1 : (⟨(finProdFinEquiv (f, m)).val / 3, by have := (finProdFinEquiv (f, m)).isLt; omega⟩ : Fin Fn) = f :=
    Fin.ext (by show (m.val + 3 * f.val) / 3 = f.val; omega)
  have e2 : (⟨(finProdFinEquiv (f, m)).val % 3, Nat.mod_lt _ (by norm_num)⟩ : Fin 3) = m :=
    Fin.ext (by show (m.val + 3 * f.val) % 3 = m.val; omega)
  rw [e1, e2]

/-! ## A plain product read at an index -/

/-- A rows × K by K × columns product on the host, at the ideal values, read at (i, j): the sum over the
    contraction coordinate of the row's entry times the column's. -/
theorem dot_plain_apply (M K N : ℕ) {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j) = ∑ k : Fin K, l (ix2 i k) * r (ix2 k j) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact hk)
  have er : (DotDims.plain M K N).rhsIdx (ix2 i j) ((contrEquiv1 (DotDims.plain M K N) K rfl rfl).symm k) = ix2 k j :=
    funext fun a => Fin.ext (by
      match a with
      | ⟨0, _⟩ => exact hk
      | ⟨1, _⟩ => rfl)
  rw [el, er]

/-! ## The two flat positions of the whole-batch forms

Spelt here as reducible abbreviations so that the lemmas below can be stated and used at either
spelling: column feature · 32 + batch of the node-major form, row batch · 512 + node of the row form. -/

/-- Column of the node-major form over the whole batch: feature · 32 + batch. -/
abbrev fc (f : Fin 65) (b : Fin 32) : Fin 2080 := ⟨f.val * 32 + b.val, by omega⟩
/-- Row of the (batch, node) row form over the whole batch: batch · 512 + node. -/
abbrev br (b : Fin 32) (n : Fin 512) : Fin 16384 := ⟨b.val * 512 + n.val, by omega⟩

/-! ## Layout operations over abstract arrays -/

section Layout
variable {α : Type}

/-- Layer 0's slab of the stacked state, cast to one flat row per batch element: row b at offset p is
    the stacked state at (0, b, p). -/
theorem state0_apply (H : S2x32x32768.Idx → α) (hs : S2x32x32768.Slices ![0, 0, 0] S1x32x32768)
    (hc : S1x32x32768.ShapeCasts S32x32768) (b : Fin 32) (p : Fin 32768) :
    shapeCast S32x32768 (extractStridedSlice S1x32x32768 ![0, 0, 0] H hs) hc (ix2 b p) = H (ix3 (0 : Fin 2) b p) := by
  refine (shapeCast_apply _ hc (ix2 b p) (ix3 (0 : Fin 1) b p) ?_).trans ?_
  · rw [Shape.rowMajor_val_three, Shape.rowMajor_val_two]
    show (0 * 32 + b.val) * 32768 + p.val = b.val * 32768 + p.val
    omega
  · exact extractStridedSlice_apply _ H hs _ (ix3 (0 : Fin 2) b p) (fun a => match a with
      | ⟨0, _⟩ => rfl
      | ⟨1, _⟩ => by show b.val = 0 + b.val; omega
      | ⟨2, _⟩ => by show p.val = 0 + p.val; omega)

/-- The feature matrix. The input (one feature) and the state (64 features, each batch row read as
    node · 64 + channel) are concatenated on the feature axis, the batch is moved innermost and
    (feature, batch) is flattened: at (node n, feature f · 32 + batch b) it reads the input at (b, n)
    when f = 0 and the state's channel f − 1 otherwise. -/
theorem feat_apply (x : S32x512.Idx → α) (h1 : S32x32768.Idx → α)
    (hx : S32x512.ShapeCasts S32x512x1) (hh : S32x32768.ShapeCasts S32x512x64)
    (hc : Shape.Concatenates [S32x512x1, S32x512x64] S32x512x65 2)
    (ht : S32x512x65.Transposes [1, 2, 0] S512x65x32) (hs : S512x65x32.ShapeCasts S512x2080)
    (n : Fin 512) (f : Fin 65) (b : Fin 32) :
    shapeCast S512x2080 (transpose S512x65x32 [1, 2, 0]
        (concatenate S32x512x65 2 [⟨S32x512x1, shapeCast S32x512x1 x hx⟩, ⟨S32x512x64, shapeCast S32x512x64 h1 hh⟩] hc) ht) hs
        (ix2 n (fc f b))
      = if h : f.val = 0 then x (ix2 b n) else h1 (ix2 b (flatIx n ⟨f.val - 1, by have := f.isLt; omega⟩)) := by
  have hf := f.isLt
  refine (shapeCast_apply _ hs (ix2 n (fc f b)) (ix3 n f b) ?_).trans ?_
  · rw [Shape.rowMajor_val_three, Shape.rowMajor_val_two]
    show (n.val * 65 + f.val) * 32 + b.val = n.val * 2080 + (f.val * 32 + b.val)
    omega
  refine (transpose_apply _ _ ht (ix3 n f b) (ix3 b n f) (fun c => match c with
      | ⟨0, _⟩ => rfl | ⟨1, _⟩ => rfl | ⟨2, _⟩ => rfl)).trans ?_
  by_cases h0 : f.val = 0
  · rw [dif_pos h0]
    refine (concatenate_pair_apply_left (t := S32x512x65) (s₁ := S32x512x1) (s₂ := S32x512x64) (2 : Fin 3) _ _ hc (ix3 b n f) rfl (ix3 b n (0 : Fin 1)) (fun c => match c with
      | ⟨0, _⟩ => rfl
      | ⟨1, _⟩ => rfl
      | ⟨2, _⟩ => by show (0 : ℕ) = f.val; omega)).trans ?_
    exact shapeCast_apply x hx _ (ix2 b n) (by
      rw [Shape.rowMajor_val_two, Shape.rowMajor_val_three]
      show b.val * 512 + n.val = (b.val * 512 + n.val) * 1 + 0
      omega)
  · rw [dif_neg h0]
    refine (concatenate_pair_apply_right (t := S32x512x65) (s₁ := S32x512x1) (s₂ := S32x512x64) (2 : Fin 3) _ _ hc (ix3 b n f) rfl rfl
      (ix3 b n (⟨f.val - 1, by omega⟩ : Fin 64)) (fun c => match c with
      | ⟨0, _⟩ => fun _ => rfl
      | ⟨1, _⟩ => fun _ => rfl
      | ⟨2, _⟩ => fun hne => absurd (Fin.ext rfl) hne)
      (by show (f.val - 1) + 1 = f.val; omega)).trans ?_
    exact shapeCast_apply h1 hh _ (ix2 b (flatIx n ⟨f.val - 1, by omega⟩)) (by
      rw [Shape.rowMajor_val_two, Shape.rowMajor_val_three]
      show b.val * 32768 + (n.val * 64 + (f.val - 1)) = (b.val * 512 + n.val) * 64 + (f.val - 1)
      omega)

/-- The three taps stacked on a new leading axis, (feature, batch) unflattened, batch moved
    outermost and tap innermost, and flattened to (batch · 512 + node, feature · 3 + tap): at row
    (b, n) and column f · 3 + k it reads piece k of the stack at (n, f · 32 + b). The piece is named by
    its position k in the list (a literal at every use, where the two list facts hold by computation). -/
theorem stack_apply (xs : List ((s : Shape) × (s.Idx → α))) (pk : S512x2080.Idx → α)
    (hb : S512x2080.BroadcastsInDim S1x512x2080 (![1, 2] : Fin 2 → Fin S1x512x2080.rank))
    (hc : Shape.Concatenates (xs.map (·.1)) S3x512x2080 0)
    (h1 : S3x512x2080.ShapeCasts S3x512x65x32) (ht : S3x512x65x32.Transposes [3, 1, 2, 0] S32x512x65x3)
    (h2 : S32x512x65x3.ShapeCasts S16384x195)
    (k : ℕ) (hk3 : k < 3) (hkl : k < xs.length)
    (hxk : xs[k] = ⟨S1x512x2080, broadcastInDim S1x512x2080 ![1, 2] hb pk⟩)
    (hpre : (((xs.take k).map (·.1)).map fun s : Shape =>
      if h : s.rank = S3x512x2080.rank then s.size ((0 : Fin S3x512x2080.rank).cast h.symm) else 0).sum = k)
    (b : Fin 32) (n : Fin 512) (f : Fin 65) (j : Fin 195) (hj : j.val = f.val * 3 + k) :
    shapeCast S16384x195 (transpose S32x512x65x3 [3, 1, 2, 0]
        (shapeCast S3x512x65x32 (concatenate S3x512x2080 0 xs hc) h1) ht) h2 (ix2 (br b n) j)
      = pk (ix2 n (fc f b)) := by
  have hf := f.isLt
  refine (shapeCast_apply _ h2 (ix2 (br b n) j) (ix4 b n f (⟨k, hk3⟩ : Fin 3)) ?_).trans ?_
  · rw [Shape.rowMajor_val_four, Shape.rowMajor_val_two]
    show ((b.val * 512 + n.val) * 65 + f.val) * 3 + k = (b.val * 512 + n.val) * 195 + j.val
    omega
  refine (transpose_apply _ _ ht (ix4 b n f (⟨k, hk3⟩ : Fin 3)) (ix4 (⟨k, hk3⟩ : Fin 3) n f b) (fun c => match c with
      | ⟨0, _⟩ => rfl | ⟨1, _⟩ => rfl | ⟨2, _⟩ => rfl | ⟨3, _⟩ => rfl)).trans ?_
  refine (shapeCast_apply _ h1 (ix4 (⟨k, hk3⟩ : Fin 3) n f b) (ix3 (⟨k, hk3⟩ : Fin 3) n (fc f b)) ?_).trans ?_
  · rw [Shape.rowMajor_val_three, Shape.rowMajor_val_four]
    show (k * 512 + n.val) * 2080 + (f.val * 32 + b.val) = ((k * 512 + n.val) * 65 + f.val) * 32 + b.val
    omega
  refine (concatenate_apply_piece (0 : Fin 3) xs hc (ix3 (⟨k, hk3⟩ : Fin 3) n (fc f b)) k hkl S1x512x2080 _ hxk rfl k hpre
    (ix3 (0 : Fin 1) n (fc f b)) (fun c => match c with
      | ⟨0, _⟩ => fun hne => absurd (Fin.ext rfl) hne
      | ⟨1, _⟩ => fun _ => rfl
      | ⟨2, _⟩ => fun _ => rfl)
    (by show k + 0 = k; omega)).trans ?_
  exact broadcastInDim_apply _ hb pk _ (ix2 n (fc f b)) (fun a => match a with
    | ⟨0, _⟩ => by show n.val = if (512 : ℕ) = 1 then 0 else n.val; rw [if_neg (by norm_num)]
    | ⟨1, _⟩ => by show f.val * 32 + b.val = if (2080 : ℕ) = 1 then 0 else f.val * 32 + b.val; rw [if_neg (by norm_num)])

/-- A bias vector laid along every row of an R × O matrix reads, at (r, o), the bias at o. -/
theorem bias_apply {R O : ℕ} (bias : (⟨1, ![O]⟩ : Shape).Idx → α)
    (h1 : (⟨1, ![O]⟩ : Shape).BroadcastsInDim ⟨2, ![1, O]⟩ (![1] : Fin 1 → Fin 2))
    (h2 : (⟨2, ![1, O]⟩ : Shape).BroadcastsInDim ⟨2, ![R, O]⟩ (![0, 1] : Fin 2 → Fin 2)) (r : Fin R) (o : Fin O) :
    broadcastInDim ⟨2, ![R, O]⟩ ![0, 1] h2 (broadcastInDim ⟨2, ![1, O]⟩ ![1] h1 bias) (ix2 r o) = bias (ix1 o) := by
  have ho := o.isLt
  refine (broadcastInDim_apply _ h2 _ (ix2 r o) (ix2 (0 : Fin 1) o) (fun a => match a with
    | ⟨0, _⟩ => by show (0 : ℕ) = if (1 : ℕ) = 1 then 0 else r.val; rw [if_pos rfl]
    | ⟨1, _⟩ => by
      show o.val = if O = 1 then 0 else o.val
      split <;> omega)).trans ?_
  exact broadcastInDim_apply _ h1 bias (ix2 (0 : Fin 1) o) (ix1 o) (fun a => match a with
    | ⟨0, _⟩ => by
      show o.val = if O = 1 then 0 else o.val
      split <;> omega)

end Layout

/-! ## Arithmetic at the ideal values -/

/-- The logistic spelt 1 / (1 + exp(−z)) with the word of the float 1 for both ones is the ideal
    logistic: the word is 1, and the ideal logistic is by definition that quotient. -/
theorem jaxLogistic_apply {s : Shape} (R : FVec Ideal s .f32) (hb : S_.BroadcastsInDim s (![] : Fin 0 → Fin s.rank))
    (i : s.Idx) :
    Host.divf (F := Ideal) (broadcastInDim s ![] hb (constant (F := Ideal) S_ .f32 0x3F800000#32))
      (addf (broadcastInDim s ![] hb (constant (F := Ideal) S_ .f32 0x3F800000#32)) (Host.exp (Host.negf R))) i
      = Ideal.logistic (R i) := by
  show Ideal.div one (one + Ideal.exp (-(R i))) = Ideal.logistic (R i)
  rw [one_eq]
  rfl

/-- The host's hyperbolic tangent read at an index is the ideal one of the element. -/
theorem hostTanh_apply {s : Shape} (X : FVec Ideal s .f32) (i : s.Idx) : Host.tanh X i = Ideal.tanh (X i) := rfl

/-- THE GRAPH CONVOLUTION of one batch element, at any output width O. Given a feature matrix z6 whose
    column (f, b) is the feature column c f of batch element b, and z7 its first tap, the reference
    stacks z6, z7 and 2 · (A z7) − z6, moves them to (batch · 512 + node, feature · 3 + tap), contracts
    with the weight and adds the bias: at row (b, n) and channel o this is the specification's
    convolution of the columns c, the weight read at row f · 3 + m. -/
theorem gconv_apply {O : ℕ} (Aarr : FVec Ideal S512x512 .f32) (z6 z7 : FVec Ideal S512x2080 .f32)
    (W : FVec Ideal ⟨2, ![195, O]⟩ .f32) (bias : FVec Ideal ⟨1, ![O]⟩ .f32)
    (c : Fin 65 → Fin 512 → EReal) (b : Fin 32)
    (h6 : ∀ (n : Fin 512) (f : Fin 65), z6 (ix2 n (fc f b)) = c f n)
    (h7 : ∀ (n : Fin 512) (f : Fin 65), z7 (ix2 n (fc f b)) = tap1 (fun a k => Aarr (ix2 a k)) (c f) n)
    (DA : DotDims S512x512 S512x2080 S512x2080) (hDA : DA = DotDims.plain 512 512 2080)
    (DW : DotDims S16384x195 ⟨2, ![195, O]⟩ ⟨2, ![16384, O]⟩) (hDW : DW = DotDims.plain 16384 195 O)
    (hb0 : S_.BroadcastsInDim S512x2080 (![] : Fin 0 → Fin S512x2080.rank))
    (hb : S512x2080.BroadcastsInDim S1x512x2080 (![1, 2] : Fin 2 → Fin S1x512x2080.rank))
    (hc : Shape.Concatenates [S1x512x2080, S1x512x2080, S1x512x2080] S3x512x2080 0)
    (h1 : S3x512x2080.ShapeCasts S3x512x65x32) (ht : S3x512x65x32.Transposes [3, 1, 2, 0] S32x512x65x3)
    (h2 : S32x512x65x3.ShapeCasts S16384x195)
    (hbias1 : (⟨1, ![O]⟩ : Shape).BroadcastsInDim ⟨2, ![1, O]⟩ (![1] : Fin 1 → Fin 2))
    (hbias2 : (⟨2, ![1, O]⟩ : Shape).BroadcastsInDim ⟨2, ![16384, O]⟩ (![0, 1] : Fin 2 → Fin 2))
    (n : Fin 512) (o : Fin O) :
    addf (Host.dotGeneral (F := Ideal) DW none
        (shapeCast S16384x195 (transpose S32x512x65x3 [3, 1, 2, 0] (shapeCast S3x512x65x32
          (concatenate S3x512x2080 0
            [⟨S1x512x2080, broadcastInDim S1x512x2080 ![1, 2] hb z6⟩,
             ⟨S1x512x2080, broadcastInDim S1x512x2080 ![1, 2] hb z7⟩,
             ⟨S1x512x2080, broadcastInDim S1x512x2080 ![1, 2] hb
                (subf (mulf (broadcastInDim S512x2080 ![] hb0 (constant (F := Ideal) S_ .f32 0x40000000#32))
                  (Host.dotGeneral (F := Ideal) DA none Aarr z7)) z6)⟩] hc) h1) ht) h2) W)
      (broadcastInDim ⟨2, ![16384, O]⟩ ![0, 1] hbias2 (broadcastInDim ⟨2, ![1, O]⟩ ![1] hbias1 bias)) (ix2 (br b n) o)
      = gconv (fun a k => Aarr (ix2 a k)) c
          (fun (f : Fin 65) (m : Fin 3) (o : Fin O) => W (ix2 (⟨f.val * 3 + m.val, by omega⟩ : Fin 195) o))
          (fun o => bias (ix1 o)) n o := by
  subst hDA hDW
  let xs : List ((s : Shape) × (s.Idx → Ideal .f32)) :=
    [⟨S1x512x2080, broadcastInDim S1x512x2080 ![1, 2] hb z6⟩,
     ⟨S1x512x2080, broadcastInDim S1x512x2080 ![1, 2] hb z7⟩,
     ⟨S1x512x2080, broadcastInDim S1x512x2080 ![1, 2] hb
        (subf (mulf (broadcastInDim S512x2080 ![] hb0 (constant (F := Ideal) S_ .f32 0x40000000#32))
          (Host.dotGeneral (F := Ideal) (DotDims.plain 512 512 2080) none Aarr z7)) z6)⟩]
  refine (addf_apply _ _ _).trans ?_
  unfold gconv
  refine congrArg₂ (· + ·) ?_ (bias_apply bias hbias1 hbias2 (br b n) o)
  refine (dot_plain_apply 16384 195 O none .single _ W (br b n) o).trans ?_
  refine Eq.trans ?_ (sum_feature_tap 65 195 (by norm_num) fun (f : Fin 65) (m : Fin 3) =>
    tap (fun a k => Aarr (ix2 a k)) m (c f) n * W (ix2 (⟨f.val * 3 + m.val, by omega⟩ : Fin 195) o))
  refine Finset.sum_congr rfl fun j _ => ?_
  have hj := j.isLt
  have h3 : j.val % 3 < 3 := Nat.mod_lt _ (by norm_num)
  have hq : j.val / 3 < 65 := by omega
  refine congrArg₂ (· * ·) ?_ ?_
  · -- the row's entry at column j is tap j % 3 of feature j / 3
    obtain h | h | h : j.val % 3 = 0 ∨ j.val % 3 = 1 ∨ j.val % 3 = 2 := by omega
    · have hm : (⟨j.val % 3, h3⟩ : Fin 3) = 0 := Fin.ext h
      rw [hm, tap_zero]
      refine (stack_apply xs z6 hb hc h1 ht h2 0 (by norm_num) (by show (0 : ℕ) < 3; norm_num) rfl rfl b n ⟨j.val / 3, hq⟩ j
        (by show j.val = j.val / 3 * 3 + 0; omega)).trans ?_
      exact h6 n _
    · have hm : (⟨j.val % 3, h3⟩ : Fin 3) = 1 := Fin.ext h
      rw [hm, tap_one]
      refine (stack_apply xs z7 hb hc h1 ht h2 1 (by norm_num) (by show (1 : ℕ) < 3; norm_num) rfl rfl b n ⟨j.val / 3, hq⟩ j
        (by show j.val = j.val / 3 * 3 + 1; omega)).trans ?_
      exact h7 n _
    · have hm : (⟨j.val % 3, h3⟩ : Fin 3) = 2 := Fin.ext h
      rw [hm, tap_two]
      refine (stack_apply xs _ hb hc h1 ht h2 2 (by norm_num) (by show (2 : ℕ) < 3; norm_num) rfl rfl b n ⟨j.val / 3, hq⟩ j
        (by show j.val = j.val / 3 * 3 + 2; omega)).trans ?_
      unfold tap2
      refine (subf_apply _ _ _).trans ?_
      refine congrArg₂ (· - ·) ?_ (h6 n _)
      refine (mulf_apply _ _ _).trans ?_
      refine congrArg₂ (· * ·) rfl ?_
      refine (dot_plain_apply 512 512 2080 none .single Aarr z7 n _).trans ?_
      refine Finset.sum_congr rfl fun k _ => ?_
      rw [h7 k]
  · -- the weight's row j is row (j / 3) · 3 + j % 3
    exact congrArg W (congrArg (fun r : Fin 195 => ix2 r o) (Fin.ext (by show j.val = j.val / 3 * 3 + j.val % 3; omega)))

end Cert.ReferenceIdeal.Lay0

end
-- ==== Proof.RCell0.lean ====
/-
  Layer 0 of the reference at the ideal instance, read index by index. The reference concatenates
  input and state on the feature axis, moves the batch innermost (node, feature · 32 + batch), applies
  the adjacency to that whole matrix once and twice, stacks the three taps, moves batch outermost
  and tap innermost (batch · 512 + node, feature · 3 + tap) and contracts with the weight: at a fixed
  batch row this is the specification's double sum over (feature, tap), the 195 flat columns
  enumerated feature-major. jax spells the logistic as 1 / (1 + exp(−z)), which is the ideal
  logistic once the word for 1 is read as 1.
-/
import proofs.«145957_g44504451121623_cont_8to1_c_180_24_alg».proof.Proof.RunPDefs
import proofs.«145957_g44504451121623_cont_8to1_c_180_24_alg».proof.Proof.Spec
import proofs.«145957_g44504451121623_cont_8to1_c_180_24_alg».proof.Proof.RViews
import proofs.«145957_g44504451121623_cont_8to1_c_180_24_alg».proof.Proof.SpecLaws
import proofs.«145957_g44504451121623_cont_8to1_c_180_24_alg».proof.Proof.RCell0Lay
import Idealize.ShloMosaic.Lib.Pipeline.Value
import Idealize.ShloMosaic.Lib.ValueLayout
import Idealize.ShloMosaic.Lib.ValueIdx
import Idealize.ShloMosaic.PureOps.Ideal.Laws

noncomputable section

namespace Cert.ReferenceIdeal.Sem

open Idealize.ShloMosaic Idealize.ShloMosaic.ValueIdx Idealize.ShloMosaic.StableHlo Cert.ReferenceIdeal Cert.ReferenceIdeal.Gen Cert.ReferenceIdeal.ValueP Cert.DcgruSpec

variable (V0 : Valuation τ sig (Elt Ideal))

/-- Layer 0's state, one batch row flat, at any offset: the stacked state at (0, b, p). -/
theorem v1_flat (b : Fin 32) (p : Fin 32768) :
    res_main_v1 (F := Ideal) V0 (ix2 b p) = aH V0 (ix3 (0 : Fin 2) b p) := by
  unfold res_main_v1
  exact Lay0.state0_apply _ _ _ b p

/-- Layer 0's state, one batch row flat. -/
theorem v1_sem (b : Fin 32) (n : Fin 512) (u : Fin 64) :
    res_main_v1 (F := Ideal) V0 (ix2 b (flatIx n u)) = rH V0 0 b n u :=
  v1_flat V0 b (flatIx n u)

/-- The concatenated features, node-major over the whole batch. -/
theorem v6_sem (n : Fin 512) (f : Fin 65) (b : Fin 32) :
    res_main_v6 (F := Ideal) V0 (ix2 n (fcol0 f b)) = col0 (rX V0 b) (rH V0 0 b) f n := by
  have hf := f.isLt
  unfold res_main_v6
  refine (Lay0.feat_apply _ _ _ _ _ _ _ n f b).trans ?_
  by_cases h0 : f.val = 0
  · simp only [col0, dif_pos h0]
    rfl
  · simp only [col0, dif_neg h0]
    exact v1_sem V0 b n _

/-- Their first tap. -/
theorem v7_sem (n : Fin 512) (f : Fin 65) (b : Fin 32) :
    res_main_v7 (F := Ideal) V0 (ix2 n (fcol0 f b)) = tap1 (rAdj V0) (col0 (rX V0 b) (rH V0 0 b) f) n := by
  unfold res_main_v7
  refine (Lay0.dot_plain_apply 512 512 2080 none .single _ _ n (fcol0 f b)).trans ?_
  unfold tap1
  exact Finset.sum_congr rfl fun k _ => congrArg₂ (· * ·) rfl (v6_sem V0 k f b)

/-- The gates: the logistic of the gate convolution. -/
theorem v30_sem (b : Fin 32) (n : Fin 512) (o : Fin 128) :
    res_main_v30 (F := Ideal) V0 (ix3 b n o)
      = Ideal.logistic (gconv (rAdj V0) (col0 (rX V0 b) (rH V0 0 b)) (wL0 (aWg0 V0)) (bOf (aBg0 V0)) n o) := by
  have hb := b.isLt; have hn := n.isLt; have ho := o.isLt
  unfold res_main_v30
  -- (b, n, o) of the [32, 512, 128] form is offset n · 128 + o of batch row b
  refine (shapeCast_apply _ _ (ix3 b n o) (ix2 b (⟨n.val * 128 + o.val, by omega⟩ : Fin 65536)) ?_).trans ?_
  · rw [Shape.rowMajor_val_two, Shape.rowMajor_val_three]
    show b.val * 65536 + (n.val * 128 + o.val) = (b.val * 512 + n.val) * 128 + o.val
    omega
  refine (Lay0.jaxLogistic_apply _ _ _).trans ?_
  refine congrArg Ideal.logistic ?_
  -- which is row b · 512 + n, column o of the row form
  refine (shapeCast_apply _ _ (ix2 b (⟨n.val * 128 + o.val, by omega⟩ : Fin 65536)) (ix2 (Lay0.br b n) o) ?_).trans ?_
  · rw [Shape.rowMajor_val_two, Shape.rowMajor_val_two]
    show (b.val * 512 + n.val) * 128 + o.val = b.val * 65536 + (n.val * 128 + o.val)
    omega
  exact Lay0.gconv_apply (O := 128) (V0 (Proc.devRef .tc main_arg1)) (res_main_v6 V0) (res_main_v7 V0)
    (V0 (Proc.devRef .tc main_arg3)) (V0 (Proc.devRef .tc main_arg4)) (col0 (rX V0 b) (rH V0 0 b)) b
    (fun n f => v6_sem V0 n f b) (fun n f => v7_sem V0 n f b) _ rfl _ rfl _ _ _ _ _ _ _ _ n o

/-- The update gate, one batch row flat. -/
theorem v34_sem (b : Fin 32) (n : Fin 512) (u : Fin 64) :
    res_main_v34 (F := Ideal) V0 (ix2 b (flatIx n u))
      = gateU (rAdj V0) (col0 (rX V0 b)) (rH V0 0 b) (wL0 (aWg0 V0)) (bOf (aBg0 V0)) n u := by
  have hu := u.isLt
  unfold res_main_v34
  refine (shapeCast_apply _ _ (ix2 b (flatIx n u)) (ix3 b n u) ?_).trans ?_
  · rw [Shape.rowMajor_val_three, Shape.rowMajor_val_two]
    show (b.val * 512 + n.val) * 64 + u.val = b.val * 32768 + (n.val * 64 + u.val)
    omega
  refine (extractStridedSlice_apply _ _ _ (ix3 b n u) (ix3 b n (⟨64 + u.val, by omega⟩ : Fin 128)) (fun a => match a with
    | ⟨0, _⟩ => by show b.val = 0 + b.val; omega
    | ⟨1, _⟩ => by show n.val = 0 + n.val; omega
    | ⟨2, _⟩ => rfl)).trans ?_
  exact v30_sem V0 b n _

/-- The reset gate times the state, one batch row flat. -/
theorem reset_flat (b : Fin 32) (n : Fin 512) (u : Fin 64)
    (hs : S32x512x128.Slices ![0, 0, 0] S32x512x64) (hc : S32x512x64.ShapeCasts S32x32768) :
    mulf (F := Ideal) (s := S32x32768) (φ := .f32) (shapeCast S32x32768 (extractStridedSlice S32x512x64 ![0, 0, 0] (res_main_v30 (F := Ideal) V0) hs) hc)
        (res_main_v1 (F := Ideal) V0) (ix2 b (flatIx n u))
      = resetH (rAdj V0) (col0 (rX V0 b)) (rH V0 0 b) (wL0 (aWg0 V0)) (bOf (aBg0 V0)) n u := by
  have hu := u.isLt
  refine (mulf_apply _ _ _).trans ?_
  unfold resetH
  refine congrArg₂ (· * ·) ?_ (v1_sem V0 b n u)
  refine (shapeCast_apply _ hc (ix2 b (flatIx n u)) (ix3 b n u) ?_).trans ?_
  · rw [Shape.rowMajor_val_three, Shape.rowMajor_val_two]
    show (b.val * 512 + n.val) * 64 + u.val = b.val * 32768 + (n.val * 64 + u.val)
    omega
  refine (extractStridedSlice_apply _ _ hs (ix3 b n u) (ix3 b n (⟨u.val, by omega⟩ : Fin 128)) (fun a => match a with
    | ⟨0, _⟩ => by show b.val = 0 + b.val; omega
    | ⟨1, _⟩ => by show n.val = 0 + n.val; omega
    | ⟨2, _⟩ => by show u.val = 0 + u.val; omega)).trans ?_
  exact v30_sem V0 b n _

/-- The candidate's features: the input and reset gate times state. -/
theorem v40_sem (n : Fin 512) (f : Fin 65) (b : Fin 32) :
    res_main_v40 (F := Ideal) V0 (ix2 n (fcol0 f b))
      = col0 (rX V0 b) (resetH (rAdj V0) (col0 (rX V0 b)) (rH V0 0 b) (wL0 (aWg0 V0)) (bOf (aBg0 V0))) f n := by
  have hf := f.isLt
  unfold res_main_v40
  refine (Lay0.feat_apply _ _ _ _ _ _ _ n f b).trans ?_
  by_cases h0 : f.val = 0
  · simp only [col0, dif_pos h0]
    rfl
  · simp only [col0, dif_neg h0]
    exact reset_flat V0 b n _ _ _

/-- Their first tap. -/
theorem v41_sem (n : Fin 512) (f : Fin 65) (b : Fin 32) :
    res_main_v41 (F := Ideal) V0 (ix2 n (fcol0 f b))
      = tap1 (rAdj V0) (col0 (rX V0 b) (resetH (rAdj V0) (col0 (rX V0 b)) (rH V0 0 b) (wL0 (aWg0 V0)) (bOf (aBg0 V0))) f) n := by
  unfold res_main_v41
  refine (Lay0.dot_plain_apply 512 512 2080 none .single _ _ n (fcol0 f b)).trans ?_
  unfold tap1
  exact Finset.sum_congr rfl fun k _ => congrArg₂ (· * ·) rfl (v40_sem V0 k f b)

/-- Layer 0's new state, one batch row flat. -/
theorem v63_sem (b : Fin 32) (n : Fin 512) (u : Fin 64) :
    res_main_v63 (F := Ideal) V0 (ix2 b (flatIx n u)) = rH0n V0 b n u := by
  have hb := b.isLt; have hn := n.isLt; have hu := u.isLt
  unfold res_main_v63
  refine (addf_apply _ _ _).trans ?_
  unfold rH0n newH
  refine congrArg₂ (· + ·) ?_ ?_
  · -- u · h
    refine (mulf_apply _ _ _).trans ?_
    exact congrArg₂ (· * ·) (v34_sem V0 b n u) (v1_sem V0 b n u)
  · -- (1 − u) · c
    refine (mulf_apply _ _ _).trans ?_
    refine congrArg₂ (· * ·) ?_ ?_
    · refine (subf_apply _ _ _).trans ?_
      exact congrArg₂ (· - ·) rfl (v34_sem V0 b n u)
    · unfold cand
      refine (Lay0.hostTanh_apply _ _).trans ?_
      refine congrArg Ideal.tanh ?_
      refine (shapeCast_apply _ _ (ix2 b (flatIx n u)) (ix2 (Lay0.br b n) u) ?_).trans ?_
      · rw [Shape.rowMajor_val_two, Shape.rowMajor_val_two]
        show (b.val * 512 + n.val) * 64 + u.val = b.val * 32768 + (n.val * 64 + u.val)
        omega
      exact Lay0.gconv_apply (O := 64) (V0 (Proc.devRef .tc main_arg1)) (res_main_v40 V0) (res_main_v41 V0)
        (V0 (Proc.devRef .tc main_arg5)) (V0 (Proc.devRef .tc main_arg6))
        (col0 (rX V0 b) (resetH (rAdj V0) (col0 (rX V0 b)) (rH V0 0 b) (wL0 (aWg0 V0)) (bOf (aBg0 V0)))) b
        (fun n f => v40_sem V0 n f b) (fun n f => v41_sem V0 n f b) _ rfl _ rfl _ _ _ _ _ _ _ _ n u

end Cert.ReferenceIdeal.Sem

end
-- ==== Proof.RCell1Lay.lean ====
/-
  What the reference's layer 1 is made of, read one element at a time. A sum over the 3·Fn flat
  columns of a convolution's row, column j holding tap j mod 3 of feature j div 3, is the double sum
  over features and taps. A plain matrix product M×K by K×N at (i, j) is the sum over k of the
  operands at (i, k) and (k, j). Each reshape, transpose, slice, broadcast and concatenation of the
  layer reads one element of its operand, at the index with the same row-major position or the
  permuted, shifted or dropped coordinates.
-/
import proofs.«145957_g44504451121623_cont_8to1_c_180_24_alg».proof.Proof.Gen.ReferenceIdeal
import proofs.«145957_g44504451121623_cont_8to1_c_180_24_alg».proof.Proof.Spec
import proofs.«145957_g44504451121623_cont_8to1_c_180_24_alg».proof.Proof.SpecLaws
import Idealize.ShloMosaic.Lib.Pipeline.Value
import Idealize.ShloMosaic.Lib.ValueLayout
import Idealize.ShloMosaic.Lib.ValueIdx
import Idealize.ShloMosaic.PureOps.Ideal.Laws
import Mathlib.Logic.Equiv.Fin.Basic

noncomputable section

namespace Cert.ReferenceIdeal.Sem.RCell1

open Idealize.ShloMosaic Idealize.ShloMosaic.ValueIdx Cert.ReferenceIdeal Cert.ReferenceIdeal.Gen Cert.DcgruSpec

/-! ## Layer 1's feature columns by halves -/

/-- Features 0..63 are the input's channels. -/
theorem col1_lo (x s : Fin 512 → Fin 64 → EReal) (f : Fin 128) (k : Fin 512) (h : f.val < 64) :
    col1 x s f k = x k ⟨f.val, h⟩ := by
  unfold col1
  exact dif_pos h
/-- Features 64..127 are the state's channels. -/
theorem col1_hi (x s : Fin 512 → Fin 64 → EReal) (f : Fin 128) (k : Fin 512) (h : ¬f.val < 64) :
    col1 x s f k = s k ⟨f.val - 64, by have := f.isLt; omega⟩ := by
  unfold col1
  exact dif_neg h

/-! ## Feature-major enumeration of (feature, tap) pairs -/

/-- A sum over the `Fn · 3` flat columns, column `j` being the pair (j div 3, j mod 3), is the double sum
    over the pairs: (f, m) ↦ m + 3 f is a bijection onto the columns. -/
theorem sum_flat3 {Fn N : ℕ} (hN : N = Fn * 3) (g : Fin Fn → Fin 3 → EReal) :
    ∑ j : Fin N, g ⟨j.val / 3, by have := j.isLt; omega⟩ ⟨j.val % 3, Nat.mod_lt _ (by decide)⟩
      = ∑ f : Fin Fn, ∑ m : Fin 3, g f m := by
  subst hN
  rw [← Equiv.sum_comp (finProdFinEquiv (m := Fn) (n := 3))
    (fun j : Fin (Fn * 3) => g ⟨j.val / 3, by have := j.isLt; omega⟩ ⟨j.val % 3, Nat.mod_lt _ (by decide)⟩),
    Fintype.sum_prod_type]
  refine Finset.sum_congr rfl fun f _ => Finset.sum_congr rfl fun m _ => ?_
  refine congrArg₂ g (Fin.ext ?_) (Fin.ext ?_)
  · show (m.val + 3 * f.val) / 3 = f.val
    have := m.isLt; omega
  · show (m.val + 3 * f.val) % 3 = m.val
    have := m.isLt; omega

/-! ## A plain matrix product read at an index -/

section Dot
variable (M K N : ℕ)

theorem lhs_plain_0 (i : (⟨2, ![M, N]⟩ : Shape).Idx) (q : (DotDims.plain M K N).contr.Idx) :
    ((DotDims.plain M K N).lhsIdx i q 0).val = (i 0).val := rfl
theorem lhs_plain_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q
theorem rhs_plain_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q
theorem rhs_plain_1 (i : (⟨2, ![M, N]⟩ : Shape).Idx) (q : (DotDims.plain M K N).contr.Idx) :
    ((DotDims.plain M K N).rhsIdx i q 1).val = (i 1).val := rfl

/-- The host's product of an M×K by a K×N matrix at (i, j): the sum over the contracted coordinate. -/
theorem plain_dot_apply {φ₁ φ₂ : FTy} (l : FVec Ideal ⟨2, ![M, K]⟩ φ₁) (r : FVec Ideal ⟨2, ![K, N]⟩ φ₂)
    (i : Fin M) (j : Fin N) :
    Host.dotGeneral (DotDims.plain M K N) none l r (ix2 i j) = ∑ k : Fin K, l (ix2 i k) * r (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_plain_0 M K N _ _
      | ⟨1, _⟩ => exact (lhs_plain_1 M K N _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_plain_0 M K N _ _).trans hk
      | ⟨1, _⟩ => exact rhs_plain_1 M K N _ _)
  rw [el, er]

end Dot

/-- The four products of the layer are plain ones. -/
theorem dotA_eq : dot_S512x512_S512x4096_S512x4096_1_0_0_1_n_n = DotDims.plain 512 512 4096 := rfl
theorem dotG_eq : dot_S16384x384_S384x128_S16384x128_1_0_0_1_n_n = DotDims.plain 16384 384 128 := rfl
theorem dotC_eq : dot_S16384x384_S384x64_S16384x64_1_0_0_1_n_n = DotDims.plain 16384 384 64 := rfl
theorem dotP_eq : dot_S16384x64_S64x1_S16384x1_1_0_0_1_n_n = DotDims.plain 16384 64 1 := rfl

/-! ## The layer's layout operations read at an index -/

section Layout
variable {α : Type}

/-- Layer 1's slice of the stacked hidden states. -/
theorem slice_state1 (x : S2x32x32768.Idx → α) (b : Fin 32) (p : Fin 32768) :
    extractStridedSlice S1x32x32768 ![1, 0, 0] x slices_S2x32x32768_S1x32x32768_1_0_0 (ix3 (0 : Fin 1) b p)
      = x (ix3 (1 : Fin 2) b p) :=
  extractStridedSlice_apply _ x _ _ _ fun a => match a with
    | ⟨0, _⟩ => by show (1 : ℕ) = 1 + 0; rfl
    | ⟨1, _⟩ => by show b.val = 0 + b.val; omega
    | ⟨2, _⟩ => by show p.val = 0 + p.val; omega

/-- Dropping the unit leading axis. -/
theorem cast_drop1 (x : S1x32x32768.Idx → α) (b : Fin 32) (p : Fin 32768) :
    shapeCast S32x32768 x shapeCasts_S1x32x32768_S32x32768 (ix2 b p) = x (ix3 (0 : Fin 1) b p) :=
  shapeCast_apply x _ _ _ (by
    rw [Shape.rowMajor_val_three, Shape.rowMajor_val_two]
    show (0 * 32 + b.val) * 32768 + p.val = b.val * 32768 + p.val
    omega)

/-- A batch row flat to (node, channel). -/
theorem cast_flat_nc (x : S32x32768.Idx → α) (b : Fin 32) (n : Fin 512) (u : Fin 64) :
    shapeCast S32x512x64 x shapeCasts_S32x32768_S32x512x64 (ix3 b n u) = x (ix2 b (flatIx n u)) :=
  shapeCast_apply x _ _ _ (by
    rw [Shape.rowMajor_val_two, Shape.rowMajor_val_three]
    show b.val * 32768 + (n.val * 64 + u.val) = (b.val * 512 + n.val) * 64 + u.val
    omega)

/-- (node, channel) back to a flat batch row. -/
theorem cast_nc_flat (x : S32x512x64.Idx → α) (b : Fin 32) (n : Fin 512) (u : Fin 64) :
    shapeCast S32x32768 x shapeCasts_S32x512x64_S32x32768 (ix2 b (flatIx n u)) = x (ix3 b n u) :=
  shapeCast_apply x _ _ _ (by
    rw [Shape.rowMajor_val_three, Shape.rowMajor_val_two]
    show (b.val * 512 + n.val) * 64 + u.val = b.val * 32768 + (n.val * 64 + u.val)
    omega)

/-- The two 64-channel halves side by side: the first 64 features from the first, the rest from the second. -/
theorem concat_feat (a c : S32x512x64.Idx → α) (b : Fin 32) (n : Fin 512) (f : Fin 128) :
    concatenate S32x512x128 2 [⟨S32x512x64, a⟩, ⟨S32x512x64, c⟩] concatenates_S32x512x64_S32x512x64_S32x512x128_d2 (ix3 b n f)
      = if h : f.val < 64 then a (ix3 b n ⟨f.val, h⟩) else c (ix3 b n ⟨f.val - 64, by have := f.isLt; omega⟩) := by
  by_cases h : f.val < 64
  · rw [dif_pos h]
    exact concatenate_pair_apply_left (t := S32x512x128) 2 a c _ (ix3 b n f) rfl (ix3 b n ⟨f.val, h⟩) fun d => match d with
      | ⟨0, _⟩ => rfl
      | ⟨1, _⟩ => rfl
      | ⟨2, _⟩ => rfl
  · rw [dif_neg h]
    refine concatenate_pair_apply_right (t := S32x512x128) 2 a c _ (ix3 b n f) rfl rfl
      (ix3 b n ⟨f.val - 64, by have := f.isLt; omega⟩) (fun d hd => ?_) ?_
    · match d with
      | ⟨0, _⟩ => rfl
      | ⟨1, _⟩ => rfl
      | ⟨2, _⟩ => exact absurd rfl hd
    · show f.val - 64 + 64 = f.val
      omega

/-- (batch, node, feature) to (node, feature, batch). -/
theorem transpose_nfb (x : S32x512x128.Idx → α) (n : Fin 512) (f : Fin 128) (b : Fin 32) :
    transpose S512x128x32 [1, 2, 0] x transposes_S32x512x128_S512x128x32_1_2_0 (ix3 n f b) = x (ix3 b n f) :=
  transpose_apply _ x _ _ _ fun d => match d with
    | ⟨0, _⟩ => rfl
    | ⟨1, _⟩ => rfl
    | ⟨2, _⟩ => rfl

/-- (node, feature, batch) to node-major columns feature · 32 + batch. -/
theorem cast_nfb_cols (x : S512x128x32.Idx → α) (n : Fin 512) (f : Fin 128) (b : Fin 32) (c : Fin 4096)
    (hc : c.val = f.val * 32 + b.val) :
    shapeCast S512x4096 x shapeCasts_S512x128x32_S512x4096 (ix2 n c) = x (ix3 n f b) :=
  shapeCast_apply x _ _ _ (by
    rw [Shape.rowMajor_val_three, Shape.rowMajor_val_two]
    show (n.val * 128 + f.val) * 32 + b.val = n.val * 4096 + c.val
    omega)

/-- The feature matrix of a cell: two flat (batch, node · 64 + channel) arrays side by side as 128 features,
    node-major over the whole batch. -/
theorem feat_apply (x y : S32x32768.Idx → α) (n : Fin 512) (f : Fin 128) (b : Fin 32) (c : Fin 4096)
    (hc : c.val = f.val * 32 + b.val) :
    shapeCast S512x4096 (transpose S512x128x32 [1, 2, 0] (concatenate S32x512x128 2
        [⟨S32x512x64, shapeCast S32x512x64 x shapeCasts_S32x32768_S32x512x64⟩,
         ⟨S32x512x64, shapeCast S32x512x64 y shapeCasts_S32x32768_S32x512x64⟩]
        concatenates_S32x512x64_S32x512x64_S32x512x128_d2) transposes_S32x512x128_S512x128x32_1_2_0)
        shapeCasts_S512x128x32_S512x4096 (ix2 n c)
      = if h : f.val < 64 then x (ix2 b (flatIx n ⟨f.val, h⟩))
        else y (ix2 b (flatIx n ⟨f.val - 64, by have := f.isLt; omega⟩)) := by
  rw [cast_nfb_cols _ n f b c hc, transpose_nfb, concat_feat]
  by_cases h : f.val < 64
  · rw [dif_pos h, dif_pos h, cast_flat_nc]
  · rw [dif_neg h, dif_neg h, cast_flat_nc]

/-- A matrix given a unit leading axis. -/
theorem bcast_lead (x : S512x4096.Idx → α) (n : Fin 512) (c : Fin 4096) :
    broadcastInDim S1x512x4096 ![1, 2] bcast_S512x4096_S1x512x4096_1_2 x (ix3 (0 : Fin 1) n c) = x (ix2 n c) :=
  broadcastInDim_apply _ _ x _ _ fun a => match a with
    | ⟨0, _⟩ => by show n.val = if (512 : ℕ) = 1 then 0 else n.val; rw [if_neg (by decide)]
    | ⟨1, _⟩ => by show c.val = if (4096 : ℕ) = 1 then 0 else c.val; rw [if_neg (by decide)]

/-- Three matrices stacked along a new leading axis: the leading coordinate picks the piece. -/
theorem concat3_apply (p0 p1 p2 : S1x512x4096.Idx → α) (m : Fin 3) (n : Fin 512) (c : Fin 4096) :
    concatenate S3x512x4096 0 [⟨S1x512x4096, p0⟩, ⟨S1x512x4096, p1⟩, ⟨S1x512x4096, p2⟩]
        concatenates_S1x512x4096_S1x512x4096_S1x512x4096_S3x512x4096_d0 (ix3 m n c)
      = (if m.val = 0 then p0 else if m.val = 1 then p1 else p2) (ix3 (0 : Fin 1) n c) := by
  match m with
  | ⟨0, _⟩ =>
    refine concatenate_apply_piece (t := S3x512x4096) 0
      [⟨S1x512x4096, p0⟩, ⟨S1x512x4096, p1⟩, ⟨S1x512x4096, p2⟩] _ (ix3 (⟨0, by decide⟩ : Fin 3) n c) 0 (by show (0 : ℕ) < 3; omega)
      S1x512x4096 p0 rfl rfl 0 rfl (ix3 (0 : Fin 1) n c) (fun d hd => ?_) rfl
    match d with
    | ⟨0, _⟩ => exact absurd rfl hd
    | ⟨1, _⟩ => rfl
    | ⟨2, _⟩ => rfl
  | ⟨1, _⟩ =>
    refine concatenate_apply_piece (t := S3x512x4096) 0
      [⟨S1x512x4096, p0⟩, ⟨S1x512x4096, p1⟩, ⟨S1x512x4096, p2⟩] _ (ix3 (⟨1, by decide⟩ : Fin 3) n c) 1 (by show (1 : ℕ) < 3; omega)
      S1x512x4096 p1 rfl rfl 1 rfl (ix3 (0 : Fin 1) n c) (fun d hd => ?_) rfl
    match d with
    | ⟨0, _⟩ => exact absurd rfl hd
    | ⟨1, _⟩ => rfl
    | ⟨2, _⟩ => rfl
  | ⟨2, _⟩ =>
    refine concatenate_apply_piece (t := S3x512x4096) 0
      [⟨S1x512x4096, p0⟩, ⟨S1x512x4096, p1⟩, ⟨S1x512x4096, p2⟩] _ (ix3 (⟨2, by decide⟩ : Fin 3) n c) 2 (by show (2 : ℕ) < 3; omega)
      S1x512x4096 p2 rfl rfl 2 rfl (ix3 (0 : Fin 1) n c) (fun d hd => ?_) rfl
    match d with
    | ⟨0, _⟩ => exact absurd rfl hd
    | ⟨1, _⟩ => rfl
    | ⟨2, _⟩ => rfl

/-- The stacked matrices' columns split into (feature, batch). -/
theorem cast_cols_fb (x : S3x512x4096.Idx → α) (m : Fin 3) (n : Fin 512) (f : Fin 128) (b : Fin 32) (c : Fin 4096)
    (hc : c.val = f.val * 32 + b.val) :
    shapeCast S3x512x128x32 x shapeCasts_S3x512x4096_S3x512x128x32 (ix4 m n f b) = x (ix3 m n c) :=
  shapeCast_apply x _ _ _ (by
    rw [Shape.rowMajor_val_three, Shape.rowMajor_val_four]
    show (m.val * 512 + n.val) * 4096 + c.val = ((m.val * 512 + n.val) * 128 + f.val) * 32 + b.val
    omega)

/-- (tap, node, feature, batch) to (batch, node, feature, tap). -/
theorem transpose_bnfm (x : S3x512x128x32.Idx → α) (b : Fin 32) (n : Fin 512) (f : Fin 128) (m : Fin 3) :
    transpose S32x512x128x3 [3, 1, 2, 0] x transposes_S3x512x128x32_S32x512x128x3_3_1_2_0 (ix4 b n f m) = x (ix4 m n f b) :=
  transpose_apply _ x _ _ _ fun d => match d with
    | ⟨0, _⟩ => rfl
    | ⟨1, _⟩ => rfl
    | ⟨2, _⟩ => rfl
    | ⟨3, _⟩ => rfl

/-- (batch, node, feature, tap) to rows batch · 512 + node and flat columns feature · 3 + tap. -/
theorem cast_rows_cols (x : S32x512x128x3.Idx → α) (b : Fin 32) (n : Fin 512) (f : Fin 128) (m : Fin 3) (j : Fin 384)
    (hj : j.val = f.val * 3 + m.val) :
    shapeCast S16384x384 x shapeCasts_S32x512x128x3_S16384x384 (ix2 (brow b n) j) = x (ix4 b n f m) :=
  shapeCast_apply x _ _ _ (by
    rw [Shape.rowMajor_val_four, Shape.rowMajor_val_two]
    show ((b.val * 512 + n.val) * 128 + f.val) * 3 + m.val = (b.val * 512 + n.val) * 384 + j.val
    omega)

/-- A bias vector broadcast down the rows of a matrix (through a one-row matrix). -/
theorem bias_apply {R O : ℕ} (B : (⟨1, ![O]⟩ : Shape).Idx → α)
    (h1 : (⟨1, ![O]⟩ : Shape).BroadcastsInDim ⟨2, ![1, O]⟩ (![1] : Fin 1 → Fin (⟨2, ![1, O]⟩ : Shape).rank))
    (h2 : (⟨2, ![1, O]⟩ : Shape).BroadcastsInDim ⟨2, ![R, O]⟩ (![0, 1] : Fin 2 → Fin (⟨2, ![R, O]⟩ : Shape).rank))
    (r : Fin R) (o : Fin O) :
    broadcastInDim ⟨2, ![R, O]⟩ ![0, 1] h2 (broadcastInDim ⟨2, ![1, O]⟩ ![1] h1 B) (ix2 r o) = B (ix1 o) := by
  refine (broadcastInDim_apply _ _ _ _ (ix2 (0 : Fin 1) o) fun a => match a with
    | ⟨0, _⟩ => by show (0 : ℕ) = if (1 : ℕ) = 1 then 0 else r.val; rw [if_pos rfl]
    | ⟨1, _⟩ => by
      show o.val = if O = 1 then 0 else o.val
      split_ifs with hO
      · have := o.isLt; omega
      · rfl).trans ?_
  exact broadcastInDim_apply _ _ _ _ _ fun a => match a with
    | ⟨0, _⟩ => by
      show o.val = if O = 1 then 0 else o.val
      split_ifs with hO
      · have := o.isLt; omega
      · rfl

/-- The gate convolution's rows (batch · 512 + node) × 128 channels as a flat batch row. -/
theorem cast_rows128_flat (x : S16384x128.Idx → α) (b : Fin 32) (n : Fin 512) (o : Fin 128) (q : Fin 65536)
    (hq : q.val = n.val * 128 + o.val) :
    shapeCast S32x65536 x shapeCasts_S16384x128_S32x65536 (ix2 b q) = x (ix2 (brow b n) o) :=
  shapeCast_apply x _ _ _ (by
    rw [Shape.rowMajor_val_two, Shape.rowMajor_val_two]
    show (b.val * 512 + n.val) * 128 + o.val = b.val * 65536 + q.val
    omega)

/-- A flat batch row as (node, 128 channels). -/
theorem cast_flat_n128 (x : S32x65536.Idx → α) (b : Fin 32) (n : Fin 512) (o : Fin 128) :
    shapeCast S32x512x128 x shapeCasts_S32x65536_S32x512x128 (ix3 b n o)
      = x (ix2 b ⟨n.val * 128 + o.val, by have := n.isLt; have := o.isLt; omega⟩) :=
  shapeCast_apply x _ _ _ (by
    rw [Shape.rowMajor_val_two, Shape.rowMajor_val_three]
    show b.val * 65536 + (n.val * 128 + o.val) = (b.val * 512 + n.val) * 128 + o.val
    omega)

/-- The reset half of the gates: channels 0..63. -/
theorem slice_lo (x : S32x512x128.Idx → α) (b : Fin 32) (n : Fin 512) (u : Fin 64) :
    extractStridedSlice S32x512x64 ![0, 0, 0] x slices_S32x512x128_S32x512x64_0_0_0 (ix3 b n u)
      = x (ix3 b n (⟨u.val, by have := u.isLt; omega⟩ : Fin 128)) :=
  extractStridedSlice_apply _ x _ _ _ fun a => match a with
    | ⟨0, _⟩ => by show b.val = 0 + b.val; omega
    | ⟨1, _⟩ => by show n.val = 0 + n.val; omega
    | ⟨2, _⟩ => by show u.val = 0 + u.val; omega

/-- The update half of the gates: channels 64..127. -/
theorem slice_hi (x : S32x512x128.Idx → α) (b : Fin 32) (n : Fin 512) (u : Fin 64) :
    extractStridedSlice S32x512x64 ![0, 0, 64] x slices_S32x512x128_S32x512x64_0_0_64 (ix3 b n u)
      = x (ix3 b n (⟨64 + u.val, by have := u.isLt; omega⟩ : Fin 128)) :=
  extractStridedSlice_apply _ x _ _ _ fun a => match a with
    | ⟨0, _⟩ => by show b.val = 0 + b.val; omega
    | ⟨1, _⟩ => by show n.val = 0 + n.val; omega
    | ⟨2, _⟩ => rfl

/-- The candidate convolution's rows (batch · 512 + node) × 64 channels as a flat batch row. -/
theorem cast_rows64_flat (x : S16384x64.Idx → α) (b : Fin 32) (n : Fin 512) (u : Fin 64) :
    shapeCast S32x32768 x shapeCasts_S16384x64_S32x32768 (ix2 b (flatIx n u)) = x (ix2 (brow b n) u) :=
  shapeCast_apply x _ _ _ (by
    rw [Shape.rowMajor_val_two, Shape.rowMajor_val_two]
    show (b.val * 512 + n.val) * 64 + u.val = b.val * 32768 + (n.val * 64 + u.val)
    omega)

/-- A flat batch row as rows (batch · 512 + node) × 64 channels. -/
theorem cast_flat_rows64 (x : S32x32768.Idx → α) (b : Fin 32) (n : Fin 512) (u : Fin 64) :
    shapeCast S16384x64 x shapeCasts_S32x32768_S16384x64 (ix2 (brow b n) u) = x (ix2 b (flatIx n u)) :=
  shapeCast_apply x _ _ _ (by
    rw [Shape.rowMajor_val_two, Shape.rowMajor_val_two]
    show b.val * 32768 + (n.val * 64 + u.val) = (b.val * 512 + n.val) * 64 + u.val
    omega)

/-- The projection's one column as (batch, node). -/
theorem cast_col_bn (x : S16384x1.Idx → α) (b : Fin 32) (n : Fin 512) :
    shapeCast S32x512 x shapeCasts_S16384x1_S32x512 (ix2 b n) = x (ix2 (brow b n) (0 : Fin 1)) :=
  shapeCast_apply x _ _ _ (by
    rw [Shape.rowMajor_val_two, Shape.rowMajor_val_two]
    show (b.val * 512 + n.val) * 1 + 0 = b.val * 512 + n.val
    omega)

/-- A flat state given a unit leading axis. -/
theorem bcast_state (x : S32x32768.Idx → α) (b : Fin 32) (p : Fin 32768) :
    broadcastInDim S1x32x32768 ![1, 2] bcast_S32x32768_S1x32x32768_1_2 x (ix3 (0 : Fin 1) b p) = x (ix2 b p) :=
  broadcastInDim_apply _ _ x _ _ fun a => match a with
    | ⟨0, _⟩ => by show b.val = if (32 : ℕ) = 1 then 0 else b.val; rw [if_neg (by decide)]
    | ⟨1, _⟩ => by show p.val = if (32768 : ℕ) = 1 then 0 else p.val; rw [if_neg (by decide)]

/-- The two layers' states stacked: the leading coordinate picks the layer. -/
theorem concat_layers (a c : S1x32x32768.Idx → α) (l : Fin 2) (b : Fin 32) (p : Fin 32768) :
    concatenate S2x32x32768 0 [⟨S1x32x32768, a⟩, ⟨S1x32x32768, c⟩] concatenates_S1x32x32768_S1x32x32768_S2x32x32768_d0 (ix3 l b p)
      = if l.val = 0 then a (ix3 (0 : Fin 1) b p) else c (ix3 (0 : Fin 1) b p) := by
  have hl2 := l.isLt
  by_cases hl : l.val = 0
  · rw [if_pos hl]
    exact concatenate_pair_apply_left (t := S2x32x32768) 0 a c _ (ix3 l b p) rfl (ix3 (0 : Fin 1) b p) fun d => match d with
      | ⟨0, _⟩ => by show (0 : ℕ) = l.val; omega
      | ⟨1, _⟩ => rfl
      | ⟨2, _⟩ => rfl
  · rw [if_neg hl]
    refine concatenate_pair_apply_right (t := S2x32x32768) 0 a c _ (ix3 l b p) rfl rfl (ix3 (0 : Fin 1) b p) (fun d hd => ?_) ?_
    · match d with
      | ⟨0, _⟩ => exact absurd rfl hd
      | ⟨1, _⟩ => rfl
      | ⟨2, _⟩ => rfl
    · show 0 + 1 = l.val
      omega

end Layout

/-! ## The three taps of a feature matrix, regrouped for the weight contraction -/

section Taps
variable (A : FVec Ideal S512x512 .f32) (z : FVec Ideal S512x4096 .f32)

/-- An adjacency array as a function of two node indices. -/
def adjOf : Fin 512 → Fin 512 → EReal := fun a k => A (ix2 a k)
/-- Column `c` of a feature matrix as a node signal. -/
def colOf (c : Fin 4096) : Fin 512 → EReal := fun k => z (ix2 k c)

/-- First tap: the product with the adjacency. -/
theorem tap1_apply (n : Fin 512) (c : Fin 4096) :
    Host.dotGeneral dot_S512x512_S512x4096_S512x4096_1_0_0_1_n_n none A z (ix2 n c) = tap1 (adjOf A) (colOf z c) n := by
  rw [dotA_eq, plain_dot_apply]
  rfl

/-- Second tap: twice the adjacency applied twice, less the signal. -/
theorem tap2_apply (n : Fin 512) (c : Fin 4096) :
    subf (mulf (broadcastInDim S512x4096 ![] bcast_S_S512x4096 (constant (F := Ideal) S_ .f32 0x40000000#32))
        (Host.dotGeneral dot_S512x512_S512x4096_S512x4096_1_0_0_1_n_n none A (Host.dotGeneral dot_S512x512_S512x4096_S512x4096_1_0_0_1_n_n none A z))) z (ix2 n c)
      = tap2 (adjOf A) (colOf z c) n := by
  rw [subf_apply, mulf_apply]
  show two * Host.dotGeneral dot_S512x512_S512x4096_S512x4096_1_0_0_1_n_n none A (Host.dotGeneral dot_S512x512_S512x4096_S512x4096_1_0_0_1_n_n none A z) (ix2 n c) - z (ix2 n c) = _
  rw [dotA_eq, plain_dot_apply]
  unfold tap2
  refine congrArg (fun s => two * s - z (ix2 n c)) (Finset.sum_congr rfl fun k _ => ?_)
  rw [plain_dot_apply]
  rfl

/-- The three taps of every column stacked, their columns split into (feature, batch), and regrouped as rows
    (batch, node) by flat columns (feature, tap). -/
def taps3 : FVec Ideal S16384x384 .f32 :=
  shapeCast S16384x384 (transpose S32x512x128x3 [3, 1, 2, 0] (shapeCast S3x512x128x32 (concatenate S3x512x4096 0 [⟨S1x512x4096, (broadcastInDim S1x512x4096 ![1, 2] bcast_S512x4096_S1x512x4096_1_2 z)⟩, ⟨S1x512x4096, (broadcastInDim S1x512x4096 ![1, 2] bcast_S512x4096_S1x512x4096_1_2 (Host.dotGeneral dot_S512x512_S512x4096_S512x4096_1_0_0_1_n_n none A z))⟩, ⟨S1x512x4096, (broadcastInDim S1x512x4096 ![1, 2] bcast_S512x4096_S1x512x4096_1_2 (subf (mulf (broadcastInDim S512x4096 ![] bcast_S_S512x4096 (constant S_ .f32 0x40000000#32)) (Host.dotGeneral dot_S512x512_S512x4096_S512x4096_1_0_0_1_n_n none A (Host.dotGeneral dot_S512x512_S512x4096_S512x4096_1_0_0_1_n_n none A z))) z))⟩] concatenates_S1x512x4096_S1x512x4096_S1x512x4096_S3x512x4096_d0) shapeCasts_S3x512x4096_S3x512x128x32) transposes_S3x512x128x32_S32x512x128x3_3_1_2_0) shapeCasts_S32x512x128x3_S16384x384

/-- Row (batch, node), flat column feature · 3 + tap of the regrouped taps: that tap of that feature's column of the
    batch row, at the node. -/
theorem taps3_apply (b : Fin 32) (n : Fin 512) (f : Fin 128) (m : Fin 3) (j : Fin 384) (hj : j.val = f.val * 3 + m.val)
    (c : Fin 4096) (hc : c.val = f.val * 32 + b.val) :
    taps3 A z (ix2 (brow b n) j) = tap (adjOf A) m (colOf z c) n := by
  unfold taps3
  rw [cast_rows_cols _ b n f m j hj, transpose_bnfm, cast_cols_fb _ m n f b c hc, concat3_apply]
  match m with
  | ⟨0, _⟩ => exact bcast_lead z n c
  | ⟨1, _⟩ => exact (bcast_lead _ n c).trans (tap1_apply A z n c)
  | ⟨2, _⟩ => exact (bcast_lead _ n c).trans (tap2_apply A z n c)

end Taps

/-! ## The weight contraction and the two activations -/

section Conv

/-- A convolution's last step at row (batch, node), channel `o`: the flat columns' contraction against the weight
    rows is the double sum over features and taps against the weight table, plus the bias. -/
theorem conv_apply {O : ℕ} (T : FVec Ideal S16384x384 .f32) (W : FVec Ideal ⟨2, ![384, O]⟩ .f32) (B : FVec Ideal ⟨1, ![O]⟩ .f32)
    (h1 : (⟨1, ![O]⟩ : Shape).BroadcastsInDim ⟨2, ![1, O]⟩ (![1] : Fin 1 → Fin (⟨2, ![1, O]⟩ : Shape).rank))
    (h2 : (⟨2, ![1, O]⟩ : Shape).BroadcastsInDim ⟨2, ![16384, O]⟩ (![0, 1] : Fin 2 → Fin (⟨2, ![16384, O]⟩ : Shape).rank))
    (b : Fin 32) (n : Fin 512) (o : Fin O) (g : Fin 128 → Fin 3 → EReal)
    (hT : ∀ (f : Fin 128) (m : Fin 3) (j : Fin 384), j.val = f.val * 3 + m.val → T (ix2 (brow b n) j) = g f m) :
    addf (Host.dotGeneral (DotDims.plain 16384 384 O) none T W)
        (broadcastInDim ⟨2, ![16384, O]⟩ ![0, 1] h2 (broadcastInDim ⟨2, ![1, O]⟩ ![1] h1 B)) (ix2 (brow b n) o)
      = (∑ f : Fin 128, ∑ m : Fin 3, g f m * wL1 W f m o) + bOf B o := by
  rw [addf_apply, plain_dot_apply, bias_apply]
  refine congrArg (· + bOf B o) ?_
  rw [← sum_flat3 (Fn := 128) (N := 384) rfl (fun f m => g f m * wL1 W f m o)]
  refine Finset.sum_congr rfl fun j _ => ?_
  have hj3 : j.val / 3 < 128 := by have := j.isLt; omega
  rw [hT ⟨j.val / 3, hj3⟩ ⟨j.val % 3, Nat.mod_lt _ (by decide)⟩ j (by show j.val = j.val / 3 * 3 + j.val % 3; omega)]
  refine congrArg (g ⟨j.val / 3, hj3⟩ ⟨j.val % 3, Nat.mod_lt _ (by decide)⟩ * ·) ?_
  unfold wL1
  refine congrArg (fun t : Fin 384 => W (ix2 t o)) (Fin.ext ?_)
  show j.val = j.val / 3 * 3 + j.val % 3
  omega

/-- The logistic written out as 1 / (1 + exp (−x)), both ones the word of the float 1. -/
theorem logistic_chain (X : FVec Ideal S32x65536 .f32) (i : S32x65536.Idx) :
    Host.divf (broadcastInDim S32x65536 ![] bcast_S_S32x65536 (constant (F := Ideal) S_ .f32 0x3F800000#32))
        (addf (broadcastInDim S32x65536 ![] bcast_S_S32x65536 (constant (F := Ideal) S_ .f32 0x3F800000#32))
          (Host.exp (Host.negf X))) i
      = Ideal.logistic (X i) := by
  show Ideal.div one (one + Ideal.exp (-(X i))) = _
  rw [one_eq]
  rfl

/-- The gates' chain after the regrouped taps: contraction with the gate weight, bias, logistic, as (batch, node, channel). -/
def gateChain (T : FVec Ideal S16384x384 .f32) (W : FVec Ideal S384x128 .f32) (B : FVec Ideal S128 .f32) :
    FVec Ideal S32x512x128 .f32 :=
  shapeCast S32x512x128 (Host.divf (broadcastInDim S32x65536 ![] bcast_S_S32x65536 (constant S_ .f32 0x3F800000#32)) (addf (broadcastInDim S32x65536 ![] bcast_S_S32x65536 (constant S_ .f32 0x3F800000#32)) (Host.exp (Host.negf (shapeCast S32x65536 (addf (Host.dotGeneral dot_S16384x384_S384x128_S16384x128_1_0_0_1_n_n none T W) (broadcastInDim S16384x128 ![0, 1] bcast_S1x128_S16384x128_0_1 (broadcastInDim S1x128 ![1] bcast_S128_S1x128_1 B))) shapeCasts_S16384x128_S32x65536))))) shapeCasts_S32x65536_S32x512x128

theorem gateChain_apply (T : FVec Ideal S16384x384 .f32) (W : FVec Ideal S384x128 .f32) (B : FVec Ideal S128 .f32)
    (b : Fin 32) (n : Fin 512) (o : Fin 128) (g : Fin 128 → Fin 3 → EReal)
    (hT : ∀ (f : Fin 128) (m : Fin 3) (j : Fin 384), j.val = f.val * 3 + m.val → T (ix2 (brow b n) j) = g f m) :
    gateChain T W B (ix3 b n o) = Ideal.logistic ((∑ f : Fin 128, ∑ m : Fin 3, g f m * wL1 W f m o) + bOf B o) := by
  unfold gateChain
  rw [cast_flat_n128, logistic_chain, cast_rows128_flat _ b n o _ rfl, dotG_eq]
  exact congrArg Ideal.logistic (conv_apply T W B _ _ b n o g hT)

/-- The candidate's chain after the regrouped taps: contraction with the candidate weight, bias, tanh, one batch row flat. -/
def candChain (T : FVec Ideal S16384x384 .f32) (W : FVec Ideal S384x64 .f32) (B : FVec Ideal S64 .f32) :
    FVec Ideal S32x32768 .f32 :=
  Host.tanh (shapeCast S32x32768 (addf (Host.dotGeneral dot_S16384x384_S384x64_S16384x64_1_0_0_1_n_n none T W) (broadcastInDim S16384x64 ![0, 1] bcast_S1x64_S16384x64_0_1 (broadcastInDim S1x64 ![1] bcast_S64_S1x64_1 B))) shapeCasts_S16384x64_S32x32768)

theorem candChain_apply (T : FVec Ideal S16384x384 .f32) (W : FVec Ideal S384x64 .f32) (B : FVec Ideal S64 .f32)
    (b : Fin 32) (n : Fin 512) (u : Fin 64) (g : Fin 128 → Fin 3 → EReal)
    (hT : ∀ (f : Fin 128) (m : Fin 3) (j : Fin 384), j.val = f.val * 3 + m.val → T (ix2 (brow b n) j) = g f m) :
    candChain T W B (ix2 b (flatIx n u)) = Ideal.tanh ((∑ f : Fin 128, ∑ m : Fin 3, g f m * wL1 W f m u) + bOf B u) := by
  unfold candChain
  show Ideal.tanh (shapeCast S32x32768 (addf (Host.dotGeneral dot_S16384x384_S384x64_S16384x64_1_0_0_1_n_n none T W) (broadcastInDim S16384x64 ![0, 1] bcast_S1x64_S16384x64_0_1 (broadcastInDim S1x64 ![1] bcast_S64_S1x64_1 B))) shapeCasts_S16384x64_S32x32768 (ix2 b (flatIx n u))) = _
  rw [cast_rows64_flat, dotC_eq]
  exact congrArg Ideal.tanh (conv_apply T W B _ _ b n u g hT)

/-- The projection's chain: the new state as rows (batch, node) by channels, contracted with the one weight column,
    plus the one-element bias, as (batch, node). -/
theorem projChain_apply (Hn : FVec Ideal S32x32768 .f32) (W : FVec Ideal S64x1 .f32) (B : FVec Ideal S1 .f32)
    (b : Fin 32) (n : Fin 512) :
    shapeCast S32x512 (addf (Host.dotGeneral dot_S16384x64_S64x1_S16384x1_1_0_0_1_n_n none (shapeCast S16384x64 Hn shapeCasts_S32x32768_S16384x64) W) (broadcastInDim S16384x1 ![0, 1] bcast_S1x1_S16384x1_0_1 (broadcastInDim S1x1 ![1] bcast_S1_S1x1_1 B))) shapeCasts_S16384x1_S32x512 (ix2 b n)
      = (∑ u : Fin 64, Hn (ix2 b (flatIx n u)) * W (ix2 u (0 : Fin 1))) + B (ix1 (0 : Fin 1)) := by
  rw [cast_col_bn, addf_apply, dotP_eq, plain_dot_apply, bias_apply]
  refine congrArg (· + B (ix1 (0 : Fin 1))) (Finset.sum_congr rfl fun u _ => ?_)
  rw [cast_flat_rows64]

end Conv

end Cert.ReferenceIdeal.Sem.RCell1

end
-- ==== Proof.RCell1.lean ====
/-
  Layer 1 of the reference and its two results at the ideal instance, read index by index. The
  layer's input is layer 0's new state; features are the 64 input channels then the 64 state
  channels; the 384 flat columns of each convolution are enumerated feature-major. The projection
  contracts the 64 channels of the new state with the projection weight's single column and adds
  the scalar bias; the hidden-state result stacks the two layers' new states.
-/
import proofs.«145957_g44504451121623_cont_8to1_c_180_24_alg».proof.Proof.RunPDefs
import proofs.«145957_g44504451121623_cont_8to1_c_180_24_alg».proof.Proof.Spec
import proofs.«145957_g44504451121623_cont_8to1_c_180_24_alg».proof.Proof.RViews
import proofs.«145957_g44504451121623_cont_8to1_c_180_24_alg».proof.Proof.SpecLaws
import proofs.«145957_g44504451121623_cont_8to1_c_180_24_alg».proof.Proof.RCell1Lay
import Idealize.ShloMosaic.Lib.Pipeline.Value
import Idealize.ShloMosaic.Lib.ValueLayout
import Idealize.ShloMosaic.Lib.ValueIdx
import Idealize.ShloMosaic.PureOps.Ideal.Laws

noncomputable section

namespace Cert.ReferenceIdeal.Sem

open Idealize.ShloMosaic Idealize.ShloMosaic.ValueIdx Idealize.ShloMosaic.StableHlo Cert.ReferenceIdeal Cert.ReferenceIdeal.Gen Cert.ReferenceIdeal.ValueP Cert.DcgruSpec

open Cert.ReferenceIdeal.Sem.RCell1

variable (V0 : Valuation τ sig (Elt Ideal))

/-- The projection result's composed term (the run's, over a valuation). -/
def resOut : Vec Ideal S32x512 .f32 :=
  shapeCast _ (addf (Host.dotGeneral (φ₂ := .f32) dot_S16384x64_S64x1_S16384x1_1_0_0_1_n_n none (shapeCast _ (res_main_v127 V0) shapeCasts_S32x32768_S16384x64) (V0 (Proc.devRef .tc main_arg11))) (broadcastInDim S16384x1 ![0, 1] bcast_S1x1_S16384x1_0_1 (broadcastInDim S1x1 ![1] bcast_S1_S1x1_1 (V0 (Proc.devRef .tc main_arg12))))) shapeCasts_S16384x1_S32x512

/-- The hidden-state result's composed term (the run's, over a valuation). -/
def resHs : Vec Ideal S2x32x32768 .f32 :=
  concatenate S2x32x32768 0 [⟨S1x32x32768, (broadcastInDim S1x32x32768 ![1, 2] bcast_S32x32768_S1x32x32768_1_2 (res_main_v63 V0))⟩, ⟨S1x32x32768, (broadcastInDim S1x32x32768 ![1, 2] bcast_S32x32768_S1x32x32768_1_2 (res_main_v127 V0))⟩] concatenates_S1x32x32768_S1x32x32768_S2x32x32768_d0

/-- Layer 1's state, one batch row flat. -/
theorem v65_sem (b : Fin 32) (n : Fin 512) (u : Fin 64) :
    res_main_v65 (F := Ideal) V0 (ix2 b (flatIx n u)) = rH V0 1 b n u := by
  unfold res_main_v65
  refine (cast_drop1 _ b _).trans ?_
  rw [slice_state1]
  rfl

section Layer1
/- What layer 0 left, as an assumption about the reference's own value, so that this layer is
    read independently of how layer 0 was. -/
variable (h63 : ∀ (b : Fin 32) (n : Fin 512) (u : Fin 64), res_main_v63 (F := Ideal) V0 (ix2 b (flatIx n u)) = rH0n V0 b n u)
include h63

/-- The concatenated features, node-major over the whole batch. -/
theorem v70_sem (n : Fin 512) (f : Fin 128) (b : Fin 32) :
    res_main_v70 (F := Ideal) V0 (ix2 n (fcol1 f b)) = col1 (rH0n V0 b) (rH V0 1 b) f n := by
  unfold res_main_v70
  refine (feat_apply _ _ n f b (fcol1 f b) rfl).trans ?_
  by_cases h : f.val < 64
  · rw [dif_pos h, col1_lo _ _ f n h, h63]
  · rw [dif_neg h, col1_hi _ _ f n h, v65_sem]

/-- Their first tap. -/
theorem v71_sem (n : Fin 512) (f : Fin 128) (b : Fin 32) :
    res_main_v71 (F := Ideal) V0 (ix2 n (fcol1 f b)) = tap1 (rAdj V0) (col1 (rH0n V0 b) (rH V0 1 b) f) n := by
  unfold res_main_v71
  rw [tap1_apply]
  exact congrArg (fun zz => tap1 (rAdj V0) zz n) (funext fun k => v70_sem V0 h63 k f b)

/-- The gates: the logistic of the gate convolution. -/
theorem v94_sem (b : Fin 32) (n : Fin 512) (o : Fin 128) :
    res_main_v94 (F := Ideal) V0 (ix3 b n o)
      = Ideal.logistic (gconv (rAdj V0) (col1 (rH0n V0 b) (rH V0 1 b)) (wL1 (aWg1 V0)) (bOf (aBg1 V0)) n o) := by
  have e : res_main_v94 (F := Ideal) V0
      = gateChain (taps3 (V0 (Proc.devRef .tc main_arg1)) (res_main_v70 V0)) (V0 (Proc.devRef .tc main_arg7)) (V0 (Proc.devRef .tc main_arg8)) := rfl
  rw [e, gateChain_apply _ _ _ b n o (fun f m => tap (rAdj V0) m (col1 (rH0n V0 b) (rH V0 1 b) f) n)]
  · rfl
  · intro f m j hj
    rw [taps3_apply _ _ b n f m j hj (fcol1 f b) rfl]
    exact congrArg (fun zz => tap (rAdj V0) m zz n) (funext fun k => v70_sem V0 h63 k f b)

/-- The update gate, one batch row flat. -/
theorem v98_sem (b : Fin 32) (n : Fin 512) (u : Fin 64) :
    res_main_v98 (F := Ideal) V0 (ix2 b (flatIx n u))
      = gateU (rAdj V0) (col1 (rH0n V0 b)) (rH V0 1 b) (wL1 (aWg1 V0)) (bOf (aBg1 V0)) n u := by
  unfold res_main_v98
  refine (cast_nc_flat _ b n u).trans ?_
  rw [slice_hi, v94_sem V0 h63]
  rfl

/-- The candidate's features: the input and reset gate times state. -/
theorem v104_sem (n : Fin 512) (f : Fin 128) (b : Fin 32) :
    res_main_v104 (F := Ideal) V0 (ix2 n (fcol1 f b))
      = col1 (rH0n V0 b) (resetH (rAdj V0) (col1 (rH0n V0 b)) (rH V0 1 b) (wL1 (aWg1 V0)) (bOf (aBg1 V0))) f n := by
  unfold res_main_v104
  refine (feat_apply _ _ n f b (fcol1 f b) rfl).trans ?_
  by_cases h : f.val < 64
  · rw [dif_pos h, col1_lo _ _ f n h, h63]
  · rw [dif_neg h, col1_hi _ _ f n h, mulf_apply, cast_nc_flat, slice_lo, v94_sem V0 h63, v65_sem]
    rfl

/-- Their first tap. -/
theorem v105_sem (n : Fin 512) (f : Fin 128) (b : Fin 32) :
    res_main_v105 (F := Ideal) V0 (ix2 n (fcol1 f b))
      = tap1 (rAdj V0) (col1 (rH0n V0 b) (resetH (rAdj V0) (col1 (rH0n V0 b)) (rH V0 1 b) (wL1 (aWg1 V0)) (bOf (aBg1 V0))) f) n := by
  unfold res_main_v105
  rw [tap1_apply]
  exact congrArg (fun zz => tap1 (rAdj V0) zz n) (funext fun k => v104_sem V0 h63 k f b)

/-- Layer 1's new state, one batch row flat. -/
theorem v127_sem (b : Fin 32) (n : Fin 512) (u : Fin 64) :
    res_main_v127 (F := Ideal) V0 (ix2 b (flatIx n u)) = rH1n V0 b n u := by
  have e : res_main_v127 (F := Ideal) V0
      = addf (mulf (res_main_v98 V0) (res_main_v65 V0))
          (mulf (subf (broadcastInDim S32x32768 ![] bcast_S_S32x32768 (constant S_ .f32 0x3F800000#32)) (res_main_v98 V0))
            (candChain (taps3 (V0 (Proc.devRef .tc main_arg1)) (res_main_v104 V0)) (V0 (Proc.devRef .tc main_arg9)) (V0 (Proc.devRef .tc main_arg10)))) := rfl
  rw [e, addf_apply, mulf_apply, mulf_apply, subf_apply, v98_sem V0 h63, v65_sem,
    candChain_apply _ _ _ b n u (fun f m => tap (rAdj V0) m (col1 (rH0n V0 b)
      (resetH (rAdj V0) (col1 (rH0n V0 b)) (rH V0 1 b) (wL1 (aWg1 V0)) (bOf (aBg1 V0))) f) n)]
  · rfl
  · intro f m j hj
    rw [taps3_apply _ _ b n f m j hj (fcol1 f b) rfl]
    exact congrArg (fun zz => tap (rAdj V0) m zz n) (funext fun k => v104_sem V0 h63 k f b)

/-- The projection result. -/
theorem resOut_sem (b : Fin 32) (n : Fin 512) :
    resOut V0 (ix2 b n) = proj (rH1n V0 b) (fun u => aWp V0 (ix2 u 0)) (aBp V0 (ix1 0)) n := by
  unfold resOut
  refine (projChain_apply _ _ _ b n).trans ?_
  unfold proj
  exact congrArg (· + aBp V0 (ix1 0)) (Finset.sum_congr rfl fun u _ => by rw [v127_sem V0 h63])

/-- The hidden-state result: the two layers' new states stacked. -/
theorem resHs_sem (l : Fin 2) (b : Fin 32) (n : Fin 512) (u : Fin 64) :
    resHs V0 (ix3 l b (flatIx n u)) = if l.val = 0 then rH0n V0 b n u else rH1n V0 b n u := by
  unfold resHs
  rw [concat_layers]
  by_cases hl : l.val = 0
  · rw [if_pos hl, if_pos hl, bcast_state, h63]
  · rw [if_neg hl, if_neg hl, bcast_state, v127_sem V0 h63]

end Layer1

end Cert.ReferenceIdeal.Sem

end
-- ==== Proof.RFinal.lean ====
/-
  The reference's two results are the shared whole-array functions of its argument arrays: at every
  index the run's composed term reads as the specification's value there.
-/
import proofs.«145957_g44504451121623_cont_8to1_c_180_24_alg».proof.Proof.RCell0
import proofs.«145957_g44504451121623_cont_8to1_c_180_24_alg».proof.Proof.RCell1
import proofs.«145957_g44504451121623_cont_8to1_c_180_24_alg».proof.Proof.Whole

noncomputable section

namespace Cert.ReferenceIdeal.Sem

open Idealize.ShloMosaic Idealize.ShloMosaic.ValueIdx Idealize.ShloMosaic.StableHlo Cert.ReferenceIdeal Cert.ReferenceIdeal.Gen Cert.ReferenceIdeal.ValueP Cert.DcgruSpec

variable (V0 : Valuation τ sig (Elt Ideal))

theorem rH0n_eq (b : Fin 32) :
    rH0n V0 b = gH0n (aX V0) (aA V0) (aH V0) (aWg0 V0) (aBg0 V0) (aWc0 V0) (aBc0 V0) b := rfl

theorem rH1n_eq (b : Fin 32) :
    rH1n V0 b = gH1n (aX V0) (aA V0) (aH V0) (aWg0 V0) (aBg0 V0) (aWc0 V0) (aBc0 V0)
      (aWg1 V0) (aBg1 V0) (aWc1 V0) (aBc1 V0) b := rfl

/-- The projection result. -/
theorem resOut_eq : resOut V0 = gOut (aX V0) (aA V0) (aH V0) (aWg0 V0) (aBg0 V0) (aWc0 V0) (aBc0 V0)
    (aWg1 V0) (aBg1 V0) (aWc1 V0) (aBc1 V0) (aWp V0) (aBp V0) := by
  funext i
  obtain ⟨b, n, rfl⟩ : ∃ (b : Fin 32) (n : Fin 512), i = ix2 b n := ⟨i 0, i 1, eq_ix2 i⟩
  rw [resOut_sem V0 (v63_sem V0), gOut_apply, rH1n_eq]

/-- The hidden-state result. -/
theorem resHs_eq : resHs V0 = gHs (aX V0) (aA V0) (aH V0) (aWg0 V0) (aBg0 V0) (aWc0 V0) (aBc0 V0)
    (aWg1 V0) (aBg1 V0) (aWc1 V0) (aBc1 V0) := by
  funext i
  obtain ⟨l, b, j, rfl⟩ : ∃ (l : Fin 2) (b : Fin 32) (j : Fin 32768), i = ix3 l b j := ⟨i 0, i 1, i 2, eq_ix3 i⟩
  obtain ⟨n, u, rfl⟩ : ∃ (n : Fin 512) (u : Fin 64), j = flatIx n u := ⟨_, _, (flatIx_divmod j).symm⟩
  rw [resHs_sem V0 (v63_sem V0), gHs_apply, rH0n_eq, rH1n_eq]

end Cert.ReferenceIdeal.Sem

end
-- ==== Proof.RRun.lean ====
/-
  The reference's run, read chunk by chunk. Its @main is a straight line of 147 host operations in which
  every buffer is written once. Read as ONE fold, a result's contents expand every shared intermediate
  into a tree; cut after the operations that write the named intermediates (the state slices, the
  concatenated features and their first tap, the gates, the candidate's features, the new states), each
  chunk is read alone over the valuation the chunk before it left: a buffer the chunk does not write
  keeps its contents, and a buffer it writes is the chunk's operations applied to contents already
  named. The eleven valuations compose to the whole fold, whose two results are the run's.
-/
import proofs.«145957_g44504451121623_cont_8to1_c_180_24_alg».proof.Proof.RunPDefs

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- The contents before the first chunk. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl
theorem val0_main_arg11 (V0 : Valuation τ sig (Elt F)) : val0 V0 (no_index (Proc.devRef .tc main_arg11)) = V0 (Proc.devRef .tc main_arg11) := rfl
theorem val0_main_arg12 (V0 : Valuation τ sig (Elt F)) : val0 V0 (no_index (Proc.devRef .tc main_arg12)) = V0 (Proc.devRef .tc main_arg12) := rfl

/-! ## Chunk 0: operations 1 to 2 -/

abbrev ops_c0 : List (HloOp τ sig (Elt F)) :=
  [ unary main_arg2 main_v0 ((extractStridedSlice S1x32x32768 ![0, 0, 0] · slices_S2x32x32768_S1x32x32768_0_0_0) : (⟨S2x32x32768, .f32⟩ : BufTy).Contents (Elt F) → (⟨S1x32x32768, .f32⟩ : BufTy).Contents (Elt F)),
    reshape main_v0 main_v1 rfl shapeCasts_S1x32x32768_S32x32768 ]
abbrev ops_c0_W : List (Ref sig .tc) := [main_v0, main_v1]
set_option maxRecDepth 8192 in
theorem ops_c0_writes : (ops_c0 : List (HloOp τ sig (Elt F))).Forall fun op => op.writes ⊆ (ops_c0_W.map (Proc.devRef (τ := τ) .tc)).toFinset := by
  simp only [List.Forall]
  repeat' constructor
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- The contents after chunk 0. -/
def val1 (V0 : Valuation τ sig (Elt F)) : Valuation τ sig (Elt F) := after ops_c0 (val0 V0)
theorem val1_keep (V0 : Valuation τ sig (Elt F)) (r : Ref sig .tc) (h : r ∉ ops_c0_W) :
    val1 V0 (Proc.devRef .tc r) = val0 V0 (Proc.devRef .tc r) :=
  after_of_writes_sub ops_c0 _ ops_c0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
theorem val1_main_arg8 (V0 : Valuation τ sig (Elt F)) : val1 V0 (no_index (Proc.devRef .tc main_arg8)) = V0 (Proc.devRef .tc main_arg8) :=
  (val1_keep V0 main_arg8 (by decide)).trans (val0_main_arg8 V0)
theorem val1_main_arg9 (V0 : Valuation τ sig (Elt F)) : val1 V0 (no_index (Proc.devRef .tc main_arg9)) = V0 (Proc.devRef .tc main_arg9) :=
  (val1_keep V0 main_arg9 (by decide)).trans (val0_main_arg9 V0)
theorem val1_main_arg10 (V0 : Valuation τ sig (Elt F)) : val1 V0 (no_index (Proc.devRef .tc main_arg10)) = V0 (Proc.devRef .tc main_arg10) :=
  (val1_keep V0 main_arg10 (by decide)).trans (val0_main_arg10 V0)
theorem val1_main_arg11 (V0 : Valuation τ sig (Elt F)) : val1 V0 (no_index (Proc.devRef .tc main_arg11)) = V0 (Proc.devRef .tc main_arg11) :=
  (val1_keep V0 main_arg11 (by decide)).trans (val0_main_arg11 V0)
theorem val1_main_arg12 (V0 : Valuation τ sig (Elt F)) : val1 V0 (no_index (Proc.devRef .tc main_arg12)) = V0 (Proc.devRef .tc main_arg12) :=
  (val1_keep V0 main_arg12 (by decide)).trans (val0_main_arg12 V0)
set_option maxRecDepth 8192 in
set_option maxHeartbeats 8000000 in
/-- `main_v1` after chunk 0 alone, over any contents `W` before it. -/
theorem rd_main_v1 (W : Valuation τ sig (Elt F)) : after ops_c0 W (Proc.devRef .tc main_v1) = shapeCast _ (extractStridedSlice S1x32x32768 ![0, 0, 0] (W (Proc.devRef .tc main_arg2)) slices_S2x32x32768_S1x32x32768_0_0_0) shapeCasts_S1x32x32768_S32x32768 := by
  simp only [ops_c0]
  try after_results_simp
  try dsimp only [Matrix.cons_val]
  try after_results_simp
  try rfl
set_option maxRecDepth 8192 in
set_option maxHeartbeats 8000000 in
theorem val1_main_v1 (V0 : Valuation τ sig (Elt F)) : val1 V0 (no_index (Proc.devRef .tc main_v1)) = res_main_v1 V0 := by
  show after ops_c0 (val0 V0) (Proc.devRef .tc main_v1) = _
  rw [rd_main_v1 (val0 V0)]
  rw [val0_main_arg2]
  try rfl

/-! ## Chunk 1: operations 3 to 8 -/

abbrev ops_c1 : List (HloOp τ sig (Elt F)) :=
  [ reshape main_arg0 main_v2 rfl shapeCasts_S32x512_S32x512x1,
    reshape main_v1 main_v3 rfl shapeCasts_S32x32768_S32x512x64,
    binary main_v2 main_v3 main_v4 ((fun a b => concatenate S32x512x65 2 [⟨S32x512x1, a⟩, ⟨S32x512x64, b⟩] concatenates_S32x512x1_S32x512x64_S32x512x65_d2) : (⟨S32x512x1, .f32⟩ : BufTy).Contents (Elt F) → (⟨S32x512x64, .f32⟩ : BufTy).Contents (Elt F) → (⟨S32x512x65, .f32⟩ : BufTy).Contents (Elt F)),
    unary main_v4 main_v5 ((transpose S512x65x32 [1, 2, 0] · transposes_S32x512x65_S512x65x32_1_2_0) : (⟨S32x512x65, .f32⟩ : BufTy).Contents (Elt F) → (⟨S512x65x32, .f32⟩ : BufTy).Contents (Elt F)),
    reshape main_v5 main_v6 rfl shapeCasts_S512x65x32_S512x2080,
    binary main_arg1 main_v6 main_v7 ((fun l r => Host.dotGeneral dot_S512x512_S512x2080_S512x2080_1_0_0_1_n_n none l r) : (⟨S512x512, .f32⟩ : BufTy).Contents (Elt F) → (⟨S512x2080, .f32⟩ : BufTy).Contents (Elt F) → (⟨S512x2080, .f32⟩ : BufTy).Contents (Elt F)) ]
abbrev ops_c1_W : List (Ref sig .tc) := [main_v2, main_v3, main_v4, main_v5, main_v6, main_v7]
set_option maxRecDepth 8192 in
theorem ops_c1_writes : (ops_c1 : List (HloOp τ sig (Elt F))).Forall fun op => op.writes ⊆ (ops_c1_W.map (Proc.devRef (τ := τ) .tc)).toFinset := by
  simp only [List.Forall]
  repeat' constructor
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- The contents after chunk 1. -/
def val2 (V0 : Valuation τ sig (Elt F)) : Valuation τ sig (Elt F) := after ops_c1 (val1 V0)
theorem val2_keep (V0 : Valuation τ sig (Elt F)) (r : Ref sig .tc) (h : r ∉ ops_c1_W) :
    val2 V0 (Proc.devRef .tc r) = val1 V0 (Proc.devRef .tc r) :=
  after_of_writes_sub ops_c1 _ ops_c1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)
theorem val2_main_arg10 (V0 : Valuation τ sig (Elt F)) : val2 V0 (no_index (Proc.devRef .tc main_arg10)) = V0 (Proc.devRef .tc main_arg10) :=
  (val2_keep V0 main_arg10 (by decide)).trans (val1_main_arg10 V0)
theorem val2_main_arg11 (V0 : Valuation τ sig (Elt F)) : val2 V0 (no_index (Proc.devRef .tc main_arg11)) = V0 (Proc.devRef .tc main_arg11) :=
  (val2_keep V0 main_arg11 (by decide)).trans (val1_main_arg11 V0)
theorem val2_main_arg12 (V0 : Valuation τ sig (Elt F)) : val2 V0 (no_index (Proc.devRef .tc main_arg12)) = V0 (Proc.devRef .tc main_arg12) :=
  (val2_keep V0 main_arg12 (by decide)).trans (val1_main_arg12 V0)
theorem val2_main_v1 (V0 : Valuation τ sig (Elt F)) : val2 V0 (no_index (Proc.devRef .tc main_v1)) = res_main_v1 V0 :=
  (val2_keep V0 main_v1 (by decide)).trans (val1_main_v1 V0)
set_option maxRecDepth 8192 in
set_option maxHeartbeats 8000000 in
/-- `main_v6` after chunk 1 alone, over any contents `W` before it. -/
theorem rd_main_v6 (W : Valuation τ sig (Elt F)) : after ops_c1 W (Proc.devRef .tc main_v6) = shapeCast _ (transpose S512x65x32 [1, 2, 0] (concatenate S32x512x65 2 [⟨S32x512x1, (shapeCast _ (W (Proc.devRef .tc main_arg0)) shapeCasts_S32x512_S32x512x1)⟩, ⟨S32x512x64, (shapeCast _ (W (Proc.devRef .tc main_v1)) shapeCasts_S32x32768_S32x512x64)⟩] concatenates_S32x512x1_S32x512x64_S32x512x65_d2) transposes_S32x512x65_S512x65x32_1_2_0) shapeCasts_S512x65x32_S512x2080 := by
  simp only [ops_c1]
  try after_results_simp
  try dsimp only [Matrix.cons_val]
  try after_results_simp
  try rfl
set_option maxRecDepth 8192 in
set_option maxHeartbeats 8000000 in
theorem val2_main_v6 (V0 : Valuation τ sig (Elt F)) : val2 V0 (no_index (Proc.devRef .tc main_v6)) = res_main_v6 V0 := by
  show after ops_c1 (val1 V0) (Proc.devRef .tc main_v6) = _
  rw [rd_main_v6 (val1 V0)]
  rw [val1_main_v1, val1_main_arg0]
  try rfl
set_option maxRecDepth 8192 in
set_option maxHeartbeats 8000000 in
/-- `main_v7` after chunk 1 alone, over any contents `W` before it. -/
theorem rd_main_v7 (W : Valuation τ sig (Elt F)) : after ops_c1 W (Proc.devRef .tc main_v7) = Host.dotGeneral dot_S512x512_S512x2080_S512x2080_1_0_0_1_n_n none (W (Proc.devRef .tc main_arg1)) (shapeCast _ (transpose S512x65x32 [1, 2, 0] (concatenate S32x512x65 2 [⟨S32x512x1, (shapeCast _ (W (Proc.devRef .tc main_arg0)) shapeCasts_S32x512_S32x512x1)⟩, ⟨S32x512x64, (shapeCast _ (W (Proc.devRef .tc main_v1)) shapeCasts_S32x32768_S32x512x64)⟩] concatenates_S32x512x1_S32x512x64_S32x512x65_d2) transposes_S32x512x65_S512x65x32_1_2_0) shapeCasts_S512x65x32_S512x2080) := by
  simp only [ops_c1]
  try after_results_simp
  try dsimp only [Matrix.cons_val]
  try after_results_simp
  try rfl
set_option maxRecDepth 8192 in
set_option maxHeartbeats 8000000 in
theorem val2_main_v7 (V0 : Valuation τ sig (Elt F)) : val2 V0 (no_index (Proc.devRef .tc main_v7)) = res_main_v7 V0 := by
  show after ops_c1 (val1 V0) (Proc.devRef .tc main_v7) = _
  rw [rd_main_v7 (val1 V0)]
  rw [val1_main_v1, val1_main_arg0, val1_main_arg1]
  try rfl

/-! ## Chunk 2: operations 9 to 34 -/

abbrev ops_c2 : List (HloOp τ sig (Elt F)) :=
  [ binary main_arg1 main_v7 main_v8 ((fun l r => Host.dotGeneral dot_S512x512_S512x2080_S512x2080_1_0_0_1_n_n none l r) : (⟨S512x512, .f32⟩ : BufTy).Contents (Elt F) → (⟨S512x2080, .f32⟩ : BufTy).Contents (Elt F) → (⟨S512x2080, .f32⟩ : BufTy).Contents (Elt F)),
    nullary main_cst (constant S_ .f32 0x40000000#32),
    unary main_cst main_v9 (broadcastInDim S512x2080 ![] bcast_S_S512x2080 : (⟨S_, .f32⟩ : BufTy).Contents (Elt F) → (⟨S512x2080, .f32⟩ : BufTy).Contents (Elt F)),
    binary main_v9 main_v8 main_v10 (mulf : (⟨S512x2080, .f32⟩ : BufTy).Contents (Elt F) → (⟨S512x2080, .f32⟩ : BufTy).Contents (Elt F) → (⟨S512x2080, .f32⟩ : BufTy).Contents (Elt F)),
    binary main_v10 main_v6 main_v11 (subf : (⟨S512x2080, .f32⟩ : BufTy).Contents (Elt F) → (⟨S512x2080, .f32⟩ : BufTy).Contents (Elt F) → (⟨S512x2080, .f32⟩ : BufTy).Contents (Elt F)),
    unary main_v6 main_v12 (broadcastInDim S1x512x2080 ![1, 2] bcast_S512x2080_S1x512x2080_1_2 : (⟨S512x2080, .f32⟩ : BufTy).Contents (Elt F) → (⟨S1x512x2080, .f32⟩ : BufTy).Contents (Elt F)),
    unary main_v7 main_v13 (broadcastInDim S1x512x2080 ![1, 2] bcast_S512x2080_S1x512x2080_1_2 : (⟨S512x2080, .f32⟩ : BufTy).Contents (Elt F) → (⟨S1x512x2080, .f32⟩ : BufTy).Contents (Elt F)),
    unary main_v11 main_v14 (broadcastInDim S1x512x2080 ![1, 2] bcast_S512x2080_S1x512x2080_1_2 : (⟨S512x2080, .f32⟩ : BufTy).Contents (Elt F) → (⟨S1x512x2080, .f32⟩ : BufTy).Contents (Elt F)),
    nary ![main_v12, main_v13, main_v14] main_v15 (fun u => concatenate S3x512x2080 0 [⟨S1x512x2080, u 0⟩, ⟨S1x512x2080, u 1⟩, ⟨S1x512x2080, u 2⟩] concatenates_S1x512x2080_S1x512x2080_S1x512x2080_S3x512x2080_d0),
    reshape main_v15 main_v16 rfl shapeCasts_S3x512x2080_S3x512x65x32,
    unary main_v16 main_v17 ((transpose S32x512x65x3 [3, 1, 2, 0] · transposes_S3x512x65x32_S32x512x65x3_3_1_2_0) : (⟨S3x512x65x32, .f32⟩ : BufTy).Contents (Elt F) → (⟨S32x512x65x3, .f32⟩ : BufTy).Contents (Elt F)),
    reshape main_v17 main_v18 rfl shapeCasts_S32x512x65x3_S16384x195,
    binary main_v18 main_arg3 main_v19 ((fun l r => Host.dotGeneral dot_S16384x195_S195x128_S16384x128_1_0_0_1_n_n none l r) : (⟨S16384x195, .f32⟩ : BufTy).Contents (Elt F) → (⟨S195x128, .f32⟩ : BufTy).Contents (Elt F) → (⟨S16384x128, .f32⟩ : BufTy).Contents (Elt F)),
    unary main_arg4 main_v20 (broadcastInDim S1x128 ![1] bcast_S128_S1x128_1 : (⟨S128, .f32⟩ : BufTy).Contents (Elt F) → (⟨S1x128, .f32⟩ : BufTy).Contents (Elt F)),
    unary main_v20 main_v21 (broadcastInDim S16384x128 ![0, 1] bcast_S1x128_S16384x128_0_1 : (⟨S1x128, .f32⟩ : BufTy).Contents (Elt F) → (⟨S16384x128, .f32⟩ : BufTy).Contents (Elt F)),
    binary main_v19 main_v21 main_v22 (addf : (⟨S16384x128, .f32⟩ : BufTy).Contents (Elt F) → (⟨S16384x128, .f32⟩ : BufTy).Contents (Elt F) → (⟨S16384x128, .f32⟩ : BufTy).Contents (Elt F)),
    reshape main_v22 main_v23 rfl shapeCasts_S16384x128_S32x65536,
    unary main_v23 main_v24 (Host.negf : (⟨S32x65536, .f32⟩ : BufTy).Contents (Elt F) → (⟨S32x65536, .f32⟩ : BufTy).Contents (Elt F)),
    unary main_v24 main_v25 (Host.exp : (⟨S32x65536, .f32⟩ : BufTy).Contents (Elt F) → (⟨S32x65536, .f32⟩ : BufTy).Contents (Elt F)),
    nullary main_cst_0 (constant S_ .f32 0x3F800000#32),
    unary main_cst_0 main_v26 (broadcastInDim S32x65536 ![] bcast_S_S32x65536 : (⟨S_, .f32⟩ : BufTy).Contents (Elt F) → (⟨S32x65536, .f32⟩ : BufTy).Contents (Elt F)),
    binary main_v26 main_v25 main_v27 (addf : (⟨S32x65536, .f32⟩ : BufTy).Contents (Elt F) → (⟨S32x65536, .f32⟩ : BufTy).Contents (Elt F) → (⟨S32x65536, .f32⟩ : BufTy).Contents (Elt F)),
    nullary main_cst_1 (constant S_ .f32 0x3F800000#32),
    unary main_cst_1 main_v28 (broadcastInDim S32x65536 ![] bcast_S_S32x65536 : (⟨S_, .f32⟩ : BufTy).Contents (Elt F) → (⟨S32x65536, .f32⟩ : BufTy).Contents (Elt F)),
    binary main_v28 main_v27 main_v29 (Host.divf : (⟨S32x65536, .f32⟩ : BufTy).Contents (Elt F) → (⟨S32x65536, .f32⟩ : BufTy).Contents (Elt F) → (⟨S32x65536, .f32⟩ : BufTy).Contents (Elt F)),
    reshape main_v29 main_v30 rfl shapeCasts_S32x65536_S32x512x128 ]
abbrev ops_c2_W : List (Ref sig .tc) := [main_v8, main_cst, main_v9, main_v10, main_v11, main_v12, main_v13, main_v14, main_v15, main_v16, main_v17, main_v18, main_v19, main_v20, main_v21, main_v22, main_v23, main_v24, main_v25, main_cst_0, main_v26, main_v27, main_cst_1, main_v28, main_v29, main_v30]
set_option maxRecDepth 8192 in
theorem ops_c2_writes : (ops_c2 : List (HloOp τ sig (Elt F))).Forall fun op => op.writes ⊆ (ops_c2_W.map (Proc.devRef (τ := τ) .tc)).toFinset := by
  simp only [List.Forall]
  repeat' constructor
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- The contents after chunk 2. -/
def val3 (V0 : Valuation τ sig (Elt F)) : Valuation τ sig (Elt F) := after ops_c2 (val2 V0)
theorem val3_keep (V0 : Valuation τ sig (Elt F)) (r : Ref sig .tc) (h : r ∉ ops_c2_W) :
    val3 V0 (Proc.devRef .tc r) = val2 V0 (Proc.devRef .tc r) :=
  after_of_writes_sub ops_c2 _ ops_c2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
theorem val3_main_arg10 (V0 : Valuation τ sig (Elt F)) : val3 V0 (no_index (Proc.devRef .tc main_arg10)) = V0 (Proc.devRef .tc main_arg10) :=
  (val3_keep V0 main_arg10 (by decide)).trans (val2_main_arg10 V0)
theorem val3_main_arg11 (V0 : Valuation τ sig (Elt F)) : val3 V0 (no_index (Proc.devRef .tc main_arg11)) = V0 (Proc.devRef .tc main_arg11) :=
  (val3_keep V0 main_arg11 (by decide)).trans (val2_main_arg11 V0)
theorem val3_main_arg12 (V0 : Valuation τ sig (Elt F)) : val3 V0 (no_index (Proc.devRef .tc main_arg12)) = V0 (Proc.devRef .tc main_arg12) :=
  (val3_keep V0 main_arg12 (by decide)).trans (val2_main_arg12 V0)
theorem val3_main_v1 (V0 : Valuation τ sig (Elt F)) : val3 V0 (no_index (Proc.devRef .tc main_v1)) = res_main_v1 V0 :=
  (val3_keep V0 main_v1 (by decide)).trans (val2_main_v1 V0)
set_option maxRecDepth 8192 in
set_option maxHeartbeats 8000000 in
/-- `main_v30` after chunk 2 alone, over any contents `W` before it. -/
theorem rd_main_v30 (W : Valuation τ sig (Elt F)) : after ops_c2 W (Proc.devRef .tc main_v30) = shapeCast _ (Host.divf (broadcastInDim S32x65536 ![] bcast_S_S32x65536 (constant S_ .f32 0x3F800000#32)) (addf (broadcastInDim S32x65536 ![] bcast_S_S32x65536 (constant S_ .f32 0x3F800000#32)) (Host.exp (Host.negf (shapeCast _ (addf (Host.dotGeneral dot_S16384x195_S195x128_S16384x128_1_0_0_1_n_n none (shapeCast _ (transpose S32x512x65x3 [3, 1, 2, 0] (shapeCast _ (concatenate S3x512x2080 0 [⟨S1x512x2080, (broadcastInDim S1x512x2080 ![1, 2] bcast_S512x2080_S1x512x2080_1_2 (W (Proc.devRef .tc main_v6)))⟩, ⟨S1x512x2080, (broadcastInDim S1x512x2080 ![1, 2] bcast_S512x2080_S1x512x2080_1_2 (W (Proc.devRef .tc main_v7)))⟩, ⟨S1x512x2080, (broadcastInDim S1x512x2080 ![1, 2] bcast_S512x2080_S1x512x2080_1_2 (subf (mulf (broadcastInDim S512x2080 ![] bcast_S_S512x2080 (constant S_ .f32 0x40000000#32)) (Host.dotGeneral dot_S512x512_S512x2080_S512x2080_1_0_0_1_n_n none (W (Proc.devRef .tc main_arg1)) (W (Proc.devRef .tc main_v7)))) (W (Proc.devRef .tc main_v6))))⟩] concatenates_S1x512x2080_S1x512x2080_S1x512x2080_S3x512x2080_d0) shapeCasts_S3x512x2080_S3x512x65x32) transposes_S3x512x65x32_S32x512x65x3_3_1_2_0) shapeCasts_S32x512x65x3_S16384x195) (W (Proc.devRef .tc main_arg3))) (broadcastInDim S16384x128 ![0, 1] bcast_S1x128_S16384x128_0_1 (broadcastInDim S1x128 ![1] bcast_S128_S1x128_1 (W (Proc.devRef .tc main_arg4))))) shapeCasts_S16384x128_S32x65536))))) shapeCasts_S32x65536_S32x512x128 := by
  simp only [ops_c2]
  try after_results_simp
  try dsimp only [Matrix.cons_val]
  try after_results_simp
  try rfl
set_option maxRecDepth 8192 in
set_option maxHeartbeats 8000000 in
theorem val3_main_v30 (V0 : Valuation τ sig (Elt F)) : val3 V0 (no_index (Proc.devRef .tc main_v30)) = res_main_v30 V0 := by
  show after ops_c2 (val2 V0) (Proc.devRef .tc main_v30) = _
  rw [rd_main_v30 (val2 V0)]
  rw [val2_main_v6, val2_main_v7, val2_main_arg1, val2_main_arg3, val2_main_arg4]
  try rfl

/-! ## Chunk 3: operations 35 to 45 -/

abbrev ops_c3 : List (HloOp τ sig (Elt F)) :=
  [ unary main_v30 main_v31 ((extractStridedSlice S32x512x64 ![0, 0, 0] · slices_S32x512x128_S32x512x64_0_0_0) : (⟨S32x512x128, .f32⟩ : BufTy).Contents (Elt F) → (⟨S32x512x64, .f32⟩ : BufTy).Contents (Elt F)),
    unary main_v30 main_v32 ((extractStridedSlice S32x512x64 ![0, 0, 64] · slices_S32x512x128_S32x512x64_0_0_64) : (⟨S32x512x128, .f32⟩ : BufTy).Contents (Elt F) → (⟨S32x512x64, .f32⟩ : BufTy).Contents (Elt F)),
    reshape main_v31 main_v33 rfl shapeCasts_S32x512x64_S32x32768,
    reshape main_v32 main_v34 rfl shapeCasts_S32x512x64_S32x32768,
    binary main_v33 main_v1 main_v35 (mulf : (⟨S32x32768, .f32⟩ : BufTy).Contents (Elt F) → (⟨S32x32768, .f32⟩ : BufTy).Contents (Elt F) → (⟨S32x32768, .f32⟩ : BufTy).Contents (Elt F)),
    reshape main_arg0 main_v36 rfl shapeCasts_S32x512_S32x512x1,
    reshape main_v35 main_v37 rfl shapeCasts_S32x32768_S32x512x64,
    binary main_v36 main_v37 main_v38 ((fun a b => concatenate S32x512x65 2 [⟨S32x512x1, a⟩, ⟨S32x512x64, b⟩] concatenates_S32x512x1_S32x512x64_S32x512x65_d2) : (⟨S32x512x1, .f32⟩ : BufTy).Contents (Elt F) → (⟨S32x512x64, .f32⟩ : BufTy).Contents (Elt F) → (⟨S32x512x65, .f32⟩ : BufTy).Contents (Elt F)),
    unary main_v38 main_v39 ((transpose S512x65x32 [1, 2, 0] · transposes_S32x512x65_S512x65x32_1_2_0) : (⟨S32x512x65, .f32⟩ : BufTy).Contents (Elt F) → (⟨S512x65x32, .f32⟩ : BufTy).Contents (Elt F)),
    reshape main_v39 main_v40 rfl shapeCasts_S512x65x32_S512x2080,
    binary main_arg1 main_v40 main_v41 ((fun l r => Host.dotGeneral dot_S512x512_S512x2080_S512x2080_1_0_0_1_n_n none l r) : (⟨S512x512, .f32⟩ : BufTy).Contents (Elt F) → (⟨S512x2080, .f32⟩ : BufTy).Contents (Elt F) → (⟨S512x2080, .f32⟩ : BufTy).Contents (Elt F)) ]
abbrev ops_c3_W : List (Ref sig .tc) := [main_v31, main_v32, main_v33, main_v34, main_v35, main_v36, main_v37, main_v38, main_v39, main_v40, main_v41]
set_option maxRecDepth 8192 in
theorem ops_c3_writes : (ops_c3 : List (HloOp τ sig (Elt F))).Forall fun op => op.writes ⊆ (ops_c3_W.map (Proc.devRef (τ := τ) .tc)).toFinset := by
  simp only [List.Forall]
  repeat' constructor
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- The contents after chunk 3. -/
def val4 (V0 : Valuation τ sig (Elt F)) : Valuation τ sig (Elt F) := after ops_c3 (val3 V0)
theorem val4_keep (V0 : Valuation τ sig (Elt F)) (r : Ref sig .tc) (h : r ∉ ops_c3_W) :
    val4 V0 (Proc.devRef .tc r) = val3 V0 (Proc.devRef .tc r) :=
  after_of_writes_sub ops_c3 _ ops_c3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_arg8 (V0 : Valuation τ sig (Elt F)) : val4 V0 (no_index (Proc.devRef .tc main_arg8)) = V0 (Proc.devRef .tc main_arg8) :=
  (val4_keep V0 main_arg8 (by decide)).trans (val3_main_arg8 V0)
theorem val4_main_arg9 (V0 : Valuation τ sig (Elt F)) : val4 V0 (no_index (Proc.devRef .tc main_arg9)) = V0 (Proc.devRef .tc main_arg9) :=
  (val4_keep V0 main_arg9 (by decide)).trans (val3_main_arg9 V0)
theorem val4_main_arg10 (V0 : Valuation τ sig (Elt F)) : val4 V0 (no_index (Proc.devRef .tc main_arg10)) = V0 (Proc.devRef .tc main_arg10) :=
  (val4_keep V0 main_arg10 (by decide)).trans (val3_main_arg10 V0)
theorem val4_main_arg11 (V0 : Valuation τ sig (Elt F)) : val4 V0 (no_index (Proc.devRef .tc main_arg11)) = V0 (Proc.devRef .tc main_arg11) :=
  (val4_keep V0 main_arg11 (by decide)).trans (val3_main_arg11 V0)
theorem val4_main_arg12 (V0 : Valuation τ sig (Elt F)) : val4 V0 (no_index (Proc.devRef .tc main_arg12)) = V0 (Proc.devRef .tc main_arg12) :=
  (val4_keep V0 main_arg12 (by decide)).trans (val3_main_arg12 V0)
theorem val4_main_v1 (V0 : Valuation τ sig (Elt F)) : val4 V0 (no_index (Proc.devRef .tc main_v1)) = res_main_v1 V0 :=
  (val4_keep V0 main_v1 (by decide)).trans (val3_main_v1 V0)
set_option maxRecDepth 8192 in
set_option maxHeartbeats 8000000 in
/-- `main_v34` after chunk 3 alone, over any contents `W` before it. -/
theorem rd_main_v34 (W : Valuation τ sig (Elt F)) : after ops_c3 W (Proc.devRef .tc main_v34) = shapeCast _ (extractStridedSlice S32x512x64 ![0, 0, 64] (W (Proc.devRef .tc main_v30)) slices_S32x512x128_S32x512x64_0_0_64) shapeCasts_S32x512x64_S32x32768 := by
  simp only [ops_c3]
  try after_results_simp
  try dsimp only [Matrix.cons_val]
  try after_results_simp
  try rfl
set_option maxRecDepth 8192 in
set_option maxHeartbeats 8000000 in
theorem val4_main_v34 (V0 : Valuation τ sig (Elt F)) : val4 V0 (no_index (Proc.devRef .tc main_v34)) = res_main_v34 V0 := by
  show after ops_c3 (val3 V0) (Proc.devRef .tc main_v34) = _
  rw [rd_main_v34 (val3 V0)]
  rw [val3_main_v30]
  try rfl
set_option maxRecDepth 8192 in
set_option maxHeartbeats 8000000 in
/-- `main_v40` after chunk 3 alone, over any contents `W` before it. -/
theorem rd_main_v40 (W : Valuation τ sig (Elt F)) : after ops_c3 W (Proc.devRef .tc main_v40) = shapeCast _ (transpose S512x65x32 [1, 2, 0] (concatenate S32x512x65 2 [⟨S32x512x1, (shapeCast _ (W (Proc.devRef .tc main_arg0)) shapeCasts_S32x512_S32x512x1)⟩, ⟨S32x512x64, (shapeCast _ (mulf (shapeCast _ (extractStridedSlice S32x512x64 ![0, 0, 0] (W (Proc.devRef .tc main_v30)) slices_S32x512x128_S32x512x64_0_0_0) shapeCasts_S32x512x64_S32x32768) (W (Proc.devRef .tc main_v1))) shapeCasts_S32x32768_S32x512x64)⟩] concatenates_S32x512x1_S32x512x64_S32x512x65_d2) transposes_S32x512x65_S512x65x32_1_2_0) shapeCasts_S512x65x32_S512x2080 := by
  simp only [ops_c3]
  try after_results_simp
  try dsimp only [Matrix.cons_val]
  try after_results_simp
  try rfl
set_option maxRecDepth 8192 in
set_option maxHeartbeats 8000000 in
theorem val4_main_v40 (V0 : Valuation τ sig (Elt F)) : val4 V0 (no_index (Proc.devRef .tc main_v40)) = res_main_v40 V0 := by
  show after ops_c3 (val3 V0) (Proc.devRef .tc main_v40) = _
  rw [rd_main_v40 (val3 V0)]
  rw [val3_main_v1, val3_main_v30, val3_main_arg0]
  try rfl
set_option maxRecDepth 8192 in
set_option maxHeartbeats 8000000 in
/-- `main_v41` after chunk 3 alone, over any contents `W` before it. -/
theorem rd_main_v41 (W : Valuation τ sig (Elt F)) : after ops_c3 W (Proc.devRef .tc main_v41) = Host.dotGeneral dot_S512x512_S512x2080_S512x2080_1_0_0_1_n_n none (W (Proc.devRef .tc main_arg1)) (shapeCast _ (transpose S512x65x32 [1, 2, 0] (concatenate S32x512x65 2 [⟨S32x512x1, (shapeCast _ (W (Proc.devRef .tc main_arg0)) shapeCasts_S32x512_S32x512x1)⟩, ⟨S32x512x64, (shapeCast _ (mulf (shapeCast _ (extractStridedSlice S32x512x64 ![0, 0, 0] (W (Proc.devRef .tc main_v30)) slices_S32x512x128_S32x512x64_0_0_0) shapeCasts_S32x512x64_S32x32768) (W (Proc.devRef .tc main_v1))) shapeCasts_S32x32768_S32x512x64)⟩] concatenates_S32x512x1_S32x512x64_S32x512x65_d2) transposes_S32x512x65_S512x65x32_1_2_0) shapeCasts_S512x65x32_S512x2080) := by
  simp only [ops_c3]
  try after_results_simp
  try dsimp only [Matrix.cons_val]
  try after_results_simp
  try rfl
set_option maxRecDepth 8192 in
set_option maxHeartbeats 8000000 in
theorem val4_main_v41 (V0 : Valuation τ sig (Elt F)) : val4 V0 (no_index (Proc.devRef .tc main_v41)) = res_main_v41 V0 := by
  show after ops_c3 (val3 V0) (Proc.devRef .tc main_v41) = _
  rw [rd_main_v41 (val3 V0)]
  rw [val3_main_v1, val3_main_v30, val3_main_arg0, val3_main_arg1]
  try rfl

/-! ## Chunk 4: operations 46 to 69 -/

abbrev ops_c4 : List (HloOp τ sig (Elt F)) :=
  [ binary main_arg1 main_v41 main_v42 ((fun l r => Host.dotGeneral dot_S512x512_S512x2080_S512x2080_1_0_0_1_n_n none l r) : (⟨S512x512, .f32⟩ : BufTy).Contents (Elt F) → (⟨S512x2080, .f32⟩ : BufTy).Contents (Elt F) → (⟨S512x2080, .f32⟩ : BufTy).Contents (Elt F)),
    nullary main_cst_2 (constant S_ .f32 0x40000000#32),
    unary main_cst_2 main_v43 (broadcastInDim S512x2080 ![] bcast_S_S512x2080 : (⟨S_, .f32⟩ : BufTy).Contents (Elt F) → (⟨S512x2080, .f32⟩ : BufTy).Contents (Elt F)),
    binary main_v43 main_v42 main_v44 (mulf : (⟨S512x2080, .f32⟩ : BufTy).Contents (Elt F) → (⟨S512x2080, .f32⟩ : BufTy).Contents (Elt F) → (⟨S512x2080, .f32⟩ : BufTy).Contents (Elt F)),
    binary main_v44 main_v40 main_v45 (subf : (⟨S512x2080, .f32⟩ : BufTy).Contents (Elt F) → (⟨S512x2080, .f32⟩ : BufTy).Contents (Elt F) → (⟨S512x2080, .f32⟩ : BufTy).Contents (Elt F)),
    unary main_v40 main_v46 (broadcastInDim S1x512x2080 ![1, 2] bcast_S512x2080_S1x512x2080_1_2 : (⟨S512x2080, .f32⟩ : BufTy).Contents (Elt F) → (⟨S1x512x2080, .f32⟩ : BufTy).Contents (Elt F)),
    unary main_v41 main_v47 (broadcastInDim S1x512x2080 ![1, 2] bcast_S512x2080_S1x512x2080_1_2 : (⟨S512x2080, .f32⟩ : BufTy).Contents (Elt F) → (⟨S1x512x2080, .f32⟩ : BufTy).Contents (Elt F)),
    unary main_v45 main_v48 (broadcastInDim S1x512x2080 ![1, 2] bcast_S512x2080_S1x512x2080_1_2 : (⟨S512x2080, .f32⟩ : BufTy).Contents (Elt F) → (⟨S1x512x2080, .f32⟩ : BufTy).Contents (Elt F)),
    nary ![main_v46, main_v47, main_v48] main_v49 (fun u => concatenate S3x512x2080 0 [⟨S1x512x2080, u 0⟩, ⟨S1x512x2080, u 1⟩, ⟨S1x512x2080, u 2⟩] concatenates_S1x512x2080_S1x512x2080_S1x512x2080_S3x512x2080_d0),
    reshape main_v49 main_v50 rfl shapeCasts_S3x512x2080_S3x512x65x32,
    unary main_v50 main_v51 ((transpose S32x512x65x3 [3, 1, 2, 0] · transposes_S3x512x65x32_S32x512x65x3_3_1_2_0) : (⟨S3x512x65x32, .f32⟩ : BufTy).Contents (Elt F) → (⟨S32x512x65x3, .f32⟩ : BufTy).Contents (Elt F)),
    reshape main_v51 main_v52 rfl shapeCasts_S32x512x65x3_S16384x195,
    binary main_v52 main_arg5 main_v53 ((fun l r => Host.dotGeneral dot_S16384x195_S195x64_S16384x64_1_0_0_1_n_n none l r) : (⟨S16384x195, .f32⟩ : BufTy).Contents (Elt F) → (⟨S195x64, .f32⟩ : BufTy).Contents (Elt F) → (⟨S16384x64, .f32⟩ : BufTy).Contents (Elt F)),
    unary main_arg6 main_v54 (broadcastInDim S1x64 ![1] bcast_S64_S1x64_1 : (⟨S64, .f32⟩ : BufTy).Contents (Elt F) → (⟨S1x64, .f32⟩ : BufTy).Contents (Elt F)),
    unary main_v54 main_v55 (broadcastInDim S16384x64 ![0, 1] bcast_S1x64_S16384x64_0_1 : (⟨S1x64, .f32⟩ : BufTy).Contents (Elt F) → (⟨S16384x64, .f32⟩ : BufTy).Contents (Elt F)),
    binary main_v53 main_v55 main_v56 (addf : (⟨S16384x64, .f32⟩ : BufTy).Contents (Elt F) → (⟨S16384x64, .f32⟩ : BufTy).Contents (Elt F) → (⟨S16384x64, .f32⟩ : BufTy).Contents (Elt F)),
    reshape main_v56 main_v57 rfl shapeCasts_S16384x64_S32x32768,
    unary main_v57 main_v58 (Host.tanh : (⟨S32x32768, .f32⟩ : BufTy).Contents (Elt F) → (⟨S32x32768, .f32⟩ : BufTy).Contents (Elt F)),
    binary main_v34 main_v1 main_v59 (mulf : (⟨S32x32768, .f32⟩ : BufTy).Contents (Elt F) → (⟨S32x32768, .f32⟩ : BufTy).Contents (Elt F) → (⟨S32x32768, .f32⟩ : BufTy).Contents (Elt F)),
    nullary main_cst_3 (constant S_ .f32 0x3F800000#32),
    unary main_cst_3 main_v60 (broadcastInDim S32x32768 ![] bcast_S_S32x32768 : (⟨S_, .f32⟩ : BufTy).Contents (Elt F) → (⟨S32x32768, .f32⟩ : BufTy).Contents (Elt F)),
    binary main_v60 main_v34 main_v61 (subf : (⟨S32x32768, .f32⟩ : BufTy).Contents (Elt F) → (⟨S32x32768, .f32⟩ : BufTy).Contents (Elt F) → (⟨S32x32768, .f32⟩ : BufTy).Contents (Elt F)),
    binary main_v61 main_v58 main_v62 (mulf : (⟨S32x32768, .f32⟩ : BufTy).Contents (Elt F) → (⟨S32x32768, .f32⟩ : BufTy).Contents (Elt F) → (⟨S32x32768, .f32⟩ : BufTy).Contents (Elt F)),
    binary main_v59 main_v62 main_v63 (addf : (⟨S32x32768, .f32⟩ : BufTy).Contents (Elt F) → (⟨S32x32768, .f32⟩ : BufTy).Contents (Elt F) → (⟨S32x32768, .f32⟩ : BufTy).Contents (Elt F)) ]
abbrev ops_c4_W : List (Ref sig .tc) := [main_v42, main_cst_2, main_v43, main_v44, main_v45, main_v46, main_v47, main_v48, main_v49, main_v50, main_v51, main_v52, main_v53, main_v54, main_v55, main_v56, main_v57, main_v58, main_v59, main_cst_3, main_v60, main_v61, main_v62, main_v63]
set_option maxRecDepth 8192 in
theorem ops_c4_writes : (ops_c4 : List (HloOp τ sig (Elt F))).Forall fun op => op.writes ⊆ (ops_c4_W.map (Proc.devRef (τ := τ) .tc)).toFinset := by
  simp only [List.Forall]
  repeat' constructor
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- The contents after chunk 4. -/
def val5 (V0 : Valuation τ sig (Elt F)) : Valuation τ sig (Elt F) := after ops_c4 (val4 V0)
theorem val5_keep (V0 : Valuation τ sig (Elt F)) (r : Ref sig .tc) (h : r ∉ ops_c4_W) :
    val5 V0 (Proc.devRef .tc r) = val4 V0 (Proc.devRef .tc r) :=
  after_of_writes_sub ops_c4 _ ops_c4_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_arg7 (V0 : Valuation τ sig (Elt F)) : val5 V0 (no_index (Proc.devRef .tc main_arg7)) = V0 (Proc.devRef .tc main_arg7) :=
  (val5_keep V0 main_arg7 (by decide)).trans (val4_main_arg7 V0)
theorem val5_main_arg8 (V0 : Valuation τ sig (Elt F)) : val5 V0 (no_index (Proc.devRef .tc main_arg8)) = V0 (Proc.devRef .tc main_arg8) :=
  (val5_keep V0 main_arg8 (by decide)).trans (val4_main_arg8 V0)
theorem val5_main_arg9 (V0 : Valuation τ sig (Elt F)) : val5 V0 (no_index (Proc.devRef .tc main_arg9)) = V0 (Proc.devRef .tc main_arg9) :=
  (val5_keep V0 main_arg9 (by decide)).trans (val4_main_arg9 V0)
theorem val5_main_arg10 (V0 : Valuation τ sig (Elt F)) : val5 V0 (no_index (Proc.devRef .tc main_arg10)) = V0 (Proc.devRef .tc main_arg10) :=
  (val5_keep V0 main_arg10 (by decide)).trans (val4_main_arg10 V0)
theorem val5_main_arg11 (V0 : Valuation τ sig (Elt F)) : val5 V0 (no_index (Proc.devRef .tc main_arg11)) = V0 (Proc.devRef .tc main_arg11) :=
  (val5_keep V0 main_arg11 (by decide)).trans (val4_main_arg11 V0)
theorem val5_main_arg12 (V0 : Valuation τ sig (Elt F)) : val5 V0 (no_index (Proc.devRef .tc main_arg12)) = V0 (Proc.devRef .tc main_arg12) :=
  (val5_keep V0 main_arg12 (by decide)).trans (val4_main_arg12 V0)
set_option maxRecDepth 8192 in
set_option maxHeartbeats 8000000 in
/-- `main_v63` after chunk 4 alone, over any contents `W` before it. -/
theorem rd_main_v63 (W : Valuation τ sig (Elt F)) : after ops_c4 W (Proc.devRef .tc main_v63) = addf (mulf (W (Proc.devRef .tc main_v34)) (W (Proc.devRef .tc main_v1))) (mulf (subf (broadcastInDim S32x32768 ![] bcast_S_S32x32768 (constant S_ .f32 0x3F800000#32)) (W (Proc.devRef .tc main_v34))) (Host.tanh (shapeCast _ (addf (Host.dotGeneral dot_S16384x195_S195x64_S16384x64_1_0_0_1_n_n none (shapeCast _ (transpose S32x512x65x3 [3, 1, 2, 0] (shapeCast _ (concatenate S3x512x2080 0 [⟨S1x512x2080, (broadcastInDim S1x512x2080 ![1, 2] bcast_S512x2080_S1x512x2080_1_2 (W (Proc.devRef .tc main_v40)))⟩, ⟨S1x512x2080, (broadcastInDim S1x512x2080 ![1, 2] bcast_S512x2080_S1x512x2080_1_2 (W (Proc.devRef .tc main_v41)))⟩, ⟨S1x512x2080, (broadcastInDim S1x512x2080 ![1, 2] bcast_S512x2080_S1x512x2080_1_2 (subf (mulf (broadcastInDim S512x2080 ![] bcast_S_S512x2080 (constant S_ .f32 0x40000000#32)) (Host.dotGeneral dot_S512x512_S512x2080_S512x2080_1_0_0_1_n_n none (W (Proc.devRef .tc main_arg1)) (W (Proc.devRef .tc main_v41)))) (W (Proc.devRef .tc main_v40))))⟩] concatenates_S1x512x2080_S1x512x2080_S1x512x2080_S3x512x2080_d0) shapeCasts_S3x512x2080_S3x512x65x32) transposes_S3x512x65x32_S32x512x65x3_3_1_2_0) shapeCasts_S32x512x65x3_S16384x195) (W (Proc.devRef .tc main_arg5))) (broadcastInDim S16384x64 ![0, 1] bcast_S1x64_S16384x64_0_1 (broadcastInDim S1x64 ![1] bcast_S64_S1x64_1 (W (Proc.devRef .tc main_arg6))))) shapeCasts_S16384x64_S32x32768))) := by
  simp only [ops_c4]
  try after_results_simp
  try dsimp only [Matrix.cons_val]
  try after_results_simp
  try rfl
set_option maxRecDepth 8192 in
set_option maxHeartbeats 8000000 in
theorem val5_main_v63 (V0 : Valuation τ sig (Elt F)) : val5 V0 (no_index (Proc.devRef .tc main_v63)) = res_main_v63 V0 := by
  show after ops_c4 (val4 V0) (Proc.devRef .tc main_v63) = _
  rw [rd_main_v63 (val4 V0)]
  rw [val4_main_v1, val4_main_v34, val4_main_v40, val4_main_v41, val4_main_arg1, val4_main_arg5, val4_main_arg6]
  try rfl

/-! ## Chunk 5: operations 70 to 71 -/

abbrev ops_c5 : List (HloOp τ sig (Elt F)) :=
  [ unary main_arg2 main_v64 ((extractStridedSlice S1x32x32768 ![1, 0, 0] · slices_S2x32x32768_S1x32x32768_1_0_0) : (⟨S2x32x32768, .f32⟩ : BufTy).Contents (Elt F) → (⟨S1x32x32768, .f32⟩ : BufTy).Contents (Elt F)),
    reshape main_v64 main_v65 rfl shapeCasts_S1x32x32768_S32x32768 ]
abbrev ops_c5_W : List (Ref sig .tc) := [main_v64, main_v65]
set_option maxRecDepth 8192 in
theorem ops_c5_writes : (ops_c5 : List (HloOp τ sig (Elt F))).Forall fun op => op.writes ⊆ (ops_c5_W.map (Proc.devRef (τ := τ) .tc)).toFinset := by
  simp only [List.Forall]
  repeat' constructor
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- The contents after chunk 5. -/
def val6 (V0 : Valuation τ sig (Elt F)) : Valuation τ sig (Elt F) := after ops_c5 (val5 V0)
theorem val6_keep (V0 : Valuation τ sig (Elt F)) (r : Ref sig .tc) (h : r ∉ ops_c5_W) :
    val6 V0 (Proc.devRef .tc r) = val5 V0 (Proc.devRef .tc r) :=
  after_of_writes_sub ops_c5 _ ops_c5_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
theorem val6_main_arg7 (V0 : Valuation τ sig (Elt F)) : val6 V0 (no_index (Proc.devRef .tc main_arg7)) = V0 (Proc.devRef .tc main_arg7) :=
  (val6_keep V0 main_arg7 (by decide)).trans (val5_main_arg7 V0)
theorem val6_main_arg8 (V0 : Valuation τ sig (Elt F)) : val6 V0 (no_index (Proc.devRef .tc main_arg8)) = V0 (Proc.devRef .tc main_arg8) :=
  (val6_keep V0 main_arg8 (by decide)).trans (val5_main_arg8 V0)
theorem val6_main_arg9 (V0 : Valuation τ sig (Elt F)) : val6 V0 (no_index (Proc.devRef .tc main_arg9)) = V0 (Proc.devRef .tc main_arg9) :=
  (val6_keep V0 main_arg9 (by decide)).trans (val5_main_arg9 V0)
theorem val6_main_arg10 (V0 : Valuation τ sig (Elt F)) : val6 V0 (no_index (Proc.devRef .tc main_arg10)) = V0 (Proc.devRef .tc main_arg10) :=
  (val6_keep V0 main_arg10 (by decide)).trans (val5_main_arg10 V0)
theorem val6_main_arg11 (V0 : Valuation τ sig (Elt F)) : val6 V0 (no_index (Proc.devRef .tc main_arg11)) = V0 (Proc.devRef .tc main_arg11) :=
  (val6_keep V0 main_arg11 (by decide)).trans (val5_main_arg11 V0)
theorem val6_main_arg12 (V0 : Valuation τ sig (Elt F)) : val6 V0 (no_index (Proc.devRef .tc main_arg12)) = V0 (Proc.devRef .tc main_arg12) :=
  (val6_keep V0 main_arg12 (by decide)).trans (val5_main_arg12 V0)
theorem val6_main_v63 (V0 : Valuation τ sig (Elt F)) : val6 V0 (no_index (Proc.devRef .tc main_v63)) = res_main_v63 V0 :=
  (val6_keep V0 main_v63 (by decide)).trans (val5_main_v63 V0)
set_option maxRecDepth 8192 in
set_option maxHeartbeats 8000000 in
/-- `main_v65` after chunk 5 alone, over any contents `W` before it. -/
theorem rd_main_v65 (W : Valuation τ sig (Elt F)) : after ops_c5 W (Proc.devRef .tc main_v65) = shapeCast _ (extractStridedSlice S1x32x32768 ![1, 0, 0] (W (Proc.devRef .tc main_arg2)) slices_S2x32x32768_S1x32x32768_1_0_0) shapeCasts_S1x32x32768_S32x32768 := by
  simp only [ops_c5]
  try after_results_simp
  try dsimp only [Matrix.cons_val]
  try after_results_simp
  try rfl
set_option maxRecDepth 8192 in
set_option maxHeartbeats 8000000 in
theorem val6_main_v65 (V0 : Valuation τ sig (Elt F)) : val6 V0 (no_index (Proc.devRef .tc main_v65)) = res_main_v65 V0 := by
  show after ops_c5 (val5 V0) (Proc.devRef .tc main_v65) = _
  rw [rd_main_v65 (val5 V0)]
  rw [val5_main_arg2]
  try rfl

/-! ## Chunk 6: operations 72 to 77 -/

abbrev ops_c6 : List (HloOp τ sig (Elt F)) :=
  [ reshape main_v63 main_v66 rfl shapeCasts_S32x32768_S32x512x64,
    reshape main_v65 main_v67 rfl shapeCasts_S32x32768_S32x512x64,
    binary main_v66 main_v67 main_v68 ((fun a b => concatenate S32x512x128 2 [⟨S32x512x64, a⟩, ⟨S32x512x64, b⟩] concatenates_S32x512x64_S32x512x64_S32x512x128_d2) : (⟨S32x512x64, .f32⟩ : BufTy).Contents (Elt F) → (⟨S32x512x64, .f32⟩ : BufTy).Contents (Elt F) → (⟨S32x512x128, .f32⟩ : BufTy).Contents (Elt F)),
    unary main_v68 main_v69 ((transpose S512x128x32 [1, 2, 0] · transposes_S32x512x128_S512x128x32_1_2_0) : (⟨S32x512x128, .f32⟩ : BufTy).Contents (Elt F) → (⟨S512x128x32, .f32⟩ : BufTy).Contents (Elt F)),
    reshape main_v69 main_v70 rfl shapeCasts_S512x128x32_S512x4096,
    binary main_arg1 main_v70 main_v71 ((fun l r => Host.dotGeneral dot_S512x512_S512x4096_S512x4096_1_0_0_1_n_n none l r) : (⟨S512x512, .f32⟩ : BufTy).Contents (Elt F) → (⟨S512x4096, .f32⟩ : BufTy).Contents (Elt F) → (⟨S512x4096, .f32⟩ : BufTy).Contents (Elt F)) ]
abbrev ops_c6_W : List (Ref sig .tc) := [main_v66, main_v67, main_v68, main_v69, main_v70, main_v71]
set_option maxRecDepth 8192 in
theorem ops_c6_writes : (ops_c6 : List (HloOp τ sig (Elt F))).Forall fun op => op.writes ⊆ (ops_c6_W.map (Proc.devRef (τ := τ) .tc)).toFinset := by
  simp only [List.Forall]
  repeat' constructor
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- The contents after chunk 6. -/
def val7 (V0 : Valuation τ sig (Elt F)) : Valuation τ sig (Elt F) := after ops_c6 (val6 V0)
theorem val7_keep (V0 : Valuation τ sig (Elt F)) (r : Ref sig .tc) (h : r ∉ ops_c6_W) :
    val7 V0 (Proc.devRef .tc r) = val6 V0 (Proc.devRef .tc r) :=
  after_of_writes_sub ops_c6 _ ops_c6_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)
theorem val7_main_arg5 (V0 : Valuation τ sig (Elt F)) : val7 V0 (no_index (Proc.devRef .tc main_arg5)) = V0 (Proc.devRef .tc main_arg5) :=
  (val7_keep V0 main_arg5 (by decide)).trans (val6_main_arg5 V0)
theorem val7_main_arg6 (V0 : Valuation τ sig (Elt F)) : val7 V0 (no_index (Proc.devRef .tc main_arg6)) = V0 (Proc.devRef .tc main_arg6) :=
  (val7_keep V0 main_arg6 (by decide)).trans (val6_main_arg6 V0)
theorem val7_main_arg7 (V0 : Valuation τ sig (Elt F)) : val7 V0 (no_index (Proc.devRef .tc main_arg7)) = V0 (Proc.devRef .tc main_arg7) :=
  (val7_keep V0 main_arg7 (by decide)).trans (val6_main_arg7 V0)
theorem val7_main_arg8 (V0 : Valuation τ sig (Elt F)) : val7 V0 (no_index (Proc.devRef .tc main_arg8)) = V0 (Proc.devRef .tc main_arg8) :=
  (val7_keep V0 main_arg8 (by decide)).trans (val6_main_arg8 V0)
theorem val7_main_arg9 (V0 : Valuation τ sig (Elt F)) : val7 V0 (no_index (Proc.devRef .tc main_arg9)) = V0 (Proc.devRef .tc main_arg9) :=
  (val7_keep V0 main_arg9 (by decide)).trans (val6_main_arg9 V0)
theorem val7_main_arg10 (V0 : Valuation τ sig (Elt F)) : val7 V0 (no_index (Proc.devRef .tc main_arg10)) = V0 (Proc.devRef .tc main_arg10) :=
  (val7_keep V0 main_arg10 (by decide)).trans (val6_main_arg10 V0)
theorem val7_main_arg11 (V0 : Valuation τ sig (Elt F)) : val7 V0 (no_index (Proc.devRef .tc main_arg11)) = V0 (Proc.devRef .tc main_arg11) :=
  (val7_keep V0 main_arg11 (by decide)).trans (val6_main_arg11 V0)
theorem val7_main_arg12 (V0 : Valuation τ sig (Elt F)) : val7 V0 (no_index (Proc.devRef .tc main_arg12)) = V0 (Proc.devRef .tc main_arg12) :=
  (val7_keep V0 main_arg12 (by decide)).trans (val6_main_arg12 V0)
theorem val7_main_v63 (V0 : Valuation τ sig (Elt F)) : val7 V0 (no_index (Proc.devRef .tc main_v63)) = res_main_v63 V0 :=
  (val7_keep V0 main_v63 (by decide)).trans (val6_main_v63 V0)
theorem val7_main_v65 (V0 : Valuation τ sig (Elt F)) : val7 V0 (no_index (Proc.devRef .tc main_v65)) = res_main_v65 V0 :=
  (val7_keep V0 main_v65 (by decide)).trans (val6_main_v65 V0)
set_option maxRecDepth 8192 in
set_option maxHeartbeats 8000000 in
/-- `main_v70` after chunk 6 alone, over any contents `W` before it. -/
theorem rd_main_v70 (W : Valuation τ sig (Elt F)) : after ops_c6 W (Proc.devRef .tc main_v70) = shapeCast _ (transpose S512x128x32 [1, 2, 0] (concatenate S32x512x128 2 [⟨S32x512x64, (shapeCast _ (W (Proc.devRef .tc main_v63)) shapeCasts_S32x32768_S32x512x64)⟩, ⟨S32x512x64, (shapeCast _ (W (Proc.devRef .tc main_v65)) shapeCasts_S32x32768_S32x512x64)⟩] concatenates_S32x512x64_S32x512x64_S32x512x128_d2) transposes_S32x512x128_S512x128x32_1_2_0) shapeCasts_S512x128x32_S512x4096 := by
  simp only [ops_c6]
  try after_results_simp
  try dsimp only [Matrix.cons_val]
  try after_results_simp
  try rfl
set_option maxRecDepth 8192 in
set_option maxHeartbeats 8000000 in
theorem val7_main_v70 (V0 : Valuation τ sig (Elt F)) : val7 V0 (no_index (Proc.devRef .tc main_v70)) = res_main_v70 V0 := by
  show after ops_c6 (val6 V0) (Proc.devRef .tc main_v70) = _
  rw [rd_main_v70 (val6 V0)]
  rw [val6_main_v63, val6_main_v65]
  try rfl
set_option maxRecDepth 8192 in
set_option maxHeartbeats 8000000 in
/-- `main_v71` after chunk 6 alone, over any contents `W` before it. -/
theorem rd_main_v71 (W : Valuation τ sig (Elt F)) : after ops_c6 W (Proc.devRef .tc main_v71) = Host.dotGeneral dot_S512x512_S512x4096_S512x4096_1_0_0_1_n_n none (W (Proc.devRef .tc main_arg1)) (shapeCast _ (transpose S512x128x32 [1, 2, 0] (concatenate S32x512x128 2 [⟨S32x512x64, (shapeCast _ (W (Proc.devRef .tc main_v63)) shapeCasts_S32x32768_S32x512x64)⟩, ⟨S32x512x64, (shapeCast _ (W (Proc.devRef .tc main_v65)) shapeCasts_S32x32768_S32x512x64)⟩] concatenates_S32x512x64_S32x512x64_S32x512x128_d2) transposes_S32x512x128_S512x128x32_1_2_0) shapeCasts_S512x128x32_S512x4096) := by
  simp only [ops_c6]
  try after_results_simp
  try dsimp only [Matrix.cons_val]
  try after_results_simp
  try rfl
set_option maxRecDepth 8192 in
set_option maxHeartbeats 8000000 in
theorem val7_main_v71 (V0 : Valuation τ sig (Elt F)) : val7 V0 (no_index (Proc.devRef .tc main_v71)) = res_main_v71 V0 := by
  show after ops_c6 (val6 V0) (Proc.devRef .tc main_v71) = _
  rw [rd_main_v71 (val6 V0)]
  rw [val6_main_v63, val6_main_v65, val6_main_arg1]
  try rfl

/-! ## Chunk 7: operations 78 to 103 -/

abbrev ops_c7 : List (HloOp τ sig (Elt F)) :=
  [ binary main_arg1 main_v71 main_v72 ((fun l r => Host.dotGeneral dot_S512x512_S512x4096_S512x4096_1_0_0_1_n_n none l r) : (⟨S512x512, .f32⟩ : BufTy).Contents (Elt F) → (⟨S512x4096, .f32⟩ : BufTy).Contents (Elt F) → (⟨S512x4096, .f32⟩ : BufTy).Contents (Elt F)),
    nullary main_cst_4 (constant S_ .f32 0x40000000#32),
    unary main_cst_4 main_v73 (broadcastInDim S512x4096 ![] bcast_S_S512x4096 : (⟨S_, .f32⟩ : BufTy).Contents (Elt F) → (⟨S512x4096, .f32⟩ : BufTy).Contents (Elt F)),
    binary main_v73 main_v72 main_v74 (mulf : (⟨S512x4096, .f32⟩ : BufTy).Contents (Elt F) → (⟨S512x4096, .f32⟩ : BufTy).Contents (Elt F) → (⟨S512x4096, .f32⟩ : BufTy).Contents (Elt F)),
    binary main_v74 main_v70 main_v75 (subf : (⟨S512x4096, .f32⟩ : BufTy).Contents (Elt F) → (⟨S512x4096, .f32⟩ : BufTy).Contents (Elt F) → (⟨S512x4096, .f32⟩ : BufTy).Contents (Elt F)),
    unary main_v70 main_v76 (broadcastInDim S1x512x4096 ![1, 2] bcast_S512x4096_S1x512x4096_1_2 : (⟨S512x4096, .f32⟩ : BufTy).Contents (Elt F) → (⟨S1x512x4096, .f32⟩ : BufTy).Contents (Elt F)),
    unary main_v71 main_v77 (broadcastInDim S1x512x4096 ![1, 2] bcast_S512x4096_S1x512x4096_1_2 : (⟨S512x4096, .f32⟩ : BufTy).Contents (Elt F) → (⟨S1x512x4096, .f32⟩ : BufTy).Contents (Elt F)),
    unary main_v75 main_v78 (broadcastInDim S1x512x4096 ![1, 2] bcast_S512x4096_S1x512x4096_1_2 : (⟨S512x4096, .f32⟩ : BufTy).Contents (Elt F) → (⟨S1x512x4096, .f32⟩ : BufTy).Contents (Elt F)),
    nary ![main_v76, main_v77, main_v78] main_v79 (fun u => concatenate S3x512x4096 0 [⟨S1x512x4096, u 0⟩, ⟨S1x512x4096, u 1⟩, ⟨S1x512x4096, u 2⟩] concatenates_S1x512x4096_S1x512x4096_S1x512x4096_S3x512x4096_d0),
    reshape main_v79 main_v80 rfl shapeCasts_S3x512x4096_S3x512x128x32,
    unary main_v80 main_v81 ((transpose S32x512x128x3 [3, 1, 2, 0] · transposes_S3x512x128x32_S32x512x128x3_3_1_2_0) : (⟨S3x512x128x32, .f32⟩ : BufTy).Contents (Elt F) → (⟨S32x512x128x3, .f32⟩ : BufTy).Contents (Elt F)),
    reshape main_v81 main_v82 rfl shapeCasts_S32x512x128x3_S16384x384,
    binary main_v82 main_arg7 main_v83 ((fun l r => Host.dotGeneral dot_S16384x384_S384x128_S16384x128_1_0_0_1_n_n none l r) : (⟨S16384x384, .f32⟩ : BufTy).Contents (Elt F) → (⟨S384x128, .f32⟩ : BufTy).Contents (Elt F) → (⟨S16384x128, .f32⟩ : BufTy).Contents (Elt F)),
    unary main_arg8 main_v84 (broadcastInDim S1x128 ![1] bcast_S128_S1x128_1 : (⟨S128, .f32⟩ : BufTy).Contents (Elt F) → (⟨S1x128, .f32⟩ : BufTy).Contents (Elt F)),
    unary main_v84 main_v85 (broadcastInDim S16384x128 ![0, 1] bcast_S1x128_S16384x128_0_1 : (⟨S1x128, .f32⟩ : BufTy).Contents (Elt F) → (⟨S16384x128, .f32⟩ : BufTy).Contents (Elt F)),
    binary main_v83 main_v85 main_v86 (addf : (⟨S16384x128, .f32⟩ : BufTy).Contents (Elt F) → (⟨S16384x128, .f32⟩ : BufTy).Contents (Elt F) → (⟨S16384x128, .f32⟩ : BufTy).Contents (Elt F)),
    reshape main_v86 main_v87 rfl shapeCasts_S16384x128_S32x65536,
    unary main_v87 main_v88 (Host.negf : (⟨S32x65536, .f32⟩ : BufTy).Contents (Elt F) → (⟨S32x65536, .f32⟩ : BufTy).Contents (Elt F)),
    unary main_v88 main_v89 (Host.exp : (⟨S32x65536, .f32⟩ : BufTy).Contents (Elt F) → (⟨S32x65536, .f32⟩ : BufTy).Contents (Elt F)),
    nullary main_cst_5 (constant S_ .f32 0x3F800000#32),
    unary main_cst_5 main_v90 (broadcastInDim S32x65536 ![] bcast_S_S32x65536 : (⟨S_, .f32⟩ : BufTy).Contents (Elt F) → (⟨S32x65536, .f32⟩ : BufTy).Contents (Elt F)),
    binary main_v90 main_v89 main_v91 (addf : (⟨S32x65536, .f32⟩ : BufTy).Contents (Elt F) → (⟨S32x65536, .f32⟩ : BufTy).Contents (Elt F) → (⟨S32x65536, .f32⟩ : BufTy).Contents (Elt F)),
    nullary main_cst_6 (constant S_ .f32 0x3F800000#32),
    unary main_cst_6 main_v92 (broadcastInDim S32x65536 ![] bcast_S_S32x65536 : (⟨S_, .f32⟩ : BufTy).Contents (Elt F) → (⟨S32x65536, .f32⟩ : BufTy).Contents (Elt F)),
    binary main_v92 main_v91 main_v93 (Host.divf : (⟨S32x65536, .f32⟩ : BufTy).Contents (Elt F) → (⟨S32x65536, .f32⟩ : BufTy).Contents (Elt F) → (⟨S32x65536, .f32⟩ : BufTy).Contents (Elt F)),
    reshape main_v93 main_v94 rfl shapeCasts_S32x65536_S32x512x128 ]
abbrev ops_c7_W : List (Ref sig .tc) := [main_v72, main_cst_4, main_v73, main_v74, main_v75, main_v76, main_v77, main_v78, main_v79, main_v80, main_v81, main_v82, main_v83, main_v84, main_v85, main_v86, main_v87, main_v88, main_v89, main_cst_5, main_v90, main_v91, main_cst_6, main_v92, main_v93, main_v94]
set_option maxRecDepth 8192 in
theorem ops_c7_writes : (ops_c7 : List (HloOp τ sig (Elt F))).Forall fun op => op.writes ⊆ (ops_c7_W.map (Proc.devRef (τ := τ) .tc)).toFinset := by
  simp only [List.Forall]
  repeat' constructor
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- The contents after chunk 7. -/
def val8 (V0 : Valuation τ sig (Elt F)) : Valuation τ sig (Elt F) := after ops_c7 (val7 V0)
theorem val8_keep (V0 : Valuation τ sig (Elt F)) (r : Ref sig .tc) (h : r ∉ ops_c7_W) :
    val8 V0 (Proc.devRef .tc r) = val7 V0 (Proc.devRef .tc r) :=
  after_of_writes_sub ops_c7 _ ops_c7_writes h
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val8_main_arg3 (V0 : Valuation τ sig (Elt F)) : val8 V0 (no_index (Proc.devRef .tc main_arg3)) = V0 (Proc.devRef .tc main_arg3) :=
  (val8_keep V0 main_arg3 (by decide)).trans (val7_main_arg3 V0)
theorem val8_main_arg4 (V0 : Valuation τ sig (Elt F)) : val8 V0 (no_index (Proc.devRef .tc main_arg4)) = V0 (Proc.devRef .tc main_arg4) :=
  (val8_keep V0 main_arg4 (by decide)).trans (val7_main_arg4 V0)
theorem val8_main_arg5 (V0 : Valuation τ sig (Elt F)) : val8 V0 (no_index (Proc.devRef .tc main_arg5)) = V0 (Proc.devRef .tc main_arg5) :=
  (val8_keep V0 main_arg5 (by decide)).trans (val7_main_arg5 V0)
theorem val8_main_arg6 (V0 : Valuation τ sig (Elt F)) : val8 V0 (no_index (Proc.devRef .tc main_arg6)) = V0 (Proc.devRef .tc main_arg6) :=
  (val8_keep V0 main_arg6 (by decide)).trans (val7_main_arg6 V0)
theorem val8_main_arg7 (V0 : Valuation τ sig (Elt F)) : val8 V0 (no_index (Proc.devRef .tc main_arg7)) = V0 (Proc.devRef .tc main_arg7) :=
  (val8_keep V0 main_arg7 (by decide)).trans (val7_main_arg7 V0)
theorem val8_main_arg8 (V0 : Valuation τ sig (Elt F)) : val8 V0 (no_index (Proc.devRef .tc main_arg8)) = V0 (Proc.devRef .tc main_arg8) :=
  (val8_keep V0 main_arg8 (by decide)).trans (val7_main_arg8 V0)
theorem val8_main_arg9 (V0 : Valuation τ sig (Elt F)) : val8 V0 (no_index (Proc.devRef .tc main_arg9)) = V0 (Proc.devRef .tc main_arg9) :=
  (val8_keep V0 main_arg9 (by decide)).trans (val7_main_arg9 V0)
theorem val8_main_arg10 (V0 : Valuation τ sig (Elt F)) : val8 V0 (no_index (Proc.devRef .tc main_arg10)) = V0 (Proc.devRef .tc main_arg10) :=
  (val8_keep V0 main_arg10 (by decide)).trans (val7_main_arg10 V0)
theorem val8_main_arg11 (V0 : Valuation τ sig (Elt F)) : val8 V0 (no_index (Proc.devRef .tc main_arg11)) = V0 (Proc.devRef .tc main_arg11) :=
  (val8_keep V0 main_arg11 (by decide)).trans (val7_main_arg11 V0)
theorem val8_main_arg12 (V0 : Valuation τ sig (Elt F)) : val8 V0 (no_index (Proc.devRef .tc main_arg12)) = V0 (Proc.devRef .tc main_arg12) :=
  (val8_keep V0 main_arg12 (by decide)).trans (val7_main_arg12 V0)
theorem val8_main_v63 (V0 : Valuation τ sig (Elt F)) : val8 V0 (no_index (Proc.devRef .tc main_v63)) = res_main_v63 V0 :=
  (val8_keep V0 main_v63 (by decide)).trans (val7_main_v63 V0)
theorem val8_main_v65 (V0 : Valuation τ sig (Elt F)) : val8 V0 (no_index (Proc.devRef .tc main_v65)) = res_main_v65 V0 :=
  (val8_keep V0 main_v65 (by decide)).trans (val7_main_v65 V0)
set_option maxRecDepth 8192 in
set_option maxHeartbeats 8000000 in
/-- `main_v94` after chunk 7 alone, over any contents `W` before it. -/
theorem rd_main_v94 (W : Valuation τ sig (Elt F)) : after ops_c7 W (Proc.devRef .tc main_v94) = shapeCast _ (Host.divf (broadcastInDim S32x65536 ![] bcast_S_S32x65536 (constant S_ .f32 0x3F800000#32)) (addf (broadcastInDim S32x65536 ![] bcast_S_S32x65536 (constant S_ .f32 0x3F800000#32)) (Host.exp (Host.negf (shapeCast _ (addf (Host.dotGeneral dot_S16384x384_S384x128_S16384x128_1_0_0_1_n_n none (shapeCast _ (transpose S32x512x128x3 [3, 1, 2, 0] (shapeCast _ (concatenate S3x512x4096 0 [⟨S1x512x4096, (broadcastInDim S1x512x4096 ![1, 2] bcast_S512x4096_S1x512x4096_1_2 (W (Proc.devRef .tc main_v70)))⟩, ⟨S1x512x4096, (broadcastInDim S1x512x4096 ![1, 2] bcast_S512x4096_S1x512x4096_1_2 (W (Proc.devRef .tc main_v71)))⟩, ⟨S1x512x4096, (broadcastInDim S1x512x4096 ![1, 2] bcast_S512x4096_S1x512x4096_1_2 (subf (mulf (broadcastInDim S512x4096 ![] bcast_S_S512x4096 (constant S_ .f32 0x40000000#32)) (Host.dotGeneral dot_S512x512_S512x4096_S512x4096_1_0_0_1_n_n none (W (Proc.devRef .tc main_arg1)) (W (Proc.devRef .tc main_v71)))) (W (Proc.devRef .tc main_v70))))⟩] concatenates_S1x512x4096_S1x512x4096_S1x512x4096_S3x512x4096_d0) shapeCasts_S3x512x4096_S3x512x128x32) transposes_S3x512x128x32_S32x512x128x3_3_1_2_0) shapeCasts_S32x512x128x3_S16384x384) (W (Proc.devRef .tc main_arg7))) (broadcastInDim S16384x128 ![0, 1] bcast_S1x128_S16384x128_0_1 (broadcastInDim S1x128 ![1] bcast_S128_S1x128_1 (W (Proc.devRef .tc main_arg8))))) shapeCasts_S16384x128_S32x65536))))) shapeCasts_S32x65536_S32x512x128 := by
  simp only [ops_c7]
  try after_results_simp
  try dsimp only [Matrix.cons_val]
  try after_results_simp
  try rfl
set_option maxRecDepth 8192 in
set_option maxHeartbeats 8000000 in
theorem val8_main_v94 (V0 : Valuation τ sig (Elt F)) : val8 V0 (no_index (Proc.devRef .tc main_v94)) = res_main_v94 V0 := by
  show after ops_c7 (val7 V0) (Proc.devRef .tc main_v94) = _
  rw [rd_main_v94 (val7 V0)]
  rw [val7_main_v70, val7_main_v71, val7_main_arg1, val7_main_arg7, val7_main_arg8]
  try rfl

/-! ## Chunk 8: operations 104 to 114 -/

abbrev ops_c8 : List (HloOp τ sig (Elt F)) :=
  [ unary main_v94 main_v95 ((extractStridedSlice S32x512x64 ![0, 0, 0] · slices_S32x512x128_S32x512x64_0_0_0) : (⟨S32x512x128, .f32⟩ : BufTy).Contents (Elt F) → (⟨S32x512x64, .f32⟩ : BufTy).Contents (Elt F)),
    unary main_v94 main_v96 ((extractStridedSlice S32x512x64 ![0, 0, 64] · slices_S32x512x128_S32x512x64_0_0_64) : (⟨S32x512x128, .f32⟩ : BufTy).Contents (Elt F) → (⟨S32x512x64, .f32⟩ : BufTy).Contents (Elt F)),
    reshape main_v95 main_v97 rfl shapeCasts_S32x512x64_S32x32768,
    reshape main_v96 main_v98 rfl shapeCasts_S32x512x64_S32x32768,
    binary main_v97 main_v65 main_v99 (mulf : (⟨S32x32768, .f32⟩ : BufTy).Contents (Elt F) → (⟨S32x32768, .f32⟩ : BufTy).Contents (Elt F) → (⟨S32x32768, .f32⟩ : BufTy).Contents (Elt F)),
    reshape main_v63 main_v100 rfl shapeCasts_S32x32768_S32x512x64,
    reshape main_v99 main_v101 rfl shapeCasts_S32x32768_S32x512x64,
    binary main_v100 main_v101 main_v102 ((fun a b => concatenate S32x512x128 2 [⟨S32x512x64, a⟩, ⟨S32x512x64, b⟩] concatenates_S32x512x64_S32x512x64_S32x512x128_d2) : (⟨S32x512x64, .f32⟩ : BufTy).Contents (Elt F) → (⟨S32x512x64, .f32⟩ : BufTy).Contents (Elt F) → (⟨S32x512x128, .f32⟩ : BufTy).Contents (Elt F)),
    unary main_v102 main_v103 ((transpose S512x128x32 [1, 2, 0] · transposes_S32x512x128_S512x128x32_1_2_0) : (⟨S32x512x128, .f32⟩ : BufTy).Contents (Elt F) → (⟨S512x128x32, .f32⟩ : BufTy).Contents (Elt F)),
    reshape main_v103 main_v104 rfl shapeCasts_S512x128x32_S512x4096,
    binary main_arg1 main_v104 main_v105 ((fun l r => Host.dotGeneral dot_S512x512_S512x4096_S512x4096_1_0_0_1_n_n none l r) : (⟨S512x512, .f32⟩ : BufTy).Contents (Elt F) → (⟨S512x4096, .f32⟩ : BufTy).Contents (Elt F) → (⟨S512x4096, .f32⟩ : BufTy).Contents (Elt F)) ]
abbrev ops_c8_W : List (Ref sig .tc) := [main_v95, main_v96, main_v97, main_v98, main_v99, main_v100, main_v101, main_v102, main_v103, main_v104, main_v105]
set_option maxRecDepth 8192 in
theorem ops_c8_writes : (ops_c8 : List (HloOp τ sig (Elt F))).Forall fun op => op.writes ⊆ (ops_c8_W.map (Proc.devRef (τ := τ) .tc)).toFinset := by
  simp only [List.Forall]
  repeat' constructor
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- The contents after chunk 8. -/
def val9 (V0 : Valuation τ sig (Elt F)) : Valuation τ sig (Elt F) := after ops_c8 (val8 V0)
theorem val9_keep (V0 : Valuation τ sig (Elt F)) (r : Ref sig .tc) (h : r ∉ ops_c8_W) :
    val9 V0 (Proc.devRef .tc r) = val8 V0 (Proc.devRef .tc r) :=
  after_of_writes_sub ops_c8 _ ops_c8_writes h
theorem val9_main_arg0 (V0 : Valuation τ sig (Elt F)) : val9 V0 (no_index (Proc.devRef .tc main_arg0)) = V0 (Proc.devRef .tc main_arg0) :=
  (val9_keep V0 main_arg0 (by decide)).trans (val8_main_arg0 V0)
theorem val9_main_arg1 (V0 : Valuation τ sig (Elt F)) : val9 V0 (no_index (Proc.devRef .tc main_arg1)) = V0 (Proc.devRef .tc main_arg1) :=
  (val9_keep V0 main_arg1 (by decide)).trans (val8_main_arg1 V0)
theorem val9_main_arg2 (V0 : Valuation τ sig (Elt F)) : val9 V0 (no_index (Proc.devRef .tc main_arg2)) = V0 (Proc.devRef .tc main_arg2) :=
  (val9_keep V0 main_arg2 (by decide)).trans (val8_main_arg2 V0)
theorem val9_main_arg3 (V0 : Valuation τ sig (Elt F)) : val9 V0 (no_index (Proc.devRef .tc main_arg3)) = V0 (Proc.devRef .tc main_arg3) :=
  (val9_keep V0 main_arg3 (by decide)).trans (val8_main_arg3 V0)
theorem val9_main_arg4 (V0 : Valuation τ sig (Elt F)) : val9 V0 (no_index (Proc.devRef .tc main_arg4)) = V0 (Proc.devRef .tc main_arg4) :=
  (val9_keep V0 main_arg4 (by decide)).trans (val8_main_arg4 V0)
theorem val9_main_arg5 (V0 : Valuation τ sig (Elt F)) : val9 V0 (no_index (Proc.devRef .tc main_arg5)) = V0 (Proc.devRef .tc main_arg5) :=
  (val9_keep V0 main_arg5 (by decide)).trans (val8_main_arg5 V0)
theorem val9_main_arg6 (V0 : Valuation τ sig (Elt F)) : val9 V0 (no_index (Proc.devRef .tc main_arg6)) = V0 (Proc.devRef .tc main_arg6) :=
  (val9_keep V0 main_arg6 (by decide)).trans (val8_main_arg6 V0)
theorem val9_main_arg7 (V0 : Valuation τ sig (Elt F)) : val9 V0 (no_index (Proc.devRef .tc main_arg7)) = V0 (Proc.devRef .tc main_arg7) :=
  (val9_keep V0 main_arg7 (by decide)).trans (val8_main_arg7 V0)
theorem val9_main_arg8 (V0 : Valuation τ sig (Elt F)) : val9 V0 (no_index (Proc.devRef .tc main_arg8)) = V0 (Proc.devRef .tc main_arg8) :=
  (val9_keep V0 main_arg8 (by decide)).trans (val8_main_arg8 V0)
theorem val9_main_arg9 (V0 : Valuation τ sig (Elt F)) : val9 V0 (no_index (Proc.devRef .tc main_arg9)) = V0 (Proc.devRef .tc main_arg9) :=
  (val9_keep V0 main_arg9 (by decide)).trans (val8_main_arg9 V0)
theorem val9_main_arg10 (V0 : Valuation τ sig (Elt F)) : val9 V0 (no_index (Proc.devRef .tc main_arg10)) = V0 (Proc.devRef .tc main_arg10) :=
  (val9_keep V0 main_arg10 (by decide)).trans (val8_main_arg10 V0)
theorem val9_main_arg11 (V0 : Valuation τ sig (Elt F)) : val9 V0 (no_index (Proc.devRef .tc main_arg11)) = V0 (Proc.devRef .tc main_arg11) :=
  (val9_keep V0 main_arg11 (by decide)).trans (val8_main_arg11 V0)
theorem val9_main_arg12 (V0 : Valuation τ sig (Elt F)) : val9 V0 (no_index (Proc.devRef .tc main_arg12)) = V0 (Proc.devRef .tc main_arg12) :=
  (val9_keep V0 main_arg12 (by decide)).trans (val8_main_arg12 V0)
theorem val9_main_v63 (V0 : Valuation τ sig (Elt F)) : val9 V0 (no_index (Proc.devRef .tc main_v63)) = res_main_v63 V0 :=
  (val9_keep V0 main_v63 (by decide)).trans (val8_main_v63 V0)
theorem val9_main_v65 (V0 : Valuation τ sig (Elt F)) : val9 V0 (no_index (Proc.devRef .tc main_v65)) = res_main_v65 V0 :=
  (val9_keep V0 main_v65 (by decide)).trans (val8_main_v65 V0)
set_option maxRecDepth 8192 in
set_option maxHeartbeats 8000000 in
/-- `main_v98` after chunk 8 alone, over any contents `W` before it. -/
theorem rd_main_v98 (W : Valuation τ sig (Elt F)) : after ops_c8 W (Proc.devRef .tc main_v98) = shapeCast _ (extractStridedSlice S32x512x64 ![0, 0, 64] (W (Proc.devRef .tc main_v94)) slices_S32x512x128_S32x512x64_0_0_64) shapeCasts_S32x512x64_S32x32768 := by
  simp only [ops_c8]
  try after_results_simp
  try dsimp only [Matrix.cons_val]
  try after_results_simp
  try rfl
set_option maxRecDepth 8192 in
set_option maxHeartbeats 8000000 in
theorem val9_main_v98 (V0 : Valuation τ sig (Elt F)) : val9 V0 (no_index (Proc.devRef .tc main_v98)) = res_main_v98 V0 := by
  show after ops_c8 (val8 V0) (Proc.devRef .tc main_v98) = _
  rw [rd_main_v98 (val8 V0)]
  rw [val8_main_v94]
  try rfl
set_option maxRecDepth 8192 in
set_option maxHeartbeats 8000000 in
/-- `main_v104` after chunk 8 alone, over any contents `W` before it. -/
theorem rd_main_v104 (W : Valuation τ sig (Elt F)) : after ops_c8 W (Proc.devRef .tc main_v104) = shapeCast _ (transpose S512x128x32 [1, 2, 0] (concatenate S32x512x128 2 [⟨S32x512x64, (shapeCast _ (W (Proc.devRef .tc main_v63)) shapeCasts_S32x32768_S32x512x64)⟩, ⟨S32x512x64, (shapeCast _ (mulf (shapeCast _ (extractStridedSlice S32x512x64 ![0, 0, 0] (W (Proc.devRef .tc main_v94)) slices_S32x512x128_S32x512x64_0_0_0) shapeCasts_S32x512x64_S32x32768) (W (Proc.devRef .tc main_v65))) shapeCasts_S32x32768_S32x512x64)⟩] concatenates_S32x512x64_S32x512x64_S32x512x128_d2) transposes_S32x512x128_S512x128x32_1_2_0) shapeCasts_S512x128x32_S512x4096 := by
  simp only [ops_c8]
  try after_results_simp
  try dsimp only [Matrix.cons_val]
  try after_results_simp
  try rfl
set_option maxRecDepth 8192 in
set_option maxHeartbeats 8000000 in
theorem val9_main_v104 (V0 : Valuation τ sig (Elt F)) : val9 V0 (no_index (Proc.devRef .tc main_v104)) = res_main_v104 V0 := by
  show after ops_c8 (val8 V0) (Proc.devRef .tc main_v104) = _
  rw [rd_main_v104 (val8 V0)]
  rw [val8_main_v63, val8_main_v65, val8_main_v94]
  try rfl
set_option maxRecDepth 8192 in
set_option maxHeartbeats 8000000 in
/-- `main_v105` after chunk 8 alone, over any contents `W` before it. -/
theorem rd_main_v105 (W : Valuation τ sig (Elt F)) : after ops_c8 W (Proc.devRef .tc main_v105) = Host.dotGeneral dot_S512x512_S512x4096_S512x4096_1_0_0_1_n_n none (W (Proc.devRef .tc main_arg1)) (shapeCast _ (transpose S512x128x32 [1, 2, 0] (concatenate S32x512x128 2 [⟨S32x512x64, (shapeCast _ (W (Proc.devRef .tc main_v63)) shapeCasts_S32x32768_S32x512x64)⟩, ⟨S32x512x64, (shapeCast _ (mulf (shapeCast _ (extractStridedSlice S32x512x64 ![0, 0, 0] (W (Proc.devRef .tc main_v94)) slices_S32x512x128_S32x512x64_0_0_0) shapeCasts_S32x512x64_S32x32768) (W (Proc.devRef .tc main_v65))) shapeCasts_S32x32768_S32x512x64)⟩] concatenates_S32x512x64_S32x512x64_S32x512x128_d2) transposes_S32x512x128_S512x128x32_1_2_0) shapeCasts_S512x128x32_S512x4096) := by
  simp only [ops_c8]
  try after_results_simp
  try dsimp only [Matrix.cons_val]
  try after_results_simp
  try rfl
set_option maxRecDepth 8192 in
set_option maxHeartbeats 8000000 in
theorem val9_main_v105 (V0 : Valuation τ sig (Elt F)) : val9 V0 (no_index (Proc.devRef .tc main_v105)) = res_main_v105 V0 := by
  show after ops_c8 (val8 V0) (Proc.devRef .tc main_v105) = _
  rw [rd_main_v105 (val8 V0)]
  rw [val8_main_v63, val8_main_v65, val8_main_v94, val8_main_arg1]
  try rfl

/-! ## Chunk 9: operations 115 to 138 -/

abbrev ops_c9 : List (HloOp τ sig (Elt F)) :=
  [ binary main_arg1 main_v105 main_v106 ((fun l r => Host.dotGeneral dot_S512x512_S512x4096_S512x4096_1_0_0_1_n_n none l r) : (⟨S512x512, .f32⟩ : BufTy).Contents (Elt F) → (⟨S512x4096, .f32⟩ : BufTy).Contents (Elt F) → (⟨S512x4096, .f32⟩ : BufTy).Contents (Elt F)),
    nullary main_cst_7 (constant S_ .f32 0x40000000#32),
    unary main_cst_7 main_v107 (broadcastInDim S512x4096 ![] bcast_S_S512x4096 : (⟨S_, .f32⟩ : BufTy).Contents (Elt F) → (⟨S512x4096, .f32⟩ : BufTy).Contents (Elt F)),
    binary main_v107 main_v106 main_v108 (mulf : (⟨S512x4096, .f32⟩ : BufTy).Contents (Elt F) → (⟨S512x4096, .f32⟩ : BufTy).Contents (Elt F) → (⟨S512x4096, .f32⟩ : BufTy).Contents (Elt F)),
    binary main_v108 main_v104 main_v109 (subf : (⟨S512x4096, .f32⟩ : BufTy).Contents (Elt F) → (⟨S512x4096, .f32⟩ : BufTy).Contents (Elt F) → (⟨S512x4096, .f32⟩ : BufTy).Contents (Elt F)),
    unary main_v104 main_v110 (broadcastInDim S1x512x4096 ![1, 2] bcast_S512x4096_S1x512x4096_1_2 : (⟨S512x4096, .f32⟩ : BufTy).Contents (Elt F) → (⟨S1x512x4096, .f32⟩ : BufTy).Contents (Elt F)),
    unary main_v105 main_v111 (broadcastInDim S1x512x4096 ![1, 2] bcast_S512x4096_S1x512x4096_1_2 : (⟨S512x4096, .f32⟩ : BufTy).Contents (Elt F) → (⟨S1x512x4096, .f32⟩ : BufTy).Contents (Elt F)),
    unary main_v109 main_v112 (broadcastInDim S1x512x4096 ![1, 2] bcast_S512x4096_S1x512x4096_1_2 : (⟨S512x4096, .f32⟩ : BufTy).Contents (Elt F) → (⟨S1x512x4096, .f32⟩ : BufTy).Contents (Elt F)),
    nary ![main_v110, main_v111, main_v112] main_v113 (fun u => concatenate S3x512x4096 0 [⟨S1x512x4096, u 0⟩, ⟨S1x512x4096, u 1⟩, ⟨S1x512x4096, u 2⟩] concatenates_S1x512x4096_S1x512x4096_S1x512x4096_S3x512x4096_d0),
    reshape main_v113 main_v114 rfl shapeCasts_S3x512x4096_S3x512x128x32,
    unary main_v114 main_v115 ((transpose S32x512x128x3 [3, 1, 2, 0] · transposes_S3x512x128x32_S32x512x128x3_3_1_2_0) : (⟨S3x512x128x32, .f32⟩ : BufTy).Contents (Elt F) → (⟨S32x512x128x3, .f32⟩ : BufTy).Contents (Elt F)),
    reshape main_v115 main_v116 rfl shapeCasts_S32x512x128x3_S16384x384,
    binary main_v116 main_arg9 main_v117 ((fun l r => Host.dotGeneral dot_S16384x384_S384x64_S16384x64_1_0_0_1_n_n none l r) : (⟨S16384x384, .f32⟩ : BufTy).Contents (Elt F) → (⟨S384x64, .f32⟩ : BufTy).Contents (Elt F) → (⟨S16384x64, .f32⟩ : BufTy).Contents (Elt F)),
    unary main_arg10 main_v118 (broadcastInDim S1x64 ![1] bcast_S64_S1x64_1 : (⟨S64, .f32⟩ : BufTy).Contents (Elt F) → (⟨S1x64, .f32⟩ : BufTy).Contents (Elt F)),
    unary main_v118 main_v119 (broadcastInDim S16384x64 ![0, 1] bcast_S1x64_S16384x64_0_1 : (⟨S1x64, .f32⟩ : BufTy).Contents (Elt F) → (⟨S16384x64, .f32⟩ : BufTy).Contents (Elt F)),
    binary main_v117 main_v119 main_v120 (addf : (⟨S16384x64, .f32⟩ : BufTy).Contents (Elt F) → (⟨S16384x64, .f32⟩ : BufTy).Contents (Elt F) → (⟨S16384x64, .f32⟩ : BufTy).Contents (Elt F)),
    reshape main_v120 main_v121 rfl shapeCasts_S16384x64_S32x32768,
    unary main_v121 main_v122 (Host.tanh : (⟨S32x32768, .f32⟩ : BufTy).Contents (Elt F) → (⟨S32x32768, .f32⟩ : BufTy).Contents (Elt F)),
    binary main_v98 main_v65 main_v123 (mulf : (⟨S32x32768, .f32⟩ : BufTy).Contents (Elt F) → (⟨S32x32768, .f32⟩ : BufTy).Contents (Elt F) → (⟨S32x32768, .f32⟩ : BufTy).Contents (Elt F)),
    nullary main_cst_8 (constant S_ .f32 0x3F800000#32),
    unary main_cst_8 main_v124 (broadcastInDim S32x32768 ![] bcast_S_S32x32768 : (⟨S_, .f32⟩ : BufTy).Contents (Elt F) → (⟨S32x32768, .f32⟩ : BufTy).Contents (Elt F)),
    binary main_v124 main_v98 main_v125 (subf : (⟨S32x32768, .f32⟩ : BufTy).Contents (Elt F) → (⟨S32x32768, .f32⟩ : BufTy).Contents (Elt F) → (⟨S32x32768, .f32⟩ : BufTy).Contents (Elt F)),
    binary main_v125 main_v122 main_v126 (mulf : (⟨S32x32768, .f32⟩ : BufTy).Contents (Elt F) → (⟨S32x32768, .f32⟩ : BufTy).Contents (Elt F) → (⟨S32x32768, .f32⟩ : BufTy).Contents (Elt F)),
    binary main_v123 main_v126 main_v127 (addf : (⟨S32x32768, .f32⟩ : BufTy).Contents (Elt F) → (⟨S32x32768, .f32⟩ : BufTy).Contents (Elt F) → (⟨S32x32768, .f32⟩ : BufTy).Contents (Elt F)) ]
abbrev ops_c9_W : List (Ref sig .tc) := [main_v106, main_cst_7, main_v107, main_v108, main_v109, main_v110, main_v111, main_v112, main_v113, main_v114, main_v115, main_v116, main_v117, main_v118, main_v119, main_v120, main_v121, main_v122, main_v123, main_cst_8, main_v124, main_v125, main_v126, main_v127]
set_option maxRecDepth 8192 in
theorem ops_c9_writes : (ops_c9 : List (HloOp τ sig (Elt F))).Forall fun op => op.writes ⊆ (ops_c9_W.map (Proc.devRef (τ := τ) .tc)).toFinset := by
  simp only [List.Forall]
  repeat' constructor
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- The contents after chunk 9. -/
def val10 (V0 : Valuation τ sig (Elt F)) : Valuation τ sig (Elt F) := after ops_c9 (val9 V0)
theorem val10_keep (V0 : Valuation τ sig (Elt F)) (r : Ref sig .tc) (h : r ∉ ops_c9_W) :
    val10 V0 (Proc.devRef .tc r) = val9 V0 (Proc.devRef .tc r) :=
  after_of_writes_sub ops_c9 _ ops_c9_writes h
theorem val10_main_arg0 (V0 : Valuation τ sig (Elt F)) : val10 V0 (no_index (Proc.devRef .tc main_arg0)) = V0 (Proc.devRef .tc main_arg0) :=
  (val10_keep V0 main_arg0 (by decide)).trans (val9_main_arg0 V0)
theorem val10_main_arg1 (V0 : Valuation τ sig (Elt F)) : val10 V0 (no_index (Proc.devRef .tc main_arg1)) = V0 (Proc.devRef .tc main_arg1) :=
  (val10_keep V0 main_arg1 (by decide)).trans (val9_main_arg1 V0)
theorem val10_main_arg2 (V0 : Valuation τ sig (Elt F)) : val10 V0 (no_index (Proc.devRef .tc main_arg2)) = V0 (Proc.devRef .tc main_arg2) :=
  (val10_keep V0 main_arg2 (by decide)).trans (val9_main_arg2 V0)
theorem val10_main_arg3 (V0 : Valuation τ sig (Elt F)) : val10 V0 (no_index (Proc.devRef .tc main_arg3)) = V0 (Proc.devRef .tc main_arg3) :=
  (val10_keep V0 main_arg3 (by decide)).trans (val9_main_arg3 V0)
theorem val10_main_arg4 (V0 : Valuation τ sig (Elt F)) : val10 V0 (no_index (Proc.devRef .tc main_arg4)) = V0 (Proc.devRef .tc main_arg4) :=
  (val10_keep V0 main_arg4 (by decide)).trans (val9_main_arg4 V0)
theorem val10_main_arg5 (V0 : Valuation τ sig (Elt F)) : val10 V0 (no_index (Proc.devRef .tc main_arg5)) = V0 (Proc.devRef .tc main_arg5) :=
  (val10_keep V0 main_arg5 (by decide)).trans (val9_main_arg5 V0)
theorem val10_main_arg6 (V0 : Valuation τ sig (Elt F)) : val10 V0 (no_index (Proc.devRef .tc main_arg6)) = V0 (Proc.devRef .tc main_arg6) :=
  (val10_keep V0 main_arg6 (by decide)).trans (val9_main_arg6 V0)
theorem val10_main_arg7 (V0 : Valuation τ sig (Elt F)) : val10 V0 (no_index (Proc.devRef .tc main_arg7)) = V0 (Proc.devRef .tc main_arg7) :=
  (val10_keep V0 main_arg7 (by decide)).trans (val9_main_arg7 V0)
theorem val10_main_arg8 (V0 : Valuation τ sig (Elt F)) : val10 V0 (no_index (Proc.devRef .tc main_arg8)) = V0 (Proc.devRef .tc main_arg8) :=
  (val10_keep V0 main_arg8 (by decide)).trans (val9_main_arg8 V0)
theorem val10_main_arg9 (V0 : Valuation τ sig (Elt F)) : val10 V0 (no_index (Proc.devRef .tc main_arg9)) = V0 (Proc.devRef .tc main_arg9) :=
  (val10_keep V0 main_arg9 (by decide)).trans (val9_main_arg9 V0)
theorem val10_main_arg10 (V0 : Valuation τ sig (Elt F)) : val10 V0 (no_index (Proc.devRef .tc main_arg10)) = V0 (Proc.devRef .tc main_arg10) :=
  (val10_keep V0 main_arg10 (by decide)).trans (val9_main_arg10 V0)
theorem val10_main_arg11 (V0 : Valuation τ sig (Elt F)) : val10 V0 (no_index (Proc.devRef .tc main_arg11)) = V0 (Proc.devRef .tc main_arg11) :=
  (val10_keep V0 main_arg11 (by decide)).trans (val9_main_arg11 V0)
theorem val10_main_arg12 (V0 : Valuation τ sig (Elt F)) : val10 V0 (no_index (Proc.devRef .tc main_arg12)) = V0 (Proc.devRef .tc main_arg12) :=
  (val10_keep V0 main_arg12 (by decide)).trans (val9_main_arg12 V0)
theorem val10_main_v63 (V0 : Valuation τ sig (Elt F)) : val10 V0 (no_index (Proc.devRef .tc main_v63)) = res_main_v63 V0 :=
  (val10_keep V0 main_v63 (by decide)).trans (val9_main_v63 V0)
set_option maxRecDepth 8192 in
set_option maxHeartbeats 8000000 in
/-- `main_v127` after chunk 9 alone, over any contents `W` before it. -/
theorem rd_main_v127 (W : Valuation τ sig (Elt F)) : after ops_c9 W (Proc.devRef .tc main_v127) = addf (mulf (W (Proc.devRef .tc main_v98)) (W (Proc.devRef .tc main_v65))) (mulf (subf (broadcastInDim S32x32768 ![] bcast_S_S32x32768 (constant S_ .f32 0x3F800000#32)) (W (Proc.devRef .tc main_v98))) (Host.tanh (shapeCast _ (addf (Host.dotGeneral dot_S16384x384_S384x64_S16384x64_1_0_0_1_n_n none (shapeCast _ (transpose S32x512x128x3 [3, 1, 2, 0] (shapeCast _ (concatenate S3x512x4096 0 [⟨S1x512x4096, (broadcastInDim S1x512x4096 ![1, 2] bcast_S512x4096_S1x512x4096_1_2 (W (Proc.devRef .tc main_v104)))⟩, ⟨S1x512x4096, (broadcastInDim S1x512x4096 ![1, 2] bcast_S512x4096_S1x512x4096_1_2 (W (Proc.devRef .tc main_v105)))⟩, ⟨S1x512x4096, (broadcastInDim S1x512x4096 ![1, 2] bcast_S512x4096_S1x512x4096_1_2 (subf (mulf (broadcastInDim S512x4096 ![] bcast_S_S512x4096 (constant S_ .f32 0x40000000#32)) (Host.dotGeneral dot_S512x512_S512x4096_S512x4096_1_0_0_1_n_n none (W (Proc.devRef .tc main_arg1)) (W (Proc.devRef .tc main_v105)))) (W (Proc.devRef .tc main_v104))))⟩] concatenates_S1x512x4096_S1x512x4096_S1x512x4096_S3x512x4096_d0) shapeCasts_S3x512x4096_S3x512x128x32) transposes_S3x512x128x32_S32x512x128x3_3_1_2_0) shapeCasts_S32x512x128x3_S16384x384) (W (Proc.devRef .tc main_arg9))) (broadcastInDim S16384x64 ![0, 1] bcast_S1x64_S16384x64_0_1 (broadcastInDim S1x64 ![1] bcast_S64_S1x64_1 (W (Proc.devRef .tc main_arg10))))) shapeCasts_S16384x64_S32x32768))) := by
  simp only [ops_c9]
  try after_results_simp
  try dsimp only [Matrix.cons_val]
  try after_results_simp
  try rfl
set_option maxRecDepth 8192 in
set_option maxHeartbeats 8000000 in
theorem val10_main_v127 (V0 : Valuation τ sig (Elt F)) : val10 V0 (no_index (Proc.devRef .tc main_v127)) = res_main_v127 V0 := by
  show after ops_c9 (val9 V0) (Proc.devRef .tc main_v127) = _
  rw [rd_main_v127 (val9 V0)]
  rw [val9_main_v65, val9_main_v98, val9_main_arg1, val9_main_arg9, val9_main_v104, val9_main_v105, val9_main_arg10]
  try rfl

/-! ## Chunk 10: operations 139 to 147 -/

abbrev ops_c10 : List (HloOp τ sig (Elt F)) :=
  [ reshape main_v127 main_v128 rfl shapeCasts_S32x32768_S16384x64,
    binary main_v128 main_arg11 main_v129 ((fun l r => Host.dotGeneral dot_S16384x64_S64x1_S16384x1_1_0_0_1_n_n none l r) : (⟨S16384x64, .f32⟩ : BufTy).Contents (Elt F) → (⟨S64x1, .f32⟩ : BufTy).Contents (Elt F) → (⟨S16384x1, .f32⟩ : BufTy).Contents (Elt F)),
    unary main_arg12 main_v130 (broadcastInDim S1x1 ![1] bcast_S1_S1x1_1 : (⟨S1, .f32⟩ : BufTy).Contents (Elt F) → (⟨S1x1, .f32⟩ : BufTy).Contents (Elt F)),
    unary main_v130 main_v131 (broadcastInDim S16384x1 ![0, 1] bcast_S1x1_S16384x1_0_1 : (⟨S1x1, .f32⟩ : BufTy).Contents (Elt F) → (⟨S16384x1, .f32⟩ : BufTy).Contents (Elt F)),
    binary main_v129 main_v131 main_v132 (addf : (⟨S16384x1, .f32⟩ : BufTy).Contents (Elt F) → (⟨S16384x1, .f32⟩ : BufTy).Contents (Elt F) → (⟨S16384x1, .f32⟩ : BufTy).Contents (Elt F)),
    reshape main_v132 main_v133 rfl shapeCasts_S16384x1_S32x512,
    unary main_v63 main_v134 (broadcastInDim S1x32x32768 ![1, 2] bcast_S32x32768_S1x32x32768_1_2 : (⟨S32x32768, .f32⟩ : BufTy).Contents (Elt F) → (⟨S1x32x32768, .f32⟩ : BufTy).Contents (Elt F)),
    unary main_v127 main_v135 (broadcastInDim S1x32x32768 ![1, 2] bcast_S32x32768_S1x32x32768_1_2 : (⟨S32x32768, .f32⟩ : BufTy).Contents (Elt F) → (⟨S1x32x32768, .f32⟩ : BufTy).Contents (Elt F)),
    binary main_v134 main_v135 main_v136 ((fun a b => concatenate S2x32x32768 0 [⟨S1x32x32768, a⟩, ⟨S1x32x32768, b⟩] concatenates_S1x32x32768_S1x32x32768_S2x32x32768_d0) : (⟨S1x32x32768, .f32⟩ : BufTy).Contents (Elt F) → (⟨S1x32x32768, .f32⟩ : BufTy).Contents (Elt F) → (⟨S2x32x32768, .f32⟩ : BufTy).Contents (Elt F)) ]
abbrev ops_c10_W : List (Ref sig .tc) := [main_v128, main_v129, main_v130, main_v131, main_v132, main_v133, main_v134, main_v135, main_v136]
set_option maxRecDepth 8192 in
theorem ops_c10_writes : (ops_c10 : List (HloOp τ sig (Elt F))).Forall fun op => op.writes ⊆ (ops_c10_W.map (Proc.devRef (τ := τ) .tc)).toFinset := by
  simp only [List.Forall]
  repeat' constructor
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- The contents after chunk 10. -/
def val11 (V0 : Valuation τ sig (Elt F)) : Valuation τ sig (Elt F) := after ops_c10 (val10 V0)
theorem val11_keep (V0 : Valuation τ sig (Elt F)) (r : Ref sig .tc) (h : r ∉ ops_c10_W) :
    val11 V0 (Proc.devRef .tc r) = val10 V0 (Proc.devRef .tc r) :=
  after_of_writes_sub ops_c10 _ ops_c10_writes h
theorem val11_main_arg0 (V0 : Valuation τ sig (Elt F)) : val11 V0 (no_index (Proc.devRef .tc main_arg0)) = V0 (Proc.devRef .tc main_arg0) :=
  (val11_keep V0 main_arg0 (by decide)).trans (val10_main_arg0 V0)
theorem val11_main_arg1 (V0 : Valuation τ sig (Elt F)) : val11 V0 (no_index (Proc.devRef .tc main_arg1)) = V0 (Proc.devRef .tc main_arg1) :=
  (val11_keep V0 main_arg1 (by decide)).trans (val10_main_arg1 V0)
theorem val11_main_arg2 (V0 : Valuation τ sig (Elt F)) : val11 V0 (no_index (Proc.devRef .tc main_arg2)) = V0 (Proc.devRef .tc main_arg2) :=
  (val11_keep V0 main_arg2 (by decide)).trans (val10_main_arg2 V0)
theorem val11_main_arg3 (V0 : Valuation τ sig (Elt F)) : val11 V0 (no_index (Proc.devRef .tc main_arg3)) = V0 (Proc.devRef .tc main_arg3) :=
  (val11_keep V0 main_arg3 (by decide)).trans (val10_main_arg3 V0)
theorem val11_main_arg4 (V0 : Valuation τ sig (Elt F)) : val11 V0 (no_index (Proc.devRef .tc main_arg4)) = V0 (Proc.devRef .tc main_arg4) :=
  (val11_keep V0 main_arg4 (by decide)).trans (val10_main_arg4 V0)
theorem val11_main_arg5 (V0 : Valuation τ sig (Elt F)) : val11 V0 (no_index (Proc.devRef .tc main_arg5)) = V0 (Proc.devRef .tc main_arg5) :=
  (val11_keep V0 main_arg5 (by decide)).trans (val10_main_arg5 V0)
theorem val11_main_arg6 (V0 : Valuation τ sig (Elt F)) : val11 V0 (no_index (Proc.devRef .tc main_arg6)) = V0 (Proc.devRef .tc main_arg6) :=
  (val11_keep V0 main_arg6 (by decide)).trans (val10_main_arg6 V0)
theorem val11_main_arg7 (V0 : Valuation τ sig (Elt F)) : val11 V0 (no_index (Proc.devRef .tc main_arg7)) = V0 (Proc.devRef .tc main_arg7) :=
  (val11_keep V0 main_arg7 (by decide)).trans (val10_main_arg7 V0)
theorem val11_main_arg8 (V0 : Valuation τ sig (Elt F)) : val11 V0 (no_index (Proc.devRef .tc main_arg8)) = V0 (Proc.devRef .tc main_arg8) :=
  (val11_keep V0 main_arg8 (by decide)).trans (val10_main_arg8 V0)
theorem val11_main_arg9 (V0 : Valuation τ sig (Elt F)) : val11 V0 (no_index (Proc.devRef .tc main_arg9)) = V0 (Proc.devRef .tc main_arg9) :=
  (val11_keep V0 main_arg9 (by decide)).trans (val10_main_arg9 V0)
theorem val11_main_arg10 (V0 : Valuation τ sig (Elt F)) : val11 V0 (no_index (Proc.devRef .tc main_arg10)) = V0 (Proc.devRef .tc main_arg10) :=
  (val11_keep V0 main_arg10 (by decide)).trans (val10_main_arg10 V0)
theorem val11_main_arg11 (V0 : Valuation τ sig (Elt F)) : val11 V0 (no_index (Proc.devRef .tc main_arg11)) = V0 (Proc.devRef .tc main_arg11) :=
  (val11_keep V0 main_arg11 (by decide)).trans (val10_main_arg11 V0)
theorem val11_main_arg12 (V0 : Valuation τ sig (Elt F)) : val11 V0 (no_index (Proc.devRef .tc main_arg12)) = V0 (Proc.devRef .tc main_arg12) :=
  (val11_keep V0 main_arg12 (by decide)).trans (val10_main_arg12 V0)
set_option maxRecDepth 8192 in
set_option maxHeartbeats 8000000 in
/-- `main_v133` after chunk 10 alone, over any contents `W` before it. -/
theorem rd_main_v133 (W : Valuation τ sig (Elt F)) : after ops_c10 W (Proc.devRef .tc main_v133) = shapeCast _ (addf (Host.dotGeneral dot_S16384x64_S64x1_S16384x1_1_0_0_1_n_n none (shapeCast _ (W (Proc.devRef .tc main_v127)) shapeCasts_S32x32768_S16384x64) (W (Proc.devRef .tc main_arg11))) (broadcastInDim S16384x1 ![0, 1] bcast_S1x1_S16384x1_0_1 (broadcastInDim S1x1 ![1] bcast_S1_S1x1_1 (W (Proc.devRef .tc main_arg12))))) shapeCasts_S16384x1_S32x512 := by
  simp only [ops_c10]
  try after_results_simp
  try dsimp only [Matrix.cons_val]
  try after_results_simp
  try rfl
set_option maxRecDepth 8192 in
set_option maxHeartbeats 8000000 in
theorem val11_main_v133 (V0 : Valuation τ sig (Elt F)) : val11 V0 (no_index (Proc.devRef .tc main_v133)) = shapeCast _ (addf (Host.dotGeneral dot_S16384x64_S64x1_S16384x1_1_0_0_1_n_n none (shapeCast _ (res_main_v127 V0) shapeCasts_S32x32768_S16384x64) (V0 (Proc.devRef .tc main_arg11))) (broadcastInDim S16384x1 ![0, 1] bcast_S1x1_S16384x1_0_1 (broadcastInDim S1x1 ![1] bcast_S1_S1x1_1 (V0 (Proc.devRef .tc main_arg12))))) shapeCasts_S16384x1_S32x512 := by
  show after ops_c10 (val10 V0) (Proc.devRef .tc main_v133) = _
  rw [rd_main_v133 (val10 V0)]
  rw [val10_main_v127, val10_main_arg11, val10_main_arg12]
  try rfl
set_option maxRecDepth 8192 in
set_option maxHeartbeats 8000000 in
/-- `main_v136` after chunk 10 alone, over any contents `W` before it. -/
theorem rd_main_v136 (W : Valuation τ sig (Elt F)) : after ops_c10 W (Proc.devRef .tc main_v136) = concatenate S2x32x32768 0 [⟨S1x32x32768, (broadcastInDim S1x32x32768 ![1, 2] bcast_S32x32768_S1x32x32768_1_2 (W (Proc.devRef .tc main_v63)))⟩, ⟨S1x32x32768, (broadcastInDim S1x32x32768 ![1, 2] bcast_S32x32768_S1x32x32768_1_2 (W (Proc.devRef .tc main_v127)))⟩] concatenates_S1x32x32768_S1x32x32768_S2x32x32768_d0 := by
  simp only [ops_c10]
  try after_results_simp
  try dsimp only [Matrix.cons_val]
  try after_results_simp
  try rfl
set_option maxRecDepth 8192 in
set_option maxHeartbeats 8000000 in
theorem val11_main_v136 (V0 : Valuation τ sig (Elt F)) : val11 V0 (no_index (Proc.devRef .tc main_v136)) = concatenate S2x32x32768 0 [⟨S1x32x32768, (broadcastInDim S1x32x32768 ![1, 2] bcast_S32x32768_S1x32x32768_1_2 (res_main_v63 V0))⟩, ⟨S1x32x32768, (broadcastInDim S1x32x32768 ![1, 2] bcast_S32x32768_S1x32x32768_1_2 (res_main_v127 V0))⟩] concatenates_S1x32x32768_S1x32x32768_S2x32x32768_d0 := by
  show after ops_c10 (val10 V0) (Proc.devRef .tc main_v136) = _
  rw [rd_main_v136 (val10 V0)]
  rw [val10_main_v63, val10_main_v127]
  try rfl

/-! ## The whole fold -/

set_option maxRecDepth 8192 in
theorem ops_split : (ops : List (HloOp τ sig (Elt F))) = ops_c0 ++ (ops_c1 ++ (ops_c2 ++ (ops_c3 ++ (ops_c4 ++ (ops_c5 ++ (ops_c6 ++ (ops_c7 ++ (ops_c8 ++ (ops_c9 ++ (ops_c10)))))))))) := rfl
/-- The contents after two lists run one after the other. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]
theorem after_ops (V0 : Valuation τ sig (Elt F)) : after ops V0 = val11 V0 := by
  rw [ops_split]; simp only [after_app]; rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., reshape_bufs_sub .., reshape_bufs_sub .., binary_bufs_sub .., unary_bufs_sub .., reshape_bufs_sub .., binary_bufs_sub .., binary_bufs_sub .., nullary_bufs_sub .., unary_bufs_sub .., binary_bufs_sub .., binary_bufs_sub .., unary_bufs_sub .., unary_bufs_sub .., unary_bufs_sub .., nary_bufs_sub .., reshape_bufs_sub .., unary_bufs_sub .., reshape_bufs_sub .., binary_bufs_sub .., unary_bufs_sub .., unary_bufs_sub .., binary_bufs_sub .., reshape_bufs_sub .., unary_bufs_sub .., unary_bufs_sub .., nullary_bufs_sub .., unary_bufs_sub .., binary_bufs_sub .., nullary_bufs_sub .., unary_bufs_sub .., binary_bufs_sub .., reshape_bufs_sub .., unary_bufs_sub .., unary_bufs_sub .., reshape_bufs_sub .., reshape_bufs_sub .., binary_bufs_sub .., reshape_bufs_sub .., reshape_bufs_sub .., binary_bufs_sub .., unary_bufs_sub .., reshape_bufs_sub .., binary_bufs_sub .., binary_bufs_sub .., nullary_bufs_sub .., unary_bufs_sub .., binary_bufs_sub .., binary_bufs_sub .., unary_bufs_sub .., unary_bufs_sub .., unary_bufs_sub .., nary_bufs_sub .., reshape_bufs_sub .., unary_bufs_sub .., reshape_bufs_sub .., binary_bufs_sub .., unary_bufs_sub .., unary_bufs_sub .., binary_bufs_sub .., reshape_bufs_sub .., unary_bufs_sub .., binary_bufs_sub .., nullary_bufs_sub .., unary_bufs_sub .., binary_bufs_sub .., binary_bufs_sub .., binary_bufs_sub .., unary_bufs_sub .., reshape_bufs_sub .., reshape_bufs_sub .., reshape_bufs_sub .., binary_bufs_sub .., unary_bufs_sub .., reshape_bufs_sub .., binary_bufs_sub .., binary_bufs_sub .., nullary_bufs_sub .., unary_bufs_sub .., binary_bufs_sub .., binary_bufs_sub .., unary_bufs_sub .., unary_bufs_sub .., unary_bufs_sub .., nary_bufs_sub .., reshape_bufs_sub .., unary_bufs_sub .., reshape_bufs_sub .., binary_bufs_sub .., unary_bufs_sub .., unary_bufs_sub .., binary_bufs_sub .., reshape_bufs_sub .., unary_bufs_sub .., unary_bufs_sub .., nullary_bufs_sub .., unary_bufs_sub .., binary_bufs_sub .., nullary_bufs_sub .., unary_bufs_sub .., binary_bufs_sub .., reshape_bufs_sub .., unary_bufs_sub .., unary_bufs_sub .., reshape_bufs_sub .., reshape_bufs_sub .., binary_bufs_sub .., reshape_bufs_sub .., reshape_bufs_sub .., binary_bufs_sub .., unary_bufs_sub .., reshape_bufs_sub .., binary_bufs_sub .., binary_bufs_sub .., nullary_bufs_sub .., unary_bufs_sub .., binary_bufs_sub .., binary_bufs_sub .., unary_bufs_sub .., unary_bufs_sub .., unary_bufs_sub .., nary_bufs_sub .., reshape_bufs_sub .., unary_bufs_sub .., reshape_bufs_sub .., binary_bufs_sub .., unary_bufs_sub .., unary_bufs_sub .., binary_bufs_sub .., reshape_bufs_sub .., unary_bufs_sub .., binary_bufs_sub .., nullary_bufs_sub .., unary_bufs_sub .., binary_bufs_sub .., binary_bufs_sub .., binary_bufs_sub .., reshape_bufs_sub .., binary_bufs_sub .., unary_bufs_sub .., unary_bufs_sub .., binary_bufs_sub .., reshape_bufs_sub .., unary_bufs_sub .., unary_bufs_sub .., binary_bufs_sub ..⟩
set_option maxRecDepth 8192 in
theorem ops_fresh : (ops : List (HloOp τ sig (Elt F))).Forall fun op => op.fresh = ∅ := by
  simp only [List.Forall]; repeat' constructor

set_option maxRecDepth 8192 in
/-- On every device, for any float values, from any memory with zero counters: every weakly fair execution of
    @main terminates with each result at its composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v133) = shapeCast _ (addf (Host.dotGeneral dot_S16384x64_S64x1_S16384x1_1_0_0_1_n_n none (shapeCast _ (res_main_v127 (launchContents m c)) shapeCasts_S32x32768_S16384x64) ((launchContents m c) (Proc.devRef .tc main_arg11))) (broadcastInDim S16384x1 ![0, 1] bcast_S1x1_S16384x1_0_1 (broadcastInDim S1x1 ![1] bcast_S1_S1x1_1 ((launchContents m c) (Proc.devRef .tc main_arg12))))) shapeCasts_S16384x1_S32x512
      ∧ r.2.mem ((c.tc : Thread nD τ).loc main_v136) = concatenate S2x32x32768 0 [⟨S1x32x32768, (broadcastInDim S1x32x32768 ![1, 2] bcast_S32x32768_S1x32x32768_1_2 (res_main_v63 (launchContents m c)))⟩, ⟨S1x32x32768, (broadcastInDim S1x32x32768 ![1, 2] bcast_S32x32768_S1x32x32768_1_2 (res_main_v127 (launchContents m c)))⟩] concatenates_S1x32x32768_S1x32x32768_S2x32x32768_d0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v133).trans (by simp only [after_ops]; exact val11_main_v133 (launchContents m c)),
      (h c main_v136).trans (by simp only [after_ops]; exact val11_main_v136 (launchContents m c)),
      (h c main_arg0).trans (by simp only [after_ops]; exact val11_main_arg0 (launchContents m c)),
      (h c main_arg1).trans (by simp only [after_ops]; exact val11_main_arg1 (launchContents m c)),
      (h c main_arg2).trans (by simp only [after_ops]; exact val11_main_arg2 (launchContents m c)),
      (h c main_arg3).trans (by simp only [after_ops]; exact val11_main_arg3 (launchContents m c)),
      (h c main_arg4).trans (by simp only [after_ops]; exact val11_main_arg4 (launchContents m c)),
      (h c main_arg5).trans (by simp only [after_ops]; exact val11_main_arg5 (launchContents m c)),
      (h c main_arg6).trans (by simp only [after_ops]; exact val11_main_arg6 (launchContents m c)),
      (h c main_arg7).trans (by simp only [after_ops]; exact val11_main_arg7 (launchContents m c)),
      (h c main_arg8).trans (by simp only [after_ops]; exact val11_main_arg8 (launchContents m c)),
      (h c main_arg9).trans (by simp only [after_ops]; exact val11_main_arg9 (launchContents m c)),
      (h c main_arg10).trans (by simp only [after_ops]; exact val11_main_arg10 (launchContents m c)),
      (h c main_arg11).trans (by simp only [after_ops]; exact val11_main_arg11 (launchContents m c)),
      (h c main_arg12).trans (by simp only [after_ops]; exact val11_main_arg12 (launchContents m c))⟩)
    (run_seq scopedRefs_eq scopedSems_eq defs main (fun _ => ops) main_eq (fun _ => ops_sub) m ρ
      (hfresh := fun _ op h => List.forall_iff_forall_mem.mp ops_fresh op h))

end Cert.ReferenceIdeal.ValueP

end
-- ==== Proof.lean ====
/-
  The certificate of a two-layer diffusion-convolutional GRU decoder step: a Pallas kernel that walks
  the batch of 32 in four chunks of 8, against its jnp reference over the whole batch, equal as
  functions over the extended reals.

  Why they are equal. Diffusion acts on the node axis only and every gate is per node, so the cell is
  a function of ONE batch row's node signals; Proof/Spec.lean states it that way, and Proof/Whole.lean
  reads the two results off it for every batch row. The reference concatenates input and state
  features, applies the adjacency to the whole feature matrix once and twice, and contracts the
  (feature, tap) axis with the weight; the kernel diffuses input and state separately, shares the
  input's taps between the gate and the candidate, feeds the state's taps through one product with
  the state rows of the weight (re-laid tap-major outside the kernel) and adds the scalar input's
  taps as outer products. These are regroupings of one finite sum over (feature, tap), which the
  extended reals allow without any finiteness. The one law beyond regrouping is that the Chebyshev
  scale 2 may sit inside the adjacency (the kernel doubles the adjacency once) or outside the sum
  (the reference scales the product): a non-negative real factor moves through a sum of extended
  reals (Proof/SpecLaws.lean). The reduced-precision copies the kernel keeps are the identity at the
  ideal instance, and jax's logistic 1 / (1 + exp(−z)) is the ideal logistic.

  How the proof is cut. Kernel side: the body's payloads read index by index (Proof/KLay, KCell0,
  KCand0, KCell1), chained along the body (KSem), one chunk against the whole batch (KChunk), the
  weight blocks the host operations prepare read back as the argument arrays (KHost, Tabs), the
  windows' geometry (KBlk, KBlkW), and the two result arrays after the run (KFinal) over the frame
  run (FrameKI; FrameK for the word-level program). Reference side: its named intermediates read
  index by index (RCell0, RCell1 over RViews), its two results (RFinal), and its run read chunk by chunk
  over the list of its operations (RunPDefs, RRun).
-/
import proofs.«145957_g44504451121623_cont_8to1_c_180_24_alg».proof.Defs
import proofs.«145957_g44504451121623_cont_8to1_c_180_24_alg».proof.Proof.Gen.Kernel
import proofs.«145957_g44504451121623_cont_8to1_c_180_24_alg».proof.Proof.Gen.KernelIdeal
import proofs.«145957_g44504451121623_cont_8to1_c_180_24_alg».proof.Proof.Gen.ReferenceIdeal
import proofs.«145957_g44504451121623_cont_8to1_c_180_24_alg».proof.Proof.Gen.Pre_finite_inputs
import proofs.«145957_g44504451121623_cont_8to1_c_180_24_alg».proof.Proof.FrameK
import proofs.«145957_g44504451121623_cont_8to1_c_180_24_alg».proof.Proof.FrameKI
import proofs.«145957_g44504451121623_cont_8to1_c_180_24_alg».proof.Proof.KFinal
import proofs.«145957_g44504451121623_cont_8to1_c_180_24_alg».proof.Proof.RFinal
import proofs.«145957_g44504451121623_cont_8to1_c_180_24_alg».proof.Proof.RRun

noncomputable section

namespace Cert.Proof

open Idealize.ShloMosaic Idealize.ShloMosaic.StableHlo Idealize.SL.Sem Cert.DcgruSpec

/-- The word-level kernel runs and keeps its arguments. -/
theorem frame_k : Cert.frame_Kernel (hKernel := Cert.Kernel.Gen.facts) (hPre_finite_inputs := Cert.Pre_finite_inputs.Gen.facts) :=
  fun m ρ _ => Cert.Kernel.GenH.frame m ρ

/-- The idealized kernel runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.GenH.frame m ρ

/-- The reference runs and keeps its arguments: its run with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.ValueP.run (F := Ideal) m ρ)

/-- The two places where the ideal pass dropped a narrowing followed by a widening: at the ideal
    instance that pair is the identity, at the word level it is the rounding through bf16. -/
theorem preserves : Cert.preserves_Kernel_KernelIdeal :=
  ⟨IdealRules.truncf_extf.statement Cert.KernelIdeal.S512x8 .f32 .bf16,
   IdealRules.truncf_extf.statement Cert.KernelIdeal.S512x8 .f32 .bf16⟩

/-- The reference's projection result over its launch memory. -/
theorem ref_out (m' : (ℓ : Loc Cert.ReferenceIdeal.nD Cert.ReferenceIdeal.τ Cert.ReferenceIdeal.sig) → Buf (Elt Ideal) ℓ)
    (c : Dev Cert.ReferenceIdeal.nD) :
    Cert.ReferenceIdeal.Sem.resOut (launchContents m' c) = gOut
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12)) :=
  Cert.ReferenceIdeal.Sem.resOut_eq (launchContents m' c)

/-- The reference's hidden-state result over its launch memory. -/
theorem ref_hs (m' : (ℓ : Loc Cert.ReferenceIdeal.nD Cert.ReferenceIdeal.τ Cert.ReferenceIdeal.sig) → Buf (Elt Ideal) ℓ)
    (c : Dev Cert.ReferenceIdeal.nD) :
    Cert.ReferenceIdeal.Sem.resHs (launchContents m' c) = gHs
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10)) :=
  Cert.ReferenceIdeal.Sem.resHs_eq (launchContents m' c)

/-- Both idealized programs, run from memories that agree on the thirteen arguments, end with the
    same two results: the whole-array functions of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Final.outG m c, fun c => Cert.KernelIdeal.Final.hsG m c, ?_, ?_⟩
  · exact (θ_run Cert.KernelIdeal.defs _ _).mono
      (fun r h c => ⟨(h c).1.trans (Cert.KernelIdeal.Final.final15 m c),
        (h c).2.1.trans (Cert.KernelIdeal.Final.final16 m c), (h c).2.2⟩)
      (Cert.KernelIdeal.GenH.run_blocks (F := Ideal) m ρ)
  · refine (θ_run Cert.ReferenceIdeal.defs _ _).mono (fun r h c => ⟨(h c).1.trans ?_, (h c).2.1.trans ?_, (h c).2.2⟩)
      (Cert.ReferenceIdeal.ValueP.run (F := Ideal) m' ρ')
    · obtain ⟨e0, e1, e2, e3, e4, e5, e6, e7, e8, e9, e10, e11, e12⟩ := hagree c
      refine (ref_out m' c).trans ?_
      rw [e0, e1, e2, e3, e4, e5, e6, e7, e8, e9, e10, e11, e12]
    · obtain ⟨e0, e1, e2, e3, e4, e5, e6, e7, e8, e9, e10, e11, e12⟩ := hagree c
      refine (ref_hs m' c).trans ?_
      rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
